-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)) →
    ∃ (v0 : (c : Dev Cert.KernelIdeal.nD) → Buf (Elt Ideal) ((c.tc : Thread Cert.KernelIdeal.nD Cert.KernelIdeal.τ).loc Cert.KernelIdeal.main_v112_0)) (v1 : (c : Dev Cert.KernelIdeal.nD) → Buf (Elt Ideal) ((c.tc : Thread Cert.KernelIdeal.nD Cert.KernelIdeal.τ).loc Cert.KernelIdeal.main_v112_0)) (v2 : (c : Dev Cert.KernelIdeal.nD) → Buf (Elt Ideal) ((c.tc : Thread Cert.KernelIdeal.nD Cert.KernelIdeal.τ).loc Cert.KernelIdeal.main_v112_0)) (v3 : (c : Dev Cert.KernelIdeal.nD) → Buf (Elt Ideal) ((c.tc : Thread Cert.KernelIdeal.nD Cert.KernelIdeal.τ).loc Cert.KernelIdeal.main_v112_1)) (v4 : (c : Dev Cert.KernelIdeal.nD) → Buf (Elt Ideal) ((c.tc : Thread Cert.KernelIdeal.nD Cert.KernelIdeal.τ).loc Cert.KernelIdeal.main_v112_2)) (v5 : (c : Dev Cert.KernelIdeal.nD) → Buf (Elt Ideal) ((c.tc : Thread Cert.KernelIdeal.nD Cert.KernelIdeal.τ).loc Cert.KernelIdeal.main_v112_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112_0) = v0 c
          ∧ r.2.mem ((c.tc : Thread Cert.KernelIdeal.nD Cert.KernelIdeal.τ).loc Cert.KernelIdeal.main_v112_0) = v1 c
          ∧ r.2.mem ((c.tc : Thread Cert.KernelIdeal.nD Cert.KernelIdeal.τ).loc Cert.KernelIdeal.main_v112_0) = v2 c
          ∧ r.2.mem ((c.tc : Thread Cert.KernelIdeal.nD Cert.KernelIdeal.τ).loc Cert.KernelIdeal.main_v112_1) = v3 c
          ∧ r.2.mem ((c.tc : Thread Cert.KernelIdeal.nD Cert.KernelIdeal.τ).loc Cert.KernelIdeal.main_v112_2) = v4 c
          ∧ r.2.mem ((c.tc : Thread Cert.KernelIdeal.nD Cert.KernelIdeal.τ).loc Cert.KernelIdeal.main_v112_3) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_v289) = v1 c
          ∧ r.2.mem ((c.tc : Thread Cert.ReferenceIdeal.nD Cert.ReferenceIdeal.τ).loc Cert.ReferenceIdeal.main_v289) = v2 c
          ∧ r.2.mem ((c.tc : Thread Cert.ReferenceIdeal.nD Cert.ReferenceIdeal.τ).loc Cert.ReferenceIdeal.main_v293) = v3 c
          ∧ r.2.mem ((c.tc : Thread Cert.ReferenceIdeal.nD Cert.ReferenceIdeal.τ).loc Cert.ReferenceIdeal.main_v297) = v4 c
          ∧ r.2.mem ((c.tc : Thread Cert.ReferenceIdeal.nD Cert.ReferenceIdeal.τ).loc Cert.ReferenceIdeal.main_v301) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x12 : Shape := ⟨2, ![30000, 12]⟩
abbrev S30000x10 : Shape := ⟨2, ![30000, 10]⟩
abbrev S50000x11 : Shape := ⟨2, ![50000, 11]⟩
abbrev S64x13 : Shape := ⟨2, ![64, 13]⟩
abbrev S1000x51 : Shape := ⟨2, ![1000, 51]⟩
abbrev S4x4 : Shape := ⟨2, ![4, 4]⟩
abbrev S36x10 : Shape := ⟨2, ![36, 10]⟩
abbrev S86x256 : Shape := ⟨2, ![86, 256]⟩
abbrev S72x256 : Shape := ⟨2, ![72, 256]⟩
abbrev S76x256 : Shape := ⟨2, ![76, 256]⟩
abbrev S256x256 : Shape := ⟨2, ![256, 256]⟩
abbrev S256x64 : Shape := ⟨2, ![256, 64]⟩
abbrev S64 : Shape := ⟨1, ![64]⟩
abbrev S64x64 : Shape := ⟨2, ![64, 64]⟩
abbrev S64x36 : Shape := ⟨2, ![64, 36]⟩
abbrev S36 : Shape := ⟨1, ![36]⟩
abbrev S64x1 : Shape := ⟨2, ![64, 1]⟩
abbrev S1 : Shape := ⟨1, ![1]⟩
abbrev S200000 : Shape := ⟨1, ![200000]⟩
abbrev S400000 : Shape := ⟨1, ![400000]⟩
abbrev S_ : Shape := ⟨0, ![]⟩

class Facts : Prop where
  bcast_S_S30000x12 : S_.BroadcastsInDim S30000x12 (![] : Fin 0 → Fin S30000x12.rank)
  reducesTo_S30000x12_S_d0_1 : S30000x12.ReducesTo [0, 1] S_
  h_S_ : 0 < S_.numel
  bcast_S_S30000x10 : S_.BroadcastsInDim S30000x10 (![] : Fin 0 → Fin S30000x10.rank)
  reducesTo_S30000x10_S_d0_1 : S30000x10.ReducesTo [0, 1] S_
  bcast_S_S50000x11 : S_.BroadcastsInDim S50000x11 (![] : Fin 0 → Fin S50000x11.rank)
  reducesTo_S50000x11_S_d0_1 : S50000x11.ReducesTo [0, 1] S_
  bcast_S_S64x13 : S_.BroadcastsInDim S64x13 (![] : Fin 0 → Fin S64x13.rank)
  reducesTo_S64x13_S_d0_1 : S64x13.ReducesTo [0, 1] S_
  bcast_S_S1000x51 : S_.BroadcastsInDim S1000x51 (![] : Fin 0 → Fin S1000x51.rank)
  reducesTo_S1000x51_S_d0_1 : S1000x51.ReducesTo [0, 1] S_
  bcast_S_S4x4 : S_.BroadcastsInDim S4x4 (![] : Fin 0 → Fin S4x4.rank)
  reducesTo_S4x4_S_d0_1 : S4x4.ReducesTo [0, 1] S_
  bcast_S_S36x10 : S_.BroadcastsInDim S36x10 (![] : Fin 0 → Fin S36x10.rank)
  reducesTo_S36x10_S_d0_1 : S36x10.ReducesTo [0, 1] S_
  bcast_S_S86x256 : S_.BroadcastsInDim S86x256 (![] : Fin 0 → Fin S86x256.rank)
  reducesTo_S86x256_S_d0_1 : S86x256.ReducesTo [0, 1] S_
  bcast_S_S72x256 : S_.BroadcastsInDim S72x256 (![] : Fin 0 → Fin S72x256.rank)
  reducesTo_S72x256_S_d0_1 : S72x256.ReducesTo [0, 1] S_
  bcast_S_S76x256 : S_.BroadcastsInDim S76x256 (![] : Fin 0 → Fin S76x256.rank)
  reducesTo_S76x256_S_d0_1 : S76x256.ReducesTo [0, 1] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x36 : S_.BroadcastsInDim S64x36 (![] : Fin 0 → Fin S64x36.rank)
  reducesTo_S64x36_S_d0_1 : S64x36.ReducesTo [0, 1] S_
  bcast_S_S36 : S_.BroadcastsInDim S36 (![] : Fin 0 → Fin S36.rank)
  reducesTo_S36_S_d0 : S36.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part9 {F : FTy → Type} [FloatOps F] (main_arg31 : FVec F S64x1 .f32) (main_arg32 : FVec F S1 .f32) (main_v153 : IVec S_ 1) : IVec S_ 1 :=
  let main_v154 : FVec F S64x1 .f32 := Host.absf main_arg31
  let main_cst_60 : FVec F S_ .f32 := constant S_ .f32 0x7F800000#32
  let main_v155 : FVec F S64x1 .f32 := broadcastInDim S64x1 ![] bcast_S_S64x1 main_cst_60
  let main_v156 : IVec S64x1 1 := cmpf .olt main_v154 main_v155
  let main_c_61 : IVec S_ 1 := constantI S_ 1 1#1
  let main_v157 : IVec S_ 1 := (fun x v => Host.reduce IntOp.andi x v reducesTo_S64x1_S_d0_1 h_S_) main_v156 main_c_61
  let main_v158 : IVec S_ 1 := andi main_v153 main_v157
  let main_v159 : FVec F S1 .f32 := Host.absf main_arg32
  let main_cst_62 : FVec F S_ .f32 := constant S_ .f32 0x7F800000#32
  let main_v160 : FVec F S1 .f32 := broadcastInDim S1 ![] bcast_S_S1 main_cst_62
  let main_v161 : IVec S1 1 := cmpf .olt main_v159 main_v160
  let main_c_63 : IVec S_ 1 := constantI S_ 1 1#1
  let main_v162 : IVec S_ 1 := (fun x v => Host.reduce IntOp.andi x v reducesTo_S1_S_d0 h_S_) main_v161 main_c_63
  let main_v163 : IVec S_ 1 := andi main_v158 main_v162
  main_v163

def fn_part8 {F : FTy → Type} [FloatOps F] (main_arg28 : FVec F S36 .f32) (main_arg29 : FVec F S64x1 .f32) (main_arg30 : FVec F S1 .f32) (main_arg31 : FVec F S64x1 .f32) (main_arg32 : FVec F S1 .f32) (main_v133 : IVec S_ 1) (main_v136 : IVec S64x36 1) : IVec S_ 1 :=
  let main_c_53 : IVec S_ 1 := constantI S_ 1 1#1
  let main_v137 : IVec S_ 1 := (fun x v => Host.reduce IntOp.andi x v reducesTo_S64x36_S_d0_1 h_S_) main_v136 main_c_53
  let main_v138 : IVec S_ 1 := andi main_v133 main_v137
  let main_v139 : FVec F S36 .f32 := Host.absf main_arg28
  let main_cst_54 : FVec F S_ .f32 := constant S_ .f32 0x7F800000#32
  let main_v140 : FVec F S36 .f32 := broadcastInDim S36 ![] bcast_S_S36 main_cst_54
  let main_v141 : IVec S36 1 := cmpf .olt main_v139 main_v140
  let main_c_55 : IVec S_ 1 := constantI S_ 1 1#1
  let main_v142 : IVec S_ 1 := (fun x v => Host.reduce IntOp.andi x v reducesTo_S36_S_d0 h_S_) main_v141 main_c_55
  let main_v143 : IVec S_ 1 := andi main_v138 main_v142
  let main_v144 : FVec F S64x1 .f32 := Host.absf main_arg29
  let main_cst_56 : FVec F S_ .f32 := constant S_ .f32 0x7F800000#32
  let main_v145 : FVec F S64x1 .f32 := broadcastInDim S64x1 ![] bcast_S_S64x1 main_cst_56
  let main_v146 : IVec S64x1 1 := cmpf .olt main_v144 main_v145
  let main_c_57 : IVec S_ 1 := constantI S_ 1 1#1
  let main_v147 : IVec S_ 1 := (fun x v => Host.reduce IntOp.andi x v reducesTo_S64x1_S_d0_1 h_S_) main_v146 main_c_57
  let main_v148 : IVec S_ 1 := andi main_v143 main_v147
  let main_v149 : FVec F S1 .f32 := Host.absf main_arg30
  let main_cst_58 : FVec F S_ .f32 := constant S_ .f32 0x7F800000#32
  let main_v150 : FVec F S1 .f32 := broadcastInDim S1 ![] bcast_S_S1 main_cst_58
  let main_v151 : IVec S1 1 := cmpf .olt main_v149 main_v150
  let main_c_59 : IVec S_ 1 := constantI S_ 1 1#1
  let main_v152 : IVec S_ 1 := (fun x v => Host.reduce IntOp.andi x v reducesTo_S1_S_d0 h_S_) main_v151 main_c_59
  let main_v153 : IVec S_ 1 := andi main_v148 main_v152
  fn_part9 (F := F) main_arg31 main_arg32 main_v153

def fn_part7 {F : FTy → Type} [FloatOps F] (main_arg25 : FVec F S64x64 .f32) (main_arg26 : FVec F S64 .f32) (main_arg27 : FVec F S64x36 .f32) (main_arg28 : FVec F S36 .f32) (main_arg29 : FVec F S64x1 .f32) (main_arg30 : FVec F S1 .f32) (main_arg31 : FVec F S64x1 .f32) (main_arg32 : FVec F S1 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x64 .f32 := Host.absf main_arg25
  let main_cst_48 : FVec F S_ .f32 := constant S_ .f32 0x7F800000#32
  let main_v125 : FVec F S64x64 .f32 := broadcastInDim S64x64 ![] bcast_S_S64x64 main_cst_48
  let main_v126 : IVec S64x64 1 := cmpf .olt main_v124 main_v125
  let main_c_49 : IVec S_ 1 := constantI S_ 1 1#1
  let main_v127 : IVec S_ 1 := (fun x v => Host.reduce IntOp.andi x v reducesTo_S64x64_S_d0_1 h_S_) main_v126 main_c_49
  let main_v128 : IVec S_ 1 := andi main_v123 main_v127
  let main_v129 : FVec F S64 .f32 := Host.absf main_arg26
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64x36 .f32 := Host.absf main_arg27
  let main_cst_52 : FVec F S_ .f32 := constant S_ .f32 0x7F800000#32
  let main_v135 : FVec F S64x36 .f32 := broadcastInDim S64x36 ![] bcast_S_S64x36 main_cst_52
  let main_v136 : IVec S64x36 1 := cmpf .olt main_v134 main_v135
  fn_part8 (F := F) main_arg28 main_arg29 main_arg30 main_arg31 main_arg32 main_v133 main_v136

def fn_part6 {F : FTy → Type} [FloatOps F] (main_arg21 : FVec F S256x256 .f32) (main_arg22 : FVec F S256x256 .f32) (main_arg23 : FVec F S256x64 .f32) (main_arg24 : FVec F S64 .f32) (main_arg25 : FVec F S64x64 .f32) (main_arg26 : FVec F S64 .f32) (main_arg27 : FVec F S64x36 .f32) (main_arg28 : FVec F S36 .f32) (main_arg29 : FVec F S64x1 .f32) (main_arg30 : FVec F S1 .f32) (main_arg31 : FVec F S64x1 .f32) (main_arg32 : FVec F S1 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256x256 .f32 := Host.absf main_arg21
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256x256 .f32 := Host.absf main_arg22
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  let main_v114 : FVec F S256x64 .f32 := Host.absf main_arg23
  let main_cst_44 : FVec F S_ .f32 := constant S_ .f32 0x7F800000#32
  let main_v115 : FVec F S256x64 .f32 := broadcastInDim S256x64 ![] bcast_S_S256x64 main_cst_44
  let main_v116 : IVec S256x64 1 := cmpf .olt main_v114 main_v115
  let main_c_45 : IVec S_ 1 := constantI S_ 1 1#1
  let main_v117 : IVec S_ 1 := (fun x v => Host.reduce IntOp.andi x v reducesTo_S256x64_S_d0_1 h_S_) main_v116 main_c_45
  let main_v118 : IVec S_ 1 := andi main_v113 main_v117
  let main_v119 : FVec F S64 .f32 := Host.absf main_arg24
  fn_part7 (F := F) main_arg25 main_arg26 main_arg27 main_arg28 main_arg29 main_arg30 main_arg31 main_arg32 main_v118 main_v119

def fn_part5 {F : FTy → Type} [FloatOps F] (main_arg18 : FVec F S256x256 .f32) (main_arg19 : FVec F S256x256 .f32) (main_arg20 : FVec F S256x256 .f32) (main_arg21 : FVec F S256x256 .f32) (main_arg22 : FVec F S256x256 .f32) (main_arg23 : FVec F S256x64 .f32) (main_arg24 : FVec F S64 .f32) (main_arg25 : FVec F S64x64 .f32) (main_arg26 : FVec F S64 .f32) (main_arg27 : FVec F S64x36 .f32) (main_arg28 : FVec F S36 .f32) (main_arg29 : FVec F S64x1 .f32) (main_arg30 : FVec F S1 .f32) (main_arg31 : FVec F S64x1 .f32) (main_arg32 : FVec F S1 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256x256 .f32 := Host.absf main_arg19
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_v98 main_v101 main_c_39

def fn_part4 {F : FTy → Type} [FloatOps F] (main_arg14 : FVec F S76x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) (main_arg23 : FVec F S256x64 .f32) (main_arg24 : FVec F S64 .f32) (main_arg25 : FVec F S64x64 .f32) (main_arg26 : FVec F S64 .f32) (main_arg27 : FVec F S64x36 .f32) (main_arg28 : FVec F S36 .f32) (main_arg29 : FVec F S64x1 .f32) (main_arg30 : FVec F S1 .f32) (main_arg31 : FVec F S64x1 .f32) (main_arg32 : FVec F S1 .f32) (main_v63 : IVec S_ 1) (main_v67 : IVec S_ 1) : IVec S_ 1 :=
  let main_v68 : IVec S_ 1 := andi main_v63 main_v67
  let main_v69 : FVec F S76x256 .f32 := Host.absf main_arg14
  let main_cst_26 : FVec F S_ .f32 := constant S_ .f32 0x7F800000#32
  let main_v70 : FVec F S76x256 .f32 := broadcastInDim S76x256 ![] bcast_S_S76x256 main_cst_26
  let main_v71 : IVec S76x256 1 := cmpf .olt main_v69 main_v70
  let main_c_27 : IVec S_ 1 := constantI S_ 1 1#1
  let main_v72 : IVec S_ 1 := (fun x v => Host.reduce IntOp.andi x v reducesTo_S76x256_S_d0_1 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256x256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_v83 main_v84 main_cst_32

def fn_part3 {F : FTy → Type} [FloatOps F] (main_arg11 : FVec F S86x256 .f32) (main_arg12 : FVec F S76x256 .f32) (main_arg13 : FVec F S76x256 .f32) (main_arg14 : FVec F S76x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) (main_arg23 : FVec F S256x64 .f32) (main_arg24 : FVec F S64 .f32) (main_arg25 : FVec F S64x64 .f32) (main_arg26 : FVec F S64 .f32) (main_arg27 : FVec F S64x36 .f32) (main_arg28 : FVec F S36 .f32) (main_arg29 : FVec F S64x1 .f32) (main_arg30 : FVec F S1 .f32) (main_arg31 : FVec F S64x1 .f32) (main_arg32 : FVec F S1 .f32) (main_v48 : IVec S_ 1) (main_v49 : FVec F S86x256 .f32) (main_v50 : FVec F S86x256 .f32) : IVec S_ 1 :=
  let main_v51 : IVec S86x256 1 := cmpf .olt main_v49 main_v50
  let main_c_19 : IVec S_ 1 := constantI S_ 1 1#1
  let main_v52 : IVec S_ 1 := (fun x v => Host.reduce IntOp.andi x v reducesTo_S86x256_S_d0_1 h_S_) main_v51 main_c_19
  let main_v53 : IVec S_ 1 := andi main_v48 main_v52
  let main_v54 : FVec F S86x256 .f32 := Host.absf main_arg11
  let main_cst_20 : FVec F S_ .f32 := constant S_ .f32 0x7F800000#32
  let main_v55 : FVec F S86x256 .f32 := broadcastInDim S86x256 ![] bcast_S_S86x256 main_cst_20
  let main_v56 : IVec S86x256 1 := cmpf .olt main_v54 main_v55
  let main_c_21 : IVec S_ 1 := constantI S_ 1 1#1
  let main_v57 : IVec S_ 1 := (fun x v => Host.reduce IntOp.andi x v reducesTo_S86x256_S_d0_1 h_S_) main_v56 main_c_21
  let main_v58 : IVec S_ 1 := andi main_v53 main_v57
  let main_v59 : FVec F S76x256 .f32 := Host.absf main_arg12
  let main_cst_22 : FVec F S_ .f32 := constant S_ .f32 0x7F800000#32
  let main_v60 : FVec F S76x256 .f32 := broadcastInDim S76x256 ![] bcast_S_S76x256 main_cst_22
  let main_v61 : IVec S76x256 1 := cmpf .olt main_v59 main_v60
  let main_c_23 : IVec S_ 1 := constantI S_ 1 1#1
  let main_v62 : IVec S_ 1 := (fun x v => Host.reduce IntOp.andi x v reducesTo_S76x256_S_d0_1 h_S_) main_v61 main_c_23
  let main_v63 : IVec S_ 1 := andi main_v58 main_v62
  let main_v64 : FVec F S76x256 .f32 := Host.absf main_arg13
  let main_cst_24 : FVec F S_ .f32 := constant S_ .f32 0x7F800000#32
  let main_v65 : FVec F S76x256 .f32 := broadcastInDim S76x256 ![] bcast_S_S76x256 main_cst_24
  let main_v66 : IVec S76x256 1 := cmpf .olt main_v64 main_v65
  let main_c_25 : IVec S_ 1 := constantI S_ 1 1#1
  let main_v67 : IVec S_ 1 := (fun x v => Host.reduce IntOp.andi x v reducesTo_S76x256_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg7 : FVec F S86x256 .f32) (main_arg8 : FVec F S72x256 .f32) (main_arg9 : FVec F S86x256 .f32) (main_arg10 : FVec F S86x256 .f32) (main_arg11 : FVec F S86x256 .f32) (main_arg12 : FVec F S76x256 .f32) (main_arg13 : FVec F S76x256 .f32) (main_arg14 : FVec F S76x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) (main_arg23 : FVec F S256x64 .f32) (main_arg24 : FVec F S64 .f32) (main_arg25 : FVec F S64x64 .f32) (main_arg26 : FVec F S64 .f32) (main_arg27 : FVec F S64x36 .f32) (main_arg28 : FVec F S36 .f32) (main_arg29 : FVec F S64x1 .f32) (main_arg30 : FVec F S1 .f32) (main_arg31 : FVec F S64x1 .f32) (main_arg32 : FVec F S1 .f32) (main_v33 : IVec S_ 1) : IVec S_ 1 :=
  let main_v34 : FVec F S86x256 .f32 := Host.absf main_arg7
  let main_cst_12 : FVec F S_ .f32 := constant S_ .f32 0x7F800000#32
  let main_v35 : FVec F S86x256 .f32 := broadcastInDim S86x256 ![] bcast_S_S86x256 main_cst_12
  let main_v36 : IVec S86x256 1 := cmpf .olt main_v34 main_v35
  let main_c_13 : IVec S_ 1 := constantI S_ 1 1#1
  let main_v37 : IVec S_ 1 := (fun x v => Host.reduce IntOp.andi x v reducesTo_S86x256_S_d0_1 h_S_) main_v36 main_c_13
  let main_v38 : IVec S_ 1 := andi main_v33 main_v37
  let main_v39 : FVec F S72x256 .f32 := Host.absf main_arg8
  let main_cst_14 : FVec F S_ .f32 := constant S_ .f32 0x7F800000#32
  let main_v40 : FVec F S72x256 .f32 := broadcastInDim S72x256 ![] bcast_S_S72x256 main_cst_14
  let main_v41 : IVec S72x256 1 := cmpf .olt main_v39 main_v40
  let main_c_15 : IVec S_ 1 := constantI S_ 1 1#1
  let main_v42 : IVec S_ 1 := (fun x v => Host.reduce IntOp.andi x v reducesTo_S72x256_S_d0_1 h_S_) main_v41 main_c_15
  let main_v43 : IVec S_ 1 := andi main_v38 main_v42
  let main_v44 : FVec F S86x256 .f32 := Host.absf main_arg9
  let main_cst_16 : FVec F S_ .f32 := constant S_ .f32 0x7F800000#32
  let main_v45 : FVec F S86x256 .f32 := broadcastInDim S86x256 ![] bcast_S_S86x256 main_cst_16
  let main_v46 : IVec S86x256 1 := cmpf .olt main_v44 main_v45
  let main_c_17 : IVec S_ 1 := constantI S_ 1 1#1
  let main_v47 : IVec S_ 1 := (fun x v => Host.reduce IntOp.andi x v reducesTo_S86x256_S_d0_1 h_S_) main_v46 main_c_17
  let main_v48 : IVec S_ 1 := andi main_v43 main_v47
  let main_v49 : FVec F S86x256 .f32 := Host.absf main_arg10
  let main_cst_18 : FVec F S_ .f32 := constant S_ .f32 0x7F800000#32
  let main_v50 : FVec F S86x256 .f32 := broadcastInDim S86x256 ![] bcast_S_S86x256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg4 : FVec F S1000x51 .f32) (main_arg5 : FVec F S4x4 .f32) (main_arg6 : FVec F S36x10 .f32) (main_arg7 : FVec F S86x256 .f32) (main_arg8 : FVec F S72x256 .f32) (main_arg9 : FVec F S86x256 .f32) (main_arg10 : FVec F S86x256 .f32) (main_arg11 : FVec F S86x256 .f32) (main_arg12 : FVec F S76x256 .f32) (main_arg13 : FVec F S76x256 .f32) (main_arg14 : FVec F S76x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) (main_arg23 : FVec F S256x64 .f32) (main_arg24 : FVec F S64 .f32) (main_arg25 : FVec F S64x64 .f32) (main_arg26 : FVec F S64 .f32) (main_arg27 : FVec F S64x36 .f32) (main_arg28 : FVec F S36 .f32) (main_arg29 : FVec F S64x1 .f32) (main_arg30 : FVec F S1 .f32) (main_arg31 : FVec F S64x1 .f32) (main_arg32 : FVec F S1 .f32) (main_v13 : IVec S_ 1) (main_v16 : IVec S64x13 1) : IVec S_ 1 :=
  let main_c_5 : IVec S_ 1 := constantI S_ 1 1#1
  let main_v17 : IVec S_ 1 := (fun x v => Host.reduce IntOp.andi x v reducesTo_S64x13_S_d0_1 h_S_) main_v16 main_c_5
  let main_v18 : IVec S_ 1 := andi main_v13 main_v17
  let main_v19 : FVec F S1000x51 .f32 := Host.absf main_arg4
  let main_cst_6 : FVec F S_ .f32 := constant S_ .f32 0x7F800000#32
  let main_v20 : FVec F S1000x51 .f32 := broadcastInDim S1000x51 ![] bcast_S_S1000x51 main_cst_6
  let main_v21 : IVec S1000x51 1 := cmpf .olt main_v19 main_v20
  let main_c_7 : IVec S_ 1 := constantI S_ 1 1#1
  let main_v22 : IVec S_ 1 := (fun x v => Host.reduce IntOp.andi x v reducesTo_S1000x51_S_d0_1 h_S_) main_v21 main_c_7
  let main_v23 : IVec S_ 1 := andi main_v18 main_v22
  let main_v24 : FVec F S4x4 .f32 := Host.absf main_arg5
  let main_cst_8 : FVec F S_ .f32 := constant S_ .f32 0x7F800000#32
  let main_v25 : FVec F S4x4 .f32 := broadcastInDim S4x4 ![] bcast_S_S4x4 main_cst_8
  let main_v26 : IVec S4x4 1 := cmpf .olt main_v24 main_v25
  let main_c_9 : IVec S_ 1 := constantI S_ 1 1#1
  let main_v27 : IVec S_ 1 := (fun x v => Host.reduce IntOp.andi x v reducesTo_S4x4_S_d0_1 h_S_) main_v26 main_c_9
  let main_v28 : IVec S_ 1 := andi main_v23 main_v27
  let main_v29 : FVec F S36x10 .f32 := Host.absf main_arg6
  let main_cst_10 : FVec F S_ .f32 := constant S_ .f32 0x7F800000#32
  let main_v30 : FVec F S36x10 .f32 := broadcastInDim S36x10 ![] bcast_S_S36x10 main_cst_10
  let main_v31 : IVec S36x10 1 := cmpf .olt main_v29 main_v30
  let main_c_11 : IVec S_ 1 := constantI S_ 1 1#1
  let main_v32 : IVec S_ 1 := (fun x v => Host.reduce IntOp.andi x v reducesTo_S36x10_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : FVec F S30000x12 .f32) (main_arg1 : FVec F S30000x10 .f32) (main_arg2 : FVec F S50000x11 .f32) (main_arg3 : FVec F S64x13 .f32) (main_arg4 : FVec F S1000x51 .f32) (main_arg5 : FVec F S4x4 .f32) (main_arg6 : FVec F S36x10 .f32) (main_arg7 : FVec F S86x256 .f32) (main_arg8 : FVec F S72x256 .f32) (main_arg9 : FVec F S86x256 .f32) (main_arg10 : FVec F S86x256 .f32) (main_arg11 : FVec F S86x256 .f32) (main_arg12 : FVec F S76x256 .f32) (main_arg13 : FVec F S76x256 .f32) (main_arg14 : FVec F S76x256 .f32) (main_arg15 : FVec F S256x256 .f32) (main_arg16 : FVec F S256x256 .f32) (main_arg17 : FVec F S256x256 .f32) (main_arg18 : FVec F S256x256 .f32) (main_arg19 : FVec F S256x256 .f32) (main_arg20 : FVec F S256x256 .f32) (main_arg21 : FVec F S256x256 .f32) (main_arg22 : FVec F S256x256 .f32) (main_arg23 : FVec F S256x64 .f32) (main_arg24 : FVec F S64 .f32) (main_arg25 : FVec F S64x64 .f32) (main_arg26 : FVec F S64 .f32) (main_arg27 : FVec F S64x36 .f32) (main_arg28 : FVec F S36 .f32) (main_arg29 : FVec F S64x1 .f32) (main_arg30 : FVec F S1 .f32) (main_arg31 : FVec F S64x1 .f32) (main_arg32 : FVec F S1 .f32) (main_arg33 : IVec S200000 32) (main_arg34 : IVec S200000 32) (main_arg35 : IVec S200000 32) (main_arg36 : IVec S200000 32) (main_arg37 : IVec S200000 32) (main_arg38 : IVec S200000 32) (main_arg39 : IVec S400000 32) (main_arg40 : IVec S400000 32) : IVec S_ 1 :=
  let main_v0 : FVec F S30000x12 .f32 := Host.absf main_arg0
  let main_cst : FVec F S_ .f32 := constant S_ .f32 0x7F800000#32
  let main_v1 : FVec F S30000x12 .f32 := broadcastInDim S30000x12 ![] bcast_S_S30000x12 main_cst
  let main_v2 : IVec S30000x12 1 := cmpf .olt main_v0 main_v1
  let main_c : IVec S_ 1 := constantI S_ 1 1#1
  let main_v3 : IVec S_ 1 := (fun x v => Host.reduce IntOp.andi x v reducesTo_S30000x12_S_d0_1 h_S_) main_v2 main_c
  let main_v4 : FVec F S30000x10 .f32 := Host.absf main_arg1
  let main_cst_0 : FVec F S_ .f32 := constant S_ .f32 0x7F800000#32
  let main_v5 : FVec F S30000x10 .f32 := broadcastInDim S30000x10 ![] bcast_S_S30000x10 main_cst_0
  let main_v6 : IVec S30000x10 1 := cmpf .olt main_v4 main_v5
  let main_c_1 : IVec S_ 1 := constantI S_ 1 1#1
  let main_v7 : IVec S_ 1 := (fun x v => Host.reduce IntOp.andi x v reducesTo_S30000x10_S_d0_1 h_S_) main_v6 main_c_1
  let main_v8 : IVec S_ 1 := andi main_v3 main_v7
  let main_v9 : FVec F S50000x11 .f32 := Host.absf main_arg2
  let main_cst_2 : FVec F S_ .f32 := constant S_ .f32 0x7F800000#32
  let main_v10 : FVec F S50000x11 .f32 := broadcastInDim S50000x11 ![] bcast_S_S50000x11 main_cst_2
  let main_v11 : IVec S50000x11 1 := cmpf .olt main_v9 main_v10
  let main_c_3 : IVec S_ 1 := constantI S_ 1 1#1
  let main_v12 : IVec S_ 1 := (fun x v => Host.reduce IntOp.andi x v reducesTo_S50000x11_S_d0_1 h_S_) main_v11 main_c_3
  let main_v13 : IVec S_ 1 := andi main_v8 main_v12
  let main_v14 : FVec F S64x13 .f32 := Host.absf main_arg3
  let main_cst_4 : FVec F S_ .f32 := constant S_ .f32 0x7F800000#32
  let main_v15 : FVec F S64x13 .f32 := broadcastInDim S64x13 ![] bcast_S_S64x13 main_cst_4
  let main_v16 : IVec S64x13 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S30000x12 : Shape := ⟨2, ![30000, 12]⟩
abbrev S30000x10 : Shape := ⟨2, ![30000, 10]⟩
abbrev S50000x11 : Shape := ⟨2, ![50000, 11]⟩
abbrev S64x13 : Shape := ⟨2, ![64, 13]⟩
abbrev S1000x51 : Shape := ⟨2, ![1000, 51]⟩
abbrev S4x4 : Shape := ⟨2, ![4, 4]⟩
abbrev S36x10 : Shape := ⟨2, ![36, 10]⟩
abbrev S86x256 : Shape := ⟨2, ![86, 256]⟩
abbrev S72x256 : Shape := ⟨2, ![72, 256]⟩
abbrev S76x256 : Shape := ⟨2, ![76, 256]⟩
abbrev S256x256 : Shape := ⟨2, ![256, 256]⟩
abbrev S256x64 : Shape := ⟨2, ![256, 64]⟩
abbrev S64 : Shape := ⟨1, ![64]⟩
abbrev S64x64 : Shape := ⟨2, ![64, 64]⟩
abbrev S64x36 : Shape := ⟨2, ![64, 36]⟩
abbrev S36 : Shape := ⟨1, ![36]⟩
abbrev S64x1 : Shape := ⟨2, ![64, 1]⟩
abbrev S1 : Shape := ⟨1, ![1]⟩
abbrev S200000 : Shape := ⟨1, ![200000]⟩
abbrev S400000 : Shape := ⟨1, ![400000]⟩
abbrev S30000x1 : Shape := ⟨2, ![30000, 1]⟩
abbrev S30000 : Shape := ⟨1, ![30000]⟩
abbrev S30000x8 : Shape := ⟨2, ![30000, 8]⟩
abbrev S_ : Shape := ⟨0, ![]⟩
abbrev S30000x13 : Shape := ⟨2, ![30000, 13]⟩
abbrev S30000x51 : Shape := ⟨2, ![30000, 51]⟩
abbrev S30000x4 : Shape := ⟨2, ![30000, 4]⟩
abbrev S30000x86 : Shape := ⟨2, ![30000, 86]⟩
abbrev S30000x72 : Shape := ⟨2, ![30000, 72]⟩
abbrev S200000x1 : Shape := ⟨2, ![200000, 1]⟩
abbrev S200000x86 : Shape := ⟨2, ![200000, 86]⟩
abbrev S30000x256 : Shape := ⟨2, ![30000, 256]⟩
abbrev S2000x86 : Shape := ⟨2, ![2000, 86]⟩
abbrev S2000x1 : Shape := ⟨2, ![2000, 1]⟩
abbrev S2000x72 : Shape := ⟨2, ![2000, 72]⟩
abbrev S2000x256 : Shape := ⟨2, ![2000, 256]⟩
abbrev S200000x256 : Shape := ⟨2, ![200000, 256]⟩
abbrev S1x64 : Shape := ⟨2, ![1, 64]⟩
abbrev S1x36 : Shape := ⟨2, ![1, 36]⟩
abbrev S1x1 : Shape := ⟨2, ![1, 1]⟩
abbrev S30000x64 : Shape := ⟨2, ![30000, 64]⟩
abbrev S30000x36 : Shape := ⟨2, ![30000, 36]⟩
abbrev S2000x64 : Shape := ⟨2, ![2000, 64]⟩
abbrev S2000x36 : Shape := ⟨2, ![2000, 36]⟩

abbrev nBuf : Space → Nat
  | .hbm => 182
  | .vmem => 50
  | .smem => 0
  | _ => 0

abbrev hbmTy0_0 (i : Nat) : BufTy := match i % 128 with
  | 0 => ⟨S30000x12, .f32⟩
  | 1 => ⟨S30000x10, .f32⟩
  | 2 => ⟨S50000x11, .f32⟩
  | 3 => ⟨S64x13, .f32⟩
  | 4 => ⟨S1000x51, .f32⟩
  | 5 => ⟨S4x4, .f32⟩
  | 6 => ⟨S36x10, .f32⟩
  | 7 => ⟨S86x256, .f32⟩
  | 8 => ⟨S72x256, .f32⟩
  | 9 => ⟨S86x256, .f32⟩
  | 10 => ⟨S86x256, .f32⟩
  | 11 => ⟨S86x256, .f32⟩
  | 12 => ⟨S76x256, .f32⟩
  | 13 => ⟨S76x256, .f32⟩
  | 14 => ⟨S76x256, .f32⟩
  | 15 => ⟨S256x256, .f32⟩
  | 16 => ⟨S256x256, .f32⟩
  | 17 => ⟨S256x256, .f32⟩
  | 18 => ⟨S256x256, .f32⟩
  | 19 => ⟨S256x256, .f32⟩
  | 20 => ⟨S256x256, .f32⟩
  | 21 => ⟨S256x256, .f32⟩
  | 22 => ⟨S256x256, .f32⟩
  | 23 => ⟨S256x64, .f32⟩
  | 24 => ⟨S64, .f32⟩
  | 25 => ⟨S64x64, .f32⟩
  | 26 => ⟨S64, .f32⟩
  | 27 => ⟨S64x36, .f32⟩
  | 28 => ⟨S36, .f32⟩
  | 29 => ⟨S64x1, .f32⟩
  | 30 => ⟨S1, .f32⟩
  | 31 => ⟨S64x1, .f32⟩
  | 32 => ⟨S1, .f32⟩
  | 33 => ⟨S200000, .i32⟩
  | 34 => ⟨S200000, .i32⟩
  | 35 => ⟨S200000, .i32⟩
  | 36 => ⟨S200000, .i32⟩
  | 37 => ⟨S200000, .i32⟩
  | 38 => ⟨S200000, .i32⟩
  | 39 => ⟨S400000, .i32⟩
  | 40 => ⟨S400000, .i32⟩
  | 41 => ⟨S30000x1, .f32⟩
  | 42 => ⟨S30000, .f32⟩
  | 43 => ⟨S30000, .i32⟩
  | 44 => ⟨S30000x1, .f32⟩
  | 45 => ⟨S30000, .f32⟩
  | 46 => ⟨S30000, .i32⟩
  | 47 => ⟨S30000x1, .f32⟩
  | 48 => ⟨S30000, .f32⟩
  | 49 => ⟨S30000, .i32⟩
  | 50 => ⟨S30000x1, .f32⟩
  | 51 => ⟨S30000, .f32⟩
  | 52 => ⟨S30000, .i32⟩
  | 53 => ⟨S30000x8, .f32⟩
  | 54 => ⟨S30000x1, .f32⟩
  | 55 => ⟨S30000, .f32⟩
  | 56 => ⟨S30000, .i32⟩
  | 57 => ⟨S30000x1, .f32⟩
  | 58 => ⟨S30000, .f32⟩
  | 59 => ⟨S30000, .i32⟩
  | 60 => ⟨S30000x8, .f32⟩
  | 61 => ⟨S_, .i32⟩
  | 62 => ⟨S30000, .i32⟩
  | 63 => ⟨S30000, .i1⟩
  | 64 => ⟨S_, .i32⟩
  | 65 => ⟨S30000, .i32⟩
  | 66 => ⟨S30000, .i32⟩
  | 67 => ⟨S30000, .i32⟩
  | 68 => ⟨S30000x1, .i32⟩
  | 69 => ⟨S30000x13, .f32⟩
  | 70 => ⟨S_, .i32⟩
  | 71 => ⟨S30000, .i32⟩
  | 72 => ⟨S30000, .i1⟩
  | 73 => ⟨S_, .i32⟩
  | 74 => ⟨S30000, .i32⟩
  | 75 => ⟨S30000, .i32⟩
  | 76 => ⟨S30000, .i32⟩
  | 77 => ⟨S30000x1, .i32⟩
  | 78 => ⟨S30000x51, .f32⟩
  | 79 => ⟨S_, .i32⟩
  | 80 => ⟨S30000, .i32⟩
  | 81 => ⟨S30000, .i1⟩
  | 82 => ⟨S_, .i32⟩
  | 83 => ⟨S30000, .i32⟩
  | 84 => ⟨S30000, .i32⟩
  | 85 => ⟨S30000, .i32⟩
  | 86 => ⟨S30000x1, .i32⟩
  | 87 => ⟨S30000x4, .f32⟩
  | 88 => ⟨S_, .i32⟩
  | 89 => ⟨S30000, .i32⟩
  | 90 => ⟨S30000, .i1⟩
  | 91 => ⟨S_, .i32⟩
  | 92 => ⟨S30000, .i32⟩
  | 93 => ⟨S30000, .i32⟩
  | 94 => ⟨S30000, .i32⟩
  | 95 => ⟨S30000x1, .i32⟩
  | 96 => ⟨S30000x10, .f32⟩
  | 97 => ⟨S30000x86, .f32⟩
  | 98 => ⟨S_, .i32⟩
  | 99 => ⟨S30000, .i32⟩
  | 100 => ⟨S30000, .i1⟩
  | 101 => ⟨S_, .i32⟩
  | 102 => ⟨S30000, .i32⟩
  | 103 => ⟨S30000, .i32⟩
  | 104 => ⟨S30000, .i32⟩
  | 105 => ⟨S30000x1, .i32⟩
  | 106 => ⟨S30000x13, .f32⟩
  | 107 => ⟨S_, .i32⟩
  | 108 => ⟨S30000, .i32⟩
  | 109 => ⟨S30000, .i1⟩
  | 110 => ⟨S_, .i32⟩
  | 111 => ⟨S30000, .i32⟩
  | 112 => ⟨S30000, .i32⟩
  | 113 => ⟨S30000, .i32⟩
  | 114 => ⟨S30000x1, .i32⟩
  | 115 => ⟨S30000x51, .f32⟩
  | 116 => ⟨S30000x72, .f32⟩
  | 117 => ⟨S_, .i32⟩
  | 118 => ⟨S200000, .i32⟩
  | 119 => ⟨S200000, .i1⟩
  | 120 => ⟨S_, .i32⟩
  | 121 => ⟨S200000, .i32⟩
  | 122 => ⟨S200000, .i32⟩
  | 123 => ⟨S200000, .i32⟩
  | 124 => ⟨S200000x1, .i32⟩
  | 125 => ⟨S200000x86, .f32⟩
  | 126 => ⟨S_, .f32⟩
  | 127 => ⟨S30000x86, .f32⟩
  | _ => ⟨S30000x12, .f32⟩

abbrev hbmTy0_1 (i : Nat) : BufTy := match i % 128 with
  | 0 => ⟨S200000x1, .i32⟩
  | 1 => ⟨S30000x86, .f32⟩
  | 2 => ⟨S_, .f32⟩
  | 3 => ⟨S200000, .f32⟩
  | 4 => ⟨S_, .f32⟩
  | 5 => ⟨S30000, .f32⟩
  | 6 => ⟨S200000x1, .i32⟩
  | 7 => ⟨S30000, .f32⟩
  | 8 => ⟨S30000x1, .f32⟩
  | 9 => ⟨S_, .i32⟩
  | 10 => ⟨S200000, .i32⟩
  | 11 => ⟨S200000, .i1⟩
  | 12 => ⟨S_, .i32⟩
  | 13 => ⟨S200000, .i32⟩
  | 14 => ⟨S200000, .i32⟩
  | 15 => ⟨S200000, .i32⟩
  | 16 => ⟨S200000x1, .i32⟩
  | 17 => ⟨S200000x86, .f32⟩
  | 18 => ⟨S_, .f32⟩
  | 19 => ⟨S30000x86, .f32⟩
  | 20 => ⟨S200000x1, .i32⟩
  | 21 => ⟨S30000x86, .f32⟩
  | 22 => ⟨S_, .f32⟩
  | 23 => ⟨S200000, .f32⟩
  | 24 => ⟨S_, .f32⟩
  | 25 => ⟨S30000, .f32⟩
  | 26 => ⟨S200000x1, .i32⟩
  | 27 => ⟨S30000, .f32⟩
  | 28 => ⟨S30000x1, .f32⟩
  | 29 => ⟨S30000x256, .f32⟩
  | 30 => ⟨S30000x256, .f32⟩
  | 31 => ⟨S_, .i32⟩
  | 32 => ⟨S200000, .i32⟩
  | 33 => ⟨S200000, .i1⟩
  | 34 => ⟨S_, .i32⟩
  | 35 => ⟨S200000, .i32⟩
  | 36 => ⟨S200000, .i32⟩
  | 37 => ⟨S200000, .i32⟩
  | 38 => ⟨S200000x1, .i32⟩
  | 39 => ⟨S200000x256, .f32⟩
  | 40 => ⟨S_, .f32⟩
  | 41 => ⟨S30000x256, .f32⟩
  | 42 => ⟨S200000x1, .i32⟩
  | 43 => ⟨S30000x256, .f32⟩
  | 44 => ⟨S30000x256, .f32⟩
  | 45 => ⟨S1x64, .f32⟩
  | 46 => ⟨S1x64, .f32⟩
  | 47 => ⟨S1x36, .f32⟩
  | 48 => ⟨S1x1, .f32⟩
  | 49 => ⟨S1x1, .f32⟩
  | 50 => ⟨S30000x64, .f32⟩
  | 51 => ⟨S30000x36, .f32⟩
  | 52 => ⟨S30000x1, .f32⟩
  | 53 => ⟨S30000x1, .f32⟩
  | _ => ⟨S30000x12, .f32⟩

abbrev hbmTy (i : Nat) : BufTy := match i / 128 with
  | 0 => hbmTy0_0 i
  | 1 => hbmTy0_1 i
  | _ => ⟨S30000x12, .f32⟩

abbrev bufTy : (tb : Table) → Fin (tcTables nBuf tb) → BufTy
  | .hbm, ⟨i, _⟩ => hbmTy i
  | .local _ .vmem, ⟨0, _⟩ => ⟨S2000x86, .f32⟩
  | .local _ .vmem, ⟨1, _⟩ => ⟨S2000x86, .f32⟩
  | .local _ .vmem, ⟨2, _⟩ => ⟨S2000x1, .f32⟩
  | .local _ .vmem, ⟨3, _⟩ => ⟨S2000x1, .f32⟩
  | .local _ .vmem, ⟨4, _⟩ => ⟨S2000x72, .f32⟩
  | .local _ .vmem, ⟨5, _⟩ => ⟨S2000x72, .f32⟩
  | .local _ .vmem, ⟨6, _⟩ => ⟨S86x256, .f32⟩
  | .local _ .vmem, ⟨7, _⟩ => ⟨S72x256, .f32⟩
  | .local _ .vmem, ⟨8, _⟩ => ⟨S2000x256, .f32⟩
  | .local _ .vmem, ⟨9, _⟩ => ⟨S2000x256, .f32⟩
  | .local _ .vmem, ⟨10, _⟩ => ⟨S2000x86, .f32⟩
  | .local _ .vmem, ⟨11, _⟩ => ⟨S2000x86, .f32⟩
  | .local _ .vmem, ⟨12, _⟩ => ⟨S2000x1, .f32⟩
  | .local _ .vmem, ⟨13, _⟩ => ⟨S2000x1, .f32⟩
  | .local _ .vmem, ⟨14, _⟩ => ⟨S2000x86, .f32⟩
  | .local _ .vmem, ⟨15, _⟩ => ⟨S2000x86, .f32⟩
  | .local _ .vmem, ⟨16, _⟩ => ⟨S86x256, .f32⟩
  | .local _ .vmem, ⟨17, _⟩ => ⟨S86x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x1, .f32⟩
  | .local _ .vmem, ⟨23, _⟩ => ⟨S2000x1, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S256x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S256x64, .f32⟩
  | .local _ .vmem, ⟨33, _⟩ => ⟨S1x64, .f32⟩
  | .local _ .vmem, ⟨34, _⟩ => ⟨S64x64, .f32⟩
  | .local _ .vmem, ⟨35, _⟩ => ⟨S1x64, .f32⟩
  | .local _ .vmem, ⟨36, _⟩ => ⟨S64x36, .f32⟩
  | .local _ .vmem, ⟨37, _⟩ => ⟨S1x36, .f32⟩
  | .local _ .vmem, ⟨38, _⟩ => ⟨S64x1, .f32⟩
  | .local _ .vmem, ⟨39, _⟩ => ⟨S1x1, .f32⟩
  | .local _ .vmem, ⟨40, _⟩ => ⟨S64x1, .f32⟩
  | .local _ .vmem, ⟨41, _⟩ => ⟨S1x1, .f32⟩
  | .local _ .vmem, ⟨42, _⟩ => ⟨S2000x64, .f32⟩
  | .local _ .vmem, ⟨43, _⟩ => ⟨S2000x64, .f32⟩
  | .local _ .vmem, ⟨44, _⟩ => ⟨S2000x36, .f32⟩
  | .local _ .vmem, ⟨45, _⟩ => ⟨S2000x36, .f32⟩
  | .local _ .vmem, ⟨46, _⟩ => ⟨S2000x1, .f32⟩
  | .local _ .vmem, ⟨47, _⟩ => ⟨S2000x1, .f32⟩
  | .local _ .vmem, ⟨48, _⟩ => ⟨S2000x1, .f32⟩
  | .local _ .vmem, ⟨49, _⟩ => ⟨S2000x1, .f32⟩
  | _, _ => ⟨S30000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_v0 : Ref sig .tc := ⟨.hbm, 41, rfl⟩
abbrev main_v1 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_c : Ref sig .tc := ⟨.hbm, 61, rfl⟩
abbrev main_v20 : Ref sig .tc := ⟨.hbm, 62, rfl⟩
abbrev main_v21 : Ref sig .tc := ⟨.hbm, 63, rfl⟩
abbrev main_c_0 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_c_1 : Ref sig .tc := ⟨.hbm, 70, rfl⟩
abbrev main_v27 : Ref sig .tc := ⟨.hbm, 71, rfl⟩
abbrev main_v28 : Ref sig .tc := ⟨.hbm, 72, rfl⟩
abbrev main_c_2 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_c_3 : Ref sig .tc := ⟨.hbm, 79, rfl⟩
abbrev main_v34 : Ref sig .tc := ⟨.hbm, 80, rfl⟩
abbrev main_v35 : Ref sig .tc := ⟨.hbm, 81, rfl⟩
abbrev main_c_4 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_c_5 : Ref sig .tc := ⟨.hbm, 88, rfl⟩
abbrev main_v41 : Ref sig .tc := ⟨.hbm, 89, rfl⟩
abbrev main_v42 : Ref sig .tc := ⟨.hbm, 90, rfl⟩
abbrev main_c_6 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_c_7 : Ref sig .tc := ⟨.hbm, 98, rfl⟩
abbrev main_v49 : Ref sig .tc := ⟨.hbm, 99, rfl⟩
abbrev main_v50 : Ref sig .tc := ⟨.hbm, 100, rfl⟩
abbrev main_c_8 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_c_9 : Ref sig .tc := ⟨.hbm, 107, rfl⟩
abbrev main_v56 : Ref sig .tc := ⟨.hbm, 108, rfl⟩
abbrev main_v57 : Ref sig .tc := ⟨.hbm, 109, rfl⟩
abbrev main_c_10 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_c_11 : Ref sig .tc := ⟨.hbm, 117, rfl⟩
abbrev main_v64 : Ref sig .tc := ⟨.hbm, 118, rfl⟩
abbrev main_v65 : Ref sig .tc := ⟨.hbm, 119, rfl⟩
abbrev main_c_12 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_cst_13 : Ref sig .tc := ⟨.hbm, 130, rfl⟩
abbrev main_v74 : Ref sig .tc := ⟨.hbm, 131, rfl⟩
abbrev main_cst_14 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_c_15 : Ref sig .tc := ⟨.hbm, 137, rfl⟩
abbrev main_v79 : Ref sig .tc := ⟨.hbm, 138, rfl⟩
abbrev main_v80 : Ref sig .tc := ⟨.hbm, 139, rfl⟩
abbrev main_c_16 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_17 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_cst_18 : Ref sig .tc := ⟨.hbm, 150, rfl⟩
abbrev main_v89 : Ref sig .tc := ⟨.hbm, 151, rfl⟩
abbrev main_cst_19 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_c_20 : Ref sig .tc := ⟨.hbm, 159, rfl⟩
abbrev main_v96 : Ref sig .tc := ⟨.hbm, 160, rfl⟩
abbrev main_v97 : Ref sig .tc := ⟨.hbm, 161, rfl⟩
abbrev main_c_21 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_cst_22 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112_0 : Ref sig .tc := ⟨.hbm, 178, rfl⟩
abbrev main_v112_1 : Ref sig .tc := ⟨.hbm, 179, rfl⟩
abbrev main_v112_2 : Ref sig .tc := ⟨.hbm, 180, rfl⟩
abbrev main_v112_3 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg10_0 : Ref sig .tc := ⟨.vmem, 41, rfl⟩
abbrev cc3_stg11_0 : Ref sig .tc := ⟨.vmem, 42, rfl⟩
abbrev cc3_stg11_1 : Ref sig .tc := ⟨.vmem, 43, rfl⟩
abbrev cc3_stg12_0 : Ref sig .tc := ⟨.vmem, 44, rfl⟩
abbrev cc3_stg12_1 : Ref sig .tc := ⟨.vmem, 45, rfl⟩
abbrev cc3_stg13_0 : Ref sig .tc := ⟨.vmem, 46, rfl⟩
abbrev cc3_stg13_1 : Ref sig .tc := ⟨.vmem, 47, rfl⟩
abbrev cc3_stg14_0 : Ref sig .tc := ⟨.vmem, 48, rfl⟩
abbrev cc3_stg14_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem10_0 : DmaSem sig := 41
abbrev cc3_sem11_0 : DmaSem sig := 42
abbrev cc3_sem11_1 : DmaSem sig := 43
abbrev cc3_sem12_0 : DmaSem sig := 44
abbrev cc3_sem12_1 : DmaSem sig := 45
abbrev cc3_sem13_0 : DmaSem sig := 46
abbrev cc3_sem13_1 : DmaSem sig := 47
abbrev cc3_sem14_0 : DmaSem sig := 48
abbrev cc3_sem14_1 : DmaSem sig := 49

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x86 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x72 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S86x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S72x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x86 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x86 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S86x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S86x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x36 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x36 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S2000x64 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S2000x36 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 2 → Memref sig .tc .vmem S2000x1 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S2000x1 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

class Facts₀ : Prop where
  slices_S30000x12_S30000x1_0_0 : S30000x12.Slices ![0, 0] S30000x1
  shapeCasts_S30000x1_S30000 : S30000x1.ShapeCasts S30000
  slices_S30000x12_S30000x1_0_1 : S30000x12.Slices ![0, 1] S30000x1
  slices_S30000x12_S30000x1_0_2 : S30000x12.Slices ![0, 2] S30000x1
  slices_S30000x12_S30000x1_0_3 : S30000x12.Slices ![0, 3] S30000x1
  slices_S30000x12_S30000x8_0_4 : S30000x12.Slices ![0, 4] S30000x8
  slices_S30000x10_S30000x1_0_0 : S30000x10.Slices ![0, 0] S30000x1
  slices_S30000x10_S30000x1_0_1 : S30000x10.Slices ![0, 1] S30000x1
  slices_S30000x10_S30000x8_0_2 : S30000x10.Slices ![0, 2] S30000x8
  bcast_S_S30000 : S_.BroadcastsInDim S30000 (![] : Fin 0 → Fin S30000.rank)
  bcast_S30000_S30000x1_0 : S30000.BroadcastsInDim S30000x1 (![0] : Fin 1 → Fin S30000x1.rank)
  concatenates_S30000x13_S30000x51_S30000x4_S30000x10_S30000x8_S30000x86_d1 : Shape.Concatenates [S30000x13, S30000x51, S30000x4, S30000x10, S30000x8] S30000x86 1
  concatenates_S30000x13_S30000x51_S30000x8_S30000x72_d1 : Shape.Concatenates [S30000x13, S30000x51, S30000x8] S30000x72 1
  bcast_S_S200000 : S_.BroadcastsInDim S200000 (![] : Fin 0 → Fin S200000.rank)
  bcast_S200000_S200000x1_0 : S200000.BroadcastsInDim S200000x1 (![0] : Fin 1 → Fin S200000x1.rank)
  bcast_S_S30000x86 : S_.BroadcastsInDim S30000x86 (![] : Fin 0 → Fin S30000x86.rank)
  shapeCasts_S30000_S30000x1 : S30000.ShapeCasts S30000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x86_S2000x86_0_0 : ∀ a, (![0, 0] : Fin 2 → Nat) a + S2000x86.size a ≤ S2000x86.size a
  h_S2000x86 : 0 < S2000x86.numel
  shapeCasts_S2000x86_S2000x86 : S2000x86.ShapeCasts S2000x86
  broadcasts_S2000x1_S2000x86 : S2000x1.Broadcasts S2000x86
  bitsLt_bf16_f32 : FTy.bits .bf16 < FTy.bits .f32
  inb_S86x256_S86x256_0_0 : ∀ a, (![0, 0] : Fin 2 → Nat) a + S86x256.size a ≤ S86x256.size a
  h_S86x256 : 0 < S86x256.numel
  inb_S2000x72_S2000x72_0_0 : ∀ a, (![0, 0] : Fin 2 → Nat) a + S2000x72.size a ≤ S2000x72.size a
  h_S2000x72 : 0 < S2000x72.numel
  shapeCasts_S2000x72_S2000x72 : S2000x72.ShapeCasts S2000x72
  inb_S72x256_S72x256_0_0 : ∀ a, (![0, 0] : Fin 2 → Nat) a + S72x256.size a ≤ S72x256.size a
  h_S72x256 : 0 < S72x256.numel
  inb_S2000x256_S2000x256_0_0 : ∀ a, (![0, 0] : Fin 2 → Nat) a + S2000x256.size a ≤ S2000x256.size a
  h_S2000x256 : 0 < S2000x256.numel
  bcast_S_S30000x256 : S_.BroadcastsInDim S30000x256 (![] : Fin 0 → Fin S30000x256.rank)
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S64_S1x64 : S64.ShapeCasts S1x64
  shapeCasts_S36_S1x36 : S36.ShapeCasts S1x36
  shapeCasts_S1_S1x1 : S1.ShapeCasts S1x1
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S64x36_S64x36_0_0 : ∀ a, (![0, 0] : Fin 2 → Nat) a + S64x36.size a ≤ S64x36.size a
  h_S64x36 : 0 < S64x36.numel
  inb_S1x36_S1x36_0_0 : ∀ a, (![0, 0] : Fin 2 → Nat) a + S1x36.size a ≤ S1x36.size a
  h_S1x36 : 0 < S1x36.numel
  shapeCasts_S1x36_S1x36 : S1x36.ShapeCasts S1x36
  broadcasts_S1x36_S2000x36 : S1x36.Broadcasts S2000x36
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x64_S2000x64_0_0 : ∀ a, (![0, 0] : Fin 2 → Nat) a + S2000x64.size a ≤ S2000x64.size a
  h_S2000x64 : 0 < S2000x64.numel
  inb_S2000x36_S2000x36_0_0 : ∀ a, (![0, 0] : Fin 2 → Nat) a + S2000x36.size a ≤ S2000x36.size a
  h_S2000x36 : 0 < S2000x36.numel
  gather_S64x13_S30000x1_S30000x13_1_0_n_n_0_1_113_wf : GatherDims.WF S64x13 S30000x1 S30000x13 [1] [0] [] [0] [] 1 ![1, 13]
  gather_S1000x51_S30000x1_S30000x51_1_0_n_n_0_1_151_wf : GatherDims.WF S1000x51 S30000x1 S30000x51 [1] [0] [] [0] [] 1 ![1, 51]
  gather_S4x4_S30000x1_S30000x4_1_0_n_n_0_1_14_wf : GatherDims.WF S4x4 S30000x1 S30000x4 [1] [0] [] [0] [] 1 ![1, 4]
  gather_S36x10_S30000x1_S30000x10_1_0_n_n_0_1_110_wf : GatherDims.WF S36x10 S30000x1 S30000x10 [1] [0] [] [0] [] 1 ![1, 10]
  gather_S30000x86_S200000x1_S200000x86_1_0_n_n_0_1_186_wf : GatherDims.WF S30000x86 S200000x1 S200000x86 [1] [0] [] [0] [] 1 ![1, 86]
  scatter_S30000x86_S200000x1_S200000x86_1_0_0_1_wf : ScatterDims.WF S30000x86 S200000x1 S200000x86 [1] [0] [0] 1
  scatter_S30000_S200000x1_S200000_n_0_0_1_wf : ScatterDims.WF S30000 S200000x1 S200000 [] [0] [0] 1
  dot_S2000x86_S86x256_S2000x256_1_0_0_1_n_n_wf : DotDims.WF S2000x86 S86x256 S2000x256 [1] [0] [0] [1] [] []
  dot_S2000x72_S72x256_S2000x256_1_0_0_1_n_n_wf : DotDims.WF S2000x72 S72x256 S2000x256 [1] [0] [0] [1] [] []
  gather_S30000x256_S200000x1_S200000x256_1_0_n_n_0_1_1256_wf : GatherDims.WF S30000x256 S200000x1 S200000x256 [1] [0] [] [0] [] 1 ![1, 256]
  scatter_S30000x256_S200000x1_S200000x256_1_0_0_1_wf : ScatterDims.WF S30000x256 S200000x1 S200000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  dot_S2000x64_S64x64_S2000x64_1_0_0_1_n_n_wf : DotDims.WF S2000x64 S64x64 S2000x64 [1] [0] [0] [1] [] []
  dot_S2000x64_S64x36_S2000x36_1_0_0_1_n_n_wf : DotDims.WF S2000x64 S64x36 S2000x36 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x86.size a ≤ S30000x86.size a
  hwx0_0 : ∀ i : grid0.Coords, EltTy.bits .f32 = 32 ∨ (Rect.block (s := S30000x86) S2000x86.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S30000x1.size a
  hwx0_1 : ∀ i : grid0.Coords, EltTy.bits .f32 = 32 ∨ (Rect.block (s := S30000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x72.size a ≤ S30000x72.size a
  hwx0_2 : ∀ i : grid0.Coords, EltTy.bits .f32 = 32 ∨ (Rect.block (s := S30000x72) S2000x72.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S86x256.size a ≤ S86x256.size a
  hwx0_3 : ∀ i : grid0.Coords, EltTy.bits .f32 = 32 ∨ (Rect.block (s := S86x256) S86x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S72x256.size a ≤ S72x256.size a
  hwx0_4 : ∀ i : grid0.Coords, EltTy.bits .f32 = 32 ∨ (Rect.block (s := S72x256) S72x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S30000x256.size a
  hwx0_5 : ∀ i : grid0.Coords, EltTy.bits .f32 = 32 ∨ (Rect.block (s := S30000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x86.size a ≤ S30000x86.size a
  hwx1_0 : ∀ i : grid1.Coords, EltTy.bits .f32 = 32 ∨ (Rect.block (s := S30000x86) S2000x86.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S30000x1.size a
  hwx1_1 : ∀ i : grid1.Coords, EltTy.bits .f32 = 32 ∨ (Rect.block (s := S30000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x86.size a ≤ S30000x86.size a
  hwx1_2 : ∀ i : grid1.Coords, EltTy.bits .f32 = 32 ∨ (Rect.block (s := S30000x86) S2000x86.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S86x256.size a ≤ S86x256.size a
  hwx1_3 : ∀ i : grid1.Coords, EltTy.bits .f32 = 32 ∨ (Rect.block (s := S86x256) S86x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S86x256.size a ≤ S86x256.size a
  hwx1_4 : ∀ i : grid1.Coords, EltTy.bits .f32 = 32 ∨ (Rect.block (s := S86x256) S86x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S30000x256.size a
  hwx1_5 : ∀ i : grid1.Coords, EltTy.bits .f32 = 32 ∨ (Rect.block (s := S30000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S30000x256.size a
  hwx2_0 : ∀ i : grid2.Coords, EltTy.bits .f32 = 32 ∨ (Rect.block (s := S30000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S30000x1.size a
  hwx2_1 : ∀ i : grid2.Coords, EltTy.bits .f32 = 32 ∨ (Rect.block (s := S30000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S30000x256.size a
  hwx2_2 : ∀ i : grid2.Coords, EltTy.bits .f32 = 32 ∨ (Rect.block (s := S30000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S30000x256.size a
  hwx2_5 : ∀ i : grid2.Coords, EltTy.bits .f32 = 32 ∨ (Rect.block (s := S30000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S30000x256.size a
  hwx3_0 : ∀ i : grid3.Coords, EltTy.bits .f32 = 32 ∨ (Rect.block (s := S30000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x64.size a ≤ S256x64.size a
  hwx3_1 : ∀ i : grid3.Coords, EltTy.bits .f32 = 32 ∨ (Rect.block (s := S256x64) S256x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x36.size a ≤ S64x36.size a
  hwx3_5 : ∀ i : grid3.Coords, EltTy.bits .f32 = 32 ∨ (Rect.block (s := S64x36) S64x36.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x36.size a ≤ S1x36.size a
  hwx3_6 : ∀ i : grid3.Coords, EltTy.bits .f32 = 32 ∨ (Rect.block (s := S1x36) S1x36.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x1.size a ≤ S64x1.size a
  hwx3_7 : ∀ i : grid3.Coords, EltTy.bits .f32 = 32 ∨ (Rect.block (s := S64x1) S64x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x1.size a ≤ S1x1.size a
  hwx3_8 : ∀ i : grid3.Coords, EltTy.bits .f32 = 32 ∨ (Rect.block (s := S1x1) S1x1.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x1.size a ≤ S64x1.size a
  hwx3_9 : ∀ i : grid3.Coords, EltTy.bits .f32 = 32 ∨ (Rect.block (s := S64x1) S64x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x1.size a ≤ S1x1.size a
  hwx3_10 : ∀ i : grid3.Coords, EltTy.bits .f32 = 32 ∨ (Rect.block (s := S1x1) S1x1.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S2000x64.size a ≤ S30000x64.size a
  hwx3_11 : ∀ i : grid3.Coords, EltTy.bits .f32 = 32 ∨ (Rect.block (s := S30000x64) S2000x64.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S2000x36.size a ≤ S30000x36.size a
  hwx3_12 : ∀ i : grid3.Coords, EltTy.bits .f32 = 32 ∨ (Rect.block (s := S30000x36) S2000x36.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S2000x1.size a ≤ S30000x1.size a
  hwx3_13 : ∀ i : grid3.Coords, EltTy.bits .f32 = 32 ∨ (Rect.block (s := S30000x1) S2000x1.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S2000x1.size a ≤ S30000x1.size a
  hwx3_14 : ∀ i : grid3.Coords, EltTy.bits .f32 = 32 ∨ (Rect.block (s := S30000x1) S2000x1.size (cc3_transform_14 i) (hinb3_14 i)).WholeWords (EltTy.packing .f32)

variable [Facts₀]

def gather_S64x13_S30000x1_S30000x13_1_0_n_n_0_1_113 : GatherDims S64x13 S30000x1 S30000x13 where
  offsetDims := [1]
  collapsedSliceDims := [0]
  operandBatchingDims := []
  startIndicesBatchingDims := []
  startIndexMap := [0]
  indexVectorDim := 1
  sliceSizes := ![1, 13]
  wf := gather_S64x13_S30000x1_S30000x13_1_0_n_n_0_1_113_wf
def gather_S1000x51_S30000x1_S30000x51_1_0_n_n_0_1_151 : GatherDims S1000x51 S30000x1 S30000x51 where
  offsetDims := [1]
  collapsedSliceDims := [0]
  operandBatchingDims := []
  startIndicesBatchingDims := []
  startIndexMap := [0]
  indexVectorDim := 1
  sliceSizes := ![1, 51]
  wf := gather_S1000x51_S30000x1_S30000x51_1_0_n_n_0_1_151_wf
def gather_S4x4_S30000x1_S30000x4_1_0_n_n_0_1_14 : GatherDims S4x4 S30000x1 S30000x4 where
  offsetDims := [1]
  collapsedSliceDims := [0]
  operandBatchingDims := []
  startIndicesBatchingDims := []
  startIndexMap := [0]
  indexVectorDim := 1
  sliceSizes := ![1, 4]
  wf := gather_S4x4_S30000x1_S30000x4_1_0_n_n_0_1_14_wf
def gather_S36x10_S30000x1_S30000x10_1_0_n_n_0_1_110 : GatherDims S36x10 S30000x1 S30000x10 where
  offsetDims := [1]
  collapsedSliceDims := [0]
  operandBatchingDims := []
  startIndicesBatchingDims := []
  startIndexMap := [0]
  indexVectorDim := 1
  sliceSizes := ![1, 10]
  wf := gather_S36x10_S30000x1_S30000x10_1_0_n_n_0_1_110_wf
def gather_S30000x86_S200000x1_S200000x86_1_0_n_n_0_1_186 : GatherDims S30000x86 S200000x1 S200000x86 where
  offsetDims := [1]
  collapsedSliceDims := [0]
  operandBatchingDims := []
  startIndicesBatchingDims := []
  startIndexMap := [0]
  indexVectorDim := 1
  sliceSizes := ![1, 86]
  wf := gather_S30000x86_S200000x1_S200000x86_1_0_n_n_0_1_186_wf
def scatter_S30000x86_S200000x1_S200000x86_1_0_0_1 : ScatterDims S30000x86 S200000x1 S200000x86 where
  updateWindowDims := [1]
  insertedWindowDims := [0]
  scatterDimsToOperandDims := [0]
  indexVectorDim := 1
  wf := scatter_S30000x86_S200000x1_S200000x86_1_0_0_1_wf
def scatter_S30000_S200000x1_S200000_n_0_0_1 : ScatterDims S30000 S200000x1 S200000 where
  updateWindowDims := []
  insertedWindowDims := [0]
  scatterDimsToOperandDims := [0]
  indexVectorDim := 1
  wf := scatter_S30000_S200000x1_S200000_n_0_0_1_wf
def dot_S2000x86_S86x256_S2000x256_1_0_0_1_n_n : DotDims S2000x86 S86x256 S2000x256 where
  lhsContracting := [1]
  rhsContracting := [0]
  lhsNonContracting := [0]
  rhsNonContracting := [1]
  lhsBatch := []
  rhsBatch := []
  wf := dot_S2000x86_S86x256_S2000x256_1_0_0_1_n_n_wf
def dot_S2000x72_S72x256_S2000x256_1_0_0_1_n_n : DotDims S2000x72 S72x256 S2000x256 where
  lhsContracting := [1]
  rhsContracting := [0]
  lhsNonContracting := [0]
  rhsNonContracting := [1]
  lhsBatch := []
  rhsBatch := []
  wf := dot_S2000x72_S72x256_S2000x256_1_0_0_1_n_n_wf
def gather_S30000x256_S200000x1_S200000x256_1_0_n_n_0_1_1256 : GatherDims S30000x256 S200000x1 S200000x256 where
  offsetDims := [1]
  collapsedSliceDims := [0]
  operandBatchingDims := []
  startIndicesBatchingDims := []
  startIndexMap := [0]
  indexVectorDim := 1
  sliceSizes := ![1, 256]
  wf := gather_S30000x256_S200000x1_S200000x256_1_0_n_n_0_1_1256_wf
def scatter_S30000x256_S200000x1_S200000x256_1_0_0_1 : ScatterDims S30000x256 S200000x1 S200000x256 where
  updateWindowDims := [1]
  insertedWindowDims := [0]
  scatterDimsToOperandDims := [0]
  indexVectorDim := 1
  wf := scatter_S30000x256_S200000x1_S200000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x36_S2000x36_1_0_0_1_n_n : DotDims S2000x64 S64x36 S2000x36 where
  lhsContracting := [1]
  rhsContracting := [0]
  lhsNonContracting := [0]
  rhsNonContracting := [1]
  lhsBatch := []
  rhsBatch := []
  wf := dot_S2000x64_S64x36_S2000x36_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_v73) S2000x86.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v78) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v63) S2000x72.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S86x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S72x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v94) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v88) S2000x86.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v93) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x86.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S86x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S86x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v95) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v105) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v94) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v106) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v106) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg23) S256x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v107) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg25) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v108) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg27) S64x36.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v109) S1x36.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg29) S64x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v110) S1x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg31) S64x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v111) S1x1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v112_0) S2000x64.size cc3_transform_11 reads3_11 true false 2 stage3_11 sem3_11
    hrank3 hreads3_11 hinb3_11 nbuf3_11 (Memref.isWhole_whole _) hwx3_11 hstage3_11

abbrev win3_12 : Pipeline.Window sig grid3 :=
  Pipeline.Window.ofSpec (Memref.whole main_v112_1) S2000x36.size cc3_transform_12 reads3_12 true false 2 stage3_12 sem3_12
    hrank3 hreads3_12 hinb3_12 nbuf3_12 (Memref.isWhole_whole _) hwx3_12 hstage3_12

abbrev win3_13 : Pipeline.Window sig grid3 :=
  Pipeline.Window.ofSpec (Memref.whole main_v112_2) S2000x1.size cc3_transform_13 reads3_13 true false 2 stage3_13 sem3_13
    hrank3 hreads3_13 hinb3_13 nbuf3_13 (Memref.isWhole_whole _) hwx3_13 hstage3_13

abbrev win3_14 : Pipeline.Window sig grid3 :=
  Pipeline.Window.ofSpec (Memref.whole main_v112_3) S2000x1.size cc3_transform_14 reads3_14 true false 2 stage3_14 sem3_14
    hrank3 hreads3_14 hinb3_14 nbuf3_14 (Memref.isWhole_whole _) hwx3_14 hstage3_14

abbrev win3 : Fin 15 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | ⟨_ + 15, h⟩ => absurd h (Nat.not_lt.2 (Nat.le_add_left _ _))
abbrev spec3 : Fin 15 → Pipeline.WinSpec sig grid3.rank := fun w => (win3 w).toWinSpec

class Facts : Prop extends Facts₀ where

variable [Facts]
-- ==== ReferenceIdeal.lean ====
abbrev S30000x12 : Shape := ⟨2, ![30000, 12]⟩
abbrev S30000x10 : Shape := ⟨2, ![30000, 10]⟩
abbrev S50000x11 : Shape := ⟨2, ![50000, 11]⟩
abbrev S64x13 : Shape := ⟨2, ![64, 13]⟩
abbrev S1000x51 : Shape := ⟨2, ![1000, 51]⟩
abbrev S4x4 : Shape := ⟨2, ![4, 4]⟩
abbrev S36x10 : Shape := ⟨2, ![36, 10]⟩
abbrev S86x256 : Shape := ⟨2, ![86, 256]⟩
abbrev S72x256 : Shape := ⟨2, ![72, 256]⟩
abbrev S76x256 : Shape := ⟨2, ![76, 256]⟩
abbrev S256x256 : Shape := ⟨2, ![256, 256]⟩
abbrev S256x64 : Shape := ⟨2, ![256, 64]⟩
abbrev S64 : Shape := ⟨1, ![64]⟩
abbrev S64x64 : Shape := ⟨2, ![64, 64]⟩
abbrev S64x36 : Shape := ⟨2, ![64, 36]⟩
abbrev S36 : Shape := ⟨1, ![36]⟩
abbrev S64x1 : Shape := ⟨2, ![64, 1]⟩
abbrev S1 : Shape := ⟨1, ![1]⟩
abbrev S200000 : Shape := ⟨1, ![200000]⟩
abbrev S400000 : Shape := ⟨1, ![400000]⟩
abbrev S30000x1 : Shape := ⟨2, ![30000, 1]⟩
abbrev S30000 : Shape := ⟨1, ![30000]⟩
abbrev S_ : Shape := ⟨0, ![]⟩
abbrev S30000x13 : Shape := ⟨2, ![30000, 13]⟩
abbrev S30000x51 : Shape := ⟨2, ![30000, 51]⟩
abbrev S30000x4 : Shape := ⟨2, ![30000, 4]⟩
abbrev S30000x8 : Shape := ⟨2, ![30000, 8]⟩
abbrev S30000x86 : Shape := ⟨2, ![30000, 86]⟩
abbrev S30000x72 : Shape := ⟨2, ![30000, 72]⟩
abbrev S50000x1 : Shape := ⟨2, ![50000, 1]⟩
abbrev S50000 : Shape := ⟨1, ![50000]⟩
abbrev S50000x13 : Shape := ⟨2, ![50000, 13]⟩
abbrev S50000x51 : Shape := ⟨2, ![50000, 51]⟩
abbrev S50000x4 : Shape := ⟨2, ![50000, 4]⟩
abbrev S50000x8 : Shape := ⟨2, ![50000, 8]⟩
abbrev S50000x76 : Shape := ⟨2, ![50000, 76]⟩
abbrev S200000x1 : Shape := ⟨2, ![200000, 1]⟩
abbrev S200000x86 : Shape := ⟨2, ![200000, 86]⟩
abbrev S30000x256 : Shape := ⟨2, ![30000, 256]⟩
abbrev S50000x86 : Shape := ⟨2, ![50000, 86]⟩
abbrev S50000x256 : Shape := ⟨2, ![50000, 256]⟩
abbrev S400000x1 : Shape := ⟨2, ![400000, 1]⟩
abbrev S400000x76 : Shape := ⟨2, ![400000, 76]⟩
abbrev S200000x256 : Shape := ⟨2, ![200000, 256]⟩
abbrev S400000x256 : Shape := ⟨2, ![400000, 256]⟩
abbrev S30000x64 : Shape := ⟨2, ![30000, 64]⟩
abbrev S1x64 : Shape := ⟨2, ![1, 64]⟩
abbrev S30000x36 : Shape := ⟨2, ![30000, 36]⟩
abbrev S1x36 : Shape := ⟨2, ![1, 36]⟩
abbrev S1x1 : Shape := ⟨2, ![1, 1]⟩

abbrev nBuf : Space → Nat
  | .hbm => 425
  | .vmem => 0
  | .smem => 0
  | _ => 0

abbrev hbmTy0_0 (i : Nat) : BufTy := match i % 128 with
  | 0 => ⟨S30000x12, .f32⟩
  | 1 => ⟨S30000x10, .f32⟩
  | 2 => ⟨S50000x11, .f32⟩
  | 3 => ⟨S64x13, .f32⟩
  | 4 => ⟨S1000x51, .f32⟩
  | 5 => ⟨S4x4, .f32⟩
  | 6 => ⟨S36x10, .f32⟩
  | 7 => ⟨S86x256, .f32⟩
  | 8 => ⟨S72x256, .f32⟩
  | 9 => ⟨S86x256, .f32⟩
  | 10 => ⟨S86x256, .f32⟩
  | 11 => ⟨S86x256, .f32⟩
  | 12 => ⟨S76x256, .f32⟩
  | 13 => ⟨S76x256, .f32⟩
  | 14 => ⟨S76x256, .f32⟩
  | 15 => ⟨S256x256, .f32⟩
  | 16 => ⟨S256x256, .f32⟩
  | 17 => ⟨S256x256, .f32⟩
  | 18 => ⟨S256x256, .f32⟩
  | 19 => ⟨S256x256, .f32⟩
  | 20 => ⟨S256x256, .f32⟩
  | 21 => ⟨S256x256, .f32⟩
  | 22 => ⟨S256x256, .f32⟩
  | 23 => ⟨S256x64, .f32⟩
  | 24 => ⟨S64, .f32⟩
  | 25 => ⟨S64x64, .f32⟩
  | 26 => ⟨S64, .f32⟩
  | 27 => ⟨S64x36, .f32⟩
  | 28 => ⟨S36, .f32⟩
  | 29 => ⟨S64x1, .f32⟩
  | 30 => ⟨S1, .f32⟩
  | 31 => ⟨S64x1, .f32⟩
  | 32 => ⟨S1, .f32⟩
  | 33 => ⟨S200000, .i32⟩
  | 34 => ⟨S200000, .i32⟩
  | 35 => ⟨S200000, .i32⟩
  | 36 => ⟨S200000, .i32⟩
  | 37 => ⟨S200000, .i32⟩
  | 38 => ⟨S200000, .i32⟩
  | 39 => ⟨S400000, .i32⟩
  | 40 => ⟨S400000, .i32⟩
  | 41 => ⟨S30000x1, .f32⟩
  | 42 => ⟨S30000, .f32⟩
  | 43 => ⟨S30000, .i32⟩
  | 44 => ⟨S_, .i32⟩
  | 45 => ⟨S30000, .i32⟩
  | 46 => ⟨S30000, .i1⟩
  | 47 => ⟨S_, .i32⟩
  | 48 => ⟨S30000, .i32⟩
  | 49 => ⟨S30000, .i32⟩
  | 50 => ⟨S30000, .i32⟩
  | 51 => ⟨S30000x1, .i32⟩
  | 52 => ⟨S30000x13, .f32⟩
  | 53 => ⟨S30000x1, .f32⟩
  | 54 => ⟨S30000, .f32⟩
  | 55 => ⟨S30000, .i32⟩
  | 56 => ⟨S_, .i32⟩
  | 57 => ⟨S30000, .i32⟩
  | 58 => ⟨S30000, .i1⟩
  | 59 => ⟨S_, .i32⟩
  | 60 => ⟨S30000, .i32⟩
  | 61 => ⟨S30000, .i32⟩
  | 62 => ⟨S30000, .i32⟩
  | 63 => ⟨S30000x1, .i32⟩
  | 64 => ⟨S30000x51, .f32⟩
  | 65 => ⟨S30000x1, .f32⟩
  | 66 => ⟨S30000, .f32⟩
  | 67 => ⟨S30000, .i32⟩
  | 68 => ⟨S_, .i32⟩
  | 69 => ⟨S30000, .i32⟩
  | 70 => ⟨S30000, .i1⟩
  | 71 => ⟨S_, .i32⟩
  | 72 => ⟨S30000, .i32⟩
  | 73 => ⟨S30000, .i32⟩
  | 74 => ⟨S30000, .i32⟩
  | 75 => ⟨S30000x1, .i32⟩
  | 76 => ⟨S30000x4, .f32⟩
  | 77 => ⟨S30000x1, .f32⟩
  | 78 => ⟨S30000, .f32⟩
  | 79 => ⟨S30000, .i32⟩
  | 80 => ⟨S_, .i32⟩
  | 81 => ⟨S30000, .i32⟩
  | 82 => ⟨S30000, .i1⟩
  | 83 => ⟨S_, .i32⟩
  | 84 => ⟨S30000, .i32⟩
  | 85 => ⟨S30000, .i32⟩
  | 86 => ⟨S30000, .i32⟩
  | 87 => ⟨S30000x1, .i32⟩
  | 88 => ⟨S30000x10, .f32⟩
  | 89 => ⟨S30000x8, .f32⟩
  | 90 => ⟨S30000x86, .f32⟩
  | 91 => ⟨S30000x1, .f32⟩
  | 92 => ⟨S30000, .f32⟩
  | 93 => ⟨S30000, .i32⟩
  | 94 => ⟨S_, .i32⟩
  | 95 => ⟨S30000, .i32⟩
  | 96 => ⟨S30000, .i1⟩
  | 97 => ⟨S_, .i32⟩
  | 98 => ⟨S30000, .i32⟩
  | 99 => ⟨S30000, .i32⟩
  | 100 => ⟨S30000, .i32⟩
  | 101 => ⟨S30000x1, .i32⟩
  | 102 => ⟨S30000x13, .f32⟩
  | 103 => ⟨S30000x1, .f32⟩
  | 104 => ⟨S30000, .f32⟩
  | 105 => ⟨S30000, .i32⟩
  | 106 => ⟨S_, .i32⟩
  | 107 => ⟨S30000, .i32⟩
  | 108 => ⟨S30000, .i1⟩
  | 109 => ⟨S_, .i32⟩
  | 110 => ⟨S30000, .i32⟩
  | 111 => ⟨S30000, .i32⟩
  | 112 => ⟨S30000, .i32⟩
  | 113 => ⟨S30000x1, .i32⟩
  | 114 => ⟨S30000x51, .f32⟩
  | 115 => ⟨S30000x8, .f32⟩
  | 116 => ⟨S30000x72, .f32⟩
  | 117 => ⟨S50000x1, .f32⟩
  | 118 => ⟨S50000, .f32⟩
  | 119 => ⟨S50000, .i32⟩
  | 120 => ⟨S_, .i32⟩
  | 121 => ⟨S50000, .i32⟩
  | 122 => ⟨S50000, .i1⟩
  | 123 => ⟨S_, .i32⟩
  | 124 => ⟨S50000, .i32⟩
  | 125 => ⟨S50000, .i32⟩
  | 126 => ⟨S50000, .i32⟩
  | 127 => ⟨S50000x1, .i32⟩
  | _ => ⟨S30000x12, .f32⟩

abbrev hbmTy0_1 (i : Nat) : BufTy := match i % 128 with
  | 0 => ⟨S50000x13, .f32⟩
  | 1 => ⟨S50000x1, .f32⟩
  | 2 => ⟨S50000, .f32⟩
  | 3 => ⟨S50000, .i32⟩
  | 4 => ⟨S_, .i32⟩
  | 5 => ⟨S50000, .i32⟩
  | 6 => ⟨S50000, .i1⟩
  | 7 => ⟨S_, .i32⟩
  | 8 => ⟨S50000, .i32⟩
  | 9 => ⟨S50000, .i32⟩
  | 10 => ⟨S50000, .i32⟩
  | 11 => ⟨S50000x1, .i32⟩
  | 12 => ⟨S50000x51, .f32⟩
  | 13 => ⟨S50000x1, .f32⟩
  | 14 => ⟨S50000, .f32⟩
  | 15 => ⟨S50000, .i32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S50000x4, .f32⟩
  | 25 => ⟨S50000x8, .f32⟩
  | 26 => ⟨S50000x76, .f32⟩
  | 27 => ⟨S_, .i32⟩
  | 28 => ⟨S200000, .i32⟩
  | 29 => ⟨S200000, .i1⟩
  | 30 => ⟨S_, .i32⟩
  | 31 => ⟨S200000, .i32⟩
  | 32 => ⟨S200000, .i32⟩
  | 33 => ⟨S200000, .i32⟩
  | 34 => ⟨S200000x1, .i32⟩
  | 35 => ⟨S200000x86, .f32⟩
  | 36 => ⟨S_, .f32⟩
  | 37 => ⟨S30000x86, .f32⟩
  | 38 => ⟨S200000x1, .i32⟩
  | 39 => ⟨S30000x86, .f32⟩
  | 40 => ⟨S_, .f32⟩
  | 41 => ⟨S200000, .f32⟩
  | 42 => ⟨S_, .f32⟩
  | 43 => ⟨S30000, .f32⟩
  | 44 => ⟨S200000x1, .i32⟩
  | 45 => ⟨S30000, .f32⟩
  | 46 => ⟨S_, .f32⟩
  | 47 => ⟨S30000, .f32⟩
  | 48 => ⟨S30000, .f32⟩
  | 49 => ⟨S30000x1, .f32⟩
  | 50 => ⟨S30000x86, .f32⟩
  | 51 => ⟨S30000x86, .f32⟩
  | 52 => ⟨S30000x256, .f32⟩
  | 53 => ⟨S30000x256, .f32⟩
  | 54 => ⟨S30000x256, .f32⟩
  | 55 => ⟨S_, .f32⟩
  | 56 => ⟨S30000x256, .f32⟩
  | 57 => ⟨S30000x256, .f32⟩
  | 58 => ⟨S_, .i32⟩
  | 59 => ⟨S200000, .i32⟩
  | 60 => ⟨S200000, .i1⟩
  | 61 => ⟨S_, .i32⟩
  | 62 => ⟨S200000, .i32⟩
  | 63 => ⟨S200000, .i32⟩
  | 64 => ⟨S200000, .i32⟩
  | 65 => ⟨S200000x1, .i32⟩
  | 66 => ⟨S200000x86, .f32⟩
  | 67 => ⟨S_, .f32⟩
  | 68 => ⟨S30000x86, .f32⟩
  | 69 => ⟨S200000x1, .i32⟩
  | 70 => ⟨S30000x86, .f32⟩
  | 71 => ⟨S_, .f32⟩
  | 72 => ⟨S200000, .f32⟩
  | 73 => ⟨S_, .f32⟩
  | 74 => ⟨S30000, .f32⟩
  | 75 => ⟨S200000x1, .i32⟩
  | 76 => ⟨S30000, .f32⟩
  | 77 => ⟨S_, .f32⟩
  | 78 => ⟨S30000, .f32⟩
  | 79 => ⟨S30000, .f32⟩
  | 80 => ⟨S30000x1, .f32⟩
  | 81 => ⟨S30000x86, .f32⟩
  | 82 => ⟨S30000x86, .f32⟩
  | 83 => ⟨S30000x256, .f32⟩
  | 84 => ⟨S30000x256, .f32⟩
  | 85 => ⟨S30000x256, .f32⟩
  | 86 => ⟨S_, .f32⟩
  | 87 => ⟨S30000x256, .f32⟩
  | 88 => ⟨S30000x256, .f32⟩
  | 89 => ⟨S_, .i32⟩
  | 90 => ⟨S200000, .i32⟩
  | 91 => ⟨S200000, .i1⟩
  | 92 => ⟨S_, .i32⟩
  | 93 => ⟨S200000, .i32⟩
  | 94 => ⟨S200000, .i32⟩
  | 95 => ⟨S200000, .i32⟩
  | 96 => ⟨S200000x1, .i32⟩
  | 97 => ⟨S200000x86, .f32⟩
  | 98 => ⟨S_, .f32⟩
  | 99 => ⟨S50000x86, .f32⟩
  | 100 => ⟨S200000x1, .i32⟩
  | 101 => ⟨S50000x86, .f32⟩
  | 102 => ⟨S_, .f32⟩
  | 103 => ⟨S200000, .f32⟩
  | 104 => ⟨S_, .f32⟩
  | 105 => ⟨S50000, .f32⟩
  | 106 => ⟨S200000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x86, .f32⟩
  | 113 => ⟨S50000x86, .f32⟩
  | 114 => ⟨S50000x256, .f32⟩
  | 115 => ⟨S50000x256, .f32⟩
  | 116 => ⟨S50000x256, .f32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S400000x76, .f32⟩
  | 126 => ⟨S_, .f32⟩
  | 127 => ⟨S50000x76, .f32⟩
  | _ => ⟨S30000x12, .f32⟩

abbrev hbmTy0_2 (i : Nat) : BufTy := match i % 128 with
  | 0 => ⟨S400000x1, .i32⟩
  | 1 => ⟨S50000x76, .f32⟩
  | 2 => ⟨S_, .f32⟩
  | 3 => ⟨S400000, .f32⟩
  | 4 => ⟨S_, .f32⟩
  | 5 => ⟨S50000, .f32⟩
  | 6 => ⟨S400000x1, .i32⟩
  | 7 => ⟨S50000, .f32⟩
  | 8 => ⟨S_, .f32⟩
  | 9 => ⟨S50000, .f32⟩
  | 10 => ⟨S50000, .f32⟩
  | 11 => ⟨S50000x1, .f32⟩
  | 12 => ⟨S50000x76, .f32⟩
  | 13 => ⟨S50000x76, .f32⟩
  | 14 => ⟨S50000x256, .f32⟩
  | 15 => ⟨S50000x256, .f32⟩
  | 16 => ⟨S50000x256, .f32⟩
  | 17 => ⟨S50000x256, .f32⟩
  | 18 => ⟨S_, .f32⟩
  | 19 => ⟨S50000x256, .f32⟩
  | 20 => ⟨S50000x256, .f32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S200000x256, .f32⟩
  | 30 => ⟨S_, .f32⟩
  | 31 => ⟨S30000x256, .f32⟩
  | 32 => ⟨S200000x1, .i32⟩
  | 33 => ⟨S30000x256, .f32⟩
  | 34 => ⟨S_, .f32⟩
  | 35 => ⟨S200000, .f32⟩
  | 36 => ⟨S_, .f32⟩
  | 37 => ⟨S30000, .f32⟩
  | 38 => ⟨S200000x1, .i32⟩
  | 39 => ⟨S30000, .f32⟩
  | 40 => ⟨S_, .f32⟩
  | 41 => ⟨S30000, .f32⟩
  | 42 => ⟨S30000, .f32⟩
  | 43 => ⟨S30000x1, .f32⟩
  | 44 => ⟨S30000x256, .f32⟩
  | 45 => ⟨S30000x256, .f32⟩
  | 46 => ⟨S30000x256, .f32⟩
  | 47 => ⟨S30000x256, .f32⟩
  | 48 => ⟨S30000x256, .f32⟩
  | 49 => ⟨S_, .f32⟩
  | 50 => ⟨S30000x256, .f32⟩
  | 51 => ⟨S30000x256, .f32⟩
  | 52 => ⟨S_, .i32⟩
  | 53 => ⟨S200000, .i32⟩
  | 54 => ⟨S200000, .i1⟩
  | 55 => ⟨S_, .i32⟩
  | 56 => ⟨S200000, .i32⟩
  | 57 => ⟨S200000, .i32⟩
  | 58 => ⟨S200000, .i32⟩
  | 59 => ⟨S200000x1, .i32⟩
  | 60 => ⟨S200000x256, .f32⟩
  | 61 => ⟨S_, .f32⟩
  | 62 => ⟨S30000x256, .f32⟩
  | 63 => ⟨S200000x1, .i32⟩
  | 64 => ⟨S30000x256, .f32⟩
  | 65 => ⟨S_, .f32⟩
  | 66 => ⟨S200000, .f32⟩
  | 67 => ⟨S_, .f32⟩
  | 68 => ⟨S30000, .f32⟩
  | 69 => ⟨S200000x1, .i32⟩
  | 70 => ⟨S30000, .f32⟩
  | 71 => ⟨S_, .f32⟩
  | 72 => ⟨S30000, .f32⟩
  | 73 => ⟨S30000, .f32⟩
  | 74 => ⟨S30000x1, .f32⟩
  | 75 => ⟨S30000x256, .f32⟩
  | 76 => ⟨S30000x256, .f32⟩
  | 77 => ⟨S30000x256, .f32⟩
  | 78 => ⟨S30000x256, .f32⟩
  | 79 => ⟨S30000x256, .f32⟩
  | 80 => ⟨S_, .f32⟩
  | 81 => ⟨S30000x256, .f32⟩
  | 82 => ⟨S30000x256, .f32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000x256, .f32⟩
  | 92 => ⟨S_, .f32⟩
  | 93 => ⟨S50000x256, .f32⟩
  | 94 => ⟨S200000x1, .i32⟩
  | 95 => ⟨S50000x256, .f32⟩
  | 96 => ⟨S_, .f32⟩
  | 97 => ⟨S200000, .f32⟩
  | 98 => ⟨S_, .f32⟩
  | 99 => ⟨S50000, .f32⟩
  | 100 => ⟨S200000x1, .i32⟩
  | 101 => ⟨S50000, .f32⟩
  | 102 => ⟨S_, .f32⟩
  | 103 => ⟨S50000, .f32⟩
  | 104 => ⟨S50000, .f32⟩
  | 105 => ⟨S50000x1, .f32⟩
  | 106 => ⟨S50000x256, .f32⟩
  | 107 => ⟨S50000x256, .f32⟩
  | 108 => ⟨S50000x256, .f32⟩
  | 109 => ⟨S50000x256, .f32⟩
  | 110 => ⟨S50000x256, .f32⟩
  | 111 => ⟨S_, .i32⟩
  | 112 => ⟨S400000, .i32⟩
  | 113 => ⟨S400000, .i1⟩
  | 114 => ⟨S_, .i32⟩
  | 115 => ⟨S400000, .i32⟩
  | 116 => ⟨S400000, .i32⟩
  | 117 => ⟨S400000, .i32⟩
  | 118 => ⟨S400000x1, .i32⟩
  | 119 => ⟨S400000x256, .f32⟩
  | 120 => ⟨S_, .f32⟩
  | 121 => ⟨S50000x256, .f32⟩
  | 122 => ⟨S400000x1, .i32⟩
  | 123 => ⟨S50000x256, .f32⟩
  | 124 => ⟨S_, .f32⟩
  | 125 => ⟨S400000, .f32⟩
  | 126 => ⟨S_, .f32⟩
  | 127 => ⟨S50000, .f32⟩
  | _ => ⟨S30000x12, .f32⟩

abbrev hbmTy0_3 (i : Nat) : BufTy := match i % 128 with
  | 0 => ⟨S400000x1, .i32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x256, .f32⟩
  | 7 => ⟨S50000x256, .f32⟩
  | 8 => ⟨S50000x256, .f32⟩
  | 9 => ⟨S50000x256, .f32⟩
  | 10 => ⟨S50000x256, .f32⟩
  | 11 => ⟨S50000x256, .f32⟩
  | 12 => ⟨S_, .f32⟩
  | 13 => ⟨S50000x256, .f32⟩
  | 14 => ⟨S50000x256, .f32⟩
  | 15 => ⟨S30000x64, .f32⟩
  | 16 => ⟨S1x64, .f32⟩
  | 17 => ⟨S30000x64, .f32⟩
  | 18 => ⟨S30000x64, .f32⟩
  | 19 => ⟨S_, .f32⟩
  | 20 => ⟨S30000x64, .f32⟩
  | 21 => ⟨S30000x64, .f32⟩
  | 22 => ⟨S30000x64, .f32⟩
  | 23 => ⟨S1x64, .f32⟩
  | 24 => ⟨S30000x64, .f32⟩
  | 25 => ⟨S30000x64, .f32⟩
  | 26 => ⟨S_, .f32⟩
  | 27 => ⟨S30000x64, .f32⟩
  | 28 => ⟨S30000x64, .f32⟩
  | 29 => ⟨S30000x36, .f32⟩
  | 30 => ⟨S1x36, .f32⟩
  | 31 => ⟨S30000x36, .f32⟩
  | 32 => ⟨S30000x36, .f32⟩
  | 33 => ⟨S30000x1, .f32⟩
  | 34 => ⟨S1x1, .f32⟩
  | 35 => ⟨S30000x1, .f32⟩
  | 36 => ⟨S30000x1, .f32⟩
  | 37 => ⟨S30000x1, .f32⟩
  | 38 => ⟨S1x1, .f32⟩
  | 39 => ⟨S30000x1, .f32⟩
  | 40 => ⟨S30000x1, .f32⟩
  | _ => ⟨S30000x12, .f32⟩

abbrev hbmTy (i : Nat) : BufTy := match i / 128 with
  | 0 => hbmTy0_0 i
  | 1 => hbmTy0_1 i
  | 2 => hbmTy0_2 i
  | 3 => hbmTy0_3 i
  | _ => ⟨S30000x12, .f32⟩

abbrev bufTy : (tb : Table) → Fin (tcTables nBuf tb) → BufTy
  | .hbm, ⟨i, _⟩ => hbmTy i
  | _, _ => ⟨S30000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_v0 : Ref sig .tc := ⟨.hbm, 41, rfl⟩
abbrev main_v1 : Ref sig .tc := ⟨.hbm, 42, rfl⟩
abbrev main_v2 : Ref sig .tc := ⟨.hbm, 43, rfl⟩
abbrev main_c : Ref sig .tc := ⟨.hbm, 44, rfl⟩
abbrev main_v3 : Ref sig .tc := ⟨.hbm, 45, rfl⟩
abbrev main_v4 : Ref sig .tc := ⟨.hbm, 46, rfl⟩
abbrev main_c_0 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_c_1 : Ref sig .tc := ⟨.hbm, 56, rfl⟩
abbrev main_v13 : Ref sig .tc := ⟨.hbm, 57, rfl⟩
abbrev main_v14 : Ref sig .tc := ⟨.hbm, 58, rfl⟩
abbrev main_c_2 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_c_3 : Ref sig .tc := ⟨.hbm, 68, rfl⟩
abbrev main_v23 : Ref sig .tc := ⟨.hbm, 69, rfl⟩
abbrev main_v24 : Ref sig .tc := ⟨.hbm, 70, rfl⟩
abbrev main_c_4 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_c_5 : Ref sig .tc := ⟨.hbm, 80, rfl⟩
abbrev main_v33 : Ref sig .tc := ⟨.hbm, 81, rfl⟩
abbrev main_v34 : Ref sig .tc := ⟨.hbm, 82, rfl⟩
abbrev main_c_6 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_c_7 : Ref sig .tc := ⟨.hbm, 94, rfl⟩
abbrev main_v45 : Ref sig .tc := ⟨.hbm, 95, rfl⟩
abbrev main_v46 : Ref sig .tc := ⟨.hbm, 96, rfl⟩
abbrev main_c_8 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_c_9 : Ref sig .tc := ⟨.hbm, 106, rfl⟩
abbrev main_v55 : Ref sig .tc := ⟨.hbm, 107, rfl⟩
abbrev main_v56 : Ref sig .tc := ⟨.hbm, 108, rfl⟩
abbrev main_c_10 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_c_11 : Ref sig .tc := ⟨.hbm, 120, rfl⟩
abbrev main_v67 : Ref sig .tc := ⟨.hbm, 121, rfl⟩
abbrev main_v68 : Ref sig .tc := ⟨.hbm, 122, rfl⟩
abbrev main_c_12 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_c_13 : Ref sig .tc := ⟨.hbm, 132, rfl⟩
abbrev main_v77 : Ref sig .tc := ⟨.hbm, 133, rfl⟩
abbrev main_v78 : Ref sig .tc := ⟨.hbm, 134, rfl⟩
abbrev main_c_14 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_c_15 : Ref sig .tc := ⟨.hbm, 144, rfl⟩
abbrev main_v87 : Ref sig .tc := ⟨.hbm, 145, rfl⟩
abbrev main_v88 : Ref sig .tc := ⟨.hbm, 146, rfl⟩
abbrev main_c_16 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_c_17 : Ref sig .tc := ⟨.hbm, 155, rfl⟩
abbrev main_v96 : Ref sig .tc := ⟨.hbm, 156, rfl⟩
abbrev main_v97 : Ref sig .tc := ⟨.hbm, 157, rfl⟩
abbrev main_c_18 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_cst_19 : Ref sig .tc := ⟨.hbm, 168, rfl⟩
abbrev main_v106 : Ref sig .tc := ⟨.hbm, 169, rfl⟩
abbrev main_cst_20 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_cst_21 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_call0_cst : Ref sig .tc := ⟨.hbm, 183, rfl⟩
abbrev main_call0_v0 : Ref sig .tc := ⟨.hbm, 184, rfl⟩
abbrev main_v118 : Ref sig .tc := ⟨.hbm, 185, rfl⟩
abbrev main_c_22 : Ref sig .tc := ⟨.hbm, 186, rfl⟩
abbrev main_v119 : Ref sig .tc := ⟨.hbm, 187, rfl⟩
abbrev main_v120 : Ref sig .tc := ⟨.hbm, 188, rfl⟩
abbrev main_c_23 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_cst_24 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_cst_25 : Ref sig .tc := ⟨.hbm, 199, rfl⟩
abbrev main_v129 : Ref sig .tc := ⟨.hbm, 200, rfl⟩
abbrev main_cst_26 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_cst_27 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_call1_cst : Ref sig .tc := ⟨.hbm, 214, rfl⟩
abbrev main_call1_v0 : Ref sig .tc := ⟨.hbm, 215, rfl⟩
abbrev main_v141 : Ref sig .tc := ⟨.hbm, 216, rfl⟩
abbrev main_c_28 : Ref sig .tc := ⟨.hbm, 217, rfl⟩
abbrev main_v142 : Ref sig .tc := ⟨.hbm, 218, rfl⟩
abbrev main_v143 : Ref sig .tc := ⟨.hbm, 219, rfl⟩
abbrev main_c_29 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_cst_30 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_cst_31 : Ref sig .tc := ⟨.hbm, 230, rfl⟩
abbrev main_v152 : Ref sig .tc := ⟨.hbm, 231, rfl⟩
abbrev main_cst_32 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_cst_33 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_c_34 : Ref sig .tc := ⟨.hbm, 245, rfl⟩
abbrev main_v164 : Ref sig .tc := ⟨.hbm, 246, rfl⟩
abbrev main_v165 : Ref sig .tc := ⟨.hbm, 247, rfl⟩
abbrev main_c_35 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_cst_36 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_cst_37 : Ref sig .tc := ⟨.hbm, 258, rfl⟩
abbrev main_v174 : Ref sig .tc := ⟨.hbm, 259, rfl⟩
abbrev main_cst_38 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_cst_39 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_call2_cst : Ref sig .tc := ⟨.hbm, 274, rfl⟩
abbrev main_call2_v0 : Ref sig .tc := ⟨.hbm, 275, rfl⟩
abbrev main_v187 : Ref sig .tc := ⟨.hbm, 276, rfl⟩
abbrev main_c_40 : Ref sig .tc := ⟨.hbm, 277, rfl⟩
abbrev main_v188 : Ref sig .tc := ⟨.hbm, 278, rfl⟩
abbrev main_v189 : Ref sig .tc := ⟨.hbm, 279, rfl⟩
abbrev main_c_41 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_cst_42 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_cst_43 : Ref sig .tc := ⟨.hbm, 290, rfl⟩
abbrev main_v198 : Ref sig .tc := ⟨.hbm, 291, rfl⟩
abbrev main_cst_44 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_cst_45 : Ref sig .tc := ⟨.hbm, 296, rfl⟩
abbrev main_v202 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev main_v209 : Ref sig .tc := ⟨.hbm, 304, rfl⟩
abbrev main_call3_cst : Ref sig .tc := ⟨.hbm, 305, rfl⟩
abbrev main_call3_v0 : Ref sig .tc := ⟨.hbm, 306, rfl⟩
abbrev main_v210 : Ref sig .tc := ⟨.hbm, 307, rfl⟩
abbrev main_c_46 : Ref sig .tc := ⟨.hbm, 308, rfl⟩
abbrev main_v211 : Ref sig .tc := ⟨.hbm, 309, rfl⟩
abbrev main_v212 : Ref sig .tc := ⟨.hbm, 310, rfl⟩
abbrev main_c_47 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_cst_48 : Ref sig .tc := ⟨.hbm, 317, rfl⟩
abbrev main_v218 : Ref sig .tc := ⟨.hbm, 318, rfl⟩
abbrev main_v219 : Ref sig .tc := ⟨.hbm, 319, rfl⟩
abbrev main_v220 : Ref sig .tc := ⟨.hbm, 320, rfl⟩
abbrev main_cst_49 : Ref sig .tc := ⟨.hbm, 321, rfl⟩
abbrev main_v221 : Ref sig .tc := ⟨.hbm, 322, rfl⟩
abbrev main_cst_50 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩
abbrev main_cst_51 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_call4_cst : Ref sig .tc := ⟨.hbm, 336, rfl⟩
abbrev main_call4_v0 : Ref sig .tc := ⟨.hbm, 337, rfl⟩
abbrev main_v233 : Ref sig .tc := ⟨.hbm, 338, rfl⟩
abbrev main_c_52 : Ref sig .tc := ⟨.hbm, 339, rfl⟩
abbrev main_v234 : Ref sig .tc := ⟨.hbm, 340, rfl⟩
abbrev main_v235 : Ref sig .tc := ⟨.hbm, 341, rfl⟩
abbrev main_c_53 : Ref sig .tc := ⟨.hbm, 342, rfl⟩
abbrev main_v236 : Ref sig .tc := ⟨.hbm, 343, rfl⟩
abbrev main_v237 : Ref sig .tc := ⟨.hbm, 344, rfl⟩
abbrev main_v238 : Ref sig .tc := ⟨.hbm, 345, rfl⟩
abbrev main_v239 : Ref sig .tc := ⟨.hbm, 346, rfl⟩
abbrev main_v240 : Ref sig .tc := ⟨.hbm, 347, rfl⟩
abbrev main_cst_54 : Ref sig .tc := ⟨.hbm, 348, rfl⟩
abbrev main_v241 : Ref sig .tc := ⟨.hbm, 349, rfl⟩
abbrev main_v242 : Ref sig .tc := ⟨.hbm, 350, rfl⟩
abbrev main_v243 : Ref sig .tc := ⟨.hbm, 351, rfl⟩
abbrev main_cst_55 : Ref sig .tc := ⟨.hbm, 352, rfl⟩
abbrev main_v244 : Ref sig .tc := ⟨.hbm, 353, rfl⟩
abbrev main_cst_56 : Ref sig .tc := ⟨.hbm, 354, rfl⟩
abbrev main_v245 : Ref sig .tc := ⟨.hbm, 355, rfl⟩
abbrev main_v246 : Ref sig .tc := ⟨.hbm, 356, rfl⟩
abbrev main_v247 : Ref sig .tc := ⟨.hbm, 357, rfl⟩
abbrev main_cst_57 : Ref sig .tc := ⟨.hbm, 358, rfl⟩
abbrev main_v248 : Ref sig .tc := ⟨.hbm, 359, rfl⟩
abbrev main_v249 : Ref sig .tc := ⟨.hbm, 360, rfl⟩
abbrev main_v250 : Ref sig .tc := ⟨.hbm, 361, rfl⟩
abbrev main_v251 : Ref sig .tc := ⟨.hbm, 362, rfl⟩
abbrev main_v252 : Ref sig .tc := ⟨.hbm, 363, rfl⟩
abbrev main_v253 : Ref sig .tc := ⟨.hbm, 364, rfl⟩
abbrev main_v254 : Ref sig .tc := ⟨.hbm, 365, rfl⟩
abbrev main_v255 : Ref sig .tc := ⟨.hbm, 366, rfl⟩
abbrev main_c_58 : Ref sig .tc := ⟨.hbm, 367, rfl⟩
abbrev main_v256 : Ref sig .tc := ⟨.hbm, 368, rfl⟩
abbrev main_v257 : Ref sig .tc := ⟨.hbm, 369, rfl⟩
abbrev main_c_59 : Ref sig .tc := ⟨.hbm, 370, rfl⟩
abbrev main_v258 : Ref sig .tc := ⟨.hbm, 371, rfl⟩
abbrev main_v259 : Ref sig .tc := ⟨.hbm, 372, rfl⟩
abbrev main_v260 : Ref sig .tc := ⟨.hbm, 373, rfl⟩
abbrev main_v261 : Ref sig .tc := ⟨.hbm, 374, rfl⟩
abbrev main_v262 : Ref sig .tc := ⟨.hbm, 375, rfl⟩
abbrev main_cst_60 : Ref sig .tc := ⟨.hbm, 376, rfl⟩
abbrev main_v263 : Ref sig .tc := ⟨.hbm, 377, rfl⟩
abbrev main_v264 : Ref sig .tc := ⟨.hbm, 378, rfl⟩
abbrev main_v265 : Ref sig .tc := ⟨.hbm, 379, rfl⟩
abbrev main_cst_61 : Ref sig .tc := ⟨.hbm, 380, rfl⟩
abbrev main_v266 : Ref sig .tc := ⟨.hbm, 381, rfl⟩
abbrev main_cst_62 : Ref sig .tc := ⟨.hbm, 382, rfl⟩
abbrev main_v267 : Ref sig .tc := ⟨.hbm, 383, rfl⟩
abbrev main_v268 : Ref sig .tc := ⟨.hbm, 384, rfl⟩
abbrev main_v269 : Ref sig .tc := ⟨.hbm, 385, rfl⟩
abbrev main_cst_63 : Ref sig .tc := ⟨.hbm, 386, rfl⟩
abbrev main_v270 : Ref sig .tc := ⟨.hbm, 387, rfl⟩
abbrev main_v271 : Ref sig .tc := ⟨.hbm, 388, rfl⟩
abbrev main_v272 : Ref sig .tc := ⟨.hbm, 389, rfl⟩
abbrev main_v273 : Ref sig .tc := ⟨.hbm, 390, rfl⟩
abbrev main_v274 : Ref sig .tc := ⟨.hbm, 391, rfl⟩
abbrev main_v275 : Ref sig .tc := ⟨.hbm, 392, rfl⟩
abbrev main_v276 : Ref sig .tc := ⟨.hbm, 393, rfl⟩
abbrev main_v277 : Ref sig .tc := ⟨.hbm, 394, rfl⟩
abbrev main_v278 : Ref sig .tc := ⟨.hbm, 395, rfl⟩
abbrev main_call5_cst : Ref sig .tc := ⟨.hbm, 396, rfl⟩
abbrev main_call5_v0 : Ref sig .tc := ⟨.hbm, 397, rfl⟩
abbrev main_v279 : Ref sig .tc := ⟨.hbm, 398, rfl⟩
abbrev main_v280 : Ref sig .tc := ⟨.hbm, 399, rfl⟩
abbrev main_v281 : Ref sig .tc := ⟨.hbm, 400, rfl⟩
abbrev main_v282 : Ref sig .tc := ⟨.hbm, 401, rfl⟩
abbrev main_v283 : Ref sig .tc := ⟨.hbm, 402, rfl⟩
abbrev main_call6_cst : Ref sig .tc := ⟨.hbm, 403, rfl⟩
abbrev main_call6_v0 : Ref sig .tc := ⟨.hbm, 404, rfl⟩
abbrev main_v284 : Ref sig .tc := ⟨.hbm, 405, rfl⟩
abbrev main_v285 : Ref sig .tc := ⟨.hbm, 406, rfl⟩
abbrev main_v286 : Ref sig .tc := ⟨.hbm, 407, rfl⟩
abbrev main_v287 : Ref sig .tc := ⟨.hbm, 408, rfl⟩
abbrev main_v288 : Ref sig .tc := ⟨.hbm, 409, rfl⟩
abbrev main_call7_cst : Ref sig .tc := ⟨.hbm, 410, rfl⟩
abbrev main_call7_v0 : Ref sig .tc := ⟨.hbm, 411, rfl⟩
abbrev main_v289 : Ref sig .tc := ⟨.hbm, 412, rfl⟩
abbrev main_v290 : Ref sig .tc := ⟨.hbm, 413, rfl⟩
abbrev main_v291 : Ref sig .tc := ⟨.hbm, 414, rfl⟩
abbrev main_v292 : Ref sig .tc := ⟨.hbm, 415, rfl⟩
abbrev main_v293 : Ref sig .tc := ⟨.hbm, 416, rfl⟩
abbrev main_v294 : Ref sig .tc := ⟨.hbm, 417, rfl⟩
abbrev main_v295 : Ref sig .tc := ⟨.hbm, 418, rfl⟩
abbrev main_v296 : Ref sig .tc := ⟨.hbm, 419, rfl⟩
abbrev main_v297 : Ref sig .tc := ⟨.hbm, 420, rfl⟩
abbrev main_v298 : Ref sig .tc := ⟨.hbm, 421, rfl⟩
abbrev main_v299 : Ref sig .tc := ⟨.hbm, 422, rfl⟩
abbrev main_v300 : Ref sig .tc := ⟨.hbm, 423, rfl⟩
abbrev main_v301 : Ref sig .tc := ⟨.hbm, 424, rfl⟩

abbrev nD : Nat := 1
abbrev τ : Topo := Topo.v7x

variable {F : FTy → Type} [FloatOps F]

class Facts₀ : Prop where
  slices_S30000x12_S30000x1_0_0 : S30000x12.Slices ![0, 0] S30000x1
  shapeCasts_S30000x1_S30000 : S30000x1.ShapeCasts S30000
  bcast_S_S30000 : S_.BroadcastsInDim S30000 (![] : Fin 0 → Fin S30000.rank)
  bcast_S30000_S30000x1_0 : S30000.BroadcastsInDim S30000x1 (![0] : Fin 1 → Fin S30000x1.rank)
  slices_S30000x12_S30000x1_0_1 : S30000x12.Slices ![0, 1] S30000x1
  slices_S30000x12_S30000x1_0_2 : S30000x12.Slices ![0, 2] S30000x1
  slices_S30000x12_S30000x1_0_3 : S30000x12.Slices ![0, 3] S30000x1
  slices_S30000x12_S30000x8_0_4 : S30000x12.Slices ![0, 4] S30000x8
  concatenates_S30000x13_S30000x51_S30000x4_S30000x10_S30000x8_S30000x86_d1 : Shape.Concatenates [S30000x13, S30000x51, S30000x4, S30000x10, S30000x8] S30000x86 1
  slices_S30000x10_S30000x1_0_0 : S30000x10.Slices ![0, 0] S30000x1
  slices_S30000x10_S30000x1_0_1 : S30000x10.Slices ![0, 1] S30000x1
  slices_S30000x10_S30000x8_0_2 : S30000x10.Slices ![0, 2] S30000x8
  concatenates_S30000x13_S30000x51_S30000x8_S30000x72_d1 : Shape.Concatenates [S30000x13, S30000x51, S30000x8] S30000x72 1
  slices_S50000x11_S50000x1_0_0 : S50000x11.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x11_S50000x1_0_1 : S50000x11.Slices ![0, 1] S50000x1
  slices_S50000x11_S50000x1_0_2 : S50000x11.Slices ![0, 2] S50000x1
  slices_S50000x11_S50000x8_0_3 : S50000x11.Slices ![0, 3] S50000x8
  concatenates_S50000x13_S50000x51_S50000x4_S50000x8_S50000x76_d1 : Shape.Concatenates [S50000x13, S50000x51, S50000x4, S50000x8] S50000x76 1
  bcast_S_S200000 : S_.BroadcastsInDim S200000 (![] : Fin 0 → Fin S200000.rank)
  bcast_S200000_S200000x1_0 : S200000.BroadcastsInDim S200000x1 (![0] : Fin 1 → Fin S200000x1.rank)
  bcast_S_S30000x86 : S_.BroadcastsInDim S30000x86 (![] : Fin 0 → Fin S30000x86.rank)
  bcast_S30000x1_S30000x86_0_1 : S30000x1.BroadcastsInDim S30000x86 (![0, 1] : Fin 2 → Fin S30000x86.rank)
  bcast_S_S30000x256 : S_.BroadcastsInDim S30000x256 (![] : Fin 0 → Fin S30000x256.rank)
  bcast_S_S50000x86 : S_.BroadcastsInDim S50000x86 (![] : Fin 0 → Fin S50000x86.rank)
  bcast_S50000x1_S50000x86_0_1 : S50000x1.BroadcastsInDim S50000x86 (![0, 1] : Fin 2 → Fin S50000x86.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S50000x76 : S_.BroadcastsInDim S50000x76 (![] : Fin 0 → Fin S50000x76.rank)
  bcast_S50000x1_S50000x76_0_1 : S50000x1.BroadcastsInDim S50000x76 (![0, 1] : Fin 2 → Fin S50000x76.rank)
  bcast_S_S50000x256 : S_.BroadcastsInDim S50000x256 (![] : Fin 0 → Fin S50000x256.rank)
  bcast_S30000x1_S30000x256_0_1 : S30000x1.BroadcastsInDim S30000x256 (![0, 1] : Fin 2 → Fin S30000x256.rank)
  bcast_S50000x1_S50000x256_0_1 : S50000x1.BroadcastsInDim S50000x256 (![0, 1] : Fin 2 → Fin S50000x256.rank)
  bcast_S64_S1x64_1 : S64.BroadcastsInDim S1x64 (![1] : Fin 1 → Fin S1x64.rank)
  bcast_S1x64_S30000x64_0_1 : S1x64.BroadcastsInDim S30000x64 (![0, 1] : Fin 2 → Fin S30000x64.rank)
  bcast_S_S30000x64 : S_.BroadcastsInDim S30000x64 (![] : Fin 0 → Fin S30000x64.rank)
  bcast_S36_S1x36_1 : S36.BroadcastsInDim S1x36 (![1] : Fin 1 → Fin S1x36.rank)
  bcast_S1x36_S30000x36_0_1 : S1x36.BroadcastsInDim S30000x36 (![0, 1] : Fin 2 → Fin S30000x36.rank)
  bcast_S1_S1x1_1 : S1.BroadcastsInDim S1x1 (![1] : Fin 1 → Fin S1x1.rank)
  bcast_S1x1_S30000x1_0_1 : S1x1.BroadcastsInDim S30000x1 (![0, 1] : Fin 2 → Fin S30000x1.rank)
  gather_S64x13_S30000x1_S30000x13_1_0_n_n_0_1_113_wf : GatherDims.WF S64x13 S30000x1 S30000x13 [1] [0] [] [0] [] 1 ![1, 13]
  gather_S1000x51_S30000x1_S30000x51_1_0_n_n_0_1_151_wf : GatherDims.WF S1000x51 S30000x1 S30000x51 [1] [0] [] [0] [] 1 ![1, 51]
  gather_S4x4_S30000x1_S30000x4_1_0_n_n_0_1_14_wf : GatherDims.WF S4x4 S30000x1 S30000x4 [1] [0] [] [0] [] 1 ![1, 4]
  gather_S36x10_S30000x1_S30000x10_1_0_n_n_0_1_110_wf : GatherDims.WF S36x10 S30000x1 S30000x10 [1] [0] [] [0] [] 1 ![1, 10]
  gather_S64x13_S50000x1_S50000x13_1_0_n_n_0_1_113_wf : GatherDims.WF S64x13 S50000x1 S50000x13 [1] [0] [] [0] [] 1 ![1, 13]
  gather_S1000x51_S50000x1_S50000x51_1_0_n_n_0_1_151_wf : GatherDims.WF S1000x51 S50000x1 S50000x51 [1] [0] [] [0] [] 1 ![1, 51]
  gather_S4x4_S50000x1_S50000x4_1_0_n_n_0_1_14_wf : GatherDims.WF S4x4 S50000x1 S50000x4 [1] [0] [] [0] [] 1 ![1, 4]
  gather_S30000x86_S200000x1_S200000x86_1_0_n_n_0_1_186_wf : GatherDims.WF S30000x86 S200000x1 S200000x86 [1] [0] [] [0] [] 1 ![1, 86]
  scatter_S30000x86_S200000x1_S200000x86_1_0_0_1_wf : ScatterDims.WF S30000x86 S200000x1 S200000x86 [1] [0] [0] 1
  scatter_S30000_S200000x1_S200000_n_0_0_1_wf : ScatterDims.WF S30000 S200000x1 S200000 [] [0] [0] 1
  dot_S30000x86_S86x256_S30000x256_1_0_0_1_n_n_wf : DotDims.WF S30000x86 S86x256 S30000x256 [1] [0] [0] [1] [] []
  dot_S30000x72_S72x256_S30000x256_1_0_0_1_n_n_wf : DotDims.WF S30000x72 S72x256 S30000x256 [1] [0] [0] [1] [] []
  scatter_S50000x86_S200000x1_S200000x86_1_0_0_1_wf : ScatterDims.WF S50000x86 S200000x1 S200000x86 [1] [0] [0] 1
  scatter_S50000_S200000x1_S200000_n_0_0_1_wf : ScatterDims.WF S50000 S200000x1 S200000 [] [0] [0] 1
  dot_S50000x86_S86x256_S50000x256_1_0_0_1_n_n_wf : DotDims.WF S50000x86 S86x256 S50000x256 [1] [0] [0] [1] [] []
  dot_S50000x76_S76x256_S50000x256_1_0_0_1_n_n_wf : DotDims.WF S50000x76 S76x256 S50000x256 [1] [0] [0] [1] [] []
  gather_S50000x76_S400000x1_S400000x76_1_0_n_n_0_1_176_wf : GatherDims.WF S50000x76 S400000x1 S400000x76 [1] [0] [] [0] [] 1 ![1, 76]
  scatter_S50000x76_S400000x1_S400000x76_1_0_0_1_wf : ScatterDims.WF S50000x76 S400000x1 S400000x76 [1] [0] [0] 1
  scatter_S50000_S400000x1_S400000_n_0_0_1_wf : ScatterDims.WF S50000 S400000x1 S400000 [] [0] [0] 1
  gather_S30000x256_S200000x1_S200000x256_1_0_n_n_0_1_1256_wf : GatherDims.WF S30000x256 S200000x1 S200000x256 [1] [0] [] [0] [] 1 ![1, 256]
  scatter_S30000x256_S200000x1_S200000x256_1_0_0_1_wf : ScatterDims.WF S30000x256 S200000x1 S200000x256 [1] [0] [0] 1
  dot_S30000x256_S256x256_S30000x256_1_0_0_1_n_n_wf : DotDims.WF S30000x256 S256x256 S30000x256 [1] [0] [0] [1] [] []
  scatter_S50000x256_S200000x1_S200000x256_1_0_0_1_wf : ScatterDims.WF S50000x256 S200000x1 S200000x256 [1] [0] [0] 1
  dot_S50000x256_S256x256_S50000x256_1_0_0_1_n_n_wf : DotDims.WF S50000x256 S256x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S30000x256_S256x64_S30000x64_1_0_0_1_n_n_wf : DotDims.WF S30000x256 S256x64 S30000x64 [1] [0] [0] [1] [] []
  dot_S30000x64_S64x64_S30000x64_1_0_0_1_n_n_wf : DotDims.WF S30000x64 S64x64 S30000x64 [1] [0] [0] [1] [] []
  dot_S30000x64_S64x36_S30000x36_1_0_0_1_n_n_wf : DotDims.WF S30000x64 S64x36 S30000x36 [1] [0] [0] [1] [] []
  dot_S30000x64_S64x1_S30000x1_1_0_0_1_n_n_wf : DotDims.WF S30000x64 S64x1 S30000x1 [1] [0] [0] [1] [] []

variable [Facts₀]

def gather_S64x13_S30000x1_S30000x13_1_0_n_n_0_1_113 : GatherDims S64x13 S30000x1 S30000x13 where
  offsetDims := [1]
  collapsedSliceDims := [0]
  operandBatchingDims := []
  startIndicesBatchingDims := []
  startIndexMap := [0]
  indexVectorDim := 1
  sliceSizes := ![1, 13]
  wf := gather_S64x13_S30000x1_S30000x13_1_0_n_n_0_1_113_wf
def gather_S1000x51_S30000x1_S30000x51_1_0_n_n_0_1_151 : GatherDims S1000x51 S30000x1 S30000x51 where
  offsetDims := [1]
  collapsedSliceDims := [0]
  operandBatchingDims := []
  startIndicesBatchingDims := []
  startIndexMap := [0]
  indexVectorDim := 1
  sliceSizes := ![1, 51]
  wf := gather_S1000x51_S30000x1_S30000x51_1_0_n_n_0_1_151_wf
def gather_S4x4_S30000x1_S30000x4_1_0_n_n_0_1_14 : GatherDims S4x4 S30000x1 S30000x4 where
  offsetDims := [1]
  collapsedSliceDims := [0]
  operandBatchingDims := []
  startIndicesBatchingDims := []
  startIndexMap := [0]
  indexVectorDim := 1
  sliceSizes := ![1, 4]
  wf := gather_S4x4_S30000x1_S30000x4_1_0_n_n_0_1_14_wf
def gather_S36x10_S30000x1_S30000x10_1_0_n_n_0_1_110 : GatherDims S36x10 S30000x1 S30000x10 where
  offsetDims := [1]
  collapsedSliceDims := [0]
  operandBatchingDims := []
  startIndicesBatchingDims := []
  startIndexMap := [0]
  indexVectorDim := 1
  sliceSizes := ![1, 10]
  wf := gather_S36x10_S30000x1_S30000x10_1_0_n_n_0_1_110_wf
def gather_S64x13_S50000x1_S50000x13_1_0_n_n_0_1_113 : GatherDims S64x13 S50000x1 S50000x13 where
  offsetDims := [1]
  collapsedSliceDims := [0]
  operandBatchingDims := []
  startIndicesBatchingDims := []
  startIndexMap := [0]
  indexVectorDim := 1
  sliceSizes := ![1, 13]
  wf := gather_S64x13_S50000x1_S50000x13_1_0_n_n_0_1_113_wf
def gather_S1000x51_S50000x1_S50000x51_1_0_n_n_0_1_151 : GatherDims S1000x51 S50000x1 S50000x51 where
  offsetDims := [1]
  collapsedSliceDims := [0]
  operandBatchingDims := []
  startIndicesBatchingDims := []
  startIndexMap := [0]
  indexVectorDim := 1
  sliceSizes := ![1, 51]
  wf := gather_S1000x51_S50000x1_S50000x51_1_0_n_n_0_1_151_wf
def gather_S4x4_S50000x1_S50000x4_1_0_n_n_0_1_14 : GatherDims S4x4 S50000x1 S50000x4 where
  offsetDims := [1]
  collapsedSliceDims := [0]
  operandBatchingDims := []
  startIndicesBatchingDims := []
  startIndexMap := [0]
  indexVectorDim := 1
  sliceSizes := ![1, 4]
  wf := gather_S4x4_S50000x1_S50000x4_1_0_n_n_0_1_14_wf
def gather_S30000x86_S200000x1_S200000x86_1_0_n_n_0_1_186 : GatherDims S30000x86 S200000x1 S200000x86 where
  offsetDims := [1]
  collapsedSliceDims := [0]
  operandBatchingDims := []
  startIndicesBatchingDims := []
  startIndexMap := [0]
  indexVectorDim := 1
  sliceSizes := ![1, 86]
  wf := gather_S30000x86_S200000x1_S200000x86_1_0_n_n_0_1_186_wf
def scatter_S30000x86_S200000x1_S200000x86_1_0_0_1 : ScatterDims S30000x86 S200000x1 S200000x86 where
  updateWindowDims := [1]
  insertedWindowDims := [0]
  scatterDimsToOperandDims := [0]
  indexVectorDim := 1
  wf := scatter_S30000x86_S200000x1_S200000x86_1_0_0_1_wf
def scatter_S30000_S200000x1_S200000_n_0_0_1 : ScatterDims S30000 S200000x1 S200000 where
  updateWindowDims := []
  insertedWindowDims := [0]
  scatterDimsToOperandDims := [0]
  indexVectorDim := 1
  wf := scatter_S30000_S200000x1_S200000_n_0_0_1_wf
def dot_S30000x86_S86x256_S30000x256_1_0_0_1_n_n : DotDims S30000x86 S86x256 S30000x256 where
  lhsContracting := [1]
  rhsContracting := [0]
  lhsNonContracting := [0]
  rhsNonContracting := [1]
  lhsBatch := []
  rhsBatch := []
  wf := dot_S30000x86_S86x256_S30000x256_1_0_0_1_n_n_wf
def dot_S30000x72_S72x256_S30000x256_1_0_0_1_n_n : DotDims S30000x72 S72x256 S30000x256 where
  lhsContracting := [1]
  rhsContracting := [0]
  lhsNonContracting := [0]
  rhsNonContracting := [1]
  lhsBatch := []
  rhsBatch := []
  wf := dot_S30000x72_S72x256_S30000x256_1_0_0_1_n_n_wf
def scatter_S50000x86_S200000x1_S200000x86_1_0_0_1 : ScatterDims S50000x86 S200000x1 S200000x86 where
  updateWindowDims := [1]
  insertedWindowDims := [0]
  scatterDimsToOperandDims := [0]
  indexVectorDim := 1
  wf := scatter_S50000x86_S200000x1_S200000x86_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf
def dot_S50000x86_S86x256_S50000x256_1_0_0_1_n_n : DotDims S50000x86 S86x256 S50000x256 where
  lhsContracting := [1]
  rhsContracting := [0]
  lhsNonContracting := [0]
  rhsNonContracting := [1]
  lhsBatch := []
  rhsBatch := []
  wf := dot_S50000x86_S86x256_S50000x256_1_0_0_1_n_n_wf
def dot_S50000x76_S76x256_S50000x256_1_0_0_1_n_n : DotDims S50000x76 S76x256 S50000x256 where
  lhsContracting := [1]
  rhsContracting := [0]
  lhsNonContracting := [0]
  rhsNonContracting := [1]
  lhsBatch := []
  rhsBatch := []
  wf := dot_S50000x76_S76x256_S50000x256_1_0_0_1_n_n_wf
def gather_S50000x76_S400000x1_S400000x76_1_0_n_n_0_1_176 : GatherDims S50000x76 S400000x1 S400000x76 where
  offsetDims := [1]
  collapsedSliceDims := [0]
  operandBatchingDims := []
  startIndicesBatchingDims := []
  startIndexMap := [0]
  indexVectorDim := 1
  sliceSizes := ![1, 76]
  wf := gather_S50000x76_S400000x1_S400000x76_1_0_n_n_0_1_176_wf
def scatter_S50000x76_S400000x1_S400000x76_1_0_0_1 : ScatterDims S50000x76 S400000x1 S400000x76 where
  updateWindowDims := [1]
  insertedWindowDims := [0]
  scatterDimsToOperandDims := [0]
  indexVectorDim := 1
  wf := scatter_S50000x76_S400000x1_S400000x76_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S30000x256_S200000x1_S200000x256_1_0_n_n_0_1_1256 : GatherDims S30000x256 S200000x1 S200000x256 where
  offsetDims := [1]
  collapsedSliceDims := [0]
  operandBatchingDims := []
  startIndicesBatchingDims := []
  startIndexMap := [0]
  indexVectorDim := 1
  sliceSizes := ![1, 256]
  wf := gather_S30000x256_S200000x1_S200000x256_1_0_n_n_0_1_1256_wf
def scatter_S30000x256_S200000x1_S200000x256_1_0_0_1 : ScatterDims S30000x256 S200000x1 S200000x256 where
  updateWindowDims := [1]
  insertedWindowDims := [0]
  scatterDimsToOperandDims := [0]
  indexVectorDim := 1
  wf := scatter_S30000x256_S200000x1_S200000x256_1_0_0_1_wf
def dot_S30000x256_S256x256_S30000x256_1_0_0_1_n_n : DotDims S30000x256 S256x256 S30000x256 where
  lhsContracting := [1]
  rhsContracting := [0]
  lhsNonContracting := [0]
  rhsNonContracting := [1]
  lhsBatch := []
  rhsBatch := []
  wf := dot_S30000x256_S256x256_S30000x256_1_0_0_1_n_n_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S30000x256_S256x64_S30000x64_1_0_0_1_n_n : DotDims S30000x256 S256x64 S30000x64 where
  lhsContracting := [1]
  rhsContracting := [0]
  lhsNonContracting := [0]
  rhsNonContracting := [1]
  lhsBatch := []
  rhsBatch := []
  wf := dot_S30000x256_S256x64_S30000x64_1_0_0_1_n_n_wf
def dot_S30000x64_S64x64_S30000x64_1_0_0_1_n_n : DotDims S30000x64 S64x64 S30000x64 where
  lhsContracting := [1]
  rhsContracting := [0]
  lhsNonContracting := [0]
  rhsNonContracting := [1]
  lhsBatch := []
  rhsBatch := []
  wf := dot_S30000x64_S64x64_S30000x64_1_0_0_1_n_n_wf
def dot_S30000x64_S64x36_S30000x36_1_0_0_1_n_n : DotDims S30000x64 S64x36 S30000x36 where
  lhsContracting := [1]
  rhsContracting := [0]
  lhsNonContracting := [0]
  rhsNonContracting := [1]
  lhsBatch := []
  rhsBatch := []
  wf := dot_S30000x64_S64x36_S30000x36_1_0_0_1_n_n_wf
def dot_S30000x64_S64x1_S30000x1_1_0_0_1_n_n : DotDims S30000x64 S64x1 S30000x1 where
  lhsContracting := [1]
  rhsContracting := [0]
  lhsNonContracting := [0]
  rhsNonContracting := [1]
  lhsBatch := []
  rhsBatch := []
  wf := dot_S30000x64_S64x1_S30000x1_1_0_0_1_n_n_wf

class Facts : Prop extends Facts₀ where

variable [Facts]
-- ==== Proof.BitsSage0.lean ====
/- The first mean-aggregate linear stage (slk nodes, layer 1) as a pipelined region: at ANY contents `V` of the
   TensorCore's buffers on entry, what each grid point's body leaves in the output window's staging buffer — the
   2000-row block of `max (mean · Wl + dst · Wr) 0` — and the proof data under which the pipeline runs. Stated at any
   float instance. -/
import proofs.«402966_j45758581572292_1_alg».proof.Proof.Gen.Kernel.Launch
import proofs.«402966_j45758581572292_1_alg».proof.Proof.Gen.Kernel.Skeleton
import proofs.«402966_j45758581572292_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! # The region of custom_call 0: the mean-aggregate linear stage `cc0__sage_kernel`, at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole staging buffer -/

abbrev r0_0 : Rect S2000x86 := Rect.unit (s := S2000x86) ![0, 0] S2000x86.size inb_S2000x86_S2000x86_0_0
abbrev r0_1 : Rect S2000x1 := Rect.unit (s := S2000x1) ![0, 0] S2000x1.size inb_S2000x1_S2000x1_0_0
abbrev r0_2 : Rect S2000x72 := Rect.unit (s := S2000x72) ![0, 0] S2000x72.size inb_S2000x72_S2000x72_0_0
abbrev r0_3 : Rect S86x256 := Rect.unit (s := S86x256) ![0, 0] S86x256.size inb_S86x256_S86x256_0_0
abbrev r0_4 : Rect S72x256 := Rect.unit (s := S72x256) ![0, 0] S72x256.size inb_S72x256_S72x256_0_0
abbrev r0_5 : Rect S2000x256 := Rect.unit (s := S2000x256) ![0, 0] S2000x256.size inb_S2000x256_S2000x256_0_0

/-- The output window's staging buffer after the body: the one whole-block store of
    `max (mean · Wl + dst · Wr) 0`, the mean the row sums over `max count 1`. -/
def out0_5 (x0 : Vec F S2000x86 .f32) (x1 : Vec F S2000x1 .f32) (x2 : Vec F S2000x72 .f32) (x3 : Vec F S86x256 .f32) (x4 : Vec F S72x256 .f32) : Vec F S2000x256 .f32 :=
  View.canon [⟨r0_5, k0_pay1 (View.ld x1 r0_1) (View.ld x0 r0_0) (View.ld x3 r0_3) (View.ld x2 r0_2) (View.ld x4 r0_4)⟩]

/-- The one store covers the buffer. -/
theorem cover0_5 (p0 : Vec F S2000x256 .f32) (y : S2000x256.Idx) :
    ∃ pc ∈ ([⟨r0_5, p0⟩] : List (View.Piece (Elt F) S2000x256 .f32)), y ∈ pc.1.set :=
  View.cover_of_tiled [⟨r0_5, p0⟩] S2000x256.size (by rfl) y

set_option maxHeartbeats 1000000 in
/-- The body on whole staging memrefs, the five inputs' at contents `xW` and the output's at anything, runs to the
    continuation with the inputs as they were and the output at `out0_5` of them. -/
theorem sound_kernel0 (c : Dev nD) (E : Set ℕ) (i : grid0.Coords) (arg1 : Memref sig .tc .vmem S2000x86 .f32) (harg1 : arg1.IsWhole) (arg2 : Memref sig .tc .vmem S2000x1 .f32) (harg2 : arg2.IsWhole) (arg3 : Memref sig .tc .vmem S2000x72 .f32) (harg3 : arg3.IsWhole) (arg4 : Memref sig .tc .vmem S86x256 .f32) (harg4 : arg4.IsWhole) (arg5 : Memref sig .tc .vmem S72x256 .f32) (harg5 : arg5.IsWhole) (arg6 : Memref sig .tc .vmem S2000x256 .f32) (harg6 : arg6.IsWhole)
    (x0 : Vec F S2000x86 .f32) (x1 : Vec F S2000x1 .f32) (x2 : Vec F S2000x72 .f32) (x3 : Vec F S86x256 .f32) (x4 : Vec F S72x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The arrays as the region finds them; after the body at point `t` each input's buffer at its block and the
    output's at `out0_5` of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Regions

end
-- ==== Proof.BitsSage1.lean ====
/- The mean-aggregate linear stage over the cmp-to-cmp edges (layer 1) as a pipelined region: at ANY contents `V` of the
   TensorCore's buffers on entry, what each grid point's body leaves in the output window's staging buffer — the
   2000-row block of `max (mean · Wl + dst · Wr) 0` — and the proof data under which the pipeline runs. Stated at any
   float instance. -/
import proofs.«402966_j45758581572292_1_alg».proof.Proof.Gen.Kernel.Launch
import proofs.«402966_j45758581572292_1_alg».proof.Proof.Gen.Kernel.Skeleton
import proofs.«402966_j45758581572292_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! # The region of custom_call 1: the mean-aggregate linear stage `cc1__sage_kernel`, at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev r1_0 : Rect S2000x86 := Rect.unit (s := S2000x86) ![0, 0] S2000x86.size inb_S2000x86_S2000x86_0_0
abbrev r1_1 : Rect S2000x1 := Rect.unit (s := S2000x1) ![0, 0] S2000x1.size inb_S2000x1_S2000x1_0_0
abbrev r1_2 : Rect S2000x86 := Rect.unit (s := S2000x86) ![0, 0] S2000x86.size inb_S2000x86_S2000x86_0_0
abbrev r1_3 : Rect S86x256 := Rect.unit (s := S86x256) ![0, 0] S86x256.size inb_S86x256_S86x256_0_0
abbrev r1_4 : Rect S86x256 := Rect.unit (s := S86x256) ![0, 0] S86x256.size inb_S86x256_S86x256_0_0
abbrev r1_5 : Rect S2000x256 := Rect.unit (s := S2000x256) ![0, 0] S2000x256.size inb_S2000x256_S2000x256_0_0

/-- The output window's staging buffer after the body: the one whole-block store of
    `max (mean · Wl + dst · Wr) 0`, the mean the row sums over `max count 1`. -/
def out1_5 (x0 : Vec F S2000x86 .f32) (x1 : Vec F S2000x1 .f32) (x2 : Vec F S2000x86 .f32) (x3 : Vec F S86x256 .f32) (x4 : Vec F S86x256 .f32) : Vec F S2000x256 .f32 :=
  View.canon [⟨r1_5, k1_pay1 (View.ld x1 r1_1) (View.ld x0 r1_0) (View.ld x3 r1_3) (View.ld x2 r1_2) (View.ld x4 r1_4)⟩]

/-- The one store covers the buffer. -/
theorem cover1_5 (p0 : Vec F S2000x256 .f32) (y : S2000x256.Idx) :
    ∃ pc ∈ ([⟨r1_5, p0⟩] : List (View.Piece (Elt F) S2000x256 .f32)), y ∈ pc.1.set :=
  View.cover_of_tiled [⟨r1_5, p0⟩] S2000x256.size (by rfl) y

set_option maxHeartbeats 1000000 in
/-- The body on whole staging memrefs, the five inputs' at contents `xW` and the output's at anything, runs to the
    continuation with the inputs as they were and the output at `out1_5` of them. -/
theorem sound_kernel1 (c : Dev nD) (E : Set ℕ) (i : grid1.Coords) (arg1 : Memref sig .tc .vmem S2000x86 .f32) (harg1 : arg1.IsWhole) (arg2 : Memref sig .tc .vmem S2000x1 .f32) (harg2 : arg2.IsWhole) (arg3 : Memref sig .tc .vmem S2000x86 .f32) (harg3 : arg3.IsWhole) (arg4 : Memref sig .tc .vmem S86x256 .f32) (harg4 : arg4.IsWhole) (arg5 : Memref sig .tc .vmem S86x256 .f32) (harg5 : arg5.IsWhole) (arg6 : Memref sig .tc .vmem S2000x256 .f32) (harg6 : arg6.IsWhole)
    (x0 : Vec F S2000x86 .f32) (x1 : Vec F S2000x1 .f32) (x2 : Vec F S2000x86 .f32) (x3 : Vec F S86x256 .f32) (x4 : Vec F S86x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The arrays as the region finds them; after the body at point `t` each input's buffer at its block and the
    output's at `out1_5` of the input blocks; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Regions

end
-- ==== Proof.BitsSage2.lean ====
/- The second-layer mean-aggregate linear stage (slk nodes) as a pipelined region: at ANY contents `V` of the
   TensorCore's buffers on entry, what each grid point's body leaves in the output window's staging buffer — the
   2000-row block of `max (mean · Wl + dst · Wr) 0` — and the proof data under which the pipeline runs. Stated at any
   float instance. -/
import proofs.«402966_j45758581572292_1_alg».proof.Proof.Gen.Kernel.Launch
import proofs.«402966_j45758581572292_1_alg».proof.Proof.Gen.Kernel.Skeleton
import proofs.«402966_j45758581572292_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! # The region of custom_call 2: the mean-aggregate linear stage `cc2__sage_kernel`, at the entry contents `V` -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/

abbrev r2_0 : Rect S2000x256 := Rect.unit (s := S2000x256) ![0, 0] S2000x256.size inb_S2000x256_S2000x256_0_0
abbrev r2_1 : Rect S2000x1 := Rect.unit (s := S2000x1) ![0, 0] S2000x1.size inb_S2000x1_S2000x1_0_0
abbrev r2_2 : Rect S2000x256 := Rect.unit (s := S2000x256) ![0, 0] S2000x256.size inb_S2000x256_S2000x256_0_0
abbrev r2_3 : Rect S256x256 := Rect.unit (s := S256x256) ![0, 0] S256x256.size inb_S256x256_S256x256_0_0
abbrev r2_4 : Rect S256x256 := Rect.unit (s := S256x256) ![0, 0] S256x256.size inb_S256x256_S256x256_0_0
abbrev r2_5 : Rect S2000x256 := Rect.unit (s := S2000x256) ![0, 0] S2000x256.size inb_S2000x256_S2000x256_0_0

/-- The output window's staging buffer after the body: the one whole-block store of
    `max (mean · Wl + dst · Wr) 0`, the mean the row sums over `max count 1`. -/
def out2_5 (x0 : Vec F S2000x256 .f32) (x1 : Vec F S2000x1 .f32) (x2 : Vec F S2000x256 .f32) (x3 : Vec F S256x256 .f32) (x4 : Vec F S256x256 .f32) : Vec F S2000x256 .f32 :=
  View.canon [⟨r2_5, k2_pay1 (View.ld x1 r2_1) (View.ld x0 r2_0) (View.ld x3 r2_3) (View.ld x2 r2_2) (View.ld x4 r2_4)⟩]

/-- The one store covers the buffer. -/
theorem cover2_5 (p0 : Vec F S2000x256 .f32) (y : S2000x256.Idx) :
    ∃ pc ∈ ([⟨r2_5, p0⟩] : List (View.Piece (Elt F) S2000x256 .f32)), y ∈ pc.1.set :=
  View.cover_of_tiled [⟨r2_5, p0⟩] S2000x256.size (by rfl) y

set_option maxHeartbeats 1000000 in
/-- The body on whole staging memrefs, the five inputs' at contents `xW` and the output's at anything, runs to the
    continuation with the inputs as they were and the output at `out2_5` of them. -/
theorem sound_kernel2 (c : Dev nD) (E : Set ℕ) (i : grid2.Coords) (arg1 : Memref sig .tc .vmem S2000x256 .f32) (harg1 : arg1.IsWhole) (arg2 : Memref sig .tc .vmem S2000x1 .f32) (harg2 : arg2.IsWhole) (arg3 : Memref sig .tc .vmem S2000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S2000x256 .f32) (harg6 : arg6.IsWhole)
    (x0 : Vec F S2000x256 .f32) (x1 : Vec F S2000x1 .f32) (x2 : Vec F S2000x256 .f32) (x3 : Vec F S256x256 .f32) (x4 : Vec F S256x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__sage_kernel i arg1 harg1 arg2 harg2 arg3 harg3 arg4 harg4 arg5 harg5 arg6 harg6) K := by
  simp only [cc2__sage_kernel_eq_skeleton]; unfold cc2__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The arrays as the region finds them; after the body at point `t` each input's buffer at its block and the
    output's at `out2_5` of the input blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Regions

end
-- ==== Proof.BitsMlp.lean ====
/- The shared two-layer perceptron with its three heads as a pipelined region: at ANY contents `V` of the
   TensorCore's buffers on entry, what each grid point's body leaves in the four output windows' staging buffers —
   the 2000-row blocks of the hidden features and of the rotation, x and y heads — and the proof data under which the
   pipeline runs. Stated at any float instance. -/
import proofs.«402966_j45758581572292_1_alg».proof.Proof.Gen.Kernel.Launch
import proofs.«402966_j45758581572292_1_alg».proof.Proof.Gen.Kernel.Skeleton
import proofs.«402966_j45758581572292_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! # The region of custom_call 3: `cc3__mlp_kernel`, at the entry contents `V` -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and every store takes the whole staging buffer -/

abbrev r3_0 : Rect S2000x256 := Rect.unit (s := S2000x256) ![0, 0] S2000x256.size inb_S2000x256_S2000x256_0_0
abbrev r3_1 : Rect S256x64 := Rect.unit (s := S256x64) ![0, 0] S256x64.size inb_S256x64_S256x64_0_0
abbrev r3_2 : Rect S1x64 := Rect.unit (s := S1x64) ![0, 0] S1x64.size inb_S1x64_S1x64_0_0
abbrev r3_3 : Rect S64x64 := Rect.unit (s := S64x64) ![0, 0] S64x64.size inb_S64x64_S64x64_0_0
abbrev r3_4 : Rect S1x64 := Rect.unit (s := S1x64) ![0, 0] S1x64.size inb_S1x64_S1x64_0_0
abbrev r3_5 : Rect S64x36 := Rect.unit (s := S64x36) ![0, 0] S64x36.size inb_S64x36_S64x36_0_0
abbrev r3_6 : Rect S1x36 := Rect.unit (s := S1x36) ![0, 0] S1x36.size inb_S1x36_S1x36_0_0
abbrev r3_7 : Rect S64x1 := Rect.unit (s := S64x1) ![0, 0] S64x1.size inb_S64x1_S64x1_0_0
abbrev r3_8 : Rect S1x1 := Rect.unit (s := S1x1) ![0, 0] S1x1.size inb_S1x1_S1x1_0_0
abbrev r3_9 : Rect S64x1 := Rect.unit (s := S64x1) ![0, 0] S64x1.size inb_S64x1_S64x1_0_0
abbrev r3_10 : Rect S1x1 := Rect.unit (s := S1x1) ![0, 0] S1x1.size inb_S1x1_S1x1_0_0
abbrev r3_11 : Rect S2000x64 := Rect.unit (s := S2000x64) ![0, 0] S2000x64.size inb_S2000x64_S2000x64_0_0
abbrev r3_12 : Rect S2000x36 := Rect.unit (s := S2000x36) ![0, 0] S2000x36.size inb_S2000x36_S2000x36_0_0
abbrev r3_13 : Rect S2000x1 := Rect.unit (s := S2000x1) ![0, 0] S2000x1.size inb_S2000x1_S2000x1_0_0
abbrev r3_14 : Rect S2000x1 := Rect.unit (s := S2000x1) ![0, 0] S2000x1.size inb_S2000x1_S2000x1_0_0

/-- Output window 11's staging buffer after the body: one whole-block store of the hidden features `max (max (s2 · W_in + b_in) 0 · W_lin + b_lin) 0`. -/
def out3_11 (x0 : Vec F S2000x256 .f32) (x1 : Vec F S256x64 .f32) (x2 : Vec F S1x64 .f32) (x3 : Vec F S64x64 .f32) (x4 : Vec F S1x64 .f32) (x5 : Vec F S64x36 .f32) (x6 : Vec F S1x36 .f32) (x7 : Vec F S64x1 .f32) (x8 : Vec F S1x1 .f32) (x9 : Vec F S64x1 .f32) (x10 : Vec F S1x1 .f32) : Vec F S2000x64 .f32 :=
  View.canon [⟨r3_11, k3_pay3 (View.ld x0 r3_0) (View.ld x1 r3_1) (View.ld x2 r3_2) (View.ld x3 r3_3) (View.ld x4 r3_4)⟩]

theorem cover3_11 (p0 : Vec F S2000x64 .f32) (y : S2000x64.Idx) :
    ∃ pc ∈ ([⟨r3_11, p0⟩] : List (View.Piece (Elt F) S2000x64 .f32)), y ∈ pc.1.set :=
  View.cover_of_tiled [⟨r3_11, p0⟩] S2000x64.size (by rfl) y

/-- Output window 12's staging buffer after the body: one whole-block store of the rotation head `h · W_rot + b_rot`. -/
def out3_12 (x0 : Vec F S2000x256 .f32) (x1 : Vec F S256x64 .f32) (x2 : Vec F S1x64 .f32) (x3 : Vec F S64x64 .f32) (x4 : Vec F S1x64 .f32) (x5 : Vec F S64x36 .f32) (x6 : Vec F S1x36 .f32) (x7 : Vec F S64x1 .f32) (x8 : Vec F S1x1 .f32) (x9 : Vec F S64x1 .f32) (x10 : Vec F S1x1 .f32) : Vec F S2000x36 .f32 :=
  View.canon [⟨r3_12, k3_pay4 (View.ld x0 r3_0) (View.ld x1 r3_1) (View.ld x2 r3_2) (View.ld x3 r3_3) (View.ld x4 r3_4) (View.ld x5 r3_5) (View.ld x6 r3_6)⟩]

theorem cover3_12 (p0 : Vec F S2000x36 .f32) (y : S2000x36.Idx) :
    ∃ pc ∈ ([⟨r3_12, p0⟩] : List (View.Piece (Elt F) S2000x36 .f32)), y ∈ pc.1.set :=
  View.cover_of_tiled [⟨r3_12, p0⟩] S2000x36.size (by rfl) y

/-- Output window 13's staging buffer after the body: one whole-block store of the x head `h · W_x + b_x`. -/
def out3_13 (x0 : Vec F S2000x256 .f32) (x1 : Vec F S256x64 .f32) (x2 : Vec F S1x64 .f32) (x3 : Vec F S64x64 .f32) (x4 : Vec F S1x64 .f32) (x5 : Vec F S64x36 .f32) (x6 : Vec F S1x36 .f32) (x7 : Vec F S64x1 .f32) (x8 : Vec F S1x1 .f32) (x9 : Vec F S64x1 .f32) (x10 : Vec F S1x1 .f32) : Vec F S2000x1 .f32 :=
  View.canon [⟨r3_13, k3_pay1 (k3_pay5 (View.ld x0 r3_0) (View.ld x1 r3_1) (View.ld x2 r3_2) (View.ld x3 r3_3) (View.ld x4 r3_4) (View.ld x7 r3_7)) (View.ld x8 r3_8)⟩]

theorem cover3_13 (p0 : Vec F S2000x1 .f32) (y : S2000x1.Idx) :
    ∃ pc ∈ ([⟨r3_13, p0⟩] : List (View.Piece (Elt F) S2000x1 .f32)), y ∈ pc.1.set :=
  View.cover_of_tiled [⟨r3_13, p0⟩] S2000x1.size (by rfl) y

/-- Output window 14's staging buffer after the body: one whole-block store of the y head `h · W_y + b_y`. -/
def out3_14 (x0 : Vec F S2000x256 .f32) (x1 : Vec F S256x64 .f32) (x2 : Vec F S1x64 .f32) (x3 : Vec F S64x64 .f32) (x4 : Vec F S1x64 .f32) (x5 : Vec F S64x36 .f32) (x6 : Vec F S1x36 .f32) (x7 : Vec F S64x1 .f32) (x8 : Vec F S1x1 .f32) (x9 : Vec F S64x1 .f32) (x10 : Vec F S1x1 .f32) : Vec F S2000x1 .f32 :=
  View.canon [⟨r3_14, k3_pay2 (k3_pay3 (View.ld x0 r3_0) (View.ld x1 r3_1) (View.ld x2 r3_2) (View.ld x3 r3_3) (View.ld x4 r3_4)) (View.ld x9 r3_9) (View.ld x10 r3_10)⟩]

theorem cover3_14 (p0 : Vec F S2000x1 .f32) (y : S2000x1.Idx) :
    ∃ pc ∈ ([⟨r3_14, p0⟩] : List (View.Piece (Elt F) S2000x1 .f32)), y ∈ pc.1.set :=
  View.cover_of_tiled [⟨r3_14, p0⟩] S2000x1.size (by rfl) y

set_option maxHeartbeats 4000000 in
/-- The body on whole staging memrefs, the eleven inputs' at contents `xW` and the outputs' at anything, runs to the
    continuation with the inputs as they were and each output at its `out3_W` of them. -/
theorem sound_kernel3 (c : Dev nD) (E : Set ℕ) (i : grid3.Coords) (arg1 : Memref sig .tc .vmem S2000x256 .f32) (harg1 : arg1.IsWhole) (arg2 : Memref sig .tc .vmem S256x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x36 .f32) (harg6 : arg6.IsWhole) (arg7 : Memref sig .tc .vmem S1x36 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S1x1 .f32) (harg11 : arg11.IsWhole) (arg12 : Memref sig .tc .vmem S2000x64 .f32) (harg12 : arg12.IsWhole) (arg13 : Memref sig .tc .vmem S2000x36 .f32) (harg13 : arg13.IsWhole) (arg14 : Memref sig .tc .vmem S2000x1 .f32) (harg14 : arg14.IsWhole) (arg15 : Memref sig .tc .vmem S2000x1 .f32) (harg15 : arg15.IsWhole)
    (x0 : Vec F S2000x256 .f32) (x1 : Vec F S256x64 .f32) (x2 : Vec F S1x64 .f32) (x3 : Vec F S64x64 .f32) (x4 : Vec F S1x64 .f32) (x5 : Vec F S64x36 .f32) (x6 : Vec F S1x36 .f32) (x7 : Vec F S64x1 .f32) (x8 : Vec F S1x1 .f32) (x9 : Vec F S64x1 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10) ∗ owns (c : Thread nD τ) arg13 fullShare (out3_12 x0 x1 x2 x3 x4 x5 x6 x7 x8 x9 x10) ∗ owns (c : Thread nD τ) arg14 fullShare (out3_13 x0 x1 x2 x3 x4 x5 x6 x7 x8 x9 x10) ∗ owns (c : Thread nD τ) arg15 fullShare (out3_14 x0 x1 x2 x3 x4 x5 x6 x7 x8 x9 x10)) -∗ K ⟨⟩))
      ⊢ wp frame (wpE (defs₀ (F := F)) Variants.none c none) E (cc3__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc3__mlp_kernel_eq_skeleton]; unfold cc3__mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover3_11 _)
  isplitl [H12]
  · iexists _; isplitr
    swap; · iexact H12
    ipureintro
    try dsimp only
    exact View.read_writes_eq_canon _ _ _ (cover3_12 _)
  isplitl [H13]
  · iexists _; isplitr
    swap; · iexact H13
    ipureintro
    try dsimp only
    exact View.read_writes_eq_canon _ _ _ (cover3_13 _)
  iexists _; isplitr
  swap; · iexact H14
  ipureintro
  try dsimp only
  exact View.read_writes_eq_canon _ _ _ (cover3_14 _)

/-! ## The pipeline's proof data -/

/-- The arrays as the region finds them; after the body at point `t` each input's buffer at its block and each
    output's at its `out3_W` of the input blocks; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
    | ⟨12, _⟩ => out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
    | ⟨13, _⟩ => out3_13 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
    | ⟨14, _⟩ => out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]
theorem after3_12 (c : Dev nD) (t : Fin cfg3.N) : (dat3 V c).after 12 t = out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]
theorem after3_13 (c : Dev nD) (t : Fin cfg3.N) : (dat3 V c).after 13 t = out3_13 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]
theorem after3_14 (c : Dev nD) (t : Fin cfg3.N) : (dat3 V c).after 14 t = out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel3 c Set.univ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Regions

end
-- ==== Proof.BitsRun.lean ====
/- The kernel program's run as seven items — a stretch of host operations, the two first-layer stage regions, a host
   stretch, the second-layer stage region, a host stretch, the perceptron region —: the TensorCore's buffer contents at
   each boundary as a fold from the launch memory (a stretch applies its operations; a region replaces its windows'
   arrays by what its write-backs leave), every pipeline's proof data at its region's entry contents, each region as a
   segment over the thread state "every unscoped buffer at the boundary's contents", and the launch: every weakly fair
   execution terminates, nothing faulting, and every unscoped buffer ends at the last boundary's contents. Stated at any
   float instance. -/
import proofs.«402966_j45758581572292_1_alg».proof.Proof.Gen.Kernel.Launch
import proofs.«402966_j45758581572292_1_alg».proof.Proof.Gen.Kernel.Skeleton
import proofs.«402966_j45758581572292_1_alg».proof.Proof.Gen.Kernel.Points
import proofs.«402966_j45758581572292_1_alg».proof.Proof.BitsSage0
import proofs.«402966_j45758581572292_1_alg».proof.Proof.BitsSage1
import proofs.«402966_j45758581572292_1_alg».proof.Proof.BitsSage2
import proofs.«402966_j45758581572292_1_alg».proof.Proof.BitsMlp
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

set_option maxHeartbeats 4000000 in
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_c, main_v20, main_v21, main_c_0, main_v22, main_v23, main_v24, main_v25, main_v26, main_c_1, main_v27, main_v28, main_c_2, main_v29, main_v30, main_v31, main_v32, main_v33, main_c_3, main_v34, main_v35, main_c_4, main_v36, main_v37, main_v38, main_v39, main_v40, main_c_5, main_v41, main_v42, main_c_6, main_v43, main_v44, main_v45, main_v46, main_v47, main_v48, main_c_7, main_v49, main_v50, main_c_8, main_v51, main_v52, main_v53, main_v54, main_v55, main_c_9, main_v56, main_v57, main_c_10, main_v58, main_v59, main_v60, main_v61, main_v62, main_v63, main_c_11, main_v64, main_v65, main_c_12, main_v66, main_v67, main_v68, main_v69, main_v70, main_cst, main_v71, main_v72, main_v73, main_cst_13, main_v74, main_cst_14, main_v75, main_v76, main_v77, main_v78, main_c_15, main_v79, main_v80, main_c_16, main_v81, main_v82, main_v83, main_v84, main_v85, main_cst_17, main_v86, main_v87, main_v88, main_cst_18, main_v89, main_cst_19, main_v90, main_v91, main_v92, main_v93]
set_option maxHeartbeats 4000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_c_20, main_v96, main_v97, main_c_21, main_v98, main_v99, main_v100, main_v101, main_v102, main_cst_22, main_v103, main_v104, main_v105]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v107, main_v108, main_v109, main_v110, main_v111]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## The buffer contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- A buffer the stretch does not write keeps its contents. -/
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h

/-- At the exit of region 0: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- A buffer that is no OUTPUT window's array of region 0 leaves it as it entered. -/
theorem W2_keep (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hb w hw)
    exact W2_in m ρ c w hin
  · exact W2_of_ne m ρ c b (fun w e => h ⟨w, e⟩)

/-- At the exit of region 1: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- An input window's array leaves region 1 as it entered. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
/-- A buffer that is no OUTPUT window's array of region 1 leaves it as it entered. -/
theorem W3_keep (c : Dev nD) (b : Ref sig .tc) (hb : ∀ w, (cfg1.win w).isOut = true → Pipeline.arrRef spec1 w ≠ b) :
    W3 m ρ c (Proc.devRef .tc b) = W2 m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hb w hw)
    exact W3_in m ρ c w hin
  · exact W3_of_ne m ρ c b (fun w e => h ⟨w, e⟩)

/-- After the host stretch `hostOps2`. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- A buffer the stretch does not write keeps its contents. -/
theorem W4_keep (c : Dev nD) (b : Ref sig .tc) (h : b ∉ hostOps2_W) : W4 m ρ c (Proc.devRef .tc b) = W3 m ρ c (Proc.devRef .tc b) :=
  StableHlo.after_of_writes_sub hostOps2 _ hostOps2_writes h

/-- At the exit of region 2: its arrays at what the pipeline leaves (the inputs as entered, each output's write-backs
    folded), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- An input window's array leaves region 2 as it entered. -/
theorem W5_in (c : Dev nD) (w : Fin cfg2.W) (hin : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hin _).trans (A_eq2 (V4 m ρ) c w))
/-- A buffer that is no OUTPUT window's array of region 2 leaves it as it entered. -/
theorem W5_keep (c : Dev nD) (b : Ref sig .tc) (hb : ∀ w, (cfg2.win w).isOut = true → Pipeline.arrRef spec2 w ≠ b) :
    W5 m ρ c (Proc.devRef .tc b) = W4 m ρ c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd rfl (hb w hw)
    exact W5_in m ρ c w hin
  · exact W5_of_ne m ρ c b (fun w e => h ⟨w, e⟩)

/-- After the host stretch `hostOps3`. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- A buffer the stretch does not write keeps its contents. -/
theorem W6_keep (c : Dev nD) (b : Ref sig .tc) (h : b ∉ hostOps3_W) : W6 m ρ c (Proc.devRef .tc b) = W5 m ρ c (Proc.devRef .tc b) :=
  StableHlo.after_of_writes_sub hostOps3 _ hostOps3_writes h

/-- At the exit of region 3: its arrays at what the pipeline leaves (the inputs as entered, each output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- An input window's array leaves region 3 as it entered. -/
theorem W7_in (c : Dev nD) (w : Fin cfg3.W) (hin : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hin _).trans (A_eq3 (V6 m ρ) c w))
/-- A buffer that is no OUTPUT window's array of region 3 leaves it as it entered. -/
theorem W7_keep (c : Dev nD) (b : Ref sig .tc) (hb : ∀ w, (cfg3.win w).isOut = true → Pipeline.arrRef spec3 w ≠ b) :
    W7 m ρ c (Proc.devRef .tc b) = W6 m ρ c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd rfl (hb w hw)
    exact W7_in m ρ c w hin
  · exact W7_of_ne m ρ c b (fun w e => h ⟨w, e⟩)

/-- A buffer that no host operation writes and that is no region's output array ends as launched. -/
theorem W7_launch (c : Dev nD) (b : Ref sig .tc) (h0 : b ∉ hostOps0_W) (h2 : b ∉ hostOps2_W) (h3 : b ∉ hostOps3_W)
    (r0 : ∀ w, (cfg0.win w).isOut = true → Pipeline.arrRef spec0 w ≠ b) (r1 : ∀ w, (cfg1.win w).isOut = true → Pipeline.arrRef spec1 w ≠ b)
    (r2 : ∀ w, (cfg2.win w).isOut = true → Pipeline.arrRef spec2 w ≠ b) (r3 : ∀ w, (cfg3.win w).isOut = true → Pipeline.arrRef spec3 w ≠ b) :
    W7 m ρ c (Proc.devRef .tc b) = m ((c : Thread nD τ).loc b) :=
  calc W7 m ρ c (Proc.devRef .tc b)
    _ = W6 m ρ c (Proc.devRef .tc b) := W7_keep m ρ c b r3
    _ = W5 m ρ c (Proc.devRef .tc b) := W6_keep m ρ c b h3
    _ = W4 m ρ c (Proc.devRef .tc b) := W5_keep m ρ c b r2
    _ = W3 m ρ c (Proc.devRef .tc b) := W4_keep m ρ c b h2
    _ = W2 m ρ c (Proc.devRef .tc b) := W3_keep m ρ c b r1
    _ = W1 m ρ c (Proc.devRef .tc b) := W2_keep m ρ c b r0
    _ = W0 m ρ c (Proc.devRef .tc b) := W1_keep m ρ c b h0
    _ = m ((c : Thread nD τ).loc b) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The region of custom_call 0 over the thread state: entered from every unscoped buffer at `W1`, left at `W2`.
    Its arrays are split out of the unscoped buffers and put back at the exit contents; the generator register goes into
    the pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of custom_call 1 over the thread state: entered from every unscoped buffer at `W2`, left at `W3`.
    Its arrays are split out of the unscoped buffers and put back at the exit contents; the generator register goes into
    the pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of custom_call 2 over the thread state: entered from every unscoped buffer at `W4`, left at `W5`.
    Its arrays are split out of the unscoped buffers and put back at the exit contents; the generator register goes into
    the pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of custom_call 3 over the thread state: entered from every unscoped buffer at `W6`, left at `W7`.
    Its arrays are split out of the unscoped buffers and put back at the exit contents; the generator register goes into
    the pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
set_option maxHeartbeats 4000000 in
theorem main_run (c : Dev nD) : main (F := F) c = Pipeline.Seg.run (segs m ρ) := (main_chain c).trans (by chain_rfl)

set_option backward.isDefEq.respectTransparency.types false in
set_option maxHeartbeats 4000000 in
/-- THE RUN: from any memory with zero counters every weakly fair execution of @main on the TensorCores terminates,
    nothing faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Regions

end
-- ==== Proof.BitsEnds.lean ====
/- Every buffer that no host operation writes and that is no region's output array — every argument of @main — ends
   the run holding its launch contents: the last boundary's contents read back through the fold. Stated at any float
   instance. -/
import proofs.«402966_j45758581572292_1_alg».proof.Proof.Gen.Kernel.Launch
import proofs.«402966_j45758581572292_1_alg».proof.Proof.Gen.Kernel.Skeleton
import proofs.«402966_j45758581572292_1_alg».proof.Proof.Gen.Kernel.Points
import proofs.«402966_j45758581572292_1_alg».proof.Proof.BitsRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In a final state that holds every unscoped buffer at the last boundary's contents, a buffer that no stretch writes
    and no region puts out holds what the launch gave it. -/
theorem ends_as_launched (c : Dev nD) (b : Ref sig .tc) {s : MemSt nD τ sig (Elt F)}
    (hs : ∀ b ∈ Pipeline.ucRefs τ sig, s.mem (((c : Thread nD τ)).1, b) = W7 m ρ c b)
    (hu : ¬ (Proc.devRef .tc b : DevRef τ sig).isScoped)
    (h0 : b ∉ hostOps0_W) (h2 : b ∉ hostOps2_W) (h3 : b ∉ hostOps3_W)
    (r0 : ∀ w, (cfg0.win w).isOut = true → Pipeline.arrRef spec0 w ≠ b) (r1 : ∀ w, (cfg1.win w).isOut = true → Pipeline.arrRef spec1 w ≠ b)
    (r2 : ∀ w, (cfg2.win w).isOut = true → Pipeline.arrRef spec2 w ≠ b) (r3 : ∀ w, (cfg3.win w).isOut = true → Pipeline.arrRef spec3 w ≠ b) :
    s.mem ((c.tc : Thread nD τ).loc b) = m ((c.tc : Thread nD τ).loc b) :=
  (hs _ (mem_uc b hu)).trans (W7_launch m ρ c b h0 h2 h3 r0 r1 r2 r3)

set_option maxHeartbeats 4000000 in
/-- The frame: every weakly fair execution terminates, nothing faulting, every argument array unchanged (as a
    statement over any reference that the stretches do not write and the regions do not put out). -/
theorem frame_refs : θ_run defs (onTc (τ := τ) (main (F := F))) ⟨m, fun _ => 0, ρ⟩ (fun r => ∀ c : Dev nD, ∀ b : Ref sig .tc,
      ¬ (Proc.devRef .tc b : DevRef τ sig).isScoped → b ∉ hostOps0_W → b ∉ hostOps2_W → b ∉ hostOps3_W →
      (∀ w, (cfg0.win w).isOut = true → Pipeline.arrRef spec0 w ≠ b) → (∀ w, (cfg1.win w).isOut = true → Pipeline.arrRef spec1 w ≠ b) →
      (∀ w, (cfg2.win w).isOut = true → Pipeline.arrRef spec2 w ≠ b) → (∀ w, (cfg3.win w).isOut = true → Pipeline.arrRef spec3 w ≠ b) →
      r.2.mem ((c.tc : Thread nD τ).loc b) = m ((c.tc : Thread nD τ).loc b)) :=
  (θ_run defs _ _).mono (fun r h c b hu h0 h2 h3 r0 r1 r2 r3 => ends_as_launched m ρ c b (h c) hu h0 h2 h3 r0 r1 r2 r3) (run_all m ρ)

end Cert.Kernel.Regions

end
-- ==== Proof.IdealSage0.lean ====
/- The first mean-aggregate linear stage (slk nodes, layer 1) as a pipelined region: at ANY contents `V` of the
   TensorCore's buffers on entry, what each grid point's body leaves in the output window's staging buffer — the
   2000-row block of `max (mean · Wl + dst · Wr) 0` — and the proof data under which the pipeline runs. Stated at any
   float instance. -/
import proofs.«402966_j45758581572292_1_alg».proof.Proof.Gen.KernelIdeal.Launch
import proofs.«402966_j45758581572292_1_alg».proof.Proof.Gen.KernelIdeal.Skeleton
import proofs.«402966_j45758581572292_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! # The region of custom_call 0: the mean-aggregate linear stage `cc0__sage_kernel`, at the entry contents `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole staging buffer -/

abbrev r0_0 : Rect S2000x86 := Rect.unit (s := S2000x86) ![0, 0] S2000x86.size inb_S2000x86_S2000x86_0_0
abbrev r0_1 : Rect S2000x1 := Rect.unit (s := S2000x1) ![0, 0] S2000x1.size inb_S2000x1_S2000x1_0_0
abbrev r0_2 : Rect S2000x72 := Rect.unit (s := S2000x72) ![0, 0] S2000x72.size inb_S2000x72_S2000x72_0_0
abbrev r0_3 : Rect S86x256 := Rect.unit (s := S86x256) ![0, 0] S86x256.size inb_S86x256_S86x256_0_0
abbrev r0_4 : Rect S72x256 := Rect.unit (s := S72x256) ![0, 0] S72x256.size inb_S72x256_S72x256_0_0
abbrev r0_5 : Rect S2000x256 := Rect.unit (s := S2000x256) ![0, 0] S2000x256.size inb_S2000x256_S2000x256_0_0

/-- The output window's staging buffer after the body: the one whole-block store of
    `max (mean · Wl + dst · Wr) 0`, the mean the row sums over `max count 1`. -/
def out0_5 (x0 : Vec F S2000x86 .f32) (x1 : Vec F S2000x1 .f32) (x2 : Vec F S2000x72 .f32) (x3 : Vec F S86x256 .f32) (x4 : Vec F S72x256 .f32) : Vec F S2000x256 .f32 :=
  View.canon [⟨r0_5, k0_pay1 (View.ld x1 r0_1) (View.ld x0 r0_0) (View.ld x3 r0_3) (View.ld x2 r0_2) (View.ld x4 r0_4)⟩]

/-- The one store covers the buffer. -/
theorem cover0_5 (p0 : Vec F S2000x256 .f32) (y : S2000x256.Idx) :
    ∃ pc ∈ ([⟨r0_5, p0⟩] : List (View.Piece (Elt F) S2000x256 .f32)), y ∈ pc.1.set :=
  View.cover_of_tiled [⟨r0_5, p0⟩] S2000x256.size (by rfl) y

set_option maxHeartbeats 1000000 in
/-- The body on whole staging memrefs, the five inputs' at contents `xW` and the output's at anything, runs to the
    continuation with the inputs as they were and the output at `out0_5` of them. -/
theorem sound_kernel0 (c : Dev nD) (E : Set ℕ) (i : grid0.Coords) (arg1 : Memref sig .tc .vmem S2000x86 .f32) (harg1 : arg1.IsWhole) (arg2 : Memref sig .tc .vmem S2000x1 .f32) (harg2 : arg2.IsWhole) (arg3 : Memref sig .tc .vmem S2000x72 .f32) (harg3 : arg3.IsWhole) (arg4 : Memref sig .tc .vmem S86x256 .f32) (harg4 : arg4.IsWhole) (arg5 : Memref sig .tc .vmem S72x256 .f32) (harg5 : arg5.IsWhole) (arg6 : Memref sig .tc .vmem S2000x256 .f32) (harg6 : arg6.IsWhole)
    (x0 : Vec F S2000x86 .f32) (x1 : Vec F S2000x1 .f32) (x2 : Vec F S2000x72 .f32) (x3 : Vec F S86x256 .f32) (x4 : Vec F S72x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The arrays as the region finds them; after the body at point `t` each input's buffer at its block and the
    output's at `out0_5` of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regions

end
-- ==== Proof.IdealSage1.lean ====
/- The mean-aggregate linear stage over the cmp-to-cmp edges (layer 1) as a pipelined region: at ANY contents `V` of the
   TensorCore's buffers on entry, what each grid point's body leaves in the output window's staging buffer — the
   2000-row block of `max (mean · Wl + dst · Wr) 0` — and the proof data under which the pipeline runs. Stated at any
   float instance. -/
import proofs.«402966_j45758581572292_1_alg».proof.Proof.Gen.KernelIdeal.Launch
import proofs.«402966_j45758581572292_1_alg».proof.Proof.Gen.KernelIdeal.Skeleton
import proofs.«402966_j45758581572292_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! # The region of custom_call 1: the mean-aggregate linear stage `cc1__sage_kernel`, at the entry contents `V` -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev r1_0 : Rect S2000x86 := Rect.unit (s := S2000x86) ![0, 0] S2000x86.size inb_S2000x86_S2000x86_0_0
abbrev r1_1 : Rect S2000x1 := Rect.unit (s := S2000x1) ![0, 0] S2000x1.size inb_S2000x1_S2000x1_0_0
abbrev r1_2 : Rect S2000x86 := Rect.unit (s := S2000x86) ![0, 0] S2000x86.size inb_S2000x86_S2000x86_0_0
abbrev r1_3 : Rect S86x256 := Rect.unit (s := S86x256) ![0, 0] S86x256.size inb_S86x256_S86x256_0_0
abbrev r1_4 : Rect S86x256 := Rect.unit (s := S86x256) ![0, 0] S86x256.size inb_S86x256_S86x256_0_0
abbrev r1_5 : Rect S2000x256 := Rect.unit (s := S2000x256) ![0, 0] S2000x256.size inb_S2000x256_S2000x256_0_0

/-- The output window's staging buffer after the body: the one whole-block store of
    `max (mean · Wl + dst · Wr) 0`, the mean the row sums over `max count 1`. -/
def out1_5 (x0 : Vec F S2000x86 .f32) (x1 : Vec F S2000x1 .f32) (x2 : Vec F S2000x86 .f32) (x3 : Vec F S86x256 .f32) (x4 : Vec F S86x256 .f32) : Vec F S2000x256 .f32 :=
  View.canon [⟨r1_5, k1_pay1 (View.ld x1 r1_1) (View.ld x0 r1_0) (View.ld x3 r1_3) (View.ld x2 r1_2) (View.ld x4 r1_4)⟩]

/-- The one store covers the buffer. -/
theorem cover1_5 (p0 : Vec F S2000x256 .f32) (y : S2000x256.Idx) :
    ∃ pc ∈ ([⟨r1_5, p0⟩] : List (View.Piece (Elt F) S2000x256 .f32)), y ∈ pc.1.set :=
  View.cover_of_tiled [⟨r1_5, p0⟩] S2000x256.size (by rfl) y

set_option maxHeartbeats 1000000 in
/-- The body on whole staging memrefs, the five inputs' at contents `xW` and the output's at anything, runs to the
    continuation with the inputs as they were and the output at `out1_5` of them. -/
theorem sound_kernel1 (c : Dev nD) (E : Set ℕ) (i : grid1.Coords) (arg1 : Memref sig .tc .vmem S2000x86 .f32) (harg1 : arg1.IsWhole) (arg2 : Memref sig .tc .vmem S2000x1 .f32) (harg2 : arg2.IsWhole) (arg3 : Memref sig .tc .vmem S2000x86 .f32) (harg3 : arg3.IsWhole) (arg4 : Memref sig .tc .vmem S86x256 .f32) (harg4 : arg4.IsWhole) (arg5 : Memref sig .tc .vmem S86x256 .f32) (harg5 : arg5.IsWhole) (arg6 : Memref sig .tc .vmem S2000x256 .f32) (harg6 : arg6.IsWhole)
    (x0 : Vec F S2000x86 .f32) (x1 : Vec F S2000x1 .f32) (x2 : Vec F S2000x86 .f32) (x3 : Vec F S86x256 .f32) (x4 : Vec F S86x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__sage_kernel i arg1 harg1 arg2 harg2 arg3 harg3 arg4 harg4 arg5 harg5 arg6 harg6) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The arrays as the region finds them; after the body at point `t` each input's buffer at its block and the
    output's at `out1_5` of the input blocks; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Regions

end
-- ==== Proof.IdealSage2.lean ====
/- The second-layer mean-aggregate linear stage (slk nodes) as a pipelined region: at ANY contents `V` of the
   TensorCore's buffers on entry, what each grid point's body leaves in the output window's staging buffer — the
   2000-row block of `max (mean · Wl + dst · Wr) 0` — and the proof data under which the pipeline runs. Stated at any
   float instance. -/
import proofs.«402966_j45758581572292_1_alg».proof.Proof.Gen.KernelIdeal.Launch
import proofs.«402966_j45758581572292_1_alg».proof.Proof.Gen.KernelIdeal.Skeleton
import proofs.«402966_j45758581572292_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! # The region of custom_call 2: the mean-aggregate linear stage `cc2__sage_kernel`, at the entry contents `V` -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/

abbrev r2_0 : Rect S2000x256 := Rect.unit (s := S2000x256) ![0, 0] S2000x256.size inb_S2000x256_S2000x256_0_0
abbrev r2_1 : Rect S2000x1 := Rect.unit (s := S2000x1) ![0, 0] S2000x1.size inb_S2000x1_S2000x1_0_0
abbrev r2_2 : Rect S2000x256 := Rect.unit (s := S2000x256) ![0, 0] S2000x256.size inb_S2000x256_S2000x256_0_0
abbrev r2_3 : Rect S256x256 := Rect.unit (s := S256x256) ![0, 0] S256x256.size inb_S256x256_S256x256_0_0
abbrev r2_4 : Rect S256x256 := Rect.unit (s := S256x256) ![0, 0] S256x256.size inb_S256x256_S256x256_0_0
abbrev r2_5 : Rect S2000x256 := Rect.unit (s := S2000x256) ![0, 0] S2000x256.size inb_S2000x256_S2000x256_0_0

/-- The output window's staging buffer after the body: the one whole-block store of
    `max (mean · Wl + dst · Wr) 0`, the mean the row sums over `max count 1`. -/
def out2_5 (x0 : Vec F S2000x256 .f32) (x1 : Vec F S2000x1 .f32) (x2 : Vec F S2000x256 .f32) (x3 : Vec F S256x256 .f32) (x4 : Vec F S256x256 .f32) : Vec F S2000x256 .f32 :=
  View.canon [⟨r2_5, k2_pay1 (View.ld x1 r2_1) (View.ld x0 r2_0) (View.ld x3 r2_3) (View.ld x2 r2_2) (View.ld x4 r2_4)⟩]

/-- The one store covers the buffer. -/
theorem cover2_5 (p0 : Vec F S2000x256 .f32) (y : S2000x256.Idx) :
    ∃ pc ∈ ([⟨r2_5, p0⟩] : List (View.Piece (Elt F) S2000x256 .f32)), y ∈ pc.1.set :=
  View.cover_of_tiled [⟨r2_5, p0⟩] S2000x256.size (by rfl) y

set_option maxHeartbeats 1000000 in
/-- The body on whole staging memrefs, the five inputs' at contents `xW` and the output's at anything, runs to the
    continuation with the inputs as they were and the output at `out2_5` of them. -/
theorem sound_kernel2 (c : Dev nD) (E : Set ℕ) (i : grid2.Coords) (arg1 : Memref sig .tc .vmem S2000x256 .f32) (harg1 : arg1.IsWhole) (arg2 : Memref sig .tc .vmem S2000x1 .f32) (harg2 : arg2.IsWhole) (arg3 : Memref sig .tc .vmem S2000x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S2000x256 .f32) (harg6 : arg6.IsWhole)
    (x0 : Vec F S2000x256 .f32) (x1 : Vec F S2000x1 .f32) (x2 : Vec F S2000x256 .f32) (x3 : Vec F S256x256 .f32) (x4 : Vec F S256x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__sage_kernel i arg1 harg1 arg2 harg2 arg3 harg3 arg4 harg4 arg5 harg5 arg6 harg6) K := by
  simp only [cc2__sage_kernel_eq_skeleton]; unfold cc2__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The arrays as the region finds them; after the body at point `t` each input's buffer at its block and the
    output's at `out2_5` of the input blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Regions

end
-- ==== Proof.IdealMlp.lean ====
/- The shared two-layer perceptron with its three heads as a pipelined region: at ANY contents `V` of the
   TensorCore's buffers on entry, what each grid point's body leaves in the four output windows' staging buffers —
   the 2000-row blocks of the hidden features and of the rotation, x and y heads — and the proof data under which the
   pipeline runs. Stated at any float instance. -/
import proofs.«402966_j45758581572292_1_alg».proof.Proof.Gen.KernelIdeal.Launch
import proofs.«402966_j45758581572292_1_alg».proof.Proof.Gen.KernelIdeal.Skeleton
import proofs.«402966_j45758581572292_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
/-! # The region of custom_call 3: `cc3__mlp_kernel`, at the entry contents `V` -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and every store takes the whole staging buffer -/

abbrev r3_0 : Rect S2000x256 := Rect.unit (s := S2000x256) ![0, 0] S2000x256.size inb_S2000x256_S2000x256_0_0
abbrev r3_1 : Rect S256x64 := Rect.unit (s := S256x64) ![0, 0] S256x64.size inb_S256x64_S256x64_0_0
abbrev r3_2 : Rect S1x64 := Rect.unit (s := S1x64) ![0, 0] S1x64.size inb_S1x64_S1x64_0_0
abbrev r3_3 : Rect S64x64 := Rect.unit (s := S64x64) ![0, 0] S64x64.size inb_S64x64_S64x64_0_0
abbrev r3_4 : Rect S1x64 := Rect.unit (s := S1x64) ![0, 0] S1x64.size inb_S1x64_S1x64_0_0
abbrev r3_5 : Rect S64x36 := Rect.unit (s := S64x36) ![0, 0] S64x36.size inb_S64x36_S64x36_0_0
abbrev r3_6 : Rect S1x36 := Rect.unit (s := S1x36) ![0, 0] S1x36.size inb_S1x36_S1x36_0_0
abbrev r3_7 : Rect S64x1 := Rect.unit (s := S64x1) ![0, 0] S64x1.size inb_S64x1_S64x1_0_0
abbrev r3_8 : Rect S1x1 := Rect.unit (s := S1x1) ![0, 0] S1x1.size inb_S1x1_S1x1_0_0
abbrev r3_9 : Rect S64x1 := Rect.unit (s := S64x1) ![0, 0] S64x1.size inb_S64x1_S64x1_0_0
abbrev r3_10 : Rect S1x1 := Rect.unit (s := S1x1) ![0, 0] S1x1.size inb_S1x1_S1x1_0_0
abbrev r3_11 : Rect S2000x64 := Rect.unit (s := S2000x64) ![0, 0] S2000x64.size inb_S2000x64_S2000x64_0_0
abbrev r3_12 : Rect S2000x36 := Rect.unit (s := S2000x36) ![0, 0] S2000x36.size inb_S2000x36_S2000x36_0_0
abbrev r3_13 : Rect S2000x1 := Rect.unit (s := S2000x1) ![0, 0] S2000x1.size inb_S2000x1_S2000x1_0_0
abbrev r3_14 : Rect S2000x1 := Rect.unit (s := S2000x1) ![0, 0] S2000x1.size inb_S2000x1_S2000x1_0_0

/-- Output window 11's staging buffer after the body: one whole-block store of the hidden features `max (max (s2 · W_in + b_in) 0 · W_lin + b_lin) 0`. -/
def out3_11 (x0 : Vec F S2000x256 .f32) (x1 : Vec F S256x64 .f32) (x2 : Vec F S1x64 .f32) (x3 : Vec F S64x64 .f32) (x4 : Vec F S1x64 .f32) (x5 : Vec F S64x36 .f32) (x6 : Vec F S1x36 .f32) (x7 : Vec F S64x1 .f32) (x8 : Vec F S1x1 .f32) (x9 : Vec F S64x1 .f32) (x10 : Vec F S1x1 .f32) : Vec F S2000x64 .f32 :=
  View.canon [⟨r3_11, k3_pay3 (View.ld x0 r3_0) (View.ld x1 r3_1) (View.ld x2 r3_2) (View.ld x3 r3_3) (View.ld x4 r3_4)⟩]

theorem cover3_11 (p0 : Vec F S2000x64 .f32) (y : S2000x64.Idx) :
    ∃ pc ∈ ([⟨r3_11, p0⟩] : List (View.Piece (Elt F) S2000x64 .f32)), y ∈ pc.1.set :=
  View.cover_of_tiled [⟨r3_11, p0⟩] S2000x64.size (by rfl) y

/-- Output window 12's staging buffer after the body: one whole-block store of the rotation head `h · W_rot + b_rot`. -/
def out3_12 (x0 : Vec F S2000x256 .f32) (x1 : Vec F S256x64 .f32) (x2 : Vec F S1x64 .f32) (x3 : Vec F S64x64 .f32) (x4 : Vec F S1x64 .f32) (x5 : Vec F S64x36 .f32) (x6 : Vec F S1x36 .f32) (x7 : Vec F S64x1 .f32) (x8 : Vec F S1x1 .f32) (x9 : Vec F S64x1 .f32) (x10 : Vec F S1x1 .f32) : Vec F S2000x36 .f32 :=
  View.canon [⟨r3_12, k3_pay4 (View.ld x0 r3_0) (View.ld x1 r3_1) (View.ld x2 r3_2) (View.ld x3 r3_3) (View.ld x4 r3_4) (View.ld x5 r3_5) (View.ld x6 r3_6)⟩]

theorem cover3_12 (p0 : Vec F S2000x36 .f32) (y : S2000x36.Idx) :
    ∃ pc ∈ ([⟨r3_12, p0⟩] : List (View.Piece (Elt F) S2000x36 .f32)), y ∈ pc.1.set :=
  View.cover_of_tiled [⟨r3_12, p0⟩] S2000x36.size (by rfl) y

/-- Output window 13's staging buffer after the body: one whole-block store of the x head `h · W_x + b_x`. -/
def out3_13 (x0 : Vec F S2000x256 .f32) (x1 : Vec F S256x64 .f32) (x2 : Vec F S1x64 .f32) (x3 : Vec F S64x64 .f32) (x4 : Vec F S1x64 .f32) (x5 : Vec F S64x36 .f32) (x6 : Vec F S1x36 .f32) (x7 : Vec F S64x1 .f32) (x8 : Vec F S1x1 .f32) (x9 : Vec F S64x1 .f32) (x10 : Vec F S1x1 .f32) : Vec F S2000x1 .f32 :=
  View.canon [⟨r3_13, k3_pay1 (k3_pay5 (View.ld x0 r3_0) (View.ld x1 r3_1) (View.ld x2 r3_2) (View.ld x3 r3_3) (View.ld x4 r3_4) (View.ld x7 r3_7)) (View.ld x8 r3_8)⟩]

theorem cover3_13 (p0 : Vec F S2000x1 .f32) (y : S2000x1.Idx) :
    ∃ pc ∈ ([⟨r3_13, p0⟩] : List (View.Piece (Elt F) S2000x1 .f32)), y ∈ pc.1.set :=
  View.cover_of_tiled [⟨r3_13, p0⟩] S2000x1.size (by rfl) y

/-- Output window 14's staging buffer after the body: one whole-block store of the y head `h · W_y + b_y`. -/
def out3_14 (x0 : Vec F S2000x256 .f32) (x1 : Vec F S256x64 .f32) (x2 : Vec F S1x64 .f32) (x3 : Vec F S64x64 .f32) (x4 : Vec F S1x64 .f32) (x5 : Vec F S64x36 .f32) (x6 : Vec F S1x36 .f32) (x7 : Vec F S64x1 .f32) (x8 : Vec F S1x1 .f32) (x9 : Vec F S64x1 .f32) (x10 : Vec F S1x1 .f32) : Vec F S2000x1 .f32 :=
  View.canon [⟨r3_14, k3_pay2 (k3_pay3 (View.ld x0 r3_0) (View.ld x1 r3_1) (View.ld x2 r3_2) (View.ld x3 r3_3) (View.ld x4 r3_4)) (View.ld x9 r3_9) (View.ld x10 r3_10)⟩]

theorem cover3_14 (p0 : Vec F S2000x1 .f32) (y : S2000x1.Idx) :
    ∃ pc ∈ ([⟨r3_14, p0⟩] : List (View.Piece (Elt F) S2000x1 .f32)), y ∈ pc.1.set :=
  View.cover_of_tiled [⟨r3_14, p0⟩] S2000x1.size (by rfl) y

set_option maxHeartbeats 4000000 in
/-- The body on whole staging memrefs, the eleven inputs' at contents `xW` and the outputs' at anything, runs to the
    continuation with the inputs as they were and each output at its `out3_W` of them. -/
theorem sound_kernel3 (c : Dev nD) (E : Set ℕ) (i : grid3.Coords) (arg1 : Memref sig .tc .vmem S2000x256 .f32) (harg1 : arg1.IsWhole) (arg2 : Memref sig .tc .vmem S256x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x36 .f32) (harg6 : arg6.IsWhole) (arg7 : Memref sig .tc .vmem S1x36 .f32) (harg7 : arg7.IsWhole) (arg8 : Memref sig .tc .vmem S64x1 .f32) (harg8 : arg8.IsWhole) (arg9 : Memref sig .tc .vmem S1x1 .f32) (harg9 : arg9.IsWhole) (arg10 : Memref sig .tc .vmem S64x1 .f32) (harg10 : arg10.IsWhole) (arg11 : Memref sig .tc .vmem S1x1 .f32) (harg11 : arg11.IsWhole) (arg12 : Memref sig .tc .vmem S2000x64 .f32) (harg12 : arg12.IsWhole) (arg13 : Memref sig .tc .vmem S2000x36 .f32) (harg13 : arg13.IsWhole) (arg14 : Memref sig .tc .vmem S2000x1 .f32) (harg14 : arg14.IsWhole) (arg15 : Memref sig .tc .vmem S2000x1 .f32) (harg15 : arg15.IsWhole)
    (x0 : Vec F S2000x256 .f32) (x1 : Vec F S256x64 .f32) (x2 : Vec F S1x64 .f32) (x3 : Vec F S64x64 .f32) (x4 : Vec F S1x64 .f32) (x5 : Vec F S64x36 .f32) (x6 : Vec F S1x36 .f32) (x7 : Vec F S64x1 .f32) (x8 : Vec F S1x1 .f32) (x9 : Vec F S64x1 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10) ∗ owns (c : Thread nD τ) arg13 fullShare (out3_12 x0 x1 x2 x3 x4 x5 x6 x7 x8 x9 x10) ∗ owns (c : Thread nD τ) arg14 fullShare (out3_13 x0 x1 x2 x3 x4 x5 x6 x7 x8 x9 x10) ∗ owns (c : Thread nD τ) arg15 fullShare (out3_14 x0 x1 x2 x3 x4 x5 x6 x7 x8 x9 x10)) -∗ K ⟨⟩))
      ⊢ wp frame (wpE (defs₀ (F := F)) Variants.none c none) E (cc3__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc3__mlp_kernel_eq_skeleton]; unfold cc3__mlp_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover3_11 _)
  isplitl [H12]
  · iexists _; isplitr
    swap; · iexact H12
    ipureintro
    try dsimp only
    exact View.read_writes_eq_canon _ _ _ (cover3_12 _)
  isplitl [H13]
  · iexists _; isplitr
    swap; · iexact H13
    ipureintro
    try dsimp only
    exact View.read_writes_eq_canon _ _ _ (cover3_13 _)
  iexists _; isplitr
  swap; · iexact H14
  ipureintro
  try dsimp only
  exact View.read_writes_eq_canon _ _ _ (cover3_14 _)

/-! ## The pipeline's proof data -/

/-- The arrays as the region finds them; after the body at point `t` each input's buffer at its block and each
    output's at its `out3_W` of the input blocks; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
    | ⟨12, _⟩ => out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
    | ⟨13, _⟩ => out3_13 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
    | ⟨14, _⟩ => out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]
theorem after3_12 (c : Dev nD) (t : Fin cfg3.N) : (dat3 V c).after 12 t = out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]
theorem after3_13 (c : Dev nD) (t : Fin cfg3.N) : (dat3 V c).after 13 t = out3_13 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]
theorem after3_14 (c : Dev nD) (t : Fin cfg3.N) : (dat3 V c).after 14 t = out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel3 c Set.univ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Regions

end
-- ==== Proof.IdealRun.lean ====
/- The kernel program's run as seven items — a stretch of host operations, the two first-layer stage regions, a host
   stretch, the second-layer stage region, a host stretch, the perceptron region —: the TensorCore's buffer contents at
   each boundary as a fold from the launch memory (a stretch applies its operations; a region replaces its windows'
   arrays by what its write-backs leave), every pipeline's proof data at its region's entry contents, each region as a
   segment over the thread state "every unscoped buffer at the boundary's contents", and the launch: every weakly fair
   execution terminates, nothing faulting, and every unscoped buffer ends at the last boundary's contents. Stated at any
   float instance. -/
import proofs.«402966_j45758581572292_1_alg».proof.Proof.Gen.KernelIdeal.Launch
import proofs.«402966_j45758581572292_1_alg».proof.Proof.Gen.KernelIdeal.Skeleton
import proofs.«402966_j45758581572292_1_alg».proof.Proof.Gen.KernelIdeal.Points
import proofs.«402966_j45758581572292_1_alg».proof.Proof.IdealSage0
import proofs.«402966_j45758581572292_1_alg».proof.Proof.IdealSage1
import proofs.«402966_j45758581572292_1_alg».proof.Proof.IdealSage2
import proofs.«402966_j45758581572292_1_alg».proof.Proof.IdealMlp
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

set_option maxHeartbeats 4000000 in
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_c, main_v20, main_v21, main_c_0, main_v22, main_v23, main_v24, main_v25, main_v26, main_c_1, main_v27, main_v28, main_c_2, main_v29, main_v30, main_v31, main_v32, main_v33, main_c_3, main_v34, main_v35, main_c_4, main_v36, main_v37, main_v38, main_v39, main_v40, main_c_5, main_v41, main_v42, main_c_6, main_v43, main_v44, main_v45, main_v46, main_v47, main_v48, main_c_7, main_v49, main_v50, main_c_8, main_v51, main_v52, main_v53, main_v54, main_v55, main_c_9, main_v56, main_v57, main_c_10, main_v58, main_v59, main_v60, main_v61, main_v62, main_v63, main_c_11, main_v64, main_v65, main_c_12, main_v66, main_v67, main_v68, main_v69, main_v70, main_cst, main_v71, main_v72, main_v73, main_cst_13, main_v74, main_cst_14, main_v75, main_v76, main_v77, main_v78, main_c_15, main_v79, main_v80, main_c_16, main_v81, main_v82, main_v83, main_v84, main_v85, main_cst_17, main_v86, main_v87, main_v88, main_cst_18, main_v89, main_cst_19, main_v90, main_v91, main_v92, main_v93]
set_option maxHeartbeats 4000000 in
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_c_20, main_v96, main_v97, main_c_21, main_v98, main_v99, main_v100, main_v101, main_v102, main_cst_22, main_v103, main_v104, main_v105]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v107, main_v108, main_v109, main_v110, main_v111]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## The buffer contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- A buffer the stretch does not write keeps its contents. -/
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h

/-- At the exit of region 0: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- A buffer that is no OUTPUT window's array of region 0 leaves it as it entered. -/
theorem W2_keep (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hw : (cfg0.win w).isOut with
      | false => rfl
      | true => exact absurd rfl (hb w hw)
    exact W2_in m ρ c w hin
  · exact W2_of_ne m ρ c b (fun w e => h ⟨w, e⟩)

/-- At the exit of region 1: its arrays at what the pipeline leaves (the inputs as entered, each output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- An input window's array leaves region 1 as it entered. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
/-- A buffer that is no OUTPUT window's array of region 1 leaves it as it entered. -/
theorem W3_keep (c : Dev nD) (b : Ref sig .tc) (hb : ∀ w, (cfg1.win w).isOut = true → Pipeline.arrRef spec1 w ≠ b) :
    W3 m ρ c (Proc.devRef .tc b) = W2 m ρ c (Proc.devRef .tc b) := by
  by_cases h : ∃ w, Pipeline.arrRef spec1 w = b
  · obtain ⟨w, rfl⟩ := h
    have hin : (cfg1.win w).isOut = false := by
      cases hw : (cfg1.win w).isOut with
      | false => rfl
      | true => exact absurd rfl (hb w hw)
    exact W3_in m ρ c w hin
  · exact W3_of_ne m ρ c b (fun w e => h ⟨w, e⟩)

/-- After the host stretch `hostOps2`. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- A buffer the stretch does not write keeps its contents. -/
theorem W4_keep (c : Dev nD) (b : Ref sig .tc) (h : b ∉ hostOps2_W) : W4 m ρ c (Proc.devRef .tc b) = W3 m ρ c (Proc.devRef .tc b) :=
  StableHlo.after_of_writes_sub hostOps2 _ hostOps2_writes h

/-- At the exit of region 2: its arrays at what the pipeline leaves (the inputs as entered, each output's write-backs
    folded), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- An input window's array leaves region 2 as it entered. -/
theorem W5_in (c : Dev nD) (w : Fin cfg2.W) (hin : (cfg2.win w).isOut = false) :
    W5 m ρ c (Proc.devRef .tc (Pipeline.arrRef spec2 w)) = W4 m ρ c (Proc.devRef .tc (Pipeline.arrRef spec2 w)) :=
  (W5_arr m ρ c w).trans (((dat2 (V4 m ρ) c).arrAt_in w hin _).trans (A_eq2 (V4 m ρ) c w))
/-- A buffer that is no OUTPUT window's array of region 2 leaves it as it entered. -/
theorem W5_keep (c : Dev nD) (b : Ref sig .tc) (hb : ∀ w, (cfg2.win w).isOut = true → Pipeline.arrRef spec2 w ≠ b) :
    W5 m ρ c (Proc.devRef .tc b) = W4 m ρ c (Proc.devRef .tc b) := by
  by_cases h : ∃ w, Pipeline.arrRef spec2 w = b
  · obtain ⟨w, rfl⟩ := h
    have hin : (cfg2.win w).isOut = false := by
      cases hw : (cfg2.win w).isOut with
      | false => rfl
      | true => exact absurd rfl (hb w hw)
    exact W5_in m ρ c w hin
  · exact W5_of_ne m ρ c b (fun w e => h ⟨w, e⟩)

/-- After the host stretch `hostOps3`. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- A buffer the stretch does not write keeps its contents. -/
theorem W6_keep (c : Dev nD) (b : Ref sig .tc) (h : b ∉ hostOps3_W) : W6 m ρ c (Proc.devRef .tc b) = W5 m ρ c (Proc.devRef .tc b) :=
  StableHlo.after_of_writes_sub hostOps3 _ hostOps3_writes h

/-- At the exit of region 3: its arrays at what the pipeline leaves (the inputs as entered, each output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- An input window's array leaves region 3 as it entered. -/
theorem W7_in (c : Dev nD) (w : Fin cfg3.W) (hin : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hin _).trans (A_eq3 (V6 m ρ) c w))
/-- A buffer that is no OUTPUT window's array of region 3 leaves it as it entered. -/
theorem W7_keep (c : Dev nD) (b : Ref sig .tc) (hb : ∀ w, (cfg3.win w).isOut = true → Pipeline.arrRef spec3 w ≠ b) :
    W7 m ρ c (Proc.devRef .tc b) = W6 m ρ c (Proc.devRef .tc b) := by
  by_cases h : ∃ w, Pipeline.arrRef spec3 w = b
  · obtain ⟨w, rfl⟩ := h
    have hin : (cfg3.win w).isOut = false := by
      cases hw : (cfg3.win w).isOut with
      | false => rfl
      | true => exact absurd rfl (hb w hw)
    exact W7_in m ρ c w hin
  · exact W7_of_ne m ρ c b (fun w e => h ⟨w, e⟩)

/-- A buffer that no host operation writes and that is no region's output array ends as launched. -/
theorem W7_launch (c : Dev nD) (b : Ref sig .tc) (h0 : b ∉ hostOps0_W) (h2 : b ∉ hostOps2_W) (h3 : b ∉ hostOps3_W)
    (r0 : ∀ w, (cfg0.win w).isOut = true → Pipeline.arrRef spec0 w ≠ b) (r1 : ∀ w, (cfg1.win w).isOut = true → Pipeline.arrRef spec1 w ≠ b)
    (r2 : ∀ w, (cfg2.win w).isOut = true → Pipeline.arrRef spec2 w ≠ b) (r3 : ∀ w, (cfg3.win w).isOut = true → Pipeline.arrRef spec3 w ≠ b) :
    W7 m ρ c (Proc.devRef .tc b) = m ((c : Thread nD τ).loc b) :=
  calc W7 m ρ c (Proc.devRef .tc b)
    _ = W6 m ρ c (Proc.devRef .tc b) := W7_keep m ρ c b r3
    _ = W5 m ρ c (Proc.devRef .tc b) := W6_keep m ρ c b h3
    _ = W4 m ρ c (Proc.devRef .tc b) := W5_keep m ρ c b r2
    _ = W3 m ρ c (Proc.devRef .tc b) := W4_keep m ρ c b h2
    _ = W2 m ρ c (Proc.devRef .tc b) := W3_keep m ρ c b r1
    _ = W1 m ρ c (Proc.devRef .tc b) := W2_keep m ρ c b r0
    _ = W0 m ρ c (Proc.devRef .tc b) := W1_keep m ρ c b h0
    _ = m ((c : Thread nD τ).loc b) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The region of custom_call 0 over the thread state: entered from every unscoped buffer at `W1`, left at `W2`.
    Its arrays are split out of the unscoped buffers and put back at the exit contents; the generator register goes into
    the pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of custom_call 1 over the thread state: entered from every unscoped buffer at `W2`, left at `W3`.
    Its arrays are split out of the unscoped buffers and put back at the exit contents; the generator register goes into
    the pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of custom_call 2 over the thread state: entered from every unscoped buffer at `W4`, left at `W5`.
    Its arrays are split out of the unscoped buffers and put back at the exit contents; the generator register goes into
    the pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of custom_call 3 over the thread state: entered from every unscoped buffer at `W6`, left at `W7`.
    Its arrays are split out of the unscoped buffers and put back at the exit contents; the generator register goes into
    the pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
set_option maxHeartbeats 4000000 in
theorem main_run (c : Dev nD) : main (F := F) c = Pipeline.Seg.run (segs m ρ) := (main_chain c).trans (by chain_rfl)

set_option backward.isDefEq.respectTransparency.types false in
set_option maxHeartbeats 4000000 in
/-- THE RUN: from any memory with zero counters every weakly fair execution of @main on the TensorCores terminates,
    nothing faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Regions

end
-- ==== Proof.IdealEnds.lean ====
/- Every buffer that no host operation writes and that is no region's output array — every argument of @main — ends
   the run holding its launch contents: the last boundary's contents read back through the fold. Stated at any float
   instance. -/
import proofs.«402966_j45758581572292_1_alg».proof.Proof.Gen.KernelIdeal.Launch
import proofs.«402966_j45758581572292_1_alg».proof.Proof.Gen.KernelIdeal.Skeleton
import proofs.«402966_j45758581572292_1_alg».proof.Proof.Gen.KernelIdeal.Points
import proofs.«402966_j45758581572292_1_alg».proof.Proof.IdealRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In a final state that holds every unscoped buffer at the last boundary's contents, a buffer that no stretch writes
    and no region puts out holds what the launch gave it. -/
theorem ends_as_launched (c : Dev nD) (b : Ref sig .tc) {s : MemSt nD τ sig (Elt F)}
    (hs : ∀ b ∈ Pipeline.ucRefs τ sig, s.mem (((c : Thread nD τ)).1, b) = W7 m ρ c b)
    (hu : ¬ (Proc.devRef .tc b : DevRef τ sig).isScoped)
    (h0 : b ∉ hostOps0_W) (h2 : b ∉ hostOps2_W) (h3 : b ∉ hostOps3_W)
    (r0 : ∀ w, (cfg0.win w).isOut = true → Pipeline.arrRef spec0 w ≠ b) (r1 : ∀ w, (cfg1.win w).isOut = true → Pipeline.arrRef spec1 w ≠ b)
    (r2 : ∀ w, (cfg2.win w).isOut = true → Pipeline.arrRef spec2 w ≠ b) (r3 : ∀ w, (cfg3.win w).isOut = true → Pipeline.arrRef spec3 w ≠ b) :
    s.mem ((c.tc : Thread nD τ).loc b) = m ((c.tc : Thread nD τ).loc b) :=
  (hs _ (mem_uc b hu)).trans (W7_launch m ρ c b h0 h2 h3 r0 r1 r2 r3)

set_option maxHeartbeats 4000000 in
/-- The frame: every weakly fair execution terminates, nothing faulting, every argument array unchanged (as a
    statement over any reference that the stretches do not write and the regions do not put out). -/
theorem frame_refs : θ_run defs (onTc (τ := τ) (main (F := F))) ⟨m, fun _ => 0, ρ⟩ (fun r => ∀ c : Dev nD, ∀ b : Ref sig .tc,
      ¬ (Proc.devRef .tc b : DevRef τ sig).isScoped → b ∉ hostOps0_W → b ∉ hostOps2_W → b ∉ hostOps3_W →
      (∀ w, (cfg0.win w).isOut = true → Pipeline.arrRef spec0 w ≠ b) → (∀ w, (cfg1.win w).isOut = true → Pipeline.arrRef spec1 w ≠ b) →
      (∀ w, (cfg2.win w).isOut = true → Pipeline.arrRef spec2 w ≠ b) → (∀ w, (cfg3.win w).isOut = true → Pipeline.arrRef spec3 w ≠ b) →
      r.2.mem ((c.tc : Thread nD τ).loc b) = m ((c.tc : Thread nD τ).loc b)) :=
  (θ_run defs _ _).mono (fun r h c b hu h0 h2 h3 r0 r1 r2 r3 => ends_as_launched m ρ c b (h c) hu h0 h2 h3 r0 r1 r2 r3) (run_all m ρ)

end Cert.KernelIdeal.Regions

end
-- ==== Proof.IdealHost.lean ====
/- What the kernel program's host stretches leave in the buffers the pipelined regions read, for ANY contents `W` of the
   TensorCore's buffers when a stretch starts, written as the reference program's stages: the two node-feature matrices
   (embedding-table rows gathered by wrapped integer codes, concatenated with the dense columns), the per-destination
   row sums of gathered source rows over the two edge lists, the per-destination edge counts, the layer-2 row sums over
   region 1's output, and the bias vectors viewed as one-row matrices. Both programs apply the same operations to the
   same arguments, so every equation here is between two spellings of one composition; the shape and dimension
   records of the two programs have the same fields. Stated at any float instance. -/
import proofs.«402966_j45758581572292_1_alg».proof.Proof.Gen.KernelIdeal.Launch
import proofs.«402966_j45758581572292_1_alg».proof.Proof.RefStages
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen Idealize.ShloMosaic Idealize.ShloMosaic.TcCoe Idealize.SL.Sem Idealize.ShloMosaic.StableHlo
open Cert.ReferenceIdeal.Stages

/-! ## An operation over a literal family of three or of five operands

The value such an operation leaves in its result buffer is its function applied to the family of the operands' contents,
`fun k => V (xs k)`. For a LITERAL family `![r0, …]` that family is the tuple of the contents at `r0, …`, one entry per
literal position: the two are equal at every `k` by cases on `k`. -/

section Literal

variable {τ' : Topo} {sig' : RefSig} {Val : EltTy → Type} {r0 r1 r2 r3 r4 y : Ref sig' .tc}

theorem nary3_result'
    (f : ((k : Fin 3) → ((![r0, r1, r2] : Fin 3 → Ref sig' .tc) k).ty.Contents Val) → y.ty.Contents Val) (hxs hy)
    (V : Valuation τ' sig' Val) :
    (nary (τ := τ') ![r0, r1, r2] y f hxs hy).result V (no_index (Proc.devRef .tc y))
      = f (Fin.cons (V (Proc.devRef .tc r0)) (Fin.cons (V (Proc.devRef .tc r1)) (Fin.cons (V (Proc.devRef .tc r2)) (fun i => i.elim0)))) := by
  rw [nary_result]; congr 1; funext k; fin_cases k <;> rfl

theorem nary5_result'
    (f : ((k : Fin 5) → ((![r0, r1, r2, r3, r4] : Fin 5 → Ref sig' .tc) k).ty.Contents Val) → y.ty.Contents Val) (hxs hy)
    (V : Valuation τ' sig' Val) :
    (nary (τ := τ') ![r0, r1, r2, r3, r4] y f hxs hy).result V (no_index (Proc.devRef .tc y))
      = f (Fin.cons (V (Proc.devRef .tc r0)) (Fin.cons (V (Proc.devRef .tc r1)) (Fin.cons (V (Proc.devRef .tc r2))
          (Fin.cons (V (Proc.devRef .tc r3)) (Fin.cons (V (Proc.devRef .tc r4)) (fun i => i.elim0)))))) := by
  rw [nary_result]; congr 1; funext k; fin_cases k <;> rfl

end Literal

/-- The contents of one buffer after a line of operations, as the composition of the operations' functions over the
    contents before the line: each operation's result buffer holds its function of its operands' contents, every other
    buffer what it held. -/
local macro "host_results" : tactic =>
  `(tactic| (simp (disch := decide) only [after_cons, after_nil,
      nullary_result', unary_result', binary_result', ternary_result', reshape_result', nary3_result', nary5_result',
      nullary_result_ne', unary_result_ne', binary_result_ne', ternary_result_ne', reshape_result_ne', nary_result_ne']))

variable {F : FTy → Type} [FloatOps F]

/-! ## The first stretch: node features, edge sums, edge counts -/

set_option maxHeartbeats 4000000 in
/-- `h_cmp`: for each node the rows of the four embedding tables chosen by its four integer codes (a negative code wrapped
    by the table's height), then its eight dense columns, side by side: the reference's concatenate. -/
theorem host0_v48 (W : Valuation τ sig (Elt F)) :
    StableHlo.after hostOps0 W (Proc.devRef .tc main_v48)
      = val_main_v41 (F := F) (W (Proc.devRef .tc main_arg0)) (W (Proc.devRef .tc main_arg3)) (W (Proc.devRef .tc main_arg4))
          (W (Proc.devRef .tc main_arg5)) (W (Proc.devRef .tc main_arg6)) := by
  host_results
  rfl

set_option maxHeartbeats 4000000 in
/-- `h_slk`: two embedding rows by two wrapped codes, then eight dense columns. -/
theorem host0_v63 (W : Valuation τ sig (Elt F)) :
    StableHlo.after hostOps0 W (Proc.devRef .tc main_v63)
      = val_main_v63 (F := F) (W (Proc.devRef .tc main_arg1)) (W (Proc.devRef .tc main_arg3)) (W (Proc.devRef .tc main_arg4)) := by
  host_results
  rfl

set_option maxHeartbeats 4000000 in
/-- Over the first edge list: row `d` is the sum of `h_cmp`'s rows at the (wrapped) sources of the edges whose destination
    is `d`, from zero. -/
theorem host0_v73 (W : Valuation τ sig (Elt F)) :
    StableHlo.after hostOps0 W (Proc.devRef .tc main_v73)
      = val_main_v105 (F := F) (W (Proc.devRef .tc main_arg0)) (W (Proc.devRef .tc main_arg3)) (W (Proc.devRef .tc main_arg4))
          (W (Proc.devRef .tc main_arg5)) (W (Proc.devRef .tc main_arg6)) (W (Proc.devRef .tc main_arg33)) (W (Proc.devRef .tc main_arg34)) := by
  host_results
  rfl

set_option maxHeartbeats 4000000 in
/-- The first edge list's counts: entry `d` is a sum of ones over the edges whose destination is `d`, from zero. -/
theorem host0_v77 (W : Valuation τ sig (Elt F)) :
    StableHlo.after hostOps0 W (Proc.devRef .tc main_v77) = val_main_v109 (F := F) (W (Proc.devRef .tc main_arg34)) := by
  host_results
  rfl

set_option maxHeartbeats 4000000 in
/-- The counts as a one-column matrix: entry `(r, 0)` is count `r` (row-major position `r * 1 + 0 = r`). -/
theorem host0_v78 (W : Valuation τ sig (Elt F)) (r : Fin 30000) (z : Fin 1) :
    (StableHlo.after hostOps0 W (Proc.devRef .tc main_v78) : S30000x1.Idx → _) (ValueIdx.ix2 r z)
      = val_main_v109 (F := F) (W (Proc.devRef .tc main_arg34)) (ValueIdx.ix1 r) := by
  have e : StableHlo.after hostOps0 W (Proc.devRef .tc main_v78)
      = (shapeCast S30000x1 (val_main_v109 (F := F) (W (Proc.devRef .tc main_arg34)) : S30000.Idx → _) shapeCasts_S30000_S30000x1 : S30000x1.Idx → _) := by
    host_results
    rfl
  rw [e]
  refine shapeCast_apply (s := S30000) (t := S30000x1) _ _ _ _ ?_
  rw [Shape.rowMajor_val_one, Shape.rowMajor_val_two]
  have hz := z.isLt
  show r.val = r.val * 1 + z.val
  omega

set_option maxHeartbeats 4000000 in
/-- Over the second edge list: the row sums of `h_cmp` by destination. -/
theorem host0_v88 (W : Valuation τ sig (Elt F)) :
    StableHlo.after hostOps0 W (Proc.devRef .tc main_v88)
      = val_main_v128 (F := F) (W (Proc.devRef .tc main_arg0)) (W (Proc.devRef .tc main_arg3)) (W (Proc.devRef .tc main_arg4))
          (W (Proc.devRef .tc main_arg5)) (W (Proc.devRef .tc main_arg6)) (W (Proc.devRef .tc main_arg35)) (W (Proc.devRef .tc main_arg36)) := by
  host_results
  rfl

set_option maxHeartbeats 4000000 in
/-- The second edge list's counts, as a vector. -/
theorem host0_v92 (W : Valuation τ sig (Elt F)) :
    StableHlo.after hostOps0 W (Proc.devRef .tc main_v92) = val_main_v132 (F := F) (W (Proc.devRef .tc main_arg36)) := by
  host_results
  rfl

set_option maxHeartbeats 4000000 in
/-- The second edge list's counts as a one-column matrix. -/
theorem host0_v93 (W : Valuation τ sig (Elt F)) (r : Fin 30000) (z : Fin 1) :
    (StableHlo.after hostOps0 W (Proc.devRef .tc main_v93) : S30000x1.Idx → _) (ValueIdx.ix2 r z)
      = val_main_v132 (F := F) (W (Proc.devRef .tc main_arg36)) (ValueIdx.ix1 r) := by
  have e : StableHlo.after hostOps0 W (Proc.devRef .tc main_v93)
      = (shapeCast S30000x1 (val_main_v132 (F := F) (W (Proc.devRef .tc main_arg36)) : S30000.Idx → _) shapeCasts_S30000_S30000x1 : S30000x1.Idx → _) := by
    host_results
    rfl
  rw [e]
  refine shapeCast_apply (s := S30000) (t := S30000x1) _ _ _ _ ?_
  rw [Shape.rowMajor_val_one, Shape.rowMajor_val_two]
  have hz := z.isLt
  show r.val = r.val * 1 + z.val
  omega

/-- The references the first stretch writes, in the order it writes them. -/
abbrev hostOps0_W : List (Ref sig .tc) :=
  [main_v0, main_v1, main_v2, main_v3, main_v4, main_v5, main_v6, main_v7, main_v8, main_v9,
   main_v10, main_v11, main_v12, main_v13, main_v14, main_v15, main_v16, main_v17, main_v18, main_v19,
   main_c, main_v20, main_v21, main_c_0, main_v22, main_v23, main_v24, main_v25, main_v26, main_c_1,
   main_v27, main_v28, main_c_2, main_v29, main_v30, main_v31, main_v32, main_v33, main_c_3, main_v34,
   main_v35, main_c_4, main_v36, main_v37, main_v38, main_v39, main_v40, main_c_5, main_v41, main_v42,
   main_c_6, main_v43, main_v44, main_v45, main_v46, main_v47, main_v48, main_c_7, main_v49, main_v50,
   main_c_8, main_v51, main_v52, main_v53, main_v54, main_v55, main_c_9, main_v56, main_v57, main_c_10,
   main_v58, main_v59, main_v60, main_v61, main_v62, main_v63, main_c_11, main_v64, main_v65, main_c_12,
   main_v66, main_v67, main_v68, main_v69, main_v70, main_cst, main_v71, main_v72, main_v73, main_cst_13,
   main_v74, main_cst_14, main_v75, main_v76, main_v77, main_v78, main_c_15, main_v79, main_v80, main_c_16,
   main_v81, main_v82, main_v83, main_v84, main_v85, main_cst_17, main_v86, main_v87, main_v88, main_cst_18,
   main_v89, main_cst_19, main_v90, main_v91, main_v92, main_v93]

set_option maxHeartbeats 4000000 in
/-- Every operation of the first stretch writes its one result buffer, a member of the list. -/
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)

/-- A buffer the first stretch does not write holds after it what it held before. -/
theorem host0_keeps (W : Valuation τ sig (Elt F)) (b : Ref sig .tc) (h : b ∉ hostOps0_W) :
    StableHlo.after hostOps0 W (Proc.devRef .tc b) = W (Proc.devRef .tc b) :=
  StableHlo.after_of_writes_sub hostOps0 W hostOps0_writes h

/-! ## The second stretch: the layer-2 row sums over region 1's output -/

/-- Whatever `c1` region 1 left in its output: row `d` of the result is the sum of `c1`'s rows at the (wrapped) sources
    of the first edge list's edges whose destination is `d`, from zero: the reference's gather and scatter-add, its
    own operand in the place of `c1`. -/
theorem host2_v105_of (W : Valuation τ sig (Elt F)) :
    StableHlo.after hostOps2 W (Proc.devRef .tc main_v105)
      = Host.scatterAdd Cert.ReferenceIdeal.scatter_S30000x256_S200000x1_S200000x256_1_0_0_1 (val_main_v195 (F := F))
          (val_main_v196 (F := F) (W (Proc.devRef .tc main_arg34)))
          (Host.gather Cert.ReferenceIdeal.gather_S30000x256_S200000x1_S200000x256_1_0_n_n_0_1_1256
            (W (Proc.devRef .tc main_v95)) (val_main_v193 (F := F) (W (Proc.devRef .tc main_arg33)))) := by
  host_results
  rfl

/-- When region 1's output is the reference's first hidden layer, the second stretch leaves the reference's layer-2
    row sums. -/
theorem host2_v105 (W : Valuation τ sig (Elt F))
    (x0 : (⟨Cert.ReferenceIdeal.S30000x12, .f32⟩ : BufTy).Contents (Elt F)) (x3 : (⟨Cert.ReferenceIdeal.S64x13, .f32⟩ : BufTy).Contents (Elt F))
    (x4 : (⟨Cert.ReferenceIdeal.S1000x51, .f32⟩ : BufTy).Contents (Elt F)) (x5 : (⟨Cert.ReferenceIdeal.S4x4, .f32⟩ : BufTy).Contents (Elt F))
    (x6 : (⟨Cert.ReferenceIdeal.S36x10, .f32⟩ : BufTy).Contents (Elt F)) (x9 x10 : (⟨Cert.ReferenceIdeal.S86x256, .f32⟩ : BufTy).Contents (Elt F))
    (x35 x36 : (⟨Cert.ReferenceIdeal.S200000, .i32⟩ : BufTy).Contents (Elt F))
    (h : W (Proc.devRef .tc main_v95) = val_main_v141 (F := F) x0 x3 x4 x5 x6 x9 x10 x35 x36) :
    StableHlo.after hostOps2 W (Proc.devRef .tc main_v105)
      = val_main_v197 (F := F) x0 x3 x4 x5 x6 x9 x10 (W (Proc.devRef .tc main_arg33)) (W (Proc.devRef .tc main_arg34)) x35 x36 := by
  rw [host2_v105_of, h]
  rfl

/-- The references the second stretch writes. -/
abbrev hostOps2_W : List (Ref sig .tc) :=
  [main_c_20, main_v96, main_v97, main_c_21, main_v98, main_v99, main_v100, main_v101, main_v102, main_cst_22, main_v103,
   main_v104, main_v105]

theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)

/-- A buffer the second stretch does not write holds after it what it held before. -/
theorem host2_keeps (W : Valuation τ sig (Elt F)) (b : Ref sig .tc) (h : b ∉ hostOps2_W) :
    StableHlo.after hostOps2 W (Proc.devRef .tc b) = W (Proc.devRef .tc b) :=
  StableHlo.after_of_writes_sub hostOps2 W hostOps2_writes h

/-! ## The third stretch: the bias vectors as one-row matrices

A vector of `n` entries viewed as a `1 × n` matrix: entry `(0, j)` sits at row-major position `0 * n + j = j`, the
vector's entry `j`. -/

theorem host3_v107 (W : Valuation τ sig (Elt F)) (j : Fin 64) :
    (StableHlo.after hostOps3 W (Proc.devRef .tc main_v107) : S1x64.Idx → _) (ValueIdx.ix2 0 j)
      = (W (Proc.devRef .tc main_arg24) : S64.Idx → _) (ValueIdx.ix1 j) := by
  have e : StableHlo.after hostOps3 W (Proc.devRef .tc main_v107)
      = (shapeCast S1x64 (W (Proc.devRef .tc main_arg24) : S64.Idx → _) shapeCasts_S64_S1x64 : S1x64.Idx → _) := by
    host_results
    rfl
  rw [e]
  refine shapeCast_apply (s := S64) (t := S1x64) _ _ _ _ ?_
  rw [Shape.rowMajor_val_one, Shape.rowMajor_val_two]
  show j.val = 0 * 64 + j.val
  omega

theorem host3_v108 (W : Valuation τ sig (Elt F)) (j : Fin 64) :
    (StableHlo.after hostOps3 W (Proc.devRef .tc main_v108) : S1x64.Idx → _) (ValueIdx.ix2 0 j)
      = (W (Proc.devRef .tc main_arg26) : S64.Idx → _) (ValueIdx.ix1 j) := by
  have e : StableHlo.after hostOps3 W (Proc.devRef .tc main_v108)
      = (shapeCast S1x64 (W (Proc.devRef .tc main_arg26) : S64.Idx → _) shapeCasts_S64_S1x64 : S1x64.Idx → _) := by
    host_results
    rfl
  rw [e]
  refine shapeCast_apply (s := S64) (t := S1x64) _ _ _ _ ?_
  rw [Shape.rowMajor_val_one, Shape.rowMajor_val_two]
  show j.val = 0 * 64 + j.val
  omega

theorem host3_v109 (W : Valuation τ sig (Elt F)) (j : Fin 36) :
    (StableHlo.after hostOps3 W (Proc.devRef .tc main_v109) : S1x36.Idx → _) (ValueIdx.ix2 0 j)
      = (W (Proc.devRef .tc main_arg28) : S36.Idx → _) (ValueIdx.ix1 j) := by
  have e : StableHlo.after hostOps3 W (Proc.devRef .tc main_v109)
      = (shapeCast S1x36 (W (Proc.devRef .tc main_arg28) : S36.Idx → _) shapeCasts_S36_S1x36 : S1x36.Idx → _) := by
    host_results
    rfl
  rw [e]
  refine shapeCast_apply (s := S36) (t := S1x36) _ _ _ _ ?_
  rw [Shape.rowMajor_val_one, Shape.rowMajor_val_two]
  show j.val = 0 * 36 + j.val
  omega

theorem host3_v110 (W : Valuation τ sig (Elt F)) (j : Fin 1) :
    (StableHlo.after hostOps3 W (Proc.devRef .tc main_v110) : S1x1.Idx → _) (ValueIdx.ix2 0 j)
      = (W (Proc.devRef .tc main_arg30) : S1.Idx → _) (ValueIdx.ix1 j) := by
  have e : StableHlo.after hostOps3 W (Proc.devRef .tc main_v110)
      = (shapeCast S1x1 (W (Proc.devRef .tc main_arg30) : S1.Idx → _) shapeCasts_S1_S1x1 : S1x1.Idx → _) := by
    host_results
    rfl
  rw [e]
  refine shapeCast_apply (s := S1) (t := S1x1) _ _ _ _ ?_
  rw [Shape.rowMajor_val_one, Shape.rowMajor_val_two]
  show j.val = 0 * 1 + j.val
  omega

theorem host3_v111 (W : Valuation τ sig (Elt F)) (j : Fin 1) :
    (StableHlo.after hostOps3 W (Proc.devRef .tc main_v111) : S1x1.Idx → _) (ValueIdx.ix2 0 j)
      = (W (Proc.devRef .tc main_arg32) : S1.Idx → _) (ValueIdx.ix1 j) := by
  have e : StableHlo.after hostOps3 W (Proc.devRef .tc main_v111)
      = (shapeCast S1x1 (W (Proc.devRef .tc main_arg32) : S1.Idx → _) shapeCasts_S1_S1x1 : S1x1.Idx → _) := by
    host_results
    rfl
  rw [e]
  refine shapeCast_apply (s := S1) (t := S1x1) _ _ _ _ ?_
  rw [Shape.rowMajor_val_one, Shape.rowMajor_val_two]
  show j.val = 0 * 1 + j.val
  omega

/-- The references the third stretch writes. -/
abbrev hostOps3_W : List (Ref sig .tc) := [main_v107, main_v108, main_v109, main_v110, main_v111]

theorem hostOps3_writes : (hostOps3 : List (HloOp τ sig (Elt F))).Forall fun op => op.writes ⊆ (hostOps3_W.map (Proc.devRef (τ := τ) .tc)).toFinset := by
  simp only [List.Forall, StableHlo.reshape_writes, Finset.singleton_subset_iff, List.mem_toFinset]
  repeat' apply And.intro
  all_goals exact List.mem_map_of_mem (by decide)

/-- A buffer the third stretch does not write holds after it what it held before. -/
theorem host3_keeps (W : Valuation τ sig (Elt F)) (b : Ref sig .tc) (h : b ∉ hostOps3_W) :
    StableHlo.after hostOps3 W (Proc.devRef .tc b) = W (Proc.devRef .tc b) :=
  StableHlo.after_of_writes_sub hostOps3 W hostOps3_writes h

end Cert.KernelIdeal.Host
-- ==== Proof.IdealSage0Pay.lean ====
/- The arithmetic of the first mean-aggregate linear stage's block, read at one entry (row y of the block, column j):
   with the bf16 casts the identity on extended reals and each matrix product into a zero accumulator the plain sum
   over its contracted coordinate,
     max ( Σ_k (s[y,k] / max(cnt[y,0], 1)) · Wl[k,j]  +  Σ_k d[y,k] · Wr[k,j] , 0 ). -/
import proofs.«402966_j45758581572292_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Idealize.ShloMosaic Idealize.ShloMosaic.ValueIdx
open Cert.KernelIdeal Cert.KernelIdeal.Gen
open scoped BigOperators

/-! ## The two matrix products of region 0 at an entry -/

/-- Left operand of the [2000,86]·[86,256] product at output (i, ·) and contraction index q: row i … -/
theorem lhs0_mm86_0 (i : S2000x256.Idx) (q : dot_S2000x86_S86x256_S2000x256_1_0_0_1_n_n.contr.Idx) :
    (dot_S2000x86_S86x256_S2000x256_1_0_0_1_n_n.lhsIdx i q 0).val = (i 0).val := by
  unfold DotDims.lhsIdx
  rw [dif_neg (show ¬(0 : Fin S2000x86.rank) ∈ dot_S2000x86_S86x256_S2000x256_1_0_0_1_n_n.lhsBatch by decide), dif_pos (show (0 : Fin S2000x86.rank) ∈ dot_S2000x86_S86x256_S2000x256_1_0_0_1_n_n.lhsNonContracting by decide)]
  rfl
/-- … column q. -/
theorem lhs0_mm86_1 (i : S2000x256.Idx) (q : dot_S2000x86_S86x256_S2000x256_1_0_0_1_n_n.contr.Idx) :
    (dot_S2000x86_S86x256_S2000x256_1_0_0_1_n_n.lhsIdx i q 1).val = (q ⟨0, by decide⟩).val :=
  dot_S2000x86_S86x256_S2000x256_1_0_0_1_n_n.lhsIdx_val_of_single rfl i q
/-- Right operand: row q … -/
theorem rhs0_mm86_0 (i : S2000x256.Idx) (q : dot_S2000x86_S86x256_S2000x256_1_0_0_1_n_n.contr.Idx) :
    (dot_S2000x86_S86x256_S2000x256_1_0_0_1_n_n.rhsIdx i q 0).val = (q ⟨0, by decide⟩).val :=
  dot_S2000x86_S86x256_S2000x256_1_0_0_1_n_n.rhsIdx_val_of_single rfl i q
/-- … column of the output. -/
theorem rhs0_mm86_1 (i : S2000x256.Idx) (q : dot_S2000x86_S86x256_S2000x256_1_0_0_1_n_n.contr.Idx) :
    (dot_S2000x86_S86x256_S2000x256_1_0_0_1_n_n.rhsIdx i q 1).val = (i 1).val := by
  unfold DotDims.rhsIdx
  rw [dif_neg (show ¬(1 : Fin S86x256.rank) ∈ dot_S2000x86_S86x256_S2000x256_1_0_0_1_n_n.rhsBatch by decide), dif_pos (show (1 : Fin S86x256.rank) ∈ dot_S2000x86_S86x256_S2000x256_1_0_0_1_n_n.rhsNonContracting by decide)]
  rfl

/-- The [2000,86]·[86,256] product into the zero accumulator at (y, j): Σ_k a[y,k] · b[k,j]. -/
theorem mm0_86_apply (a : FVec Ideal S2000x86 .bf16) (b : FVec Ideal S86x256 .bf16) (y : Fin 2000) (j : Fin 256) :
    FloatOps.matmul dot_S2000x86_S86x256_S2000x256_1_0_0_1_n_n none a b (constant (F := Ideal) S2000x256 .f32 0x00000000#32) (ix2 y j)
      = ∑ k : Fin 86, a (ix2 y k) * b (ix2 k j) := by
  rw [Ideal.matmul_constant_zero_apply, ← Equiv.sum_comp (ValueIdx.contrEquiv1 dot_S2000x86_S86x256_S2000x256_1_0_0_1_n_n 86 rfl rfl).symm]
  refine Finset.sum_congr rfl fun k _ => ?_
  have hk := ValueIdx.contrEquiv1_symm_val dot_S2000x86_S86x256_S2000x256_1_0_0_1_n_n 86 rfl rfl k
  have el : dot_S2000x86_S86x256_S2000x256_1_0_0_1_n_n.lhsIdx (ix2 y j) ((ValueIdx.contrEquiv1 dot_S2000x86_S86x256_S2000x256_1_0_0_1_n_n 86 rfl rfl).symm k) = ix2 y k := funext fun a => Fin.ext (by
    match a with
    | ⟨0, _⟩ => exact lhs0_mm86_0 _ _
    | ⟨1, _⟩ => exact (lhs0_mm86_1 _ _).trans hk)
  have er : dot_S2000x86_S86x256_S2000x256_1_0_0_1_n_n.rhsIdx (ix2 y j) ((ValueIdx.contrEquiv1 dot_S2000x86_S86x256_S2000x256_1_0_0_1_n_n 86 rfl rfl).symm k) = ix2 k j := funext fun a => Fin.ext (by
    match a with
    | ⟨0, _⟩ => exact (rhs0_mm86_0 _ _).trans hk
    | ⟨1, _⟩ => exact rhs0_mm86_1 _ _)
  rw [el, er]

theorem lhs0_mm72_0 (i : S2000x256.Idx) (q : dot_S2000x72_S72x256_S2000x256_1_0_0_1_n_n.contr.Idx) :
    (dot_S2000x72_S72x256_S2000x256_1_0_0_1_n_n.lhsIdx i q 0).val = (i 0).val := by
  unfold DotDims.lhsIdx
  rw [dif_neg (show ¬(0 : Fin S2000x72.rank) ∈ dot_S2000x72_S72x256_S2000x256_1_0_0_1_n_n.lhsBatch by decide), dif_pos (show (0 : Fin S2000x72.rank) ∈ dot_S2000x72_S72x256_S2000x256_1_0_0_1_n_n.lhsNonContracting by decide)]
  rfl
theorem lhs0_mm72_1 (i : S2000x256.Idx) (q : dot_S2000x72_S72x256_S2000x256_1_0_0_1_n_n.contr.Idx) :
    (dot_S2000x72_S72x256_S2000x256_1_0_0_1_n_n.lhsIdx i q 1).val = (q ⟨0, by decide⟩).val :=
  dot_S2000x72_S72x256_S2000x256_1_0_0_1_n_n.lhsIdx_val_of_single rfl i q
theorem rhs0_mm72_0 (i : S2000x256.Idx) (q : dot_S2000x72_S72x256_S2000x256_1_0_0_1_n_n.contr.Idx) :
    (dot_S2000x72_S72x256_S2000x256_1_0_0_1_n_n.rhsIdx i q 0).val = (q ⟨0, by decide⟩).val :=
  dot_S2000x72_S72x256_S2000x256_1_0_0_1_n_n.rhsIdx_val_of_single rfl i q
theorem rhs0_mm72_1 (i : S2000x256.Idx) (q : dot_S2000x72_S72x256_S2000x256_1_0_0_1_n_n.contr.Idx) :
    (dot_S2000x72_S72x256_S2000x256_1_0_0_1_n_n.rhsIdx i q 1).val = (i 1).val := by
  unfold DotDims.rhsIdx
  rw [dif_neg (show ¬(1 : Fin S72x256.rank) ∈ dot_S2000x72_S72x256_S2000x256_1_0_0_1_n_n.rhsBatch by decide), dif_pos (show (1 : Fin S72x256.rank) ∈ dot_S2000x72_S72x256_S2000x256_1_0_0_1_n_n.rhsNonContracting by decide)]
  rfl

/-- The [2000,72]·[72,256] product into the zero accumulator at (y, j): Σ_k a[y,k] · b[k,j]. -/
theorem mm0_72_apply (a : FVec Ideal S2000x72 .bf16) (b : FVec Ideal S72x256 .bf16) (y : Fin 2000) (j : Fin 256) :
    FloatOps.matmul dot_S2000x72_S72x256_S2000x256_1_0_0_1_n_n none a b (constant (F := Ideal) S2000x256 .f32 0x00000000#32) (ix2 y j)
      = ∑ k : Fin 72, a (ix2 y k) * b (ix2 k j) := by
  rw [Ideal.matmul_constant_zero_apply, ← Equiv.sum_comp (ValueIdx.contrEquiv1 dot_S2000x72_S72x256_S2000x256_1_0_0_1_n_n 72 rfl rfl).symm]
  refine Finset.sum_congr rfl fun k _ => ?_
  have hk := ValueIdx.contrEquiv1_symm_val dot_S2000x72_S72x256_S2000x256_1_0_0_1_n_n 72 rfl rfl k
  have el : dot_S2000x72_S72x256_S2000x256_1_0_0_1_n_n.lhsIdx (ix2 y j) ((ValueIdx.contrEquiv1 dot_S2000x72_S72x256_S2000x256_1_0_0_1_n_n 72 rfl rfl).symm k) = ix2 y k := funext fun a => Fin.ext (by
    match a with
    | ⟨0, _⟩ => exact lhs0_mm72_0 _ _
    | ⟨1, _⟩ => exact (lhs0_mm72_1 _ _).trans hk)
  have er : dot_S2000x72_S72x256_S2000x256_1_0_0_1_n_n.rhsIdx (ix2 y j) ((ValueIdx.contrEquiv1 dot_S2000x72_S72x256_S2000x256_1_0_0_1_n_n 72 rfl rfl).symm k) = ix2 k j := funext fun a => Fin.ext (by
    match a with
    | ⟨0, _⟩ => exact (rhs0_mm72_0 _ _).trans hk
    | ⟨1, _⟩ => exact rhs0_mm72_1 _ _)
  rw [el, er]

/-! ## The mean's divisor: the count column clamped below by one, spread along the row -/

/-- The [2000,1] column broadcast to [2000,86], at (y, k), is the column's entry of row y. -/
theorem bcast0_col_apply (x : FVec Ideal S2000x1 .f32) (y : Fin 2000) (k : Fin 86) :
    broadcastTo S2000x86 x broadcasts_S2000x1_S2000x86 (ix2 y k) = x (ix2 y (0 : Fin 1)) :=
  broadcastTo_apply x broadcasts_S2000x1_S2000x86 (ix2 y k) (ix2 y (0 : Fin 1)) (fun a => by
    match a with
    | ⟨0, _⟩ => show y.val = if (2000 : Nat) = 1 then 0 else y.val; rw [if_neg (by decide)]
    | ⟨1, _⟩ => show (0 : Nat) = if (1 : Nat) = 1 then 0 else k.val; rw [if_pos rfl])

/-! ## The payload at an entry -/

/-- Region 0's stored block at (y, j), over any five input blocks: the maximum with zero of the mean row times Wl
    plus the destination row times Wr; the literal words 1.0 and 0.0 stay as words. -/
theorem k0_pay1_apply (cnt : Vec Ideal S2000x1 .f32) (s : Vec Ideal S2000x86 .f32) (wl : Vec Ideal S86x256 .f32)
    (d : Vec Ideal S2000x72 .f32) (wr : Vec Ideal S72x256 .f32) (y : Fin 2000) (j : Fin 256) :
    k0_pay1 (F := Ideal) cnt s wl d wr (ix2 y j)
      = max ((∑ k : Fin 86, Ideal.div (s (ix2 y k)) (max (cnt (ix2 y (0 : Fin 1))) (Ideal.ofBits .f32 0x3F800000#32)) * wl (ix2 k j))
          + ∑ k : Fin 72, d (ix2 y k) * wr (ix2 k j)) (Ideal.ofBits .f32 0x00000000#32) := by
  unfold k0_pay1
  refine congrArg₂ max (congrArg₂ (· + ·) ((mm0_86_apply _ _ y j).trans ?_) ((mm0_72_apply _ _ y j).trans ?_)) rfl
  · refine Finset.sum_congr rfl fun k _ => congrArg₂ (· * ·) ?_ rfl
    show Ideal.div (shapeCast S2000x86 s shapeCasts_S2000x86_S2000x86 (ix2 y k)) (broadcastTo S2000x86 (maximumf (shapeCast S2000x1 cnt shapeCasts_S2000x1_S2000x1) (broadcast S2000x1 (Scalar.ofBits (F := Ideal) .f32 0x3F800000#32))) broadcasts_S2000x1_S2000x86 (ix2 y k)) = _
    rw [bcast0_col_apply, shapeCast_self, shapeCast_self]
    rfl
  · refine Finset.sum_congr rfl fun k _ => congrArg₂ (· * ·) ?_ rfl
    show shapeCast S2000x72 d shapeCasts_S2000x72_S2000x72 (ix2 y k) = _
    rw [shapeCast_self]

end Cert.KernelIdeal.Regions

end
-- ==== Proof.IdealSage0Value.lean ====
/- The first mean-aggregate linear stage as a pipelined region, at the ideal values: after the fifteen grid points
   the region's output array holds, at every (row r, column j),
     max ( Σ_k (s[r,k] / max(cnt[r], 1)) · Wl[k,j]  +  Σ_k d[r,k] · Wr[k,j] , 0 ),
   which is the reference's stage read at (r, j). Point t of the grid computes rows 2000·t … 2000·t + 1999 from the same
   rows of the row sums, the counts and the destination features and from the whole of both weight matrices; the
   fifteen row blocks tile the 30000 rows. -/
import proofs.«402966_j45758581572292_1_alg».proof.Proof.IdealSage0
import proofs.«402966_j45758581572292_1_alg».proof.Proof.IdealSage0Pay
import proofs.«402966_j45758581572292_1_alg».proof.Proof.RefStages
import Idealize.ShloMosaic.Lib.Pipeline.Value
import Idealize.ShloMosaic.Lib.ValueIdx
import Idealize.ShloMosaic.PureOps.Ideal.Laws

set_option maxRecDepth 16384

noncomputable section

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

/-! ## The stage as one function of five arrays -/

/-- Entry (r, j) of the stage over the row sums `S`, the per-row counts `C`, the destination features `D` and the
    two weight matrices: the literal words 1.0 and 0.0 stay as words. -/
def sage0At (S : S30000x86.Idx → EReal) (C : Fin 30000 → EReal) (D : S30000x72.Idx → EReal)
    (WL : S86x256.Idx → EReal) (WR : S72x256.Idx → EReal) (r : Fin 30000) (j : Fin 256) : EReal :=
  max ((∑ k : Fin 86, Ideal.div (S (ix2 r k)) (max (C r) (Ideal.ofBits .f32 0x3F800000#32)) * WL (ix2 k j))
      + ∑ k : Fin 72, D (ix2 r k) * WR (ix2 k j)) (Ideal.ofBits .f32 0x00000000#32)

/-- The body's block at (p, q) is the stage at (r, q) whenever row p of each row-blocked input block is row r of its
    array and the weight blocks are the weight arrays. -/
theorem sage0_blk_eq (cnt : Vec Ideal S2000x1 .f32) (s : Vec Ideal S2000x86 .f32) (wl : Vec Ideal S86x256 .f32)
    (d : Vec Ideal S2000x72 .f32) (wr : Vec Ideal S72x256 .f32)
    (S : S30000x86.Idx → EReal) (C : Fin 30000 → EReal) (D : S30000x72.Idx → EReal)
    (WL : S86x256.Idx → EReal) (WR : S72x256.Idx → EReal) (p : Fin 2000) (q : Fin 256) (r : Fin 30000)
    (hs : ∀ k : Fin 86, s (ix2 p k) = S (ix2 r k)) (hc : cnt (ix2 p (0 : Fin 1)) = C r)
    (hd : ∀ k : Fin 72, d (ix2 p k) = D (ix2 r k))
    (hwl : ∀ k : Fin 86, wl (ix2 k q) = WL (ix2 k q)) (hwr : ∀ k : Fin 72, wr (ix2 k q) = WR (ix2 k q)) :
    k0_pay1 (F := Ideal) cnt s wl d wr (ix2 p q) = sage0At S C D WL WR r q := by
  rw [k0_pay1_apply]
  unfold sage0At
  rw [hc]
  refine congrArg₂ max (congrArg₂ (· + ·) (Finset.sum_congr rfl fun k _ => ?_) (Finset.sum_congr rfl fun k _ => ?_)) rfl
  · rw [hs k, hwl k]
  · rw [hd k, hwr k]

/-! ## The reference's stage at an entry -/

/-- The reference's `val_main_v118` at (r, j) is the stage over its own row sums, counts and destination features. -/
theorem ref0_apply (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x33 x34 : (⟨S200000, .i32⟩ : BufTy).Contents (Elt Ideal))
    (r : Fin 30000) (j : Fin 256) :
    Cert.ReferenceIdeal.Stages.val_main_v118 (F := Ideal) x0 x1 x3 x4 x5 x6 x7 x8 x33 x34 (ix2 r j)
      = sage0At (Cert.ReferenceIdeal.Stages.val_main_v105 (F := Ideal) x0 x3 x4 x5 x6 x33 x34)
          (fun r => Cert.ReferenceIdeal.Stages.val_main_v109 (F := Ideal) x34 (ix1 r))
          (Cert.ReferenceIdeal.Stages.val_main_v63 (F := Ideal) x1 x3 x4) x7 x8 r j := by
  rw [Cert.ReferenceIdeal.Stages.val_main_v118_apply, Cert.ReferenceIdeal.Stages.val_main_v117_apply,
    Cert.ReferenceIdeal.Stages.val_main_v115_apply, Cert.ReferenceIdeal.Stages.val_main_v116_apply,
    Cert.ReferenceIdeal.Stages.val_main_call0_v0_apply, Cert.ReferenceIdeal.Stages.val_main_call0_cst_apply]
  generalize Cert.ReferenceIdeal.Stages.val_main_v63 (F := Ideal) x1 x3 x4 = D
  unfold sage0At
  refine congrArg₂ max (congrArg₂ (· + ·) (Finset.sum_congr rfl fun k _ => ?_) (Finset.sum_congr rfl fun k _ => ?_)) rfl
  · have el : Cert.ReferenceIdeal.Stages.lidx_main_v115 (ix2 r j) k = ix2 r k :=
      funext fun a => Fin.ext (by match a with | ⟨0, _⟩ => rfl | ⟨1, _⟩ => rfl)
    have er : Cert.ReferenceIdeal.Stages.ridx_main_v115 (ix2 r j) k = ix2 k j :=
      funext fun a => Fin.ext (by match a with | ⟨0, _⟩ => rfl | ⟨1, _⟩ => rfl)
    have ec : Cert.ReferenceIdeal.Stages.idx_main_v112 (Cert.ReferenceIdeal.Stages.idx_main_v113 (ix2 r k)) = ix1 r :=
      funext fun a => Fin.ext (by match a with | ⟨0, _⟩ => rfl)
    rw [el, er, Cert.ReferenceIdeal.Stages.val_main_v114_apply, Cert.ReferenceIdeal.Stages.val_main_v113_apply,
      Cert.ReferenceIdeal.Stages.val_main_v112_apply, Cert.ReferenceIdeal.Stages.val_main_v111_apply,
      Cert.ReferenceIdeal.Stages.val_main_v110_apply, Cert.ReferenceIdeal.Stages.val_main_cst_21_apply, ec]
    rfl
  · have el : Cert.ReferenceIdeal.Stages.lidx_main_v116 (ix2 r j) k = ix2 r k :=
      funext fun a => Fin.ext (by match a with | ⟨0, _⟩ => rfl | ⟨1, _⟩ => rfl)
    have er : Cert.ReferenceIdeal.Stages.ridx_main_v116 (ix2 r j) k = ix2 k j :=
      funext fun a => Fin.ext (by match a with | ⟨0, _⟩ => rfl | ⟨1, _⟩ => rfl)
    rw [el, er]

/-! ## Where each block sits in its array -/

theorem hz0 : (![0, 0] : Fin 2 → Nat) = fun _ => 0 := funext fun a => by fin_cases a <;> rfl

/-- The printed index maps of region 0, decided over its fifteen points: the row-blocked windows (row sums, counts,
    destination features, output) are at block row `t` and block column 0, the two weight windows at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row p of the row sums' block at point t is row 2000·t + p of the array. -/
theorem iblk0_0_apply (c : Dev nD) (t : Fin cfg0.N) (p : Fin 2000) (k : Fin 86) (r : Fin 30000)
    (hr : r.val = t.val * 2000 + p.val) :
    (iblk0 (F := Ideal) V c 0 t : Vec Ideal S2000x86 .f32) (ix2 p k) = (V c main_v73 : S30000x86.Idx → EReal) (ix2 r k) := by
  obtain ⟨e0, e1, -⟩ := idx_facts0 t
  unfold iblk0
  rw [View.read_apply]
  show V c main_v73 _ = V c main_v73 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 86 + 1 * k.val = k.val; rw [e1]; omega

/-- Row p of the counts' block at point t is row 2000·t + p of the array. -/
theorem iblk0_1_apply (c : Dev nD) (t : Fin cfg0.N) (p : Fin 2000) (z : Fin 1) (r : Fin 30000)
    (hr : r.val = t.val * 2000 + p.val) :
    (iblk0 (F := Ideal) V c 1 t : Vec Ideal S2000x1 .f32) (ix2 p z) = (V c main_v78 : S30000x1.Idx → EReal) (ix2 r z) := by
  obtain ⟨-, -, e0, e1, -⟩ := idx_facts0 t
  unfold iblk0
  rw [View.read_apply]
  show V c main_v78 _ = V c main_v78 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 1 + 1 * z.val = z.val; rw [e1]; omega

/-- Row p of the destination features' block at point t is row 2000·t + p of the array. -/
theorem iblk0_2_apply (c : Dev nD) (t : Fin cfg0.N) (p : Fin 2000) (k : Fin 72) (r : Fin 30000)
    (hr : r.val = t.val * 2000 + p.val) :
    (iblk0 (F := Ideal) V c 2 t : Vec Ideal S2000x72 .f32) (ix2 p k) = (V c main_v63 : S30000x72.Idx → EReal) (ix2 r k) := by
  obtain ⟨-, -, -, -, e0, e1, -⟩ := idx_facts0 t
  unfold iblk0
  rw [View.read_apply]
  show V c main_v63 _ = V c main_v63 _
  congr 1
  funext a
  apply Fin.ext
  match a with
  | ⟨0, _⟩ => show win0_2.index t (0 : Fin 2) * 2000 + 1 * p.val = r.val; rw [e0, hr]; omega
  | ⟨1, _⟩ => show win0_2.index t (1 : Fin 2) * 72 + 1 * k.val = k.val; rw [e1]; omega

/-- The left weight's block at every point is the whole matrix. -/
theorem iblk0_3_apply (c : Dev nD) (t : Fin cfg0.N) (k : Fin 86) (q : Fin 256) :
    (iblk0 (F := Ideal) V c 3 t : Vec Ideal S86x256 .f32) (ix2 k q) = (V c main_arg7 : S86x256.Idx → EReal) (ix2 k q) := by
  obtain ⟨-, -, -, -, -, -, e0, e1, -⟩ := idx_facts0 t
  unfold iblk0
  rw [View.read_apply]
  show V c main_arg7 _ = V c main_arg7 _
  congr 1
  funext a
  apply Fin.ext
  match a with
  | ⟨0, _⟩ => show win0_3.index t (0 : Fin 2) * 86 + 1 * k.val = k.val; rw [e0]; omega
  | ⟨1, _⟩ => show win0_3.index t (1 : Fin 2) * 256 + 1 * q.val = q.val; rw [e1]; omega

/-- The right weight's block at every point is the whole matrix. -/
theorem iblk0_4_apply (c : Dev nD) (t : Fin cfg0.N) (k : Fin 72) (q : Fin 256) :
    (iblk0 (F := Ideal) V c 4 t : Vec Ideal S72x256 .f32) (ix2 k q) = (V c main_arg8 : S72x256.Idx → EReal) (ix2 k q) := by
  obtain ⟨-, -, -, -, -, -, -, -, e0, e1, -⟩ := idx_facts0 t
  unfold iblk0
  rw [View.read_apply]
  show V c main_arg8 _ = V c main_arg8 _
  congr 1
  funext a
  apply Fin.ext
  match a with
  | ⟨0, _⟩ => show win0_4.index t (0 : Fin 2) * 72 + 1 * k.val = k.val; rw [e0]; omega
  | ⟨1, _⟩ => show win0_4.index t (1 : Fin 2) * 256 + 1 * q.val = q.val; rw [e1]; omega

/-- Entry (p, q) of the output's block at point t is entry (2000·t + p, q) of the array. -/
theorem emb0_5 (t : Fin cfg0.N) (p : Fin 2000) (q : Fin 256) (r : Fin 30000) (hr : r.val = t.val * 2000 + p.val) :
    (((cfg0.win 5).blk t).view.emb (ix2 p q) : S30000x256.Idx) = ix2 r q := by
  obtain ⟨-, -, -, -, -, -, -, -, -, -, e0, e1⟩ := idx_facts0 t
  funext a
  apply Fin.ext
  match a with
  | ⟨0, _⟩ => show win0_5.index t (0 : Fin 2) * 2000 + 1 * p.val = r.val; rw [e0, hr]; omega
  | ⟨1, _⟩ => show win0_5.index t (1 : Fin 2) * 256 + 1 * q.val = q.val; rw [e1]; omega

/-! ## What each point writes back, the cover, the array after the run -/

/-- WHAT POINT t WRITES BACK is block t of the reference's stage, given what the five input arrays hold at entry. -/
theorem flushed0_5_eq (c : Dev nD) (t : Fin cfg0.N)
    (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x33 x34 : (⟨S200000, .i32⟩ : BufTy).Contents (Elt Ideal))
    (hs : V c main_v73 = Cert.ReferenceIdeal.Stages.val_main_v105 (F := Ideal) x0 x3 x4 x5 x6 x33 x34)
    (hc : ∀ (r : Fin 30000) (z : Fin 1), (V c main_v78 : S30000x1.Idx → EReal) (ix2 r z) = Cert.ReferenceIdeal.Stages.val_main_v109 (F := Ideal) x34 (ix1 r))
    (hd : V c main_v63 = Cert.ReferenceIdeal.Stages.val_main_v63 (F := Ideal) x1 x3 x4)
    (hwl : V c main_arg7 = x7) (hwr : V c main_arg8 = x8) :
    (dat0 (F := Ideal) V c).flushed 5 t
      = ((cfg0.win 5).blk t).view.read (Elt Ideal) (Cert.ReferenceIdeal.Stages.val_main_v118 (F := Ideal) x0 x1 x3 x4 x5 x6 x7 x8 x33 x34) := by
  show (cfg0.win 5).cut (grid0.coords t) ((dat0 (F := Ideal) V c).after 5 t) = _
  rw [after0_5]
  unfold out0_5
  rw [View.canon_unit_zero hz0]
  simp only [View.ld_unit_zero (S := S2000x86) hz0, View.ld_unit_zero (S := S2000x1) hz0, View.ld_unit_zero (S := S2000x72) hz0,
    View.ld_unit_zero (S := S86x256) hz0, View.ld_unit_zero (S := S72x256) hz0]
  funext y
  obtain ⟨p, q, rfl⟩ : ∃ (p : Fin 2000) (q : Fin 256), y = ix2 p q := ⟨y 0, y 1, eq_ix2 y⟩
  have hN : grid0.N = 15 := N_0
  have ht : t.val < 15 := hN ▸ t.isLt
  obtain ⟨r, hr⟩ : ∃ r : Fin 30000, r.val = t.val * 2000 + p.val := ⟨⟨t.val * 2000 + p.val, by have := p.isLt; omega⟩, rfl⟩
  refine (sage0_blk_eq (iblk0 (F := Ideal) V c 1 t) (iblk0 (F := Ideal) V c 0 t) (iblk0 (F := Ideal) V c 3 t) (iblk0 (F := Ideal) V c 2 t) (iblk0 (F := Ideal) V c 4 t)
    (V c main_v73) (fun r => (V c main_v78 : S30000x1.Idx → EReal) (ix2 r (0 : Fin 1))) (V c main_v63) (V c main_arg7) (V c main_arg8) p q r
    (fun k => iblk0_0_apply V c t p k r hr) (iblk0_1_apply V c t p 0 r hr) (fun k => iblk0_2_apply V c t p k r hr)
    (fun k => iblk0_3_apply V c t k q) (fun k => iblk0_4_apply V c t k q)).trans ?_
  rw [View.read_apply]
  show _ = Cert.ReferenceIdeal.Stages.val_main_v118 (F := Ideal) x0 x1 x3 x4 x5 x6 x7 x8 x33 x34 (((cfg0.win 5).blk t).view.emb (ix2 p q))
  rw [emb0_5 t p q r hr, ref0_apply, hs, hd, hwl, hwr, funext fun r => hc r 0]

/-- An index of the output array is in point t's block iff each coordinate is in the block's range on its axis. -/
theorem mem_blk0_5 (t : Fin cfg0.N) (i : S30000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v94).slice (win0_5.rect t)).set ↔ _
  rw [View.set_slice_whole, Rect.mem_set_unit]
  exact Iff.rfl

/-- THE COVER: row r of the output array lies in the block of point r / 2000, and every point writes back. -/
theorem covered0_5 (i : S30000x256.Idx) :
    ∃ t : Fin cfg0.N, (cfg0.win 5).flush t = true ∧ i ∈ ((cfg0.win 5).blk t).view.set := by
  have hi0 : (i 0).val < 30000 := (i 0).isLt
  have hi1 : (i 1).val < 256 := (i 1).isLt
  have hN : grid0.N = 15 := N_0
  obtain ⟨t, ht⟩ : ∃ t : Fin cfg0.N, t.val = (i 0).val / 2000 := ⟨⟨(i 0).val / 2000, by show _ < grid0.N; rw [hN]; omega⟩, rfl⟩
  obtain ⟨-, -, -, -, -, -, -, -, -, -, e0, e1⟩ := idx_facts0 t
  refine ⟨t, flush0_5 t, ?_⟩
  rw [mem_blk0_5]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 256 ≤ (i 1).val ∧ (i 1).val < win0_5.index t (1 : Fin 2) * 256 + 256; rw [e1]; omega

/-- THE OUTPUT ARRAY AFTER THE RUN is the reference's stage `val_main_v118`, given that on entry the row sums, counts
    and destination features are the reference's and the weights are the arguments. -/
theorem final0 (c : Dev nD)
    (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x33 x34 : (⟨S200000, .i32⟩ : BufTy).Contents (Elt Ideal))
    (hs : V c main_v73 = Cert.ReferenceIdeal.Stages.val_main_v105 (F := Ideal) x0 x3 x4 x5 x6 x33 x34)
    (hc : ∀ (r : Fin 30000) (z : Fin 1), (V c main_v78 : S30000x1.Idx → EReal) (ValueIdx.ix2 r z) = Cert.ReferenceIdeal.Stages.val_main_v109 (F := Ideal) x34 (ValueIdx.ix1 r))
    (hd : V c main_v63 = Cert.ReferenceIdeal.Stages.val_main_v63 (F := Ideal) x1 x3 x4)
    (hwl : V c main_arg7 = x7) (hwr : V c main_arg8 = x8) :
    (dat0 (F := Ideal) V c).arrAt 5 cfg0.N = Cert.ReferenceIdeal.Stages.val_main_v118 (F := Ideal) x0 x1 x3 x4 x5 x6 x7 x8 x33 x34 :=
  (dat0 (F := Ideal) V c).arrAt_eq_of_cover 5 (Cert.ReferenceIdeal.Stages.val_main_v118 (F := Ideal) x0 x1 x3 x4 x5 x6 x7 x8 x33 x34)
    (fun t _ => flushed0_5_eq V c t x0 x1 x3 x4 x5 x6 x7 x8 x33 x34 hs hc hd hwl hwr) covered0_5

end Cert.KernelIdeal.Regions

end
-- ==== Proof.IdealSage1Pay.lean ====
/- The arithmetic of the second mean-aggregate linear stage's block (layer 1), read at one entry (row y of the block,
   column j): the bf16 casts are the identity on extended reals and each matrix product into a zero accumulator is the
   plain sum over its contracted coordinate, so the stored block is
     max ( Σ_k (s[y,k] / max(cnt[y,0], 1)) · Wl[k,j]  +  Σ_k d[y,k] · Wr[k,j] , 0 ),
   both products of shape [2000,86]·[86,256]. -/
import proofs.«402966_j45758581572292_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Idealize.ShloMosaic Idealize.ShloMosaic.ValueIdx
open Cert.KernelIdeal Cert.KernelIdeal.Gen
open scoped BigOperators

/-! ## The [2000,86]·[86,256] matrix product at an entry (both products of this region have this shape) -/

/-- Left operand at output (i, ·) and contraction index q: its row is the output's row … -/
theorem lhs1_mm_0 (i : S2000x256.Idx) (q : dot_S2000x86_S86x256_S2000x256_1_0_0_1_n_n.contr.Idx) :
    (dot_S2000x86_S86x256_S2000x256_1_0_0_1_n_n.lhsIdx i q 0).val = (i 0).val := by
  unfold DotDims.lhsIdx
  rw [dif_neg (show ¬(0 : Fin S2000x86.rank) ∈ dot_S2000x86_S86x256_S2000x256_1_0_0_1_n_n.lhsBatch by decide), dif_pos (show (0 : Fin S2000x86.rank) ∈ dot_S2000x86_S86x256_S2000x256_1_0_0_1_n_n.lhsNonContracting by decide)]
  rfl
/-- … and its column the contracted coordinate. -/
theorem lhs1_mm_1 (i : S2000x256.Idx) (q : dot_S2000x86_S86x256_S2000x256_1_0_0_1_n_n.contr.Idx) :
    (dot_S2000x86_S86x256_S2000x256_1_0_0_1_n_n.lhsIdx i q 1).val = (q ⟨0, by decide⟩).val :=
  dot_S2000x86_S86x256_S2000x256_1_0_0_1_n_n.lhsIdx_val_of_single rfl i q
/-- Right operand: its row is the contracted coordinate … -/
theorem rhs1_mm_0 (i : S2000x256.Idx) (q : dot_S2000x86_S86x256_S2000x256_1_0_0_1_n_n.contr.Idx) :
    (dot_S2000x86_S86x256_S2000x256_1_0_0_1_n_n.rhsIdx i q 0).val = (q ⟨0, by decide⟩).val :=
  dot_S2000x86_S86x256_S2000x256_1_0_0_1_n_n.rhsIdx_val_of_single rfl i q
/-- … and its column the output's column. -/
theorem rhs1_mm_1 (i : S2000x256.Idx) (q : dot_S2000x86_S86x256_S2000x256_1_0_0_1_n_n.contr.Idx) :
    (dot_S2000x86_S86x256_S2000x256_1_0_0_1_n_n.rhsIdx i q 1).val = (i 1).val := by
  unfold DotDims.rhsIdx
  rw [dif_neg (show ¬(1 : Fin S86x256.rank) ∈ dot_S2000x86_S86x256_S2000x256_1_0_0_1_n_n.rhsBatch by decide), dif_pos (show (1 : Fin S86x256.rank) ∈ dot_S2000x86_S86x256_S2000x256_1_0_0_1_n_n.rhsNonContracting by decide)]
  rfl

/-- The product into the zero accumulator at (y, j): Σ_k a[y,k] · b[k,j]. -/
theorem mm1_apply (a : FVec Ideal S2000x86 .bf16) (b : FVec Ideal S86x256 .bf16) (y : Fin 2000) (j : Fin 256) :
    FloatOps.matmul dot_S2000x86_S86x256_S2000x256_1_0_0_1_n_n none a b (constant (F := Ideal) S2000x256 .f32 0x00000000#32) (ix2 y j)
      = ∑ k : Fin 86, a (ix2 y k) * b (ix2 k j) := by
  rw [Ideal.matmul_constant_zero_apply, ← Equiv.sum_comp (ValueIdx.contrEquiv1 dot_S2000x86_S86x256_S2000x256_1_0_0_1_n_n 86 rfl rfl).symm]
  refine Finset.sum_congr rfl fun k _ => ?_
  have hk := ValueIdx.contrEquiv1_symm_val dot_S2000x86_S86x256_S2000x256_1_0_0_1_n_n 86 rfl rfl k
  have el : dot_S2000x86_S86x256_S2000x256_1_0_0_1_n_n.lhsIdx (ix2 y j) ((ValueIdx.contrEquiv1 dot_S2000x86_S86x256_S2000x256_1_0_0_1_n_n 86 rfl rfl).symm k) = ix2 y k := funext fun a => Fin.ext (by
    match a with
    | ⟨0, _⟩ => exact lhs1_mm_0 _ _
    | ⟨1, _⟩ => exact (lhs1_mm_1 _ _).trans hk)
  have er : dot_S2000x86_S86x256_S2000x256_1_0_0_1_n_n.rhsIdx (ix2 y j) ((ValueIdx.contrEquiv1 dot_S2000x86_S86x256_S2000x256_1_0_0_1_n_n 86 rfl rfl).symm k) = ix2 k j := funext fun a => Fin.ext (by
    match a with
    | ⟨0, _⟩ => exact (rhs1_mm_0 _ _).trans hk
    | ⟨1, _⟩ => exact rhs1_mm_1 _ _)
  rw [el, er]

/-! ## The mean's divisor: the count column clamped below by one, spread along the row -/

/-- The [2000,1] column broadcast to [2000,86], at (y, k), is the column's entry of row y. -/
theorem bcast1_col_apply (x : FVec Ideal S2000x1 .f32) (y : Fin 2000) (k : Fin 86) :
    broadcastTo S2000x86 x broadcasts_S2000x1_S2000x86 (ix2 y k) = x (ix2 y (0 : Fin 1)) :=
  broadcastTo_apply x broadcasts_S2000x1_S2000x86 (ix2 y k) (ix2 y (0 : Fin 1)) (fun a => by
    match a with
    | ⟨0, _⟩ => show y.val = if (2000 : Nat) = 1 then 0 else y.val; rw [if_neg (by decide)]
    | ⟨1, _⟩ => show (0 : Nat) = if (1 : Nat) = 1 then 0 else k.val; rw [if_pos rfl])

/-! ## The payload at an entry -/

/-- Region 1's stored block at (y, j), over any five input blocks: the maximum with zero of the mean row times Wl
    plus the destination row times Wr; the literal words 1.0 and 0.0 stay as words. -/
theorem k1_pay1_apply (cnt : Vec Ideal S2000x1 .f32) (s : Vec Ideal S2000x86 .f32) (wl : Vec Ideal S86x256 .f32)
    (d : Vec Ideal S2000x86 .f32) (wr : Vec Ideal S86x256 .f32) (y : Fin 2000) (j : Fin 256) :
    k1_pay1 (F := Ideal) cnt s wl d wr (ix2 y j)
      = max ((∑ k : Fin 86, Ideal.div (s (ix2 y k)) (max (cnt (ix2 y (0 : Fin 1))) (Ideal.ofBits .f32 0x3F800000#32)) * wl (ix2 k j))
          + ∑ k : Fin 86, d (ix2 y k) * wr (ix2 k j)) (Ideal.ofBits .f32 0x00000000#32) := by
  unfold k1_pay1
  refine congrArg₂ max (congrArg₂ (· + ·) ((mm1_apply _ _ y j).trans ?_) ((mm1_apply _ _ y j).trans ?_)) rfl
  · refine Finset.sum_congr rfl fun k _ => congrArg₂ (· * ·) ?_ rfl
    show Ideal.div (shapeCast S2000x86 s shapeCasts_S2000x86_S2000x86 (ix2 y k)) (broadcastTo S2000x86 (maximumf (shapeCast S2000x1 cnt shapeCasts_S2000x1_S2000x1) (broadcast S2000x1 (Scalar.ofBits (F := Ideal) .f32 0x3F800000#32))) broadcasts_S2000x1_S2000x86 (ix2 y k)) = _
    rw [bcast1_col_apply, shapeCast_self, shapeCast_self]
    rfl
  · refine Finset.sum_congr rfl fun k _ => congrArg₂ (· * ·) ?_ rfl
    show shapeCast S2000x86 d shapeCasts_S2000x86_S2000x86 (ix2 y k) = _
    rw [shapeCast_self]

end Cert.KernelIdeal.Regions

end
-- ==== Proof.IdealSage1Value.lean ====
/- The second mean-aggregate linear stage (layer 1) as a pipelined region, at the ideal values: after the fifteen grid
   points the region's output array holds, at every (row r, column j),
     max ( Σ_k (s[r,k] / max(cnt[r], 1)) · Wl[k,j]  +  Σ_k d[r,k] · Wr[k,j] , 0 ),
   which is the reference's stage read at (r, j). Point t of the grid computes rows 2000·t … 2000·t + 1999 from the same
   rows of the row sums, the counts and the destination features and from the whole of both 86×256 weight matrices; the
   fifteen row blocks tile the 30000 rows. -/
import proofs.«402966_j45758581572292_1_alg».proof.Proof.IdealSage1
import proofs.«402966_j45758581572292_1_alg».proof.Proof.IdealSage1Pay
import proofs.«402966_j45758581572292_1_alg».proof.Proof.RefStages
import Idealize.ShloMosaic.Lib.Pipeline.Value
import Idealize.ShloMosaic.Lib.ValueIdx
import Idealize.ShloMosaic.PureOps.Ideal.Laws

set_option maxRecDepth 16384

noncomputable section

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

/-! ## The stage as one function of five arrays -/

/-- Entry (r, j) of the stage over the row sums `S`, the per-row counts `C`, the destination features `D` and the
    two weight matrices: the mean row (row sums over the count clamped below by one) times the left weight, plus the
    destination row times the right weight, clamped below by zero. The literal words 1.0 and 0.0 stay as words. -/
def sage1At (S : S30000x86.Idx → EReal) (C : Fin 30000 → EReal) (D : S30000x86.Idx → EReal)
    (WL : S86x256.Idx → EReal) (WR : S86x256.Idx → EReal) (r : Fin 30000) (j : Fin 256) : EReal :=
  max ((∑ k : Fin 86, Ideal.div (S (ix2 r k)) (max (C r) (Ideal.ofBits .f32 0x3F800000#32)) * WL (ix2 k j))
      + ∑ k : Fin 86, D (ix2 r k) * WR (ix2 k j)) (Ideal.ofBits .f32 0x00000000#32)

/-- The body's block at (p, q) is the stage at (r, q) whenever row p of each row-blocked input block is row r of its
    array and column q of each weight block is column q of its weight array. -/
theorem sage1_blk_eq (cnt : Vec Ideal S2000x1 .f32) (s : Vec Ideal S2000x86 .f32) (wl : Vec Ideal S86x256 .f32)
    (d : Vec Ideal S2000x86 .f32) (wr : Vec Ideal S86x256 .f32)
    (S : S30000x86.Idx → EReal) (C : Fin 30000 → EReal) (D : S30000x86.Idx → EReal)
    (WL : S86x256.Idx → EReal) (WR : S86x256.Idx → EReal) (p : Fin 2000) (q : Fin 256) (r : Fin 30000)
    (hs : ∀ k : Fin 86, s (ix2 p k) = S (ix2 r k)) (hc : cnt (ix2 p (0 : Fin 1)) = C r)
    (hd : ∀ k : Fin 86, d (ix2 p k) = D (ix2 r k))
    (hwl : ∀ k : Fin 86, wl (ix2 k q) = WL (ix2 k q)) (hwr : ∀ k : Fin 86, wr (ix2 k q) = WR (ix2 k q)) :
    k1_pay1 (F := Ideal) cnt s wl d wr (ix2 p q) = sage1At S C D WL WR r q := by
  rw [k1_pay1_apply]
  unfold sage1At
  rw [hc]
  refine congrArg₂ max (congrArg₂ (· + ·) (Finset.sum_congr rfl fun k _ => ?_) (Finset.sum_congr rfl fun k _ => ?_)) rfl
  · rw [hs k, hwl k]
  · rw [hd k, hwr k]

/-! ## The reference's stage at an entry -/

/-- The reference's `val_main_v141` at (r, j) is the stage over its own row sums (`val_main_v128`), counts
    (`val_main_v132`) and destination features (`val_main_v41`): the two `dot_general`s are sums over the contracted
    coordinate, the divisor is the clamped count of row r spread along the row, the rest is pointwise. -/
theorem ref1_apply (x0 : (⟨S30000x12, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x9 x10 : (⟨S86x256, .f32⟩ : BufTy).Contents (Elt Ideal)) (x35 x36 : (⟨S200000, .i32⟩ : BufTy).Contents (Elt Ideal))
    (r : Fin 30000) (j : Fin 256) :
    Cert.ReferenceIdeal.Stages.val_main_v141 (F := Ideal) x0 x3 x4 x5 x6 x9 x10 x35 x36 (ix2 r j)
      = sage1At (Cert.ReferenceIdeal.Stages.val_main_v128 (F := Ideal) x0 x3 x4 x5 x6 x35 x36)
          (fun r => Cert.ReferenceIdeal.Stages.val_main_v132 (F := Ideal) x36 (ix1 r))
          (Cert.ReferenceIdeal.Stages.val_main_v41 (F := Ideal) x0 x3 x4 x5 x6) x9 x10 r j := by
  rw [Cert.ReferenceIdeal.Stages.val_main_v141_apply, Cert.ReferenceIdeal.Stages.val_main_v140_apply,
    Cert.ReferenceIdeal.Stages.val_main_v138_apply, Cert.ReferenceIdeal.Stages.val_main_v139_apply,
    Cert.ReferenceIdeal.Stages.val_main_call1_v0_apply, Cert.ReferenceIdeal.Stages.val_main_call1_cst_apply]
  generalize Cert.ReferenceIdeal.Stages.val_main_v41 (F := Ideal) x0 x3 x4 x5 x6 = D
  unfold sage1At
  refine congrArg₂ max (congrArg₂ (· + ·) (Finset.sum_congr rfl fun k _ => ?_) (Finset.sum_congr rfl fun k _ => ?_)) rfl
  · have el : Cert.ReferenceIdeal.Stages.lidx_main_v138 (ix2 r j) k = ix2 r k :=
      funext fun a => Fin.ext (by match a with | ⟨0, _⟩ => rfl | ⟨1, _⟩ => rfl)
    have er : Cert.ReferenceIdeal.Stages.ridx_main_v138 (ix2 r j) k = ix2 k j :=
      funext fun a => Fin.ext (by match a with | ⟨0, _⟩ => rfl | ⟨1, _⟩ => rfl)
    have ec : Cert.ReferenceIdeal.Stages.idx_main_v135 (Cert.ReferenceIdeal.Stages.idx_main_v136 (ix2 r k)) = ix1 r :=
      funext fun a => Fin.ext (by match a with | ⟨0, _⟩ => rfl)
    rw [el, er, Cert.ReferenceIdeal.Stages.val_main_v137_apply, Cert.ReferenceIdeal.Stages.val_main_v136_apply,
      Cert.ReferenceIdeal.Stages.val_main_v135_apply, Cert.ReferenceIdeal.Stages.val_main_v134_apply,
      Cert.ReferenceIdeal.Stages.val_main_v133_apply, Cert.ReferenceIdeal.Stages.val_main_cst_27_apply, ec]
    rfl
  · have el : Cert.ReferenceIdeal.Stages.lidx_main_v139 (ix2 r j) k = ix2 r k :=
      funext fun a => Fin.ext (by match a with | ⟨0, _⟩ => rfl | ⟨1, _⟩ => rfl)
    have er : Cert.ReferenceIdeal.Stages.ridx_main_v139 (ix2 r j) k = ix2 k j :=
      funext fun a => Fin.ext (by match a with | ⟨0, _⟩ => rfl | ⟨1, _⟩ => rfl)
    rw [el, er]

/-! ## Where each block sits in its array -/

theorem hz1 : (![0, 0] : Fin 2 → Nat) = fun _ => 0 := funext fun a => by fin_cases a <;> rfl

/-- The printed index maps of region 1, decided over its fifteen points: the row-blocked windows (row sums, counts,
    destination features, output) are at block row `t` and block column 0, the two weight windows at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Row p of the row sums' block at point t is row 2000·t + p of the array. -/
theorem iblk1_0_apply (c : Dev nD) (t : Fin cfg1.N) (p : Fin 2000) (k : Fin 86) (r : Fin 30000)
    (hr : r.val = t.val * 2000 + p.val) :
    (iblk1 (F := Ideal) V c 0 t : Vec Ideal S2000x86 .f32) (ix2 p k) = (V c main_v88 : S30000x86.Idx → EReal) (ix2 r k) := by
  obtain ⟨e0, e1, -⟩ := idx_facts1 t
  unfold iblk1
  rw [View.read_apply]
  show V c main_v88 _ = V c main_v88 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 86 + 1 * k.val = k.val; rw [e1]; omega

/-- Row p of the counts' block at point t is row 2000·t + p of the array. -/
theorem iblk1_1_apply (c : Dev nD) (t : Fin cfg1.N) (p : Fin 2000) (z : Fin 1) (r : Fin 30000)
    (hr : r.val = t.val * 2000 + p.val) :
    (iblk1 (F := Ideal) V c 1 t : Vec Ideal S2000x1 .f32) (ix2 p z) = (V c main_v93 : S30000x1.Idx → EReal) (ix2 r z) := by
  obtain ⟨-, -, e0, e1, -⟩ := idx_facts1 t
  unfold iblk1
  rw [View.read_apply]
  show V c main_v93 _ = V c main_v93 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 1 + 1 * z.val = z.val; rw [e1]; omega

/-- Row p of the destination features' block at point t is row 2000·t + p of the array. -/
theorem iblk1_2_apply (c : Dev nD) (t : Fin cfg1.N) (p : Fin 2000) (k : Fin 86) (r : Fin 30000)
    (hr : r.val = t.val * 2000 + p.val) :
    (iblk1 (F := Ideal) V c 2 t : Vec Ideal S2000x86 .f32) (ix2 p k) = (V c main_v48 : S30000x86.Idx → EReal) (ix2 r k) := by
  obtain ⟨-, -, -, -, e0, e1, -⟩ := idx_facts1 t
  unfold iblk1
  rw [View.read_apply]
  show V c main_v48 _ = V c main_v48 _
  congr 1
  funext a
  apply Fin.ext
  match a with
  | ⟨0, _⟩ => show win1_2.index t (0 : Fin 2) * 2000 + 1 * p.val = r.val; rw [e0, hr]; omega
  | ⟨1, _⟩ => show win1_2.index t (1 : Fin 2) * 86 + 1 * k.val = k.val; rw [e1]; omega

/-- The left weight's block at every point is the whole matrix. -/
theorem iblk1_3_apply (c : Dev nD) (t : Fin cfg1.N) (k : Fin 86) (q : Fin 256) :
    (iblk1 (F := Ideal) V c 3 t : Vec Ideal S86x256 .f32) (ix2 k q) = (V c main_arg9 : S86x256.Idx → EReal) (ix2 k q) := by
  obtain ⟨-, -, -, -, -, -, e0, e1, -⟩ := idx_facts1 t
  unfold iblk1
  rw [View.read_apply]
  show V c main_arg9 _ = V c main_arg9 _
  congr 1
  funext a
  apply Fin.ext
  match a with
  | ⟨0, _⟩ => show win1_3.index t (0 : Fin 2) * 86 + 1 * k.val = k.val; rw [e0]; omega
  | ⟨1, _⟩ => show win1_3.index t (1 : Fin 2) * 256 + 1 * q.val = q.val; rw [e1]; omega

/-- The right weight's block at every point is the whole matrix. -/
theorem iblk1_4_apply (c : Dev nD) (t : Fin cfg1.N) (k : Fin 86) (q : Fin 256) :
    (iblk1 (F := Ideal) V c 4 t : Vec Ideal S86x256 .f32) (ix2 k q) = (V c main_arg10 : S86x256.Idx → EReal) (ix2 k q) := by
  obtain ⟨-, -, -, -, -, -, -, -, e0, e1, -⟩ := idx_facts1 t
  unfold iblk1
  rw [View.read_apply]
  show V c main_arg10 _ = V c main_arg10 _
  congr 1
  funext a
  apply Fin.ext
  match a with
  | ⟨0, _⟩ => show win1_4.index t (0 : Fin 2) * 86 + 1 * k.val = k.val; rw [e0]; omega
  | ⟨1, _⟩ => show win1_4.index t (1 : Fin 2) * 256 + 1 * q.val = q.val; rw [e1]; omega

/-- Entry (p, q) of the output's block at point t is entry (2000·t + p, q) of the array. -/
theorem emb1_5 (t : Fin cfg1.N) (p : Fin 2000) (q : Fin 256) (r : Fin 30000) (hr : r.val = t.val * 2000 + p.val) :
    (((cfg1.win 5).blk t).view.emb (ix2 p q) : S30000x256.Idx) = ix2 r q := by
  obtain ⟨-, -, -, -, -, -, -, -, -, -, e0, e1⟩ := idx_facts1 t
  funext a
  apply Fin.ext
  match a with
  | ⟨0, _⟩ => show win1_5.index t (0 : Fin 2) * 2000 + 1 * p.val = r.val; rw [e0, hr]; omega
  | ⟨1, _⟩ => show win1_5.index t (1 : Fin 2) * 256 + 1 * q.val = q.val; rw [e1]; omega

/-! ## What each point writes back, the cover, the array after the run -/

/-- WHAT POINT t WRITES BACK is block t of the reference's stage, given what the five input arrays hold at entry. -/
theorem flushed1_5_eq (c : Dev nD) (t : Fin cfg1.N)
    (x0 : (⟨S30000x12, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x9 x10 : (⟨S86x256, .f32⟩ : BufTy).Contents (Elt Ideal)) (x35 x36 : (⟨S200000, .i32⟩ : BufTy).Contents (Elt Ideal))
    (hs : V c main_v88 = Cert.ReferenceIdeal.Stages.val_main_v128 (F := Ideal) x0 x3 x4 x5 x6 x35 x36)
    (hc : ∀ (r : Fin 30000) (z : Fin 1), (V c main_v93 : S30000x1.Idx → EReal) (ix2 r z) = Cert.ReferenceIdeal.Stages.val_main_v132 (F := Ideal) x36 (ix1 r))
    (hd : V c main_v48 = Cert.ReferenceIdeal.Stages.val_main_v41 (F := Ideal) x0 x3 x4 x5 x6)
    (hwl : V c main_arg9 = x9) (hwr : V c main_arg10 = x10) :
    (dat1 (F := Ideal) V c).flushed 5 t
      = ((cfg1.win 5).blk t).view.read (Elt Ideal) (Cert.ReferenceIdeal.Stages.val_main_v141 (F := Ideal) x0 x3 x4 x5 x6 x9 x10 x35 x36) := by
  show (cfg1.win 5).cut (grid1.coords t) ((dat1 (F := Ideal) V c).after 5 t) = _
  rw [after1_5]
  unfold out1_5
  rw [View.canon_unit_zero hz1]
  simp only [View.ld_unit_zero (S := S2000x86) hz1, View.ld_unit_zero (S := S2000x1) hz1, View.ld_unit_zero (S := S86x256) hz1]
  funext y
  obtain ⟨p, q, rfl⟩ : ∃ (p : Fin 2000) (q : Fin 256), y = ix2 p q := ⟨y 0, y 1, eq_ix2 y⟩
  have hN : grid1.N = 15 := N_1
  have ht : t.val < 15 := hN ▸ t.isLt
  obtain ⟨r, hr⟩ : ∃ r : Fin 30000, r.val = t.val * 2000 + p.val := ⟨⟨t.val * 2000 + p.val, by have := p.isLt; omega⟩, rfl⟩
  refine (sage1_blk_eq (iblk1 (F := Ideal) V c 1 t) (iblk1 (F := Ideal) V c 0 t) (iblk1 (F := Ideal) V c 3 t) (iblk1 (F := Ideal) V c 2 t) (iblk1 (F := Ideal) V c 4 t)
    (V c main_v88) (fun r => (V c main_v93 : S30000x1.Idx → EReal) (ix2 r (0 : Fin 1))) (V c main_v48) (V c main_arg9) (V c main_arg10) p q r
    (fun k => iblk1_0_apply V c t p k r hr) (iblk1_1_apply V c t p 0 r hr) (fun k => iblk1_2_apply V c t p k r hr)
    (fun k => iblk1_3_apply V c t k q) (fun k => iblk1_4_apply V c t k q)).trans ?_
  rw [View.read_apply]
  show _ = Cert.ReferenceIdeal.Stages.val_main_v141 (F := Ideal) x0 x3 x4 x5 x6 x9 x10 x35 x36 (((cfg1.win 5).blk t).view.emb (ix2 p q))
  rw [emb1_5 t p q r hr, ref1_apply, hs, hd, hwl, hwr, funext fun r => hc r 0]

/-- An index of the output array is in point t's block iff each coordinate is in the block's range on its axis. -/
theorem mem_blk1_5 (t : Fin cfg1.N) (i : S30000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v95).slice (win1_5.rect t)).set ↔ _
  rw [View.set_slice_whole, Rect.mem_set_unit]
  exact Iff.rfl

/-- THE COVER: row r of the output array lies in the block of point r / 2000, and every point writes back. -/
theorem covered1_5 (i : S30000x256.Idx) :
    ∃ t : Fin cfg1.N, (cfg1.win 5).flush t = true ∧ i ∈ ((cfg1.win 5).blk t).view.set := by
  have hi0 : (i 0).val < 30000 := (i 0).isLt
  have hi1 : (i 1).val < 256 := (i 1).isLt
  have hN : grid1.N = 15 := N_1
  obtain ⟨t, ht⟩ : ∃ t : Fin cfg1.N, t.val = (i 0).val / 2000 := ⟨⟨(i 0).val / 2000, by show _ < grid1.N; rw [hN]; omega⟩, rfl⟩
  obtain ⟨-, -, -, -, -, -, -, -, -, -, e0, e1⟩ := idx_facts1 t
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 256 ≤ (i 1).val ∧ (i 1).val < win1_5.index t (1 : Fin 2) * 256 + 256; rw [e1]; omega

/-- THE OUTPUT ARRAY AFTER THE RUN is the reference's stage `val_main_v141`, given that on entry the row sums, counts
    and destination features are the reference's and the weights are the arguments. -/
theorem final1 (c : Dev nD)
    (x0 : (⟨S30000x12, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x9 x10 : (⟨S86x256, .f32⟩ : BufTy).Contents (Elt Ideal)) (x35 x36 : (⟨S200000, .i32⟩ : BufTy).Contents (Elt Ideal))
    (hs : V c main_v88 = Cert.ReferenceIdeal.Stages.val_main_v128 (F := Ideal) x0 x3 x4 x5 x6 x35 x36)
    (hc : ∀ (r : Fin 30000) (z : Fin 1), (V c main_v93 : S30000x1.Idx → EReal) (ValueIdx.ix2 r z) = Cert.ReferenceIdeal.Stages.val_main_v132 (F := Ideal) x36 (ValueIdx.ix1 r))
    (hd : V c main_v48 = Cert.ReferenceIdeal.Stages.val_main_v41 (F := Ideal) x0 x3 x4 x5 x6)
    (hwl : V c main_arg9 = x9) (hwr : V c main_arg10 = x10) :
    (dat1 (F := Ideal) V c).arrAt 5 cfg1.N = Cert.ReferenceIdeal.Stages.val_main_v141 (F := Ideal) x0 x3 x4 x5 x6 x9 x10 x35 x36 :=
  (dat1 (F := Ideal) V c).arrAt_eq_of_cover 5 (Cert.ReferenceIdeal.Stages.val_main_v141 (F := Ideal) x0 x3 x4 x5 x6 x9 x10 x35 x36)
    (fun t _ => flushed1_5_eq V c t x0 x3 x4 x5 x6 x9 x10 x35 x36 hs hc hd hwl hwr) covered1_5

end Cert.KernelIdeal.Regions

end
-- ==== Proof.IdealSage2Pay.lean ====
/- The arithmetic of the second-layer mean-aggregate linear stage's block, read at one entry (row y of the block,
   column j): with the bf16 casts the identity on extended reals and each matrix product into a zero accumulator the
   plain sum over its contracted coordinate,
     max ( Σ_k (s[y,k] / max(cnt[y,0], 1)) · Wl[k,j]  +  Σ_k d[y,k] · Wr[k,j] , 0 ). -/
import proofs.«402966_j45758581572292_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Idealize.ShloMosaic Idealize.ShloMosaic.ValueIdx
open Cert.KernelIdeal Cert.KernelIdeal.Gen
open scoped BigOperators

/-! ## The matrix product of region 2 at an entry (both products have the shape [2000,256]·[256,256]) -/

/-- Left operand of the [2000,256]·[256,256] product at output (i, ·) and contraction index q: row i … -/
theorem lhs2_mm256_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … column q. -/
theorem lhs2_mm256_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- Right operand: row q … -/
theorem rhs2_mm256_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- … column of the output. -/
theorem rhs2_mm256_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The [2000,256]·[256,256] product into the zero accumulator at (y, j): Σ_k a[y,k] · b[k,j]. -/
theorem mm2_256_apply (a : FVec Ideal S2000x256 .bf16) (b : FVec Ideal S256x256 .bf16) (y : Fin 2000) (j : Fin 256) :
    FloatOps.matmul dot_S2000x256_S256x256_S2000x256_1_0_0_1_n_n none a b (constant (F := Ideal) S2000x256 .f32 0x00000000#32) (ix2 y j)
      = ∑ k : Fin 256, a (ix2 y k) * b (ix2 k j) := by
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 y j) ((ValueIdx.contrEquiv1 dot_S2000x256_S256x256_S2000x256_1_0_0_1_n_n 256 rfl rfl).symm k) = ix2 y k := funext fun a => Fin.ext (by
    match a with
    | ⟨0, _⟩ => exact lhs2_mm256_0 _ _
    | ⟨1, _⟩ => exact (lhs2_mm256_1 _ _).trans hk)
  have er : dot_S2000x256_S256x256_S2000x256_1_0_0_1_n_n.rhsIdx (ix2 y j) ((ValueIdx.contrEquiv1 dot_S2000x256_S256x256_S2000x256_1_0_0_1_n_n 256 rfl rfl).symm k) = ix2 k j := funext fun a => Fin.ext (by
    match a with
    | ⟨0, _⟩ => exact (rhs2_mm256_0 _ _).trans hk
    | ⟨1, _⟩ => exact rhs2_mm256_1 _ _)
  rw [el, er]

/-! ## The mean's divisor: the count column clamped below by one, spread along the row -/

/-- The [2000,1] column broadcast to [2000,256], at (y, k), is the column's entry of row y. -/
theorem bcast2_col_apply (x : FVec Ideal S2000x1 .f32) (y : Fin 2000) (k : Fin 256) :
    broadcastTo S2000x256 x broadcasts_S2000x1_S2000x256 (ix2 y k) = x (ix2 y (0 : Fin 1)) :=
  broadcastTo_apply x broadcasts_S2000x1_S2000x256 (ix2 y k) (ix2 y (0 : Fin 1)) (fun a => by
    match a with
    | ⟨0, _⟩ => show y.val = if (2000 : Nat) = 1 then 0 else y.val; rw [if_neg (by decide)]
    | ⟨1, _⟩ => show (0 : Nat) = if (1 : Nat) = 1 then 0 else k.val; rw [if_pos rfl])

/-! ## The payload at an entry -/

/-- Region 2's stored block at (y, j), over any five input blocks: the maximum with zero of the mean row times Wl
    plus the destination row times Wr; the literal words 1.0 and 0.0 stay as words. -/
theorem k2_pay1_apply (cnt : Vec Ideal S2000x1 .f32) (s : Vec Ideal S2000x256 .f32) (wl : Vec Ideal S256x256 .f32)
    (d : Vec Ideal S2000x256 .f32) (wr : Vec Ideal S256x256 .f32) (y : Fin 2000) (j : Fin 256) :
    k2_pay1 (F := Ideal) cnt s wl d wr (ix2 y j)
      = max ((∑ k : Fin 256, Ideal.div (s (ix2 y k)) (max (cnt (ix2 y (0 : Fin 1))) (Ideal.ofBits .f32 0x3F800000#32)) * wl (ix2 k j))
          + ∑ k : Fin 256, d (ix2 y k) * wr (ix2 k j)) (Ideal.ofBits .f32 0x00000000#32) := by
  unfold k2_pay1
  refine congrArg₂ max (congrArg₂ (· + ·) ((mm2_256_apply _ _ y j).trans ?_) ((mm2_256_apply _ _ y j).trans ?_)) rfl
  · refine Finset.sum_congr rfl fun k _ => congrArg₂ (· * ·) ?_ rfl
    show Ideal.div (shapeCast S2000x256 s shapeCasts_S2000x256_S2000x256 (ix2 y k)) (broadcastTo S2000x256 (maximumf (shapeCast S2000x1 cnt shapeCasts_S2000x1_S2000x1) (broadcast S2000x1 (Scalar.ofBits (F := Ideal) .f32 0x3F800000#32))) broadcasts_S2000x1_S2000x256 (ix2 y k)) = _
    rw [bcast2_col_apply, shapeCast_self, shapeCast_self]
    rfl
  · refine Finset.sum_congr rfl fun k _ => congrArg₂ (· * ·) ?_ rfl
    show shapeCast S2000x256 d shapeCasts_S2000x256_S2000x256 (ix2 y k) = _
    rw [shapeCast_self]

end Cert.KernelIdeal.Regions

end
-- ==== Proof.IdealSage2Value.lean ====
/- The second-layer mean-aggregate linear stage as a pipelined region, at the ideal values: after the fifteen grid
   points the region's output array holds, at every (row r, column j),
     max ( Σ_k (s[r,k] / max(cnt[r], 1)) · Wl[k,j]  +  Σ_k d[r,k] · Wr[k,j] , 0 ),
   which is the reference's stage read at (r, j). Point t of the grid computes rows 2000·t … 2000·t + 1999 from the same
   rows of the row sums, the counts and the destination features and from the whole of both weight matrices; the
   fifteen row blocks tile the 30000 rows. -/
import proofs.«402966_j45758581572292_1_alg».proof.Proof.IdealSage2
import proofs.«402966_j45758581572292_1_alg».proof.Proof.IdealSage2Pay
import proofs.«402966_j45758581572292_1_alg».proof.Proof.RefStages
import Idealize.ShloMosaic.Lib.Pipeline.Value
import Idealize.ShloMosaic.Lib.ValueIdx
import Idealize.ShloMosaic.PureOps.Ideal.Laws

set_option maxRecDepth 16384

noncomputable section

namespace Cert.KernelIdeal.Regions

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

/-! ## The stage as one function of five arrays -/

/-- Entry (r, j) of the stage over the row sums `S`, the per-row counts `C`, the destination features `D` and the
    two weight matrices: the literal words 1.0 and 0.0 stay as words. -/
def sage2At (S : S30000x256.Idx → EReal) (C : Fin 30000 → EReal) (D : S30000x256.Idx → EReal)
    (WL : S256x256.Idx → EReal) (WR : S256x256.Idx → EReal) (r : Fin 30000) (j : Fin 256) : EReal :=
  max ((∑ k : Fin 256, Ideal.div (S (ix2 r k)) (max (C r) (Ideal.ofBits .f32 0x3F800000#32)) * WL (ix2 k j))
      + ∑ k : Fin 256, D (ix2 r k) * WR (ix2 k j)) (Ideal.ofBits .f32 0x00000000#32)

/-- The body's block at (p, q) is the stage at (r, q) whenever row p of each row-blocked input block is row r of its
    array and the weight blocks are the weight arrays. -/
theorem sage2_blk_eq (cnt : Vec Ideal S2000x1 .f32) (s : Vec Ideal S2000x256 .f32) (wl : Vec Ideal S256x256 .f32)
    (d : Vec Ideal S2000x256 .f32) (wr : Vec Ideal S256x256 .f32)
    (S : S30000x256.Idx → EReal) (C : Fin 30000 → EReal) (D : S30000x256.Idx → EReal)
    (WL : S256x256.Idx → EReal) (WR : S256x256.Idx → EReal) (p : Fin 2000) (q : Fin 256) (r : Fin 30000)
    (hs : ∀ k : Fin 256, s (ix2 p k) = S (ix2 r k)) (hc : cnt (ix2 p (0 : Fin 1)) = C r)
    (hd : ∀ k : Fin 256, d (ix2 p k) = D (ix2 r k))
    (hwl : ∀ k : Fin 256, wl (ix2 k q) = WL (ix2 k q)) (hwr : ∀ k : Fin 256, wr (ix2 k q) = WR (ix2 k q)) :
    k2_pay1 (F := Ideal) cnt s wl d wr (ix2 p q) = sage2At S C D WL WR r q := by
  rw [k2_pay1_apply]
  unfold sage2At
  rw [hc]
  refine congrArg₂ max (congrArg₂ (· + ·) (Finset.sum_congr rfl fun k _ => ?_) (Finset.sum_congr rfl fun k _ => ?_)) rfl
  · rw [hs k, hwl k]
  · rw [hd k, hwr k]

/-! ## The reference's stage at an entry -/

/-- The reference's `val_main_v210` at (r, j) is the stage over its own row sums, counts and destination features. -/
theorem ref2_apply (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x33 x34 x35 x36 : (⟨S200000, .i32⟩ : BufTy).Contents (Elt Ideal))
    (r : Fin 30000) (j : Fin 256) :
    Cert.ReferenceIdeal.Stages.val_main_v210 (F := Ideal) x0 x1 x3 x4 x5 x6 x7 x8 x9 x10 x15 x16 x33 x34 x35 x36 (ix2 r j)
      = sage2At (Cert.ReferenceIdeal.Stages.val_main_v197 (F := Ideal) x0 x3 x4 x5 x6 x9 x10 x33 x34 x35 x36)
          (fun r => Cert.ReferenceIdeal.Stages.val_main_v201 (F := Ideal) x34 (ix1 r))
          (Cert.ReferenceIdeal.Stages.val_main_v118 (F := Ideal) x0 x1 x3 x4 x5 x6 x7 x8 x33 x34) x15 x16 r j := by
  rw [Cert.ReferenceIdeal.Stages.val_main_v210_apply, Cert.ReferenceIdeal.Stages.val_main_v209_apply,
    Cert.ReferenceIdeal.Stages.val_main_v207_apply, Cert.ReferenceIdeal.Stages.val_main_v208_apply,
    Cert.ReferenceIdeal.Stages.val_main_call3_v0_apply, Cert.ReferenceIdeal.Stages.val_main_call3_cst_apply]
  generalize Cert.ReferenceIdeal.Stages.val_main_v118 (F := Ideal) x0 x1 x3 x4 x5 x6 x7 x8 x33 x34 = D
  unfold sage2At
  refine congrArg₂ max (congrArg₂ (· + ·) (Finset.sum_congr rfl fun k _ => ?_) (Finset.sum_congr rfl fun k _ => ?_)) rfl
  · have el : Cert.ReferenceIdeal.Stages.lidx_main_v207 (ix2 r j) k = ix2 r k :=
      funext fun a => Fin.ext (by match a with | ⟨0, _⟩ => rfl | ⟨1, _⟩ => rfl)
    have er : Cert.ReferenceIdeal.Stages.ridx_main_v207 (ix2 r j) k = ix2 k j :=
      funext fun a => Fin.ext (by match a with | ⟨0, _⟩ => rfl | ⟨1, _⟩ => rfl)
    have ec : Cert.ReferenceIdeal.Stages.idx_main_v204 (Cert.ReferenceIdeal.Stages.idx_main_v205 (ix2 r k)) = ix1 r :=
      funext fun a => Fin.ext (by match a with | ⟨0, _⟩ => rfl)
    rw [el, er, Cert.ReferenceIdeal.Stages.val_main_v206_apply, Cert.ReferenceIdeal.Stages.val_main_v205_apply,
      Cert.ReferenceIdeal.Stages.val_main_v204_apply, Cert.ReferenceIdeal.Stages.val_main_v203_apply,
      Cert.ReferenceIdeal.Stages.val_main_v202_apply, Cert.ReferenceIdeal.Stages.val_main_cst_45_apply, ec]
    rfl
  · have el : Cert.ReferenceIdeal.Stages.lidx_main_v208 (ix2 r j) k = ix2 r k :=
      funext fun a => Fin.ext (by match a with | ⟨0, _⟩ => rfl | ⟨1, _⟩ => rfl)
    have er : Cert.ReferenceIdeal.Stages.ridx_main_v208 (ix2 r j) k = ix2 k j :=
      funext fun a => Fin.ext (by match a with | ⟨0, _⟩ => rfl | ⟨1, _⟩ => rfl)
    rw [el, er]

/-! ## Where each block sits in its array -/

theorem hz2 : (![0, 0] : Fin 2 → Nat) = fun _ => 0 := funext fun a => by fin_cases a <;> rfl

/-- The printed index maps of region 2, decided over its fifteen points: the row-blocked windows (row sums, counts,
    destination features, output) are at block row `t` and block column 0, the two weight windows at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- Row p of the row sums' block at point t is row 2000·t + p of the array. -/
theorem iblk2_0_apply (c : Dev nD) (t : Fin cfg2.N) (p : Fin 2000) (k : Fin 256) (r : Fin 30000)
    (hr : r.val = t.val * 2000 + p.val) :
    (iblk2 (F := Ideal) V c 0 t : Vec Ideal S2000x256 .f32) (ix2 p k) = (V c main_v105 : S30000x256.Idx → EReal) (ix2 r k) := by
  obtain ⟨e0, e1, -⟩ := idx_facts2 t
  unfold iblk2
  rw [View.read_apply]
  show V c main_v105 _ = V c main_v105 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 256 + 1 * k.val = k.val; rw [e1]; omega

/-- Row p of the counts' block at point t is row 2000·t + p of the array. -/
theorem iblk2_1_apply (c : Dev nD) (t : Fin cfg2.N) (p : Fin 2000) (z : Fin 1) (r : Fin 30000)
    (hr : r.val = t.val * 2000 + p.val) :
    (iblk2 (F := Ideal) V c 1 t : Vec Ideal S2000x1 .f32) (ix2 p z) = (V c main_v78 : S30000x1.Idx → EReal) (ix2 r z) := by
  obtain ⟨-, -, e0, e1, -⟩ := idx_facts2 t
  unfold iblk2
  rw [View.read_apply]
  show V c main_v78 _ = V c main_v78 _
  congr 1
  funext a
  apply Fin.ext
  match a with
  | ⟨0, _⟩ => show win2_1.index t (0 : Fin 2) * 2000 + 1 * p.val = r.val; rw [e0, hr]; omega
  | ⟨1, _⟩ => show win2_1.index t (1 : Fin 2) * 1 + 1 * z.val = z.val; rw [e1]; omega

/-- Row p of the destination features' block at point t is row 2000·t + p of the array. -/
theorem iblk2_2_apply (c : Dev nD) (t : Fin cfg2.N) (p : Fin 2000) (k : Fin 256) (r : Fin 30000)
    (hr : r.val = t.val * 2000 + p.val) :
    (iblk2 (F := Ideal) V c 2 t : Vec Ideal S2000x256 .f32) (ix2 p k) = (V c main_v94 : S30000x256.Idx → EReal) (ix2 r k) := by
  obtain ⟨-, -, -, -, e0, e1, -⟩ := idx_facts2 t
  unfold iblk2
  rw [View.read_apply]
  show V c main_v94 _ = V c main_v94 _
  congr 1
  funext a
  apply Fin.ext
  match a with
  | ⟨0, _⟩ => show win2_2.index t (0 : Fin 2) * 2000 + 1 * p.val = r.val; rw [e0, hr]; omega
  | ⟨1, _⟩ => show win2_2.index t (1 : Fin 2) * 256 + 1 * k.val = k.val; rw [e1]; omega

/-- The left weight's block at every point is the whole matrix. -/
theorem iblk2_3_apply (c : Dev nD) (t : Fin cfg2.N) (k : Fin 256) (q : Fin 256) :
    (iblk2 (F := Ideal) V c 3 t : Vec Ideal S256x256 .f32) (ix2 k q) = (V c main_arg15 : S256x256.Idx → EReal) (ix2 k q) := by
  obtain ⟨-, -, -, -, -, -, e0, e1, -⟩ := idx_facts2 t
  unfold iblk2
  rw [View.read_apply]
  show V c main_arg15 _ = V c main_arg15 _
  congr 1
  funext a
  apply Fin.ext
  match a with
  | ⟨0, _⟩ => show win2_3.index t (0 : Fin 2) * 256 + 1 * k.val = k.val; rw [e0]; omega
  | ⟨1, _⟩ => show win2_3.index t (1 : Fin 2) * 256 + 1 * q.val = q.val; rw [e1]; omega

/-- The right weight's block at every point is the whole matrix. -/
theorem iblk2_4_apply (c : Dev nD) (t : Fin cfg2.N) (k : Fin 256) (q : Fin 256) :
    (iblk2 (F := Ideal) V c 4 t : Vec Ideal S256x256 .f32) (ix2 k q) = (V c main_arg16 : S256x256.Idx → EReal) (ix2 k q) := by
  obtain ⟨-, -, -, -, -, -, -, -, e0, e1, -⟩ := idx_facts2 t
  unfold iblk2
  rw [View.read_apply]
  show V c main_arg16 _ = V c main_arg16 _
  congr 1
  funext a
  apply Fin.ext
  match a with
  | ⟨0, _⟩ => show win2_4.index t (0 : Fin 2) * 256 + 1 * k.val = k.val; rw [e0]; omega
  | ⟨1, _⟩ => show win2_4.index t (1 : Fin 2) * 256 + 1 * q.val = q.val; rw [e1]; omega

/-- Entry (p, q) of the output's block at point t is entry (2000·t + p, q) of the array. -/
theorem emb2_5 (t : Fin cfg2.N) (p : Fin 2000) (q : Fin 256) (r : Fin 30000) (hr : r.val = t.val * 2000 + p.val) :
    (((cfg2.win 5).blk t).view.emb (ix2 p q) : S30000x256.Idx) = ix2 r q := by
  obtain ⟨-, -, -, -, -, -, -, -, -, -, e0, e1⟩ := idx_facts2 t
  funext a
  apply Fin.ext
  match a with
  | ⟨0, _⟩ => show win2_5.index t (0 : Fin 2) * 2000 + 1 * p.val = r.val; rw [e0, hr]; omega
  | ⟨1, _⟩ => show win2_5.index t (1 : Fin 2) * 256 + 1 * q.val = q.val; rw [e1]; omega

/-! ## What each point writes back, the cover, the array after the run -/

/-- WHAT POINT t WRITES BACK is block t of the reference's stage, given what the five input arrays hold at entry. -/
theorem flushed2_5_eq (c : Dev nD) (t : Fin cfg2.N)
    (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x33 x34 x35 x36 : (⟨S200000, .i32⟩ : BufTy).Contents (Elt Ideal))
    (hs : V c main_v105 = Cert.ReferenceIdeal.Stages.val_main_v197 (F := Ideal) x0 x3 x4 x5 x6 x9 x10 x33 x34 x35 x36)
    (hc : ∀ (r : Fin 30000) (z : Fin 1), (V c main_v78 : S30000x1.Idx → EReal) (ix2 r z) = Cert.ReferenceIdeal.Stages.val_main_v201 (F := Ideal) x34 (ix1 r))
    (hd : V c main_v94 = Cert.ReferenceIdeal.Stages.val_main_v118 (F := Ideal) x0 x1 x3 x4 x5 x6 x7 x8 x33 x34)
    (hwl : V c main_arg15 = x15) (hwr : V c main_arg16 = x16) :
    (dat2 (F := Ideal) V c).flushed 5 t
      = ((cfg2.win 5).blk t).view.read (Elt Ideal) (Cert.ReferenceIdeal.Stages.val_main_v210 (F := Ideal) x0 x1 x3 x4 x5 x6 x7 x8 x9 x10 x15 x16 x33 x34 x35 x36) := by
  show (cfg2.win 5).cut (grid2.coords t) ((dat2 (F := Ideal) V c).after 5 t) = _
  rw [after2_5]
  unfold out2_5
  rw [View.canon_unit_zero hz2]
  simp only [View.ld_unit_zero (S := S2000x256) hz2, View.ld_unit_zero (S := S2000x1) hz2, View.ld_unit_zero (S := S256x256) hz2]
  funext y
  obtain ⟨p, q, rfl⟩ : ∃ (p : Fin 2000) (q : Fin 256), y = ix2 p q := ⟨y 0, y 1, eq_ix2 y⟩
  have hN : grid2.N = 15 := N_2
  have ht : t.val < 15 := hN ▸ t.isLt
  obtain ⟨r, hr⟩ : ∃ r : Fin 30000, r.val = t.val * 2000 + p.val := ⟨⟨t.val * 2000 + p.val, by have := p.isLt; omega⟩, rfl⟩
  refine (sage2_blk_eq (iblk2 (F := Ideal) V c 1 t) (iblk2 (F := Ideal) V c 0 t) (iblk2 (F := Ideal) V c 3 t) (iblk2 (F := Ideal) V c 2 t) (iblk2 (F := Ideal) V c 4 t)
    (V c main_v105) (fun r => (V c main_v78 : S30000x1.Idx → EReal) (ix2 r (0 : Fin 1))) (V c main_v94) (V c main_arg15) (V c main_arg16) p q r
    (fun k => iblk2_0_apply V c t p k r hr) (iblk2_1_apply V c t p 0 r hr) (fun k => iblk2_2_apply V c t p k r hr)
    (fun k => iblk2_3_apply V c t k q) (fun k => iblk2_4_apply V c t k q)).trans ?_
  rw [View.read_apply]
  show _ = Cert.ReferenceIdeal.Stages.val_main_v210 (F := Ideal) x0 x1 x3 x4 x5 x6 x7 x8 x9 x10 x15 x16 x33 x34 x35 x36 (((cfg2.win 5).blk t).view.emb (ix2 p q))
  rw [emb2_5 t p q r hr, ref2_apply, hs, hd, hwl, hwr, funext fun r => hc r 0]

/-- An index of the output array is in point t's block iff each coordinate is in the block's range on its axis. -/
theorem mem_blk2_5 (t : Fin cfg2.N) (i : S30000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v106).slice (win2_5.rect t)).set ↔ _
  rw [View.set_slice_whole, Rect.mem_set_unit]
  exact Iff.rfl

/-- THE COVER: row r of the output array lies in the block of point r / 2000, and every point writes back. -/
theorem covered2_5 (i : S30000x256.Idx) :
    ∃ t : Fin cfg2.N, (cfg2.win 5).flush t = true ∧ i ∈ ((cfg2.win 5).blk t).view.set := by
  have hi0 : (i 0).val < 30000 := (i 0).isLt
  have hi1 : (i 1).val < 256 := (i 1).isLt
  have hN : grid2.N = 15 := N_2
  obtain ⟨t, ht⟩ : ∃ t : Fin cfg2.N, t.val = (i 0).val / 2000 := ⟨⟨(i 0).val / 2000, by show _ < grid2.N; rw [hN]; omega⟩, rfl⟩
  obtain ⟨-, -, -, -, -, -, -, -, -, -, e0, e1⟩ := idx_facts2 t
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; rw [e0, ht]; omega
  | ⟨1, _⟩ => show win2_5.index t (1 : Fin 2) * 256 ≤ (i 1).val ∧ (i 1).val < win2_5.index t (1 : Fin 2) * 256 + 256; rw [e1]; omega

/-- THE OUTPUT ARRAY AFTER THE RUN is the reference's stage `val_main_v210`, given that on entry the row sums, counts
    and destination features are the reference's and the weights are the arguments. -/
theorem final2 (c : Dev nD)
    (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x33 x34 x35 x36 : (⟨S200000, .i32⟩ : BufTy).Contents (Elt Ideal))
    (hs : V c main_v105 = Cert.ReferenceIdeal.Stages.val_main_v197 (F := Ideal) x0 x3 x4 x5 x6 x9 x10 x33 x34 x35 x36)
    (hc : ∀ (r : Fin 30000) (z : Fin 1), (V c main_v78 : S30000x1.Idx → EReal) (ValueIdx.ix2 r z) = Cert.ReferenceIdeal.Stages.val_main_v201 (F := Ideal) x34 (ValueIdx.ix1 r))
    (hd : V c main_v94 = Cert.ReferenceIdeal.Stages.val_main_v118 (F := Ideal) x0 x1 x3 x4 x5 x6 x7 x8 x33 x34)
    (hwl : V c main_arg15 = x15) (hwr : V c main_arg16 = x16) :
    (dat2 (F := Ideal) V c).arrAt 5 cfg2.N = Cert.ReferenceIdeal.Stages.val_main_v210 (F := Ideal) x0 x1 x3 x4 x5 x6 x7 x8 x9 x10 x15 x16 x33 x34 x35 x36 :=
  (dat2 (F := Ideal) V c).arrAt_eq_of_cover 5 (Cert.ReferenceIdeal.Stages.val_main_v210 (F := Ideal) x0 x1 x3 x4 x5 x6 x7 x8 x9 x10 x15 x16 x33 x34 x35 x36)
    (fun t _ => flushed2_5_eq V c t x0 x1 x3 x4 x5 x6 x7 x8 x9 x10 x15 x16 x33 x34 x35 x36 hs hc hd hwl hwr) covered2_5

end Cert.KernelIdeal.Regions

end
-- ==== Proof.IdealMlpPay.lean ====
/- The perceptron's payloads read at an index, at the ideal values: a dense layer is a row's sum of products with a
   column of the weights plus the bias; the hidden features are two such layers, each followed by the maximum with
   zero; each head is one more layer over the hidden features. The format changes are the identity on the extended
   reals and a product into the zero accumulator is the plain sum over the contraction coordinate. -/
import proofs.«402966_j45758581572292_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Idealize.ShloMosaic Idealize.ShloMosaic.ValueIdx
open Cert.KernelIdeal Cert.KernelIdeal.Gen
open scoped BigOperators

/-! ## The layers, over rows and columns given by coordinates -/

/-- The zero word both programs compare against, as an extended real. -/
abbrev zeroW : EReal := Ideal.ofBits .f32 0x00000000#32

/-- One dense layer at output column j: the row a against column j of W, plus the bias at j. -/
def dense {K n : ℕ} (a : Fin K → EReal) (W : Fin K → Fin n → EReal) (b : Fin n → EReal) (j : Fin n) : EReal :=
  (∑ k : Fin K, a k * W k j) + b j

/-- The hidden features of a row: two dense layers, each followed by the maximum with zero. -/
def hidden (a : Fin 256 → EReal) (W1 : Fin 256 → Fin 64 → EReal) (b1 : Fin 64 → EReal)
    (W2 : Fin 64 → Fin 64 → EReal) (b2 : Fin 64 → EReal) (j : Fin 64) : EReal :=
  max (dense (fun k => max (dense a W1 b1 k) zeroW) W2 b2 j) zeroW

/-! ## A block product at an index: the sum over the contraction coordinate -/

theorem lhs_mm1_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs_mm1_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhs_mm1_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhs_mm1_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- The first layer's product at (y, j): row y of the left block against column j of the right one. -/
theorem mlp_mm1_apply (l : FVec Ideal S2000x256 .bf16) (r : FVec Ideal S256x64 .bf16) (y : Fin 2000) (j : Fin 64) :
    FloatOps.matmul dot_S2000x256_S256x64_S2000x64_1_0_0_1_n_n none l r (constant (F := Ideal) S2000x64 .f32 0x00000000#32) (ix2 y j)
      = ∑ k : Fin 256, l (ix2 y k) * r (ix2 k j) := by
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 y j) ((ValueIdx.contrEquiv1 dot_S2000x256_S256x64_S2000x64_1_0_0_1_n_n 256 rfl rfl).symm k) = ix2 y k := funext fun a => Fin.ext (by
    match a with
    | ⟨0, _⟩ => exact lhs_mm1_0 _ _
    | ⟨1, _⟩ => exact (lhs_mm1_1 _ _).trans hk)
  have er : dot_S2000x256_S256x64_S2000x64_1_0_0_1_n_n.rhsIdx (ix2 y j) ((ValueIdx.contrEquiv1 dot_S2000x256_S256x64_S2000x64_1_0_0_1_n_n 256 rfl rfl).symm k) = ix2 k j := funext fun a => Fin.ext (by
    match a with
    | ⟨0, _⟩ => exact (rhs_mm1_0 _ _).trans hk
    | ⟨1, _⟩ => exact rhs_mm1_1 _ _)
  rw [el, er]

theorem lhs_mm2_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_mm2_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_mm2_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_mm2_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The second layer's product at (y, j). -/
theorem mm2_apply (l : FVec Ideal S2000x64 .bf16) (r : FVec Ideal S64x64 .bf16) (y : Fin 2000) (j : Fin 64) :
    FloatOps.matmul dot_S2000x64_S64x64_S2000x64_1_0_0_1_n_n none l r (constant (F := Ideal) S2000x64 .f32 0x00000000#32) (ix2 y j)
      = ∑ k : Fin 64, l (ix2 y k) * r (ix2 k j) := by
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 y j) ((ValueIdx.contrEquiv1 dot_S2000x64_S64x64_S2000x64_1_0_0_1_n_n 64 rfl rfl).symm k) = ix2 y k := funext fun a => Fin.ext (by
    match a with
    | ⟨0, _⟩ => exact lhs_mm2_0 _ _
    | ⟨1, _⟩ => exact (lhs_mm2_1 _ _).trans hk)
  have er : dot_S2000x64_S64x64_S2000x64_1_0_0_1_n_n.rhsIdx (ix2 y j) ((ValueIdx.contrEquiv1 dot_S2000x64_S64x64_S2000x64_1_0_0_1_n_n 64 rfl rfl).symm k) = ix2 k j := funext fun a => Fin.ext (by
    match a with
    | ⟨0, _⟩ => exact (rhs_mm2_0 _ _).trans hk
    | ⟨1, _⟩ => exact rhs_mm2_1 _ _)
  rw [el, er]

theorem lhs_mm3_0 (i : S2000x36.Idx) (q : dot_S2000x64_S64x36_S2000x36_1_0_0_1_n_n.contr.Idx) :
    (dot_S2000x64_S64x36_S2000x36_1_0_0_1_n_n.lhsIdx i q 0).val = (i 0).val := by
  unfold DotDims.lhsIdx
  rw [dif_neg (show ¬(0 : Fin S2000x64.rank) ∈ dot_S2000x64_S64x36_S2000x36_1_0_0_1_n_n.lhsBatch by decide), dif_pos (show (0 : Fin S2000x64.rank) ∈ dot_S2000x64_S64x36_S2000x36_1_0_0_1_n_n.lhsNonContracting by decide)]
  rfl
theorem lhs_mm3_1 (i : S2000x36.Idx) (q : dot_S2000x64_S64x36_S2000x36_1_0_0_1_n_n.contr.Idx) :
    (dot_S2000x64_S64x36_S2000x36_1_0_0_1_n_n.lhsIdx i q 1).val = (q ⟨0, by decide⟩).val :=
  dot_S2000x64_S64x36_S2000x36_1_0_0_1_n_n.lhsIdx_val_of_single rfl i q
theorem rhs_mm3_0 (i : S2000x36.Idx) (q : dot_S2000x64_S64x36_S2000x36_1_0_0_1_n_n.contr.Idx) :
    (dot_S2000x64_S64x36_S2000x36_1_0_0_1_n_n.rhsIdx i q 0).val = (q ⟨0, by decide⟩).val :=
  dot_S2000x64_S64x36_S2000x36_1_0_0_1_n_n.rhsIdx_val_of_single rfl i q
theorem rhs_mm3_1 (i : S2000x36.Idx) (q : dot_S2000x64_S64x36_S2000x36_1_0_0_1_n_n.contr.Idx) :
    (dot_S2000x64_S64x36_S2000x36_1_0_0_1_n_n.rhsIdx i q 1).val = (i 1).val := by
  unfold DotDims.rhsIdx
  rw [dif_neg (show ¬(1 : Fin S64x36.rank) ∈ dot_S2000x64_S64x36_S2000x36_1_0_0_1_n_n.rhsBatch by decide), dif_pos (show (1 : Fin S64x36.rank) ∈ dot_S2000x64_S64x36_S2000x36_1_0_0_1_n_n.rhsNonContracting by decide)]
  rfl

/-- The rotation head's product at (y, j). -/
theorem mm3_apply (l : FVec Ideal S2000x64 .bf16) (r : FVec Ideal S64x36 .bf16) (y : Fin 2000) (j : Fin 36) :
    FloatOps.matmul dot_S2000x64_S64x36_S2000x36_1_0_0_1_n_n none l r (constant (F := Ideal) S2000x36 .f32 0x00000000#32) (ix2 y j)
      = ∑ k : Fin 64, l (ix2 y k) * r (ix2 k j) := by
  rw [Ideal.matmul_constant_zero_apply, ← Equiv.sum_comp (ValueIdx.contrEquiv1 dot_S2000x64_S64x36_S2000x36_1_0_0_1_n_n 64 rfl rfl).symm]
  refine Finset.sum_congr rfl fun k _ => ?_
  have hk := ValueIdx.contrEquiv1_symm_val dot_S2000x64_S64x36_S2000x36_1_0_0_1_n_n 64 rfl rfl k
  have el : dot_S2000x64_S64x36_S2000x36_1_0_0_1_n_n.lhsIdx (ix2 y j) ((ValueIdx.contrEquiv1 dot_S2000x64_S64x36_S2000x36_1_0_0_1_n_n 64 rfl rfl).symm k) = ix2 y k := funext fun a => Fin.ext (by
    match a with
    | ⟨0, _⟩ => exact lhs_mm3_0 _ _
    | ⟨1, _⟩ => exact (lhs_mm3_1 _ _).trans hk)
  have er : dot_S2000x64_S64x36_S2000x36_1_0_0_1_n_n.rhsIdx (ix2 y j) ((ValueIdx.contrEquiv1 dot_S2000x64_S64x36_S2000x36_1_0_0_1_n_n 64 rfl rfl).symm k) = ix2 k j := funext fun a => Fin.ext (by
    match a with
    | ⟨0, _⟩ => exact (rhs_mm3_0 _ _).trans hk
    | ⟨1, _⟩ => exact rhs_mm3_1 _ _)
  rw [el, er]

theorem lhs_mm4_0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
theorem lhs_mm4_1 (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
theorem rhs_mm4_0 (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
theorem rhs_mm4_1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

/-- The x and y heads' product at (y, j). -/
theorem mm4_apply (l : FVec Ideal S2000x64 .bf16) (r : FVec Ideal S64x1 .bf16) (y : Fin 2000) (j : Fin 1) :
    FloatOps.matmul dot_S2000x64_S64x1_S2000x1_1_0_0_1_n_n none l r (constant (F := Ideal) S2000x1 .f32 0x00000000#32) (ix2 y j)
      = ∑ k : Fin 64, l (ix2 y k) * r (ix2 k j) := by
  rw [Ideal.matmul_constant_zero_apply, ← Equiv.sum_comp (ValueIdx.contrEquiv1 dot_S2000x64_S64x1_S2000x1_1_0_0_1_n_n 64 rfl rfl).symm]
  refine Finset.sum_congr rfl fun k _ => ?_
  have hk := ValueIdx.contrEquiv1_symm_val dot_S2000x64_S64x1_S2000x1_1_0_0_1_n_n 64 rfl rfl k
  have el : dot_S2000x64_S64x1_S2000x1_1_0_0_1_n_n.lhsIdx (ix2 y j) ((ValueIdx.contrEquiv1 dot_S2000x64_S64x1_S2000x1_1_0_0_1_n_n 64 rfl rfl).symm k) = ix2 y k := funext fun a => Fin.ext (by
    match a with
    | ⟨0, _⟩ => exact lhs_mm4_0 _ _
    | ⟨1, _⟩ => exact (lhs_mm4_1 _ _).trans hk)
  have er : dot_S2000x64_S64x1_S2000x1_1_0_0_1_n_n.rhsIdx (ix2 y j) ((ValueIdx.contrEquiv1 dot_S2000x64_S64x1_S2000x1_1_0_0_1_n_n 64 rfl rfl).symm k) = ix2 k j := funext fun a => Fin.ext (by
    match a with
    | ⟨0, _⟩ => exact (rhs_mm4_0 _ _).trans hk
    | ⟨1, _⟩ => exact rhs_mm4_1 _ _)
  rw [el, er]

/-! ## The payloads at an index -/

/-- The hidden features' payload at (y, j): the two layers of row y of the first block. -/
theorem pay3_apply (x0 : Vec Ideal S2000x256 .f32) (x1 : Vec Ideal S256x64 .f32) (x2 : Vec Ideal S1x64 .f32)
    (x3 : Vec Ideal S64x64 .f32) (x4 : Vec Ideal S1x64 .f32) (y : Fin 2000) (j : Fin 64) :
    k3_pay3 x0 x1 x2 x3 x4 (ix2 y j)
      = hidden (fun k => x0 (ix2 y k)) (fun k k' => x1 (ix2 k k')) (fun k => x2 (ix2 (0 : Fin 1) k))
          (fun k k' => x3 (ix2 k k')) (fun k => x4 (ix2 (0 : Fin 1) k)) j := by
  unfold k3_pay3 hidden dense
  simp only [shapeCast_self]
  simp only [maximumf_apply, addf_apply, broadcast_apply, mm2_apply, mlp_mm1_apply, truncf_apply, broadcastTo_1b_ab_apply]
  rfl

/-- The rotation head's payload at (y, j): one more layer over the hidden features of row y. -/
theorem pay4_apply (x0 : Vec Ideal S2000x256 .f32) (x1 : Vec Ideal S256x64 .f32) (x2 : Vec Ideal S1x64 .f32)
    (x3 : Vec Ideal S64x64 .f32) (x4 : Vec Ideal S1x64 .f32) (x5 : Vec Ideal S64x36 .f32) (x6 : Vec Ideal S1x36 .f32)
    (y : Fin 2000) (j : Fin 36) :
    k3_pay4 x0 x1 x2 x3 x4 x5 x6 (ix2 y j)
      = dense (hidden (fun k => x0 (ix2 y k)) (fun k k' => x1 (ix2 k k')) (fun k => x2 (ix2 (0 : Fin 1) k))
          (fun k k' => x3 (ix2 k k')) (fun k => x4 (ix2 (0 : Fin 1) k)))
          (fun k k' => x5 (ix2 k k')) (fun k => x6 (ix2 (0 : Fin 1) k)) j := by
  unfold k3_pay4 dense
  simp only [shapeCast_self]
  simp only [addf_apply, mm3_apply, truncf_apply, broadcastTo_1b_ab_apply, pay3_apply]

/-- The x head's payload at (y, j): the product over the hidden features of row y, then the bias. -/
theorem pay15_apply (x0 : Vec Ideal S2000x256 .f32) (x1 : Vec Ideal S256x64 .f32) (x2 : Vec Ideal S1x64 .f32)
    (x3 : Vec Ideal S64x64 .f32) (x4 : Vec Ideal S1x64 .f32) (x7 : Vec Ideal S64x1 .f32) (x8 : Vec Ideal S1x1 .f32)
    (y : Fin 2000) (j : Fin 1) :
    k3_pay1 (k3_pay5 x0 x1 x2 x3 x4 x7) x8 (ix2 y j)
      = dense (hidden (fun k => x0 (ix2 y k)) (fun k k' => x1 (ix2 k k')) (fun k => x2 (ix2 (0 : Fin 1) k))
          (fun k k' => x3 (ix2 k k')) (fun k => x4 (ix2 (0 : Fin 1) k)))
          (fun k k' => x7 (ix2 k k')) (fun k => x8 (ix2 (0 : Fin 1) k)) j := by
  unfold k3_pay1 k3_pay5 dense
  simp only [shapeCast_self]
  simp only [addf_apply, mm4_apply, truncf_apply, broadcastTo_1b_ab_apply, pay3_apply]

/-- The y head's payload at (y, j), likewise. -/
theorem pay2_apply (x0 : Vec Ideal S2000x256 .f32) (x1 : Vec Ideal S256x64 .f32) (x2 : Vec Ideal S1x64 .f32)
    (x3 : Vec Ideal S64x64 .f32) (x4 : Vec Ideal S1x64 .f32) (x9 : Vec Ideal S64x1 .f32) (x10 : Vec Ideal S1x1 .f32)
    (y : Fin 2000) (j : Fin 1) :
    k3_pay2 (k3_pay3 x0 x1 x2 x3 x4) x9 x10 (ix2 y j)
      = dense (hidden (fun k => x0 (ix2 y k)) (fun k k' => x1 (ix2 k k')) (fun k => x2 (ix2 (0 : Fin 1) k))
          (fun k k' => x3 (ix2 k k')) (fun k => x4 (ix2 (0 : Fin 1) k)))
          (fun k k' => x9 (ix2 k k')) (fun k => x10 (ix2 (0 : Fin 1) k)) j := by
  unfold k3_pay2 dense
  simp only [shapeCast_self]
  simp only [addf_apply, mm4_apply, truncf_apply, broadcastTo_1b_ab_apply, pay3_apply]

end Cert.KernelIdeal.Regions

end
-- ==== Proof.IdealMlpValue.lean ====
/- The value of the kernel's last pipelined region, the shared two-layer perceptron with its three heads, at the ideal
   values: each of its four output arrays after the run is the reference's stage, index by index. The reference's stages
   are read at an index as the same layers of the same row; a row of a block at grid point t is row t * 2000 + y of its
   array, the ten weight and bias windows are fetched whole, and row r lies in the block of point r / 2000. -/
import proofs.«402966_j45758581572292_1_alg».proof.Proof.IdealMlp
import proofs.«402966_j45758581572292_1_alg».proof.Proof.IdealMlpPay
import proofs.«402966_j45758581572292_1_alg».proof.Proof.RefStages
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

/-! ## The reference's stages at an index -/

section Reference
open Cert.ReferenceIdeal.Stages

theorem lidx280_ix2 (r : Fin 30000) (j : Fin 64) (k : Fin 256) : lidx_main_v280 (ix2 r j) k = ix2 r k :=
  funext fun a => Fin.ext (by match a with | ⟨0, _⟩ => rfl | ⟨1, _⟩ => rfl)
theorem ridx280_ix2 (r : Fin 30000) (j : Fin 64) (k : Fin 256) : ridx_main_v280 (ix2 r j) k = ix2 k j :=
  funext fun a => Fin.ext (by match a with | ⟨0, _⟩ => rfl | ⟨1, _⟩ => rfl)
theorem idx282_ix2 (r : Fin 30000) (j : Fin 64) : idx_main_v282 (ix2 r j) = ix2 (0 : Fin 1) j :=
  funext fun a => Fin.ext (by match a with | ⟨0, _⟩ => rfl | ⟨1, _⟩ => rfl)
theorem idx281_ix2 (j : Fin 64) : idx_main_v281 (ix2 (0 : Fin 1) j) = ix1 j :=
  funext fun a => Fin.ext (by match a with | ⟨0, _⟩ => rfl)
theorem lidx285_ix2 (r : Fin 30000) (j : Fin 64) (k : Fin 64) : lidx_main_v285 (ix2 r j) k = ix2 r k :=
  funext fun a => Fin.ext (by match a with | ⟨0, _⟩ => rfl | ⟨1, _⟩ => rfl)
theorem ridx285_ix2 (r : Fin 30000) (j : Fin 64) (k : Fin 64) : ridx_main_v285 (ix2 r j) k = ix2 k j :=
  funext fun a => Fin.ext (by match a with | ⟨0, _⟩ => rfl | ⟨1, _⟩ => rfl)
theorem idx287_ix2 (r : Fin 30000) (j : Fin 64) : idx_main_v287 (ix2 r j) = ix2 (0 : Fin 1) j :=
  funext fun a => Fin.ext (by match a with | ⟨0, _⟩ => rfl | ⟨1, _⟩ => rfl)
theorem idx286_ix2 (j : Fin 64) : idx_main_v286 (ix2 (0 : Fin 1) j) = ix1 j :=
  funext fun a => Fin.ext (by match a with | ⟨0, _⟩ => rfl)

/-- The reference's hidden features at (r, j): the two layers of row r of the stage that feeds them. -/
theorem ref289_apply (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x23 : (⟨S256x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x33 x34 x35 x36 : (⟨S200000, .i32⟩ : BufTy).Contents (Elt Ideal)) (r : Fin 30000) (j : Fin 64) :
    val_main_v289 (F := Ideal) x0 x1 x3 x4 x5 x6 x7 x8 x9 x10 x15 x16 x23 x24 x25 x26 x33 x34 x35 x36 (ix2 r j) = (hidden (fun k => Cert.ReferenceIdeal.Stages.val_main_v210 (F := Ideal) x0 x1 x3 x4 x5 x6 x7 x8 x9 x10 x15 x16 x33 x34 x35 x36 (ix2 r k)) (fun k k' => x23 (ix2 k k')) (fun k => x24 (ix1 k)) (fun k k' => x25 (ix2 k k')) (fun k => x26 (ix1 k))) j := by
  rw [val_main_v289_apply, val_main_v288_apply, val_main_v285_apply, val_main_v287_apply, val_main_v286_apply,
    val_main_call7_v0_apply, val_main_call7_cst_apply]
  simp only [lidx285_ix2, ridx285_ix2, idx287_ix2, idx286_ix2, val_main_v284_apply, val_main_v283_apply, val_main_v280_apply,
    val_main_v282_apply, val_main_v281_apply, val_main_call6_v0_apply, val_main_call6_cst_apply,
    lidx280_ix2, ridx280_ix2, idx282_ix2, idx281_ix2]
  generalize Cert.ReferenceIdeal.Stages.val_main_v210 (F := Ideal) x0 x1 x3 x4 x5 x6 x7 x8 x9 x10 x15 x16 x33 x34 x35 x36 = s
  unfold hidden dense
  rfl

theorem lidx290_ix2 (r : Fin 30000) (j : Fin 36) (k : Fin 64) : lidx_main_v290 (ix2 r j) k = ix2 r k :=
  funext fun a => Fin.ext (by match a with | ⟨0, _⟩ => rfl | ⟨1, _⟩ => rfl)
theorem ridx290_ix2 (r : Fin 30000) (j : Fin 36) (k : Fin 64) : ridx_main_v290 (ix2 r j) k = ix2 k j :=
  funext fun a => Fin.ext (by match a with | ⟨0, _⟩ => rfl | ⟨1, _⟩ => rfl)
theorem idx292_ix2 (r : Fin 30000) (j : Fin 36) : idx_main_v292 (ix2 r j) = ix2 (0 : Fin 1) j :=
  funext fun a => Fin.ext (by match a with | ⟨0, _⟩ => rfl | ⟨1, _⟩ => rfl)
theorem idx291_ix2 (j : Fin 36) : idx_main_v291 (ix2 (0 : Fin 1) j) = ix1 j :=
  funext fun a => Fin.ext (by match a with | ⟨0, _⟩ => rfl)
theorem lidx294_ix2 (r : Fin 30000) (j : Fin 1) (k : Fin 64) : lidx_main_v294 (ix2 r j) k = ix2 r k :=
  funext fun a => Fin.ext (by match a with | ⟨0, _⟩ => rfl | ⟨1, _⟩ => rfl)
theorem ridx294_ix2 (r : Fin 30000) (j : Fin 1) (k : Fin 64) : ridx_main_v294 (ix2 r j) k = ix2 k j :=
  funext fun a => Fin.ext (by match a with | ⟨0, _⟩ => rfl | ⟨1, _⟩ => rfl)
theorem idx296_ix2 (r : Fin 30000) (j : Fin 1) : idx_main_v296 (ix2 r j) = ix2 (0 : Fin 1) j :=
  funext fun a => Fin.ext (by match a with | ⟨0, _⟩ => rfl | ⟨1, _⟩ => (show 0 = j.val; omega))
theorem idx295_ix2 (j : Fin 1) : idx_main_v295 (ix2 (0 : Fin 1) j) = ix1 j :=
  funext fun a => Fin.ext (by match a with | ⟨0, _⟩ => (show 0 = j.val; omega))
theorem lidx298_ix2 (r : Fin 30000) (j : Fin 1) (k : Fin 64) : lidx_main_v298 (ix2 r j) k = ix2 r k :=
  funext fun a => Fin.ext (by match a with | ⟨0, _⟩ => rfl | ⟨1, _⟩ => rfl)
theorem ridx298_ix2 (r : Fin 30000) (j : Fin 1) (k : Fin 64) : ridx_main_v298 (ix2 r j) k = ix2 k j :=
  funext fun a => Fin.ext (by match a with | ⟨0, _⟩ => rfl | ⟨1, _⟩ => rfl)
theorem idx300_ix2 (r : Fin 30000) (j : Fin 1) : idx_main_v300 (ix2 r j) = ix2 (0 : Fin 1) j :=
  funext fun a => Fin.ext (by match a with | ⟨0, _⟩ => rfl | ⟨1, _⟩ => (show 0 = j.val; omega))
theorem idx299_ix2 (j : Fin 1) : idx_main_v299 (ix2 (0 : Fin 1) j) = ix1 j :=
  funext fun a => Fin.ext (by match a with | ⟨0, _⟩ => (show 0 = j.val; omega))

/-- The reference's rotation head at (r, j): one more layer over the hidden features of row r. -/
theorem ref293_apply (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x23 : (⟨S256x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x27 : (⟨S64x36, .f32⟩ : BufTy).Contents (Elt Ideal)) (x28 : (⟨S36, .f32⟩ : BufTy).Contents (Elt Ideal)) (x33 x34 x35 x36 : (⟨S200000, .i32⟩ : BufTy).Contents (Elt Ideal)) (r : Fin 30000) (j : Fin 36) :
    val_main_v293 (F := Ideal) x0 x1 x3 x4 x5 x6 x7 x8 x9 x10 x15 x16 x23 x24 x25 x26 x27 x28 x33 x34 x35 x36 (ix2 r j)
      = dense (hidden (fun k => Cert.ReferenceIdeal.Stages.val_main_v210 (F := Ideal) x0 x1 x3 x4 x5 x6 x7 x8 x9 x10 x15 x16 x33 x34 x35 x36 (ix2 r k)) (fun k k' => x23 (ix2 k k')) (fun k => x24 (ix1 k)) (fun k k' => x25 (ix2 k k')) (fun k => x26 (ix1 k))) (fun k k' => x27 (ix2 k k')) (fun k => x28 (ix1 k)) j := by
  rw [val_main_v293_apply, val_main_v290_apply, val_main_v292_apply, val_main_v291_apply]
  simp only [lidx290_ix2, ridx290_ix2, idx292_ix2, idx291_ix2, ref289_apply]
  rfl

/-- The reference's x head at (r, j). -/
theorem ref297_apply (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x23 : (⟨S256x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x29 : (⟨S64x1, .f32⟩ : BufTy).Contents (Elt Ideal)) (x30 : (⟨S1, .f32⟩ : BufTy).Contents (Elt Ideal)) (x33 x34 x35 x36 : (⟨S200000, .i32⟩ : BufTy).Contents (Elt Ideal)) (r : Fin 30000) (j : Fin 1) :
    val_main_v297 (F := Ideal) x0 x1 x3 x4 x5 x6 x7 x8 x9 x10 x15 x16 x23 x24 x25 x26 x29 x30 x33 x34 x35 x36 (ix2 r j)
      = dense (hidden (fun k => Cert.ReferenceIdeal.Stages.val_main_v210 (F := Ideal) x0 x1 x3 x4 x5 x6 x7 x8 x9 x10 x15 x16 x33 x34 x35 x36 (ix2 r k)) (fun k k' => x23 (ix2 k k')) (fun k => x24 (ix1 k)) (fun k k' => x25 (ix2 k k')) (fun k => x26 (ix1 k))) (fun k k' => x29 (ix2 k k')) (fun k => x30 (ix1 k)) j := by
  rw [val_main_v297_apply, val_main_v294_apply, val_main_v296_apply, val_main_v295_apply]
  simp only [lidx294_ix2, ridx294_ix2, idx296_ix2, idx295_ix2, ref289_apply]
  rfl

/-- The reference's y head at (r, j). -/
theorem ref301_apply (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x23 : (⟨S256x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x31 : (⟨S64x1, .f32⟩ : BufTy).Contents (Elt Ideal)) (x32 : (⟨S1, .f32⟩ : BufTy).Contents (Elt Ideal)) (x33 x34 x35 x36 : (⟨S200000, .i32⟩ : BufTy).Contents (Elt Ideal)) (r : Fin 30000) (j : Fin 1) :
    val_main_v301 (F := Ideal) x0 x1 x3 x4 x5 x6 x7 x8 x9 x10 x15 x16 x23 x24 x25 x26 x31 x32 x33 x34 x35 x36 (ix2 r j)
      = dense (hidden (fun k => Cert.ReferenceIdeal.Stages.val_main_v210 (F := Ideal) x0 x1 x3 x4 x5 x6 x7 x8 x9 x10 x15 x16 x33 x34 x35 x36 (ix2 r k)) (fun k k' => x23 (ix2 k k')) (fun k => x24 (ix1 k)) (fun k k' => x25 (ix2 k k')) (fun k => x26 (ix1 k))) (fun k k' => x31 (ix2 k k')) (fun k => x32 (ix1 k)) j := by
  rw [val_main_v301_apply, val_main_v298_apply, val_main_v300_apply, val_main_v299_apply]
  simp only [lidx298_ix2, ridx298_ix2, idx300_ix2, idx299_ix2, ref289_apply]
  rfl

end Reference

/-! ## From blocks to arrays -/

theorem hz3 : (![0, 0] : Fin 2 → Nat) = fun _ => 0 := funext fun a => by fin_cases a <;> rfl

/-- The printed index maps, decided once over the grid: the row-blocked windows (the first input and the four
    outputs) sit at block row t and block column 0 at point t; the ten weight and bias windows sit at block (0, 0). -/
theorem idx_facts3 : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0)
    ∧ (win3_11.index t (0 : Fin 2) = t.val ∧ win3_11.index t (1 : Fin 2) = 0)
    ∧ (win3_12.index t (0 : Fin 2) = t.val ∧ win3_12.index t (1 : Fin 2) = 0)
    ∧ (win3_13.index t (0 : Fin 2) = t.val ∧ win3_13.index t (1 : Fin 2) = 0)
    ∧ (win3_14.index t (0 : Fin 2) = t.val ∧ win3_14.index t (1 : Fin 2) = 0) :=
  (by decide +kernel : ∀ t : Fin grid3.N, _)

section Blocks
variable (V : (c : Dev nD) → (b : Ref sig .tc) → Buf (Elt Ideal) ((c : Thread nD τ).loc b))

/-- Row y of the first input's block at point t is row t * 2000 + y of its array. -/
theorem iblk3_0_apply (c : Dev nD) (t : Fin cfg3.N) (y : Fin 2000) (k : Fin 256) (r : Fin 30000)
    (hr : r.val = t.val * 2000 + y.val) :
    (iblk3 V c 0 t : Vec Ideal S2000x256 .f32) (ix2 y k) = (V c main_v106 : S30000x256.Idx → EReal) (ix2 r k) := by
  unfold iblk3
  rw [View.read_apply]
  show V c main_v106 _ = V c main_v106 _
  congr 1
  funext a
  apply Fin.ext
  obtain ⟨⟨e0, e1⟩, -⟩ := idx_facts3 t
  match a with
  | ⟨0, _⟩ => show win3_0.index t (0 : Fin 2) * 2000 + 1 * y.val = r.val; rw [e0]; omega
  | ⟨1, _⟩ => show win3_0.index t (1 : Fin 2) * 256 + 1 * k.val = k.val; rw [e1]; omega

/-- The first layer's weights are fetched whole: the block at any point is the array. -/
theorem iblk3_1_apply (c : Dev nD) (t : Fin cfg3.N) (p : Fin 256) (q : Fin 64) :
    (iblk3 V c 1 t : Vec Ideal S256x64 .f32) (ix2 p q) = (V c main_arg23 : S256x64.Idx → EReal) (ix2 p q) := by
  unfold iblk3
  rw [View.read_apply]
  show V c main_arg23 _ = V c main_arg23 _
  congr 1
  funext a
  apply Fin.ext
  obtain ⟨-, ⟨e0, e1⟩, -⟩ := idx_facts3 t
  match a with
  | ⟨0, _⟩ => show win3_1.index t (0 : Fin 2) * 256 + 1 * p.val = p.val; rw [e0]; omega
  | ⟨1, _⟩ => show win3_1.index t (1 : Fin 2) * 64 + 1 * q.val = q.val; rw [e1]; omega

/-- The first layer's bias row, fetched whole. -/
theorem iblk3_2_apply (c : Dev nD) (t : Fin cfg3.N) (p : Fin 1) (q : Fin 64) :
    (iblk3 V c 2 t : Vec Ideal S1x64 .f32) (ix2 p q) = (V c main_v107 : S1x64.Idx → EReal) (ix2 p q) := by
  unfold iblk3
  rw [View.read_apply]
  show V c main_v107 _ = V c main_v107 _
  congr 1
  funext a
  apply Fin.ext
  obtain ⟨-, -, ⟨e0, e1⟩, -⟩ := idx_facts3 t
  match a with
  | ⟨0, _⟩ => show win3_2.index t (0 : Fin 2) * 1 + 1 * p.val = p.val; rw [e0]; omega
  | ⟨1, _⟩ => show win3_2.index t (1 : Fin 2) * 64 + 1 * q.val = q.val; rw [e1]; omega

/-- The second layer's weights, fetched whole. -/
theorem iblk3_3_apply (c : Dev nD) (t : Fin cfg3.N) (p : Fin 64) (q : Fin 64) :
    (iblk3 V c 3 t : Vec Ideal S64x64 .f32) (ix2 p q) = (V c main_arg25 : S64x64.Idx → EReal) (ix2 p q) := by
  unfold iblk3
  rw [View.read_apply]
  show V c main_arg25 _ = V c main_arg25 _
  congr 1
  funext a
  apply Fin.ext
  obtain ⟨-, -, -, ⟨e0, e1⟩, -⟩ := idx_facts3 t
  match a with
  | ⟨0, _⟩ => show win3_3.index t (0 : Fin 2) * 64 + 1 * p.val = p.val; rw [e0]; omega
  | ⟨1, _⟩ => show win3_3.index t (1 : Fin 2) * 64 + 1 * q.val = q.val; rw [e1]; omega

/-- The second layer's bias row, fetched whole. -/
theorem iblk3_4_apply (c : Dev nD) (t : Fin cfg3.N) (p : Fin 1) (q : Fin 64) :
    (iblk3 V c 4 t : Vec Ideal S1x64 .f32) (ix2 p q) = (V c main_v108 : S1x64.Idx → EReal) (ix2 p q) := by
  unfold iblk3
  rw [View.read_apply]
  show V c main_v108 _ = V c main_v108 _
  congr 1
  funext a
  apply Fin.ext
  obtain ⟨-, -, -, -, ⟨e0, e1⟩, -⟩ := idx_facts3 t
  match a with
  | ⟨0, _⟩ => show win3_4.index t (0 : Fin 2) * 1 + 1 * p.val = p.val; rw [e0]; omega
  | ⟨1, _⟩ => show win3_4.index t (1 : Fin 2) * 64 + 1 * q.val = q.val; rw [e1]; omega

/-- The rotation head's weights, fetched whole. -/
theorem iblk3_5_apply (c : Dev nD) (t : Fin cfg3.N) (p : Fin 64) (q : Fin 36) :
    (iblk3 V c 5 t : Vec Ideal S64x36 .f32) (ix2 p q) = (V c main_arg27 : S64x36.Idx → EReal) (ix2 p q) := by
  unfold iblk3
  rw [View.read_apply]
  show V c main_arg27 _ = V c main_arg27 _
  congr 1
  funext a
  apply Fin.ext
  obtain ⟨-, -, -, -, -, ⟨e0, e1⟩, -⟩ := idx_facts3 t
  match a with
  | ⟨0, _⟩ => show win3_5.index t (0 : Fin 2) * 64 + 1 * p.val = p.val; rw [e0]; omega
  | ⟨1, _⟩ => show win3_5.index t (1 : Fin 2) * 36 + 1 * q.val = q.val; rw [e1]; omega

/-- The rotation head's bias row, fetched whole. -/
theorem iblk3_6_apply (c : Dev nD) (t : Fin cfg3.N) (p : Fin 1) (q : Fin 36) :
    (iblk3 V c 6 t : Vec Ideal S1x36 .f32) (ix2 p q) = (V c main_v109 : S1x36.Idx → EReal) (ix2 p q) := by
  unfold iblk3
  rw [View.read_apply]
  show V c main_v109 _ = V c main_v109 _
  congr 1
  funext a
  apply Fin.ext
  obtain ⟨-, -, -, -, -, -, ⟨e0, e1⟩, -⟩ := idx_facts3 t
  match a with
  | ⟨0, _⟩ => show win3_6.index t (0 : Fin 2) * 1 + 1 * p.val = p.val; rw [e0]; omega
  | ⟨1, _⟩ => show win3_6.index t (1 : Fin 2) * 36 + 1 * q.val = q.val; rw [e1]; omega

/-- The x head's weights, fetched whole. -/
theorem iblk3_7_apply (c : Dev nD) (t : Fin cfg3.N) (p : Fin 64) (q : Fin 1) :
    (iblk3 V c 7 t : Vec Ideal S64x1 .f32) (ix2 p q) = (V c main_arg29 : S64x1.Idx → EReal) (ix2 p q) := by
  unfold iblk3
  rw [View.read_apply]
  show V c main_arg29 _ = V c main_arg29 _
  congr 1
  funext a
  apply Fin.ext
  obtain ⟨-, -, -, -, -, -, -, ⟨e0, e1⟩, -⟩ := idx_facts3 t
  match a with
  | ⟨0, _⟩ => show win3_7.index t (0 : Fin 2) * 64 + 1 * p.val = p.val; rw [e0]; omega
  | ⟨1, _⟩ => show win3_7.index t (1 : Fin 2) * 1 + 1 * q.val = q.val; rw [e1]; omega

/-- The x head's bias, fetched whole. -/
theorem iblk3_8_apply (c : Dev nD) (t : Fin cfg3.N) (p : Fin 1) (q : Fin 1) :
    (iblk3 V c 8 t : Vec Ideal S1x1 .f32) (ix2 p q) = (V c main_v110 : S1x1.Idx → EReal) (ix2 p q) := by
  unfold iblk3
  rw [View.read_apply]
  show V c main_v110 _ = V c main_v110 _
  congr 1
  funext a
  apply Fin.ext
  obtain ⟨-, -, -, -, -, -, -, -, ⟨e0, e1⟩, -⟩ := idx_facts3 t
  match a with
  | ⟨0, _⟩ => show win3_8.index t (0 : Fin 2) * 1 + 1 * p.val = p.val; rw [e0]; omega
  | ⟨1, _⟩ => show win3_8.index t (1 : Fin 2) * 1 + 1 * q.val = q.val; rw [e1]; omega

/-- The y head's weights, fetched whole. -/
theorem iblk3_9_apply (c : Dev nD) (t : Fin cfg3.N) (p : Fin 64) (q : Fin 1) :
    (iblk3 V c 9 t : Vec Ideal S64x1 .f32) (ix2 p q) = (V c main_arg31 : S64x1.Idx → EReal) (ix2 p q) := by
  unfold iblk3
  rw [View.read_apply]
  show V c main_arg31 _ = V c main_arg31 _
  congr 1
  funext a
  apply Fin.ext
  obtain ⟨-, -, -, -, -, -, -, -, -, ⟨e0, e1⟩, -⟩ := idx_facts3 t
  match a with
  | ⟨0, _⟩ => show win3_9.index t (0 : Fin 2) * 64 + 1 * p.val = p.val; rw [e0]; omega
  | ⟨1, _⟩ => show win3_9.index t (1 : Fin 2) * 1 + 1 * q.val = q.val; rw [e1]; omega

/-- The y head's bias, fetched whole. -/
theorem iblk3_10_apply (c : Dev nD) (t : Fin cfg3.N) (p : Fin 1) (q : Fin 1) :
    (iblk3 V c 10 t : Vec Ideal S1x1 .f32) (ix2 p q) = (V c main_v111 : S1x1.Idx → EReal) (ix2 p q) := by
  unfold iblk3
  rw [View.read_apply]
  show V c main_v111 _ = V c main_v111 _
  congr 1
  funext a
  apply Fin.ext
  obtain ⟨-, -, -, -, -, -, -, -, -, -, ⟨e0, e1⟩, -⟩ := idx_facts3 t
  match a with
  | ⟨0, _⟩ => show win3_10.index t (0 : Fin 2) * 1 + 1 * p.val = p.val; rw [e0]; omega
  | ⟨1, _⟩ => show win3_10.index t (1 : Fin 2) * 1 + 1 * q.val = q.val; rw [e1]; omega

end Blocks

section Final
variable (V : (c : Dev nD) → (b : Ref sig .tc) → Buf (Elt Ideal) ((c : Thread nD τ).loc b))
open Cert.ReferenceIdeal.Stages

/-- The hidden features depend only on the row and the four parameter arrays. -/
theorem hidden_congr {a a' : Fin 256 → EReal} {W1 W1' : Fin 256 → Fin 64 → EReal} {b1 b1' : Fin 64 → EReal}
    {W2 W2' : Fin 64 → Fin 64 → EReal} {b2 b2' : Fin 64 → EReal}
    (ha : a = a') (hW1 : W1 = W1') (hb1 : b1 = b1') (hW2 : W2 = W2') (hb2 : b2 = b2') :
    hidden a W1 b1 W2 b2 = hidden a' W1' b1' W2' b2' := by
  subst ha hW1 hb1 hW2 hb2; rfl

/-- The hidden features of row y at point t are the reference's at row t * 2000 + y: the same two layers of the same
    row of the stage that feeds them, against the same weights and biases. -/
theorem hidden_blk (c : Dev nD) (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x23 : (⟨S256x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x33 x34 x35 x36 : (⟨S200000, .i32⟩ : BufTy).Contents (Elt Ideal))
    (hs2 : V c main_v106 = Cert.ReferenceIdeal.Stages.val_main_v210 (F := Ideal) x0 x1 x3 x4 x5 x6 x7 x8 x9 x10 x15 x16 x33 x34 x35 x36)
    (hWin : V c main_arg23 = x23) (hWlin : V c main_arg25 = x25)
    (hbin : ∀ j : Fin 64, (V c main_v107 : S1x64.Idx → EReal) (ix2 0 j) = (x24 : S64.Idx → EReal) (ix1 j))
    (hblin : ∀ j : Fin 64, (V c main_v108 : S1x64.Idx → EReal) (ix2 0 j) = (x26 : S64.Idx → EReal) (ix1 j))
    (t : Fin cfg3.N) (y : Fin 2000) (r : Fin 30000) (hr : r.val = t.val * 2000 + y.val) :
    hidden (fun k => (iblk3 V c 0 t : Vec Ideal S2000x256 .f32) (ix2 y k)) (fun k k' => (iblk3 V c 1 t : Vec Ideal S256x64 .f32) (ix2 k k'))
        (fun k => (iblk3 V c 2 t : Vec Ideal S1x64 .f32) (ix2 (0 : Fin 1) k)) (fun k k' => (iblk3 V c 3 t : Vec Ideal S64x64 .f32) (ix2 k k'))
        (fun k => (iblk3 V c 4 t : Vec Ideal S1x64 .f32) (ix2 (0 : Fin 1) k))
      = (hidden (fun k => Cert.ReferenceIdeal.Stages.val_main_v210 (F := Ideal) x0 x1 x3 x4 x5 x6 x7 x8 x9 x10 x15 x16 x33 x34 x35 x36 (ix2 r k)) (fun k k' => x23 (ix2 k k')) (fun k => x24 (ix1 k)) (fun k k' => x25 (ix2 k k')) (fun k => x26 (ix1 k))) := by
  refine hidden_congr (funext fun k => ?_) (funext fun k => funext fun k' => ?_) (funext fun k => ?_)
    (funext fun k => funext fun k' => ?_) (funext fun k => ?_)
  · rw [iblk3_0_apply V c t y k r hr, hs2]
  · rw [iblk3_1_apply V c t k k', hWin]
  · rw [iblk3_2_apply V c t 0 k]; exact hbin k
  · rw [iblk3_3_apply V c t k k', hWlin]
  · rw [iblk3_4_apply V c t 0 k]; exact hblin k

/-- An index of the hidden-features array is in point t's block iff its row is among the block's 2000 rows. -/
theorem mem_blk3_11 (t : Fin cfg3.N) (i : S30000x64.Idx) :
    i ∈ ((cfg3.win 11).blk t).view.set ↔ ∀ a : Fin 2, win3_11.index t a * S2000x64.size a ≤ (i a).val ∧ (i a).val < win3_11.index t a * S2000x64.size a + S2000x64.size a := by
  show i ∈ ((View.whole main_v112_0).slice (win3_11.rect t)).set ↔ _
  rw [View.set_slice_whole, Rect.mem_set_unit]
  exact Iff.rfl

/-- Row r lies in the block of point r / 2000. -/
theorem rows_cover3_11 (i : S30000x64.Idx) :
    ∃ t : Fin cfg3.N, (cfg3.win 11).flush t = true ∧ i ∈ ((cfg3.win 11).blk t).view.set := by
  have hi0 : (i 0).val < 30000 := (i 0).isLt
  have hi1 : (i 1).val < 64 := (i 1).isLt
  have hN : cfg3.N = 15 := N_3
  have ht : (i 0).val / 2000 < cfg3.N := by rw [hN]; omega
  refine ⟨⟨(i 0).val / 2000, ht⟩, flush3_11 _, ?_⟩
  rw [mem_blk3_11]
  obtain ⟨-, -, -, -, -, -, -, -, -, -, -, ⟨e0, e1⟩, -⟩ := idx_facts3 ⟨(i 0).val / 2000, ht⟩
  intro a
  match a with
  | ⟨0, _⟩ =>
    show win3_11.index ⟨(i 0).val / 2000, ht⟩ (0 : Fin 2) * 2000 ≤ (i 0).val ∧ (i 0).val < win3_11.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_11.index ⟨(i 0).val / 2000, ht⟩ (1 : Fin 2) * 64 ≤ (i 1).val ∧ (i 1).val < win3_11.index ⟨(i 0).val / 2000, ht⟩ (1 : Fin 2) * 64 + 64
    rw [e1]; omega

/-- What point t writes back to the hidden-features array is block t of the reference's hidden features. -/
theorem flushed3_11_eq (c : Dev nD) (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x23 : (⟨S256x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x33 x34 x35 x36 : (⟨S200000, .i32⟩ : BufTy).Contents (Elt Ideal))
    (hs2 : V c main_v106 = Cert.ReferenceIdeal.Stages.val_main_v210 (F := Ideal) x0 x1 x3 x4 x5 x6 x7 x8 x9 x10 x15 x16 x33 x34 x35 x36)
    (hWin : V c main_arg23 = x23) (hWlin : V c main_arg25 = x25)
    (hbin : ∀ j : Fin 64, (V c main_v107 : S1x64.Idx → EReal) (ix2 0 j) = (x24 : S64.Idx → EReal) (ix1 j))
    (hblin : ∀ j : Fin 64, (V c main_v108 : S1x64.Idx → EReal) (ix2 0 j) = (x26 : S64.Idx → EReal) (ix1 j))
    (t : Fin cfg3.N) :
    (dat3 (F := Ideal) V c).flushed 11 t
      = ((cfg3.win 11).blk t).view.read (Elt Ideal) (val_main_v289 (F := Ideal) x0 x1 x3 x4 x5 x6 x7 x8 x9 x10 x15 x16 x23 x24 x25 x26 x33 x34 x35 x36) := by
  show (cfg3.win 11).cut (grid3.coords t) ((dat3 V c).after 11 t) = _
  rw [after3_11]
  unfold out3_11
  rw [View.canon_unit_zero hz3]
  simp only [View.ld_unit_zero (S := S2000x256) hz3, View.ld_unit_zero (S := S256x64) hz3, View.ld_unit_zero (S := S1x64) hz3,
    View.ld_unit_zero (S := S64x64) hz3]
  funext jj
  obtain ⟨y, j, rfl⟩ : ∃ (y : Fin 2000) (j : Fin 64), jj = ix2 y j := ⟨jj 0, jj 1, eq_ix2 jj⟩
  have hN : cfg3.N = 15 := N_3
  have ht : t.val < 15 := by have := t.isLt; omega
  have hr : t.val * 2000 + y.val < 30000 := by omega
  show k3_pay3 (iblk3 V c 0 t) (iblk3 V c 1 t) (iblk3 V c 2 t) (iblk3 V c 3 t) (iblk3 V c 4 t) (ix2 y j)
    = val_main_v289 (F := Ideal) x0 x1 x3 x4 x5 x6 x7 x8 x9 x10 x15 x16 x23 x24 x25 x26 x33 x34 x35 x36 (((cfg3.win 11).blk t).view.emb (ix2 y j))
  have hemb : ((cfg3.win 11).blk t).view.emb (ix2 y j) = ix2 (⟨t.val * 2000 + y.val, hr⟩ : Fin 30000) j := by
    funext a
    apply Fin.ext
    obtain ⟨-, -, -, -, -, -, -, -, -, -, -, ⟨e0, e1⟩, -⟩ := idx_facts3 t
    match a with
    | ⟨0, _⟩ => show win3_11.index t (0 : Fin 2) * 2000 + 1 * y.val = t.val * 2000 + y.val; rw [e0]; omega
    | ⟨1, _⟩ => show win3_11.index t (1 : Fin 2) * 64 + 1 * j.val = j.val; rw [e1]; omega
  rw [hemb]
  refine (pay3_apply (iblk3 V c 0 t) (iblk3 V c 1 t) (iblk3 V c 2 t) (iblk3 V c 3 t) (iblk3 V c 4 t) y j).trans ?_
  refine Eq.trans ?_ (ref289_apply x0 x1 x3 x4 x5 x6 x7 x8 x9 x10 x15 x16 x23 x24 x25 x26 x33 x34 x35 x36 ⟨t.val * 2000 + y.val, hr⟩ j).symm
  rw [hidden_blk V c x0 x1 x3 x4 x5 x6 x7 x8 x9 x10 x15 x16 x23 x24 x25 x26 x33 x34 x35 x36 hs2 hWin hWlin hbin hblin t y ⟨t.val * 2000 + y.val, hr⟩ rfl]

/-- A head depends only on the hidden features, its weights and its bias. -/
theorem dense_congr {K n : ℕ} {a : Fin K → EReal} {W W' : Fin K → Fin n → EReal} {b b' : Fin n → EReal} {j : Fin n}
    (hW : W = W') (hb : b = b') : dense a W b j = dense a W' b' j := by
  subst hW hb; rfl

/-- An index of the rotation head's array is in point t's block iff its row is among the block's 2000 rows. -/
theorem mem_blk3_12 (t : Fin cfg3.N) (i : S30000x36.Idx) :
    i ∈ ((cfg3.win 12).blk t).view.set ↔ ∀ a : Fin 2, win3_12.index t a * S2000x36.size a ≤ (i a).val ∧ (i a).val < win3_12.index t a * S2000x36.size a + S2000x36.size a := by
  show i ∈ ((View.whole main_v112_1).slice (win3_12.rect t)).set ↔ _
  rw [View.set_slice_whole, Rect.mem_set_unit]
  exact Iff.rfl

/-- Row r lies in the block of point r / 2000. -/
theorem rows_cover3_12 (i : S30000x36.Idx) :
    ∃ t : Fin cfg3.N, (cfg3.win 12).flush t = true ∧ i ∈ ((cfg3.win 12).blk t).view.set := by
  have hi0 : (i 0).val < 30000 := (i 0).isLt
  have hi1 : (i 1).val < 36 := (i 1).isLt
  have hN : cfg3.N = 15 := N_3
  have ht : (i 0).val / 2000 < cfg3.N := by rw [hN]; omega
  refine ⟨⟨(i 0).val / 2000, ht⟩, flush3_12 _, ?_⟩
  rw [mem_blk3_12]
  obtain ⟨-, -, -, -, -, -, -, -, -, -, -, -, ⟨e0, e1⟩, -⟩ := idx_facts3 ⟨(i 0).val / 2000, ht⟩
  intro a
  match a with
  | ⟨0, _⟩ =>
    show win3_12.index ⟨(i 0).val / 2000, ht⟩ (0 : Fin 2) * 2000 ≤ (i 0).val ∧ (i 0).val < win3_12.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_12.index ⟨(i 0).val / 2000, ht⟩ (1 : Fin 2) * 36 ≤ (i 1).val ∧ (i 1).val < win3_12.index ⟨(i 0).val / 2000, ht⟩ (1 : Fin 2) * 36 + 36
    rw [e1]; omega

/-- What point t writes back to the rotation head's array is block t of the reference's rotation head. -/
theorem flushed3_12_eq (c : Dev nD) (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x23 : (⟨S256x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x27 : (⟨S64x36, .f32⟩ : BufTy).Contents (Elt Ideal)) (x28 : (⟨S36, .f32⟩ : BufTy).Contents (Elt Ideal)) (x33 x34 x35 x36 : (⟨S200000, .i32⟩ : BufTy).Contents (Elt Ideal))
    (hs2 : V c main_v106 = Cert.ReferenceIdeal.Stages.val_main_v210 (F := Ideal) x0 x1 x3 x4 x5 x6 x7 x8 x9 x10 x15 x16 x33 x34 x35 x36)
    (hWin : V c main_arg23 = x23) (hWlin : V c main_arg25 = x25)
    (hbin : ∀ j : Fin 64, (V c main_v107 : S1x64.Idx → EReal) (ix2 0 j) = (x24 : S64.Idx → EReal) (ix1 j))
    (hblin : ∀ j : Fin 64, (V c main_v108 : S1x64.Idx → EReal) (ix2 0 j) = (x26 : S64.Idx → EReal) (ix1 j))
    (hWrot : V c main_arg27 = x27)
    (hbrot : ∀ j : Fin 36, (V c main_v109 : S1x36.Idx → EReal) (ix2 0 j) = (x28 : S36.Idx → EReal) (ix1 j))
    (t : Fin cfg3.N) :
    (dat3 (F := Ideal) V c).flushed 12 t
      = ((cfg3.win 12).blk t).view.read (Elt Ideal) (val_main_v293 (F := Ideal) x0 x1 x3 x4 x5 x6 x7 x8 x9 x10 x15 x16 x23 x24 x25 x26 x27 x28 x33 x34 x35 x36) := by
  show (cfg3.win 12).cut (grid3.coords t) ((dat3 V c).after 12 t) = _
  rw [after3_12]
  unfold out3_12
  rw [View.canon_unit_zero hz3]
  simp only [View.ld_unit_zero (S := S2000x256) hz3, View.ld_unit_zero (S := S256x64) hz3, View.ld_unit_zero (S := S1x64) hz3,
    View.ld_unit_zero (S := S64x64) hz3, View.ld_unit_zero (S := S64x36) hz3, View.ld_unit_zero (S := S1x36) hz3]
  funext jj
  obtain ⟨y, j, rfl⟩ : ∃ (y : Fin 2000) (j : Fin 36), jj = ix2 y j := ⟨jj 0, jj 1, eq_ix2 jj⟩
  have hN : cfg3.N = 15 := N_3
  have ht : t.val < 15 := by have := t.isLt; omega
  have hr : t.val * 2000 + y.val < 30000 := by omega
  show k3_pay4 (iblk3 V c 0 t) (iblk3 V c 1 t) (iblk3 V c 2 t) (iblk3 V c 3 t) (iblk3 V c 4 t) (iblk3 V c 5 t) (iblk3 V c 6 t) (ix2 y j)
    = val_main_v293 (F := Ideal) x0 x1 x3 x4 x5 x6 x7 x8 x9 x10 x15 x16 x23 x24 x25 x26 x27 x28 x33 x34 x35 x36 (((cfg3.win 12).blk t).view.emb (ix2 y j))
  have hemb : ((cfg3.win 12).blk t).view.emb (ix2 y j) = ix2 (⟨t.val * 2000 + y.val, hr⟩ : Fin 30000) j := by
    funext a
    apply Fin.ext
    obtain ⟨-, -, -, -, -, -, -, -, -, -, -, -, ⟨e0, e1⟩, -⟩ := idx_facts3 t
    match a with
    | ⟨0, _⟩ => show win3_12.index t (0 : Fin 2) * 2000 + 1 * y.val = t.val * 2000 + y.val; rw [e0]; omega
    | ⟨1, _⟩ => show win3_12.index t (1 : Fin 2) * 36 + 1 * j.val = j.val; rw [e1]; omega
  rw [hemb]
  refine (pay4_apply (iblk3 V c 0 t) (iblk3 V c 1 t) (iblk3 V c 2 t) (iblk3 V c 3 t) (iblk3 V c 4 t) (iblk3 V c 5 t) (iblk3 V c 6 t) y j).trans ?_
  refine Eq.trans ?_ (ref293_apply x0 x1 x3 x4 x5 x6 x7 x8 x9 x10 x15 x16 x23 x24 x25 x26 x27 x28 x33 x34 x35 x36 ⟨t.val * 2000 + y.val, hr⟩ j).symm
  rw [hidden_blk V c x0 x1 x3 x4 x5 x6 x7 x8 x9 x10 x15 x16 x23 x24 x25 x26 x33 x34 x35 x36 hs2 hWin hWlin hbin hblin t y ⟨t.val * 2000 + y.val, hr⟩ rfl]
  refine dense_congr (funext fun k => funext fun k' => ?_) (funext fun k => ?_)
  · rw [iblk3_5_apply V c t k k', hWrot]
  · rw [iblk3_6_apply V c t 0 k]; exact hbrot k

/-- An index of the x head's array is in point t's block iff its row is among the block's 2000 rows. -/
theorem mem_blk3_13 (t : Fin cfg3.N) (i : S30000x1.Idx) :
    i ∈ ((cfg3.win 13).blk t).view.set ↔ ∀ a : Fin 2, win3_13.index t a * S2000x1.size a ≤ (i a).val ∧ (i a).val < win3_13.index t a * S2000x1.size a + S2000x1.size a := by
  show i ∈ ((View.whole main_v112_2).slice (win3_13.rect t)).set ↔ _
  rw [View.set_slice_whole, Rect.mem_set_unit]
  exact Iff.rfl

/-- Row r lies in the block of point r / 2000. -/
theorem rows_cover3_13 (i : S30000x1.Idx) :
    ∃ t : Fin cfg3.N, (cfg3.win 13).flush t = true ∧ i ∈ ((cfg3.win 13).blk t).view.set := by
  have hi0 : (i 0).val < 30000 := (i 0).isLt
  have hi1 : (i 1).val < 1 := (i 1).isLt
  have hN : cfg3.N = 15 := N_3
  have ht : (i 0).val / 2000 < cfg3.N := by rw [hN]; omega
  refine ⟨⟨(i 0).val / 2000, ht⟩, flush3_13 _, ?_⟩
  rw [mem_blk3_13]
  obtain ⟨-, -, -, -, -, -, -, -, -, -, -, -, -, ⟨e0, e1⟩, -⟩ := idx_facts3 ⟨(i 0).val / 2000, ht⟩
  intro a
  match a with
  | ⟨0, _⟩ =>
    show win3_13.index ⟨(i 0).val / 2000, ht⟩ (0 : Fin 2) * 2000 ≤ (i 0).val ∧ (i 0).val < win3_13.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_13.index ⟨(i 0).val / 2000, ht⟩ (1 : Fin 2) * 1 ≤ (i 1).val ∧ (i 1).val < win3_13.index ⟨(i 0).val / 2000, ht⟩ (1 : Fin 2) * 1 + 1
    rw [e1]; omega

/-- What point t writes back to the x head's array is block t of the reference's x head. -/
theorem flushed3_13_eq (c : Dev nD) (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x23 : (⟨S256x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x29 : (⟨S64x1, .f32⟩ : BufTy).Contents (Elt Ideal)) (x30 : (⟨S1, .f32⟩ : BufTy).Contents (Elt Ideal)) (x33 x34 x35 x36 : (⟨S200000, .i32⟩ : BufTy).Contents (Elt Ideal))
    (hs2 : V c main_v106 = Cert.ReferenceIdeal.Stages.val_main_v210 (F := Ideal) x0 x1 x3 x4 x5 x6 x7 x8 x9 x10 x15 x16 x33 x34 x35 x36)
    (hWin : V c main_arg23 = x23) (hWlin : V c main_arg25 = x25)
    (hbin : ∀ j : Fin 64, (V c main_v107 : S1x64.Idx → EReal) (ix2 0 j) = (x24 : S64.Idx → EReal) (ix1 j))
    (hblin : ∀ j : Fin 64, (V c main_v108 : S1x64.Idx → EReal) (ix2 0 j) = (x26 : S64.Idx → EReal) (ix1 j))
    (hWx : V c main_arg29 = x29)
    (hbx : (V c main_v110 : S1x1.Idx → EReal) (ix2 0 0) = (x30 : S1.Idx → EReal) (ix1 0))
    (t : Fin cfg3.N) :
    (dat3 (F := Ideal) V c).flushed 13 t
      = ((cfg3.win 13).blk t).view.read (Elt Ideal) (val_main_v297 (F := Ideal) x0 x1 x3 x4 x5 x6 x7 x8 x9 x10 x15 x16 x23 x24 x25 x26 x29 x30 x33 x34 x35 x36) := by
  show (cfg3.win 13).cut (grid3.coords t) ((dat3 V c).after 13 t) = _
  rw [after3_13]
  unfold out3_13
  rw [View.canon_unit_zero hz3]
  simp only [View.ld_unit_zero (S := S2000x256) hz3, View.ld_unit_zero (S := S256x64) hz3, View.ld_unit_zero (S := S1x64) hz3,
    View.ld_unit_zero (S := S64x64) hz3, View.ld_unit_zero (S := S64x1) hz3, View.ld_unit_zero (S := S1x1) hz3]
  funext jj
  obtain ⟨y, j, rfl⟩ : ∃ (y : Fin 2000) (j : Fin 1), jj = ix2 y j := ⟨jj 0, jj 1, eq_ix2 jj⟩
  have hN : cfg3.N = 15 := N_3
  have ht : t.val < 15 := by have := t.isLt; omega
  have hr : t.val * 2000 + y.val < 30000 := by omega
  show k3_pay1 (k3_pay5 (iblk3 V c 0 t) (iblk3 V c 1 t) (iblk3 V c 2 t) (iblk3 V c 3 t) (iblk3 V c 4 t) (iblk3 V c 7 t)) (iblk3 V c 8 t) (ix2 y j)
    = val_main_v297 (F := Ideal) x0 x1 x3 x4 x5 x6 x7 x8 x9 x10 x15 x16 x23 x24 x25 x26 x29 x30 x33 x34 x35 x36 (((cfg3.win 13).blk t).view.emb (ix2 y j))
  have hemb : ((cfg3.win 13).blk t).view.emb (ix2 y j) = ix2 (⟨t.val * 2000 + y.val, hr⟩ : Fin 30000) j := by
    funext a
    apply Fin.ext
    obtain ⟨-, -, -, -, -, -, -, -, -, -, -, -, -, ⟨e0, e1⟩, -⟩ := idx_facts3 t
    match a with
    | ⟨0, _⟩ => show win3_13.index t (0 : Fin 2) * 2000 + 1 * y.val = t.val * 2000 + y.val; rw [e0]; omega
    | ⟨1, _⟩ => show win3_13.index t (1 : Fin 2) * 1 + 1 * j.val = j.val; rw [e1]; omega
  rw [hemb]
  refine (pay15_apply (iblk3 V c 0 t) (iblk3 V c 1 t) (iblk3 V c 2 t) (iblk3 V c 3 t) (iblk3 V c 4 t) (iblk3 V c 7 t) (iblk3 V c 8 t) y j).trans ?_
  refine Eq.trans ?_ (ref297_apply x0 x1 x3 x4 x5 x6 x7 x8 x9 x10 x15 x16 x23 x24 x25 x26 x29 x30 x33 x34 x35 x36 ⟨t.val * 2000 + y.val, hr⟩ j).symm
  rw [hidden_blk V c x0 x1 x3 x4 x5 x6 x7 x8 x9 x10 x15 x16 x23 x24 x25 x26 x33 x34 x35 x36 hs2 hWin hWlin hbin hblin t y ⟨t.val * 2000 + y.val, hr⟩ rfl]
  refine dense_congr (funext fun k => funext fun k' => ?_) (funext fun k => ?_)
  · rw [iblk3_7_apply V c t k k', hWx]
  · rw [iblk3_8_apply V c t 0 k]; obtain rfl : k = 0 := Subsingleton.elim _ _; exact hbx

/-- An index of the y head's array is in point t's block iff its row is among the block's 2000 rows. -/
theorem mem_blk3_14 (t : Fin cfg3.N) (i : S30000x1.Idx) :
    i ∈ ((cfg3.win 14).blk t).view.set ↔ ∀ a : Fin 2, win3_14.index t a * S2000x1.size a ≤ (i a).val ∧ (i a).val < win3_14.index t a * S2000x1.size a + S2000x1.size a := by
  show i ∈ ((View.whole main_v112_3).slice (win3_14.rect t)).set ↔ _
  rw [View.set_slice_whole, Rect.mem_set_unit]
  exact Iff.rfl

/-- Row r lies in the block of point r / 2000. -/
theorem rows_cover3_14 (i : S30000x1.Idx) :
    ∃ t : Fin cfg3.N, (cfg3.win 14).flush t = true ∧ i ∈ ((cfg3.win 14).blk t).view.set := by
  have hi0 : (i 0).val < 30000 := (i 0).isLt
  have hi1 : (i 1).val < 1 := (i 1).isLt
  have hN : cfg3.N = 15 := N_3
  have ht : (i 0).val / 2000 < cfg3.N := by rw [hN]; omega
  refine ⟨⟨(i 0).val / 2000, ht⟩, flush3_14 _, ?_⟩
  rw [mem_blk3_14]
  obtain ⟨-, -, -, -, -, -, -, -, -, -, -, -, -, -, ⟨e0, e1⟩⟩ := idx_facts3 ⟨(i 0).val / 2000, ht⟩
  intro a
  match a with
  | ⟨0, _⟩ =>
    show win3_14.index ⟨(i 0).val / 2000, ht⟩ (0 : Fin 2) * 2000 ≤ (i 0).val ∧ (i 0).val < win3_14.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_14.index ⟨(i 0).val / 2000, ht⟩ (1 : Fin 2) * 1 ≤ (i 1).val ∧ (i 1).val < win3_14.index ⟨(i 0).val / 2000, ht⟩ (1 : Fin 2) * 1 + 1
    rw [e1]; omega

/-- What point t writes back to the y head's array is block t of the reference's y head. -/
theorem flushed3_14_eq (c : Dev nD) (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x23 : (⟨S256x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x31 : (⟨S64x1, .f32⟩ : BufTy).Contents (Elt Ideal)) (x32 : (⟨S1, .f32⟩ : BufTy).Contents (Elt Ideal)) (x33 x34 x35 x36 : (⟨S200000, .i32⟩ : BufTy).Contents (Elt Ideal))
    (hs2 : V c main_v106 = Cert.ReferenceIdeal.Stages.val_main_v210 (F := Ideal) x0 x1 x3 x4 x5 x6 x7 x8 x9 x10 x15 x16 x33 x34 x35 x36)
    (hWin : V c main_arg23 = x23) (hWlin : V c main_arg25 = x25)
    (hbin : ∀ j : Fin 64, (V c main_v107 : S1x64.Idx → EReal) (ix2 0 j) = (x24 : S64.Idx → EReal) (ix1 j))
    (hblin : ∀ j : Fin 64, (V c main_v108 : S1x64.Idx → EReal) (ix2 0 j) = (x26 : S64.Idx → EReal) (ix1 j))
    (hWy : V c main_arg31 = x31)
    (hby : (V c main_v111 : S1x1.Idx → EReal) (ix2 0 0) = (x32 : S1.Idx → EReal) (ix1 0))
    (t : Fin cfg3.N) :
    (dat3 (F := Ideal) V c).flushed 14 t
      = ((cfg3.win 14).blk t).view.read (Elt Ideal) (val_main_v301 (F := Ideal) x0 x1 x3 x4 x5 x6 x7 x8 x9 x10 x15 x16 x23 x24 x25 x26 x31 x32 x33 x34 x35 x36) := by
  show (cfg3.win 14).cut (grid3.coords t) ((dat3 V c).after 14 t) = _
  rw [after3_14]
  unfold out3_14
  rw [View.canon_unit_zero hz3]
  simp only [View.ld_unit_zero (S := S2000x256) hz3, View.ld_unit_zero (S := S256x64) hz3, View.ld_unit_zero (S := S1x64) hz3,
    View.ld_unit_zero (S := S64x64) hz3, View.ld_unit_zero (S := S64x1) hz3, View.ld_unit_zero (S := S1x1) hz3]
  funext jj
  obtain ⟨y, j, rfl⟩ : ∃ (y : Fin 2000) (j : Fin 1), jj = ix2 y j := ⟨jj 0, jj 1, eq_ix2 jj⟩
  have hN : cfg3.N = 15 := N_3
  have ht : t.val < 15 := by have := t.isLt; omega
  have hr : t.val * 2000 + y.val < 30000 := by omega
  show k3_pay2 (k3_pay3 (iblk3 V c 0 t) (iblk3 V c 1 t) (iblk3 V c 2 t) (iblk3 V c 3 t) (iblk3 V c 4 t)) (iblk3 V c 9 t) (iblk3 V c 10 t) (ix2 y j)
    = val_main_v301 (F := Ideal) x0 x1 x3 x4 x5 x6 x7 x8 x9 x10 x15 x16 x23 x24 x25 x26 x31 x32 x33 x34 x35 x36 (((cfg3.win 14).blk t).view.emb (ix2 y j))
  have hemb : ((cfg3.win 14).blk t).view.emb (ix2 y j) = ix2 (⟨t.val * 2000 + y.val, hr⟩ : Fin 30000) j := by
    funext a
    apply Fin.ext
    obtain ⟨-, -, -, -, -, -, -, -, -, -, -, -, -, -, ⟨e0, e1⟩⟩ := idx_facts3 t
    match a with
    | ⟨0, _⟩ => show win3_14.index t (0 : Fin 2) * 2000 + 1 * y.val = t.val * 2000 + y.val; rw [e0]; omega
    | ⟨1, _⟩ => show win3_14.index t (1 : Fin 2) * 1 + 1 * j.val = j.val; rw [e1]; omega
  rw [hemb]
  refine (pay2_apply (iblk3 V c 0 t) (iblk3 V c 1 t) (iblk3 V c 2 t) (iblk3 V c 3 t) (iblk3 V c 4 t) (iblk3 V c 9 t) (iblk3 V c 10 t) y j).trans ?_
  refine Eq.trans ?_ (ref301_apply x0 x1 x3 x4 x5 x6 x7 x8 x9 x10 x15 x16 x23 x24 x25 x26 x31 x32 x33 x34 x35 x36 ⟨t.val * 2000 + y.val, hr⟩ j).symm
  rw [hidden_blk V c x0 x1 x3 x4 x5 x6 x7 x8 x9 x10 x15 x16 x23 x24 x25 x26 x33 x34 x35 x36 hs2 hWin hWlin hbin hblin t y ⟨t.val * 2000 + y.val, hr⟩ rfl]
  refine dense_congr (funext fun k => funext fun k' => ?_) (funext fun k => ?_)
  · rw [iblk3_9_apply V c t k k', hWy]
  · rw [iblk3_10_apply V c t 0 k]; obtain rfl : k = 0 := Subsingleton.elim _ _; exact hby

/-! ## The four output arrays after the run

One signature for the four: every argument of the reference and every hypothesis on the region's entry contents, each
theorem using the ones its output depends on. -/

/-- THE HIDDEN FEATURES after the run: the reference's, index by index. -/
theorem final3_11 (c : Dev nD) (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x23 : (⟨S256x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x27 : (⟨S64x36, .f32⟩ : BufTy).Contents (Elt Ideal)) (x28 : (⟨S36, .f32⟩ : BufTy).Contents (Elt Ideal)) (x29 : (⟨S64x1, .f32⟩ : BufTy).Contents (Elt Ideal)) (x30 : (⟨S1, .f32⟩ : BufTy).Contents (Elt Ideal)) (x31 : (⟨S64x1, .f32⟩ : BufTy).Contents (Elt Ideal)) (x32 : (⟨S1, .f32⟩ : BufTy).Contents (Elt Ideal)) (x33 x34 x35 x36 : (⟨S200000, .i32⟩ : BufTy).Contents (Elt Ideal))
    (hs2 : V c main_v106 = Cert.ReferenceIdeal.Stages.val_main_v210 (F := Ideal) x0 x1 x3 x4 x5 x6 x7 x8 x9 x10 x15 x16 x33 x34 x35 x36)
    (hWin : V c main_arg23 = x23) (hWlin : V c main_arg25 = x25) (hWrot : V c main_arg27 = x27)
    (hWx : V c main_arg29 = x29) (hWy : V c main_arg31 = x31)
    (hbin : ∀ j : Fin 64, (V c main_v107 : S1x64.Idx → EReal) (ix2 (0 : Fin 1) j) = (x24 : S64.Idx → EReal) (ix1 j))
    (hblin : ∀ j : Fin 64, (V c main_v108 : S1x64.Idx → EReal) (ix2 (0 : Fin 1) j) = (x26 : S64.Idx → EReal) (ix1 j))
    (hbrot : ∀ j : Fin 36, (V c main_v109 : S1x36.Idx → EReal) (ix2 (0 : Fin 1) j) = (x28 : S36.Idx → EReal) (ix1 j))
    (hbx : (V c main_v110 : S1x1.Idx → EReal) (ix2 (0 : Fin 1) (0 : Fin 1)) = (x30 : S1.Idx → EReal) (ix1 (0 : Fin 1)))
    (hby : (V c main_v111 : S1x1.Idx → EReal) (ix2 (0 : Fin 1) (0 : Fin 1)) = (x32 : S1.Idx → EReal) (ix1 (0 : Fin 1))) :
    (dat3 (F := Ideal) V c).arrAt 11 cfg3.N = val_main_v289 (F := Ideal) x0 x1 x3 x4 x5 x6 x7 x8 x9 x10 x15 x16 x23 x24 x25 x26 x33 x34 x35 x36 :=
  (dat3 (F := Ideal) V c).arrAt_eq_of_cover 11 _
    (fun t _ => flushed3_11_eq V c x0 x1 x3 x4 x5 x6 x7 x8 x9 x10 x15 x16 x23 x24 x25 x26 x33 x34 x35 x36 hs2 hWin hWlin hbin hblin t) rows_cover3_11

/-- THE ROTATION HEAD after the run: the reference's, index by index. -/
theorem final3_12 (c : Dev nD) (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x23 : (⟨S256x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x27 : (⟨S64x36, .f32⟩ : BufTy).Contents (Elt Ideal)) (x28 : (⟨S36, .f32⟩ : BufTy).Contents (Elt Ideal)) (x29 : (⟨S64x1, .f32⟩ : BufTy).Contents (Elt Ideal)) (x30 : (⟨S1, .f32⟩ : BufTy).Contents (Elt Ideal)) (x31 : (⟨S64x1, .f32⟩ : BufTy).Contents (Elt Ideal)) (x32 : (⟨S1, .f32⟩ : BufTy).Contents (Elt Ideal)) (x33 x34 x35 x36 : (⟨S200000, .i32⟩ : BufTy).Contents (Elt Ideal))
    (hs2 : V c main_v106 = Cert.ReferenceIdeal.Stages.val_main_v210 (F := Ideal) x0 x1 x3 x4 x5 x6 x7 x8 x9 x10 x15 x16 x33 x34 x35 x36)
    (hWin : V c main_arg23 = x23) (hWlin : V c main_arg25 = x25) (hWrot : V c main_arg27 = x27)
    (hWx : V c main_arg29 = x29) (hWy : V c main_arg31 = x31)
    (hbin : ∀ j : Fin 64, (V c main_v107 : S1x64.Idx → EReal) (ix2 (0 : Fin 1) j) = (x24 : S64.Idx → EReal) (ix1 j))
    (hblin : ∀ j : Fin 64, (V c main_v108 : S1x64.Idx → EReal) (ix2 (0 : Fin 1) j) = (x26 : S64.Idx → EReal) (ix1 j))
    (hbrot : ∀ j : Fin 36, (V c main_v109 : S1x36.Idx → EReal) (ix2 (0 : Fin 1) j) = (x28 : S36.Idx → EReal) (ix1 j))
    (hbx : (V c main_v110 : S1x1.Idx → EReal) (ix2 (0 : Fin 1) (0 : Fin 1)) = (x30 : S1.Idx → EReal) (ix1 (0 : Fin 1)))
    (hby : (V c main_v111 : S1x1.Idx → EReal) (ix2 (0 : Fin 1) (0 : Fin 1)) = (x32 : S1.Idx → EReal) (ix1 (0 : Fin 1))) :
    (dat3 (F := Ideal) V c).arrAt 12 cfg3.N = val_main_v293 (F := Ideal) x0 x1 x3 x4 x5 x6 x7 x8 x9 x10 x15 x16 x23 x24 x25 x26 x27 x28 x33 x34 x35 x36 :=
  (dat3 (F := Ideal) V c).arrAt_eq_of_cover 12 _
    (fun t _ => flushed3_12_eq V c x0 x1 x3 x4 x5 x6 x7 x8 x9 x10 x15 x16 x23 x24 x25 x26 x27 x28 x33 x34 x35 x36 hs2 hWin hWlin hbin hblin hWrot hbrot t) rows_cover3_12

/-- THE X HEAD after the run: the reference's, index by index. -/
theorem final3_13 (c : Dev nD) (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x23 : (⟨S256x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x27 : (⟨S64x36, .f32⟩ : BufTy).Contents (Elt Ideal)) (x28 : (⟨S36, .f32⟩ : BufTy).Contents (Elt Ideal)) (x29 : (⟨S64x1, .f32⟩ : BufTy).Contents (Elt Ideal)) (x30 : (⟨S1, .f32⟩ : BufTy).Contents (Elt Ideal)) (x31 : (⟨S64x1, .f32⟩ : BufTy).Contents (Elt Ideal)) (x32 : (⟨S1, .f32⟩ : BufTy).Contents (Elt Ideal)) (x33 x34 x35 x36 : (⟨S200000, .i32⟩ : BufTy).Contents (Elt Ideal))
    (hs2 : V c main_v106 = Cert.ReferenceIdeal.Stages.val_main_v210 (F := Ideal) x0 x1 x3 x4 x5 x6 x7 x8 x9 x10 x15 x16 x33 x34 x35 x36)
    (hWin : V c main_arg23 = x23) (hWlin : V c main_arg25 = x25) (hWrot : V c main_arg27 = x27)
    (hWx : V c main_arg29 = x29) (hWy : V c main_arg31 = x31)
    (hbin : ∀ j : Fin 64, (V c main_v107 : S1x64.Idx → EReal) (ix2 (0 : Fin 1) j) = (x24 : S64.Idx → EReal) (ix1 j))
    (hblin : ∀ j : Fin 64, (V c main_v108 : S1x64.Idx → EReal) (ix2 (0 : Fin 1) j) = (x26 : S64.Idx → EReal) (ix1 j))
    (hbrot : ∀ j : Fin 36, (V c main_v109 : S1x36.Idx → EReal) (ix2 (0 : Fin 1) j) = (x28 : S36.Idx → EReal) (ix1 j))
    (hbx : (V c main_v110 : S1x1.Idx → EReal) (ix2 (0 : Fin 1) (0 : Fin 1)) = (x30 : S1.Idx → EReal) (ix1 (0 : Fin 1)))
    (hby : (V c main_v111 : S1x1.Idx → EReal) (ix2 (0 : Fin 1) (0 : Fin 1)) = (x32 : S1.Idx → EReal) (ix1 (0 : Fin 1))) :
    (dat3 (F := Ideal) V c).arrAt 13 cfg3.N = val_main_v297 (F := Ideal) x0 x1 x3 x4 x5 x6 x7 x8 x9 x10 x15 x16 x23 x24 x25 x26 x29 x30 x33 x34 x35 x36 :=
  (dat3 (F := Ideal) V c).arrAt_eq_of_cover 13 _
    (fun t _ => flushed3_13_eq V c x0 x1 x3 x4 x5 x6 x7 x8 x9 x10 x15 x16 x23 x24 x25 x26 x29 x30 x33 x34 x35 x36 hs2 hWin hWlin hbin hblin hWx hbx t) rows_cover3_13

/-- THE Y HEAD after the run: the reference's, index by index. -/
theorem final3_14 (c : Dev nD) (x0 : (⟨S30000x12, .f32⟩ : BufTy).Contents (Elt Ideal)) (x1 : (⟨S30000x10, .f32⟩ : BufTy).Contents (Elt Ideal)) (x3 : (⟨S64x13, .f32⟩ : BufTy).Contents (Elt Ideal)) (x4 : (⟨S1000x51, .f32⟩ : BufTy).Contents (Elt Ideal)) (x5 : (⟨S4x4, .f32⟩ : BufTy).Contents (Elt Ideal)) (x6 : (⟨S36x10, .f32⟩ : BufTy).Contents (Elt Ideal)) (x7 : (⟨S86x256, .f32⟩ : BufTy).Contents (Elt Ideal)) (x8 : (⟨S72x256, .f32⟩ : BufTy).Contents (Elt Ideal)) (x9 x10 : (⟨S86x256, .f32⟩ : BufTy).Contents (Elt Ideal)) (x15 x16 : (⟨S256x256, .f32⟩ : BufTy).Contents (Elt Ideal)) (x23 : (⟨S256x64, .f32⟩ : BufTy).Contents (Elt Ideal)) (x24 : (⟨S64, .f32⟩ : BufTy).Contents (Elt Ideal)) (x25 : (⟨S64x64, .f32⟩ : BufTy).Contents (Elt Ideal)) (x26 : (⟨S64, .f32⟩ : BufTy).Contents (Elt Ideal)) (x27 : (⟨S64x36, .f32⟩ : BufTy).Contents (Elt Ideal)) (x28 : (⟨S36, .f32⟩ : BufTy).Contents (Elt Ideal)) (x29 : (⟨S64x1, .f32⟩ : BufTy).Contents (Elt Ideal)) (x30 : (⟨S1, .f32⟩ : BufTy).Contents (Elt Ideal)) (x31 : (⟨S64x1, .f32⟩ : BufTy).Contents (Elt Ideal)) (x32 : (⟨S1, .f32⟩ : BufTy).Contents (Elt Ideal)) (x33 x34 x35 x36 : (⟨S200000, .i32⟩ : BufTy).Contents (Elt Ideal))
    (hs2 : V c main_v106 = Cert.ReferenceIdeal.Stages.val_main_v210 (F := Ideal) x0 x1 x3 x4 x5 x6 x7 x8 x9 x10 x15 x16 x33 x34 x35 x36)
    (hWin : V c main_arg23 = x23) (hWlin : V c main_arg25 = x25) (hWrot : V c main_arg27 = x27)
    (hWx : V c main_arg29 = x29) (hWy : V c main_arg31 = x31)
    (hbin : ∀ j : Fin 64, (V c main_v107 : S1x64.Idx → EReal) (ix2 (0 : Fin 1) j) = (x24 : S64.Idx → EReal) (ix1 j))
    (hblin : ∀ j : Fin 64, (V c main_v108 : S1x64.Idx → EReal) (ix2 (0 : Fin 1) j) = (x26 : S64.Idx → EReal) (ix1 j))
    (hbrot : ∀ j : Fin 36, (V c main_v109 : S1x36.Idx → EReal) (ix2 (0 : Fin 1) j) = (x28 : S36.Idx → EReal) (ix1 j))
    (hbx : (V c main_v110 : S1x1.Idx → EReal) (ix2 (0 : Fin 1) (0 : Fin 1)) = (x30 : S1.Idx → EReal) (ix1 (0 : Fin 1)))
    (hby : (V c main_v111 : S1x1.Idx → EReal) (ix2 (0 : Fin 1) (0 : Fin 1)) = (x32 : S1.Idx → EReal) (ix1 (0 : Fin 1))) :
    (dat3 (F := Ideal) V c).arrAt 14 cfg3.N = val_main_v301 (F := Ideal) x0 x1 x3 x4 x5 x6 x7 x8 x9 x10 x15 x16 x23 x24 x25 x26 x31 x32 x33 x34 x35 x36 :=
  (dat3 (F := Ideal) V c).arrAt_eq_of_cover 14 _
    (fun t _ => flushed3_14_eq V c x0 x1 x3 x4 x5 x6 x7 x8 x9 x10 x15 x16 x23 x24 x25 x26 x31 x32 x33 x34 x35 x36 hs2 hWin hWlin hbin hblin hWy hby t) rows_cover3_14

end Final

end Cert.KernelIdeal.Regions

end
-- ==== Proof.IdealValue.lean ====
/- The kernel program's four result buffers at the end of the run are the reference's four output stages of the launch
   arguments, at the ideal values. The run's boundaries are walked in order: the first host stretch builds, from the
   arguments, the row sums, the neighbour counts and the feature rows of both first-layer stages exactly as the reference
   does; each stage region leaves its stage of those; the second host stretch builds the second layer's row sums from the
   company stage; the second-layer region reuses the first layer's count column, which the reference recomputes by the same
   operations on the same edge list; the last host stretch lays the five bias vectors out as rows; the perceptron region
   leaves the four outputs. Every argument reaches every boundary unchanged, no stretch writing it and no region putting
   it out. -/
import proofs.«402966_j45758581572292_1_alg».proof.Proof.IdealRun
import proofs.«402966_j45758581572292_1_alg».proof.Proof.RefStages
import proofs.«402966_j45758581572292_1_alg».proof.Proof.IdealHost
import proofs.«402966_j45758581572292_1_alg».proof.Proof.IdealSage0Value
import proofs.«402966_j45758581572292_1_alg».proof.Proof.IdealSage1Value
import proofs.«402966_j45758581572292_1_alg».proof.Proof.IdealSage2Value
import proofs.«402966_j45758581572292_1_alg».proof.Proof.IdealMlpValue
import Idealize.ShloMosaic.Lib.StableHlo.Run
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx
open Idealize.SL.Sem
open Cert.KernelIdeal Cert.KernelIdeal.Gen

/-- The second layer's neighbour counts are the first layer's: the same scatter of ones into zeros along the same
    edge list. -/
theorem counts2_eq_counts1 {F : FTy → Type} [FloatOps F] (x34 : (⟨Cert.ReferenceIdeal.S200000, .i32⟩ : BufTy).Contents (Elt F)) :
    Cert.ReferenceIdeal.Stages.val_main_v201 (F := F) x34 = Cert.ReferenceIdeal.Stages.val_main_v109 (F := F) x34 := rfl

variable (m : (ℓ : Loc nD τ sig) → Buf (Elt Ideal) ℓ) (ρ : Dev nD → PrngReg)

/-! ## The arguments at the boundaries where they are read -/

theorem arg7_W1 (c : Dev nD) : W1 m ρ c (Proc.devRef .tc main_arg7) = (m ((c : Thread nD τ).loc main_arg7)) := W1_keep m ρ c main_arg7 (by decide)
theorem arg8_W1 (c : Dev nD) : W1 m ρ c (Proc.devRef .tc main_arg8) = (m ((c : Thread nD τ).loc main_arg8)) := W1_keep m ρ c main_arg8 (by decide)
theorem arg9_W2 (c : Dev nD) : W2 m ρ c (Proc.devRef .tc main_arg9) = (m ((c : Thread nD τ).loc main_arg9)) := (W2_keep m ρ c main_arg9 (by decide)).trans (W1_keep m ρ c main_arg9 (by decide))
theorem arg10_W2 (c : Dev nD) : W2 m ρ c (Proc.devRef .tc main_arg10) = (m ((c : Thread nD τ).loc main_arg10)) := (W2_keep m ρ c main_arg10 (by decide)).trans (W1_keep m ρ c main_arg10 (by decide))
theorem arg33_W3 (c : Dev nD) : W3 m ρ c (Proc.devRef .tc main_arg33) = (m ((c : Thread nD τ).loc main_arg33)) := (W3_keep m ρ c main_arg33 (by decide)).trans ((W2_keep m ρ c main_arg33 (by decide)).trans (W1_keep m ρ c main_arg33 (by decide)))
theorem arg34_W3 (c : Dev nD) : W3 m ρ c (Proc.devRef .tc main_arg34) = (m ((c : Thread nD τ).loc main_arg34)) := (W3_keep m ρ c main_arg34 (by decide)).trans ((W2_keep m ρ c main_arg34 (by decide)).trans (W1_keep m ρ c main_arg34 (by decide)))
theorem arg15_W4 (c : Dev nD) : W4 m ρ c (Proc.devRef .tc main_arg15) = (m ((c : Thread nD τ).loc main_arg15)) := (W4_keep m ρ c main_arg15 (by decide)).trans ((W3_keep m ρ c main_arg15 (by decide)).trans ((W2_keep m ρ c main_arg15 (by decide)).trans (W1_keep m ρ c main_arg15 (by decide))))
theorem arg16_W4 (c : Dev nD) : W4 m ρ c (Proc.devRef .tc main_arg16) = (m ((c : Thread nD τ).loc main_arg16)) := (W4_keep m ρ c main_arg16 (by decide)).trans ((W3_keep m ρ c main_arg16 (by decide)).trans ((W2_keep m ρ c main_arg16 (by decide)).trans (W1_keep m ρ c main_arg16 (by decide))))
theorem arg24_W5 (c : Dev nD) : W5 m ρ c (Proc.devRef .tc main_arg24) = (m ((c : Thread nD τ).loc main_arg24)) := (W5_keep m ρ c main_arg24 (by decide)).trans ((W4_keep m ρ c main_arg24 (by decide)).trans ((W3_keep m ρ c main_arg24 (by decide)).trans ((W2_keep m ρ c main_arg24 (by decide)).trans (W1_keep m ρ c main_arg24 (by decide)))))
theorem arg26_W5 (c : Dev nD) : W5 m ρ c (Proc.devRef .tc main_arg26) = (m ((c : Thread nD τ).loc main_arg26)) := (W5_keep m ρ c main_arg26 (by decide)).trans ((W4_keep m ρ c main_arg26 (by decide)).trans ((W3_keep m ρ c main_arg26 (by decide)).trans ((W2_keep m ρ c main_arg26 (by decide)).trans (W1_keep m ρ c main_arg26 (by decide)))))
theorem arg28_W5 (c : Dev nD) : W5 m ρ c (Proc.devRef .tc main_arg28) = (m ((c : Thread nD τ).loc main_arg28)) := (W5_keep m ρ c main_arg28 (by decide)).trans ((W4_keep m ρ c main_arg28 (by decide)).trans ((W3_keep m ρ c main_arg28 (by decide)).trans ((W2_keep m ρ c main_arg28 (by decide)).trans (W1_keep m ρ c main_arg28 (by decide)))))
theorem arg30_W5 (c : Dev nD) : W5 m ρ c (Proc.devRef .tc main_arg30) = (m ((c : Thread nD τ).loc main_arg30)) := (W5_keep m ρ c main_arg30 (by decide)).trans ((W4_keep m ρ c main_arg30 (by decide)).trans ((W3_keep m ρ c main_arg30 (by decide)).trans ((W2_keep m ρ c main_arg30 (by decide)).trans (W1_keep m ρ c main_arg30 (by decide)))))
theorem arg32_W5 (c : Dev nD) : W5 m ρ c (Proc.devRef .tc main_arg32) = (m ((c : Thread nD τ).loc main_arg32)) := (W5_keep m ρ c main_arg32 (by decide)).trans ((W4_keep m ρ c main_arg32 (by decide)).trans ((W3_keep m ρ c main_arg32 (by decide)).trans ((W2_keep m ρ c main_arg32 (by decide)).trans (W1_keep m ρ c main_arg32 (by decide)))))
theorem arg23_W6 (c : Dev nD) : W6 m ρ c (Proc.devRef .tc main_arg23) = (m ((c : Thread nD τ).loc main_arg23)) := (W6_keep m ρ c main_arg23 (by decide)).trans ((W5_keep m ρ c main_arg23 (by decide)).trans ((W4_keep m ρ c main_arg23 (by decide)).trans ((W3_keep m ρ c main_arg23 (by decide)).trans ((W2_keep m ρ c main_arg23 (by decide)).trans (W1_keep m ρ c main_arg23 (by decide))))))
theorem arg25_W6 (c : Dev nD) : W6 m ρ c (Proc.devRef .tc main_arg25) = (m ((c : Thread nD τ).loc main_arg25)) := (W6_keep m ρ c main_arg25 (by decide)).trans ((W5_keep m ρ c main_arg25 (by decide)).trans ((W4_keep m ρ c main_arg25 (by decide)).trans ((W3_keep m ρ c main_arg25 (by decide)).trans ((W2_keep m ρ c main_arg25 (by decide)).trans (W1_keep m ρ c main_arg25 (by decide))))))
theorem arg27_W6 (c : Dev nD) : W6 m ρ c (Proc.devRef .tc main_arg27) = (m ((c : Thread nD τ).loc main_arg27)) := (W6_keep m ρ c main_arg27 (by decide)).trans ((W5_keep m ρ c main_arg27 (by decide)).trans ((W4_keep m ρ c main_arg27 (by decide)).trans ((W3_keep m ρ c main_arg27 (by decide)).trans ((W2_keep m ρ c main_arg27 (by decide)).trans (W1_keep m ρ c main_arg27 (by decide))))))
theorem arg29_W6 (c : Dev nD) : W6 m ρ c (Proc.devRef .tc main_arg29) = (m ((c : Thread nD τ).loc main_arg29)) := (W6_keep m ρ c main_arg29 (by decide)).trans ((W5_keep m ρ c main_arg29 (by decide)).trans ((W4_keep m ρ c main_arg29 (by decide)).trans ((W3_keep m ρ c main_arg29 (by decide)).trans ((W2_keep m ρ c main_arg29 (by decide)).trans (W1_keep m ρ c main_arg29 (by decide))))))
theorem arg31_W6 (c : Dev nD) : W6 m ρ c (Proc.devRef .tc main_arg31) = (m ((c : Thread nD τ).loc main_arg31)) := (W6_keep m ρ c main_arg31 (by decide)).trans ((W5_keep m ρ c main_arg31 (by decide)).trans ((W4_keep m ρ c main_arg31 (by decide)).trans ((W3_keep m ρ c main_arg31 (by decide)).trans ((W2_keep m ρ c main_arg31 (by decide)).trans (W1_keep m ρ c main_arg31 (by decide))))))

/-! ## After the first host stretch -/

/-- The company rows' sums over incoming edges. -/
theorem rowsums0_W1 (c : Dev nD) : W1 m ρ c (Proc.devRef .tc main_v73) = Cert.ReferenceIdeal.Stages.val_main_v105 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg33)) (m ((c : Thread nD τ).loc main_arg34)) :=
  Host.host0_v73 (W0 m ρ c)
/-- Their neighbour counts, as a column. -/
theorem counts0_W1 (c : Dev nD) (r : Fin 30000) (z : Fin 1) :
    (W1 m ρ c (Proc.devRef .tc main_v78) : S30000x1.Idx → EReal) (ix2 r z) = Cert.ReferenceIdeal.Stages.val_main_v109 (F := Ideal) (m ((c : Thread nD τ).loc main_arg34)) (ix1 r) :=
  Host.host0_v78 (W0 m ρ c) r z
/-- The destination features of the first stage. -/
theorem dst0_W1 (c : Dev nD) : W1 m ρ c (Proc.devRef .tc main_v63) = Cert.ReferenceIdeal.Stages.val_main_v63 (F := Ideal) (m ((c : Thread nD τ).loc main_arg1)) (m ((c : Thread nD τ).loc main_arg3)) (m ((c : Thread nD τ).loc main_arg4)) :=
  Host.host0_v63 (W0 m ρ c)
/-- The second stage's row sums, counts and destination features. -/
theorem rowsums1_W1 (c : Dev nD) : W1 m ρ c (Proc.devRef .tc main_v88) = Cert.ReferenceIdeal.Stages.val_main_v128 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg35)) (m ((c : Thread nD τ).loc main_arg36)) :=
  Host.host0_v88 (W0 m ρ c)
theorem counts1_W1 (c : Dev nD) (r : Fin 30000) (z : Fin 1) :
    (W1 m ρ c (Proc.devRef .tc main_v93) : S30000x1.Idx → EReal) (ix2 r z) = Cert.ReferenceIdeal.Stages.val_main_v132 (F := Ideal) (m ((c : Thread nD τ).loc main_arg36)) (ix1 r) :=
  Host.host0_v93 (W0 m ρ c) r z
theorem dst1_W1 (c : Dev nD) : W1 m ρ c (Proc.devRef .tc main_v48) = Cert.ReferenceIdeal.Stages.val_main_v41 (F := Ideal) (m ((c : Thread nD τ).loc main_arg0)) (m ((c : Thread nD τ).loc main_arg3)) (m ((c : Thread nD τ).loc main_arg4)) (m ((c : Thread nD τ).loc main_arg5)) (m ((c : Thread nD τ).loc main_arg6)) :=
  Host.host0_v48 (W0 m ρ c)

/-! ## The two first-layer stages -/

/-- Region 0 leaves the first stage. -/
theorem s1_eq (c : Dev nD) : W2 m ρ c (Proc.devRef .tc main_v94) = Cert.ReferenceIdeal.Stages.val_main_v118 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg33)) (m ((c : Thread nD τ).loc main_arg34)) :=
  (W2_arr m ρ c 5).trans (final0 (V1 m ρ) c (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg33)) (m ((c : Thread nD τ).loc main_arg34))
    (rowsums0_W1 m ρ c) (counts0_W1 m ρ c) (dst0_W1 m ρ c) (arg7_W1 m ρ c) (arg8_W1 m ρ c))

/-- Region 1 leaves the second stage; its inputs crossed region 0 unchanged. -/
theorem c1_eq (c : Dev nD) : W3 m ρ c (Proc.devRef .tc main_v95) = Cert.ReferenceIdeal.Stages.val_main_v141 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg35)) (m ((c : Thread nD τ).loc main_arg36)) :=
  (W3_arr m ρ c 5).trans (final1 (V2 m ρ) c (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg35)) (m ((c : Thread nD τ).loc main_arg36))
    ((W2_keep m ρ c main_v88 (by decide)).trans (rowsums1_W1 m ρ c))
    (fun r z => (congrFun (W2_keep m ρ c main_v93 (by decide)) (ix2 r z)).trans (counts1_W1 m ρ c r z))
    ((W2_keep m ρ c main_v48 (by decide)).trans (dst1_W1 m ρ c))
    (arg9_W2 m ρ c) (arg10_W2 m ρ c))

/-! ## The second layer -/

/-- The second host stretch sums the second stage along the edges. -/
theorem rowsums2_W4 (c : Dev nD) : W4 m ρ c (Proc.devRef .tc main_v105) = Cert.ReferenceIdeal.Stages.val_main_v197 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg33)) (m ((c : Thread nD τ).loc main_arg34)) (m ((c : Thread nD τ).loc main_arg35)) (m ((c : Thread nD τ).loc main_arg36)) := by
  have h := Host.host2_v105 (W3 m ρ c) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg35)) (m ((c : Thread nD τ).loc main_arg36)) (c1_eq m ρ c)
  rw [arg33_W3 m ρ c, arg34_W3 m ρ c] at h
  exact h

/-- The count column reaches region 2 as the first host stretch left it, and is the second layer's count. -/
theorem counts2_W4 (c : Dev nD) (r : Fin 30000) (z : Fin 1) :
    (W4 m ρ c (Proc.devRef .tc main_v78) : S30000x1.Idx → EReal) (ix2 r z) = Cert.ReferenceIdeal.Stages.val_main_v201 (F := Ideal) (m ((c : Thread nD τ).loc main_arg34)) (ix1 r) :=
  (congrFun ((W4_keep m ρ c main_v78 (by decide)).trans ((W3_keep m ρ c main_v78 (by decide)).trans (W2_keep m ρ c main_v78 (by decide)))) (ix2 r z)).trans
    ((counts0_W1 m ρ c r z).trans (congrFun (counts2_eq_counts1 (m ((c : Thread nD τ).loc main_arg34))).symm (ix1 r)))

/-- The first stage reaches region 2 as region 0 left it. -/
theorem s1_W4 (c : Dev nD) : W4 m ρ c (Proc.devRef .tc main_v94) = Cert.ReferenceIdeal.Stages.val_main_v118 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg33)) (m ((c : Thread nD τ).loc main_arg34)) :=
  (W4_keep m ρ c main_v94 (by decide)).trans ((W3_keep m ρ c main_v94 (by decide)).trans (s1_eq m ρ c))

/-- Region 2 leaves the second-layer stage. -/
theorem s2_eq (c : Dev nD) : W5 m ρ c (Proc.devRef .tc main_v106) = Cert.ReferenceIdeal.Stages.val_main_v210 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg33)) (m ((c : Thread nD τ).loc main_arg34)) (m ((c : Thread nD τ).loc main_arg35)) (m ((c : Thread nD τ).loc main_arg36)) :=
  (W5_arr m ρ c 5).trans (final2 (V4 m ρ) c (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg33)) (m ((c : Thread nD τ).loc main_arg34)) (m ((c : Thread nD τ).loc main_arg35)) (m ((c : Thread nD τ).loc main_arg36))
    (rowsums2_W4 m ρ c) (counts2_W4 m ρ c) (s1_W4 m ρ c) (arg15_W4 m ρ c) (arg16_W4 m ρ c))

/-! ## The perceptron region -/

/-- The second-layer stage reaches region 3 as region 2 left it. -/
theorem s2_W6 (c : Dev nD) : W6 m ρ c (Proc.devRef .tc main_v106) = Cert.ReferenceIdeal.Stages.val_main_v210 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg33)) (m ((c : Thread nD τ).loc main_arg34)) (m ((c : Thread nD τ).loc main_arg35)) (m ((c : Thread nD τ).loc main_arg36)) :=
  (W6_keep m ρ c main_v106 (by decide)).trans (s2_eq m ρ c)
/-- The five bias rows are the bias arguments. -/
theorem bias_in_W6 (c : Dev nD) (j : Fin 64) :
    (W6 m ρ c (Proc.devRef .tc main_v107) : S1x64.Idx → EReal) (ix2 (0 : Fin 1) j) = (m ((c : Thread nD τ).loc main_arg24)) (ix1 j) :=
  (Host.host3_v107 (W5 m ρ c) j).trans (congrFun (arg24_W5 m ρ c) (ix1 j))
theorem bias_lin_W6 (c : Dev nD) (j : Fin 64) :
    (W6 m ρ c (Proc.devRef .tc main_v108) : S1x64.Idx → EReal) (ix2 (0 : Fin 1) j) = (m ((c : Thread nD τ).loc main_arg26)) (ix1 j) :=
  (Host.host3_v108 (W5 m ρ c) j).trans (congrFun (arg26_W5 m ρ c) (ix1 j))
theorem bias_rot_W6 (c : Dev nD) (j : Fin 36) :
    (W6 m ρ c (Proc.devRef .tc main_v109) : S1x36.Idx → EReal) (ix2 (0 : Fin 1) j) = (m ((c : Thread nD τ).loc main_arg28)) (ix1 j) :=
  (Host.host3_v109 (W5 m ρ c) j).trans (congrFun (arg28_W5 m ρ c) (ix1 j))
theorem bias_x_W6 (c : Dev nD) :
    (W6 m ρ c (Proc.devRef .tc main_v110) : S1x1.Idx → EReal) (ix2 (0 : Fin 1) (0 : Fin 1)) = (m ((c : Thread nD τ).loc main_arg30)) (ix1 (0 : Fin 1)) :=
  (Host.host3_v110 (W5 m ρ c) 0).trans (congrFun (arg30_W5 m ρ c) (ix1 (0 : Fin 1)))
theorem bias_y_W6 (c : Dev nD) :
    (W6 m ρ c (Proc.devRef .tc main_v111) : S1x1.Idx → EReal) (ix2 (0 : Fin 1) (0 : Fin 1)) = (m ((c : Thread nD τ).loc main_arg32)) (ix1 (0 : Fin 1)) :=
  (Host.host3_v111 (W5 m ρ c) 0).trans (congrFun (arg32_W5 m ρ c) (ix1 (0 : Fin 1)))

/-- THE FOUR RESULTS: after the run the four result buffers hold the reference's four output stages of the launch
    arguments. -/
theorem results (c : Dev nD) :
    W7 m ρ c (Proc.devRef .tc main_v112_0) = Cert.ReferenceIdeal.Stages.val_main_v289 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg23)) (m ((c : Thread nD τ).loc main_arg24)) (m ((c : Thread nD τ).loc main_arg25)) (m ((c : Thread nD τ).loc main_arg26)) (m ((c : Thread nD τ).loc main_arg33)) (m ((c : Thread nD τ).loc main_arg34)) (m ((c : Thread nD τ).loc main_arg35)) (m ((c : Thread nD τ).loc main_arg36))
    ∧ W7 m ρ c (Proc.devRef .tc main_v112_1) = Cert.ReferenceIdeal.Stages.val_main_v293 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg33)) (m ((c : Thread nD τ).loc main_arg34)) (m ((c : Thread nD τ).loc main_arg35)) (m ((c : Thread nD τ).loc main_arg36))
    ∧ W7 m ρ c (Proc.devRef .tc main_v112_2) = Cert.ReferenceIdeal.Stages.val_main_v297 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg23)) (m ((c : Thread nD τ).loc main_arg24)) (m ((c : Thread nD τ).loc main_arg25)) (m ((c : Thread nD τ).loc main_arg26)) (m ((c : Thread nD τ).loc main_arg29)) (m ((c : Thread nD τ).loc main_arg30)) (m ((c : Thread nD τ).loc main_arg33)) (m ((c : Thread nD τ).loc main_arg34)) (m ((c : Thread nD τ).loc main_arg35)) (m ((c : Thread nD τ).loc main_arg36))
    ∧ W7 m ρ c (Proc.devRef .tc main_v112_3) = Cert.ReferenceIdeal.Stages.val_main_v301 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg23)) (m ((c : Thread nD τ).loc main_arg24)) (m ((c : Thread nD τ).loc main_arg25)) (m ((c : Thread nD τ).loc main_arg26)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) :=
  ⟨(W7_arr m ρ c 11).trans (final3_11 (V6 m ρ) c (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36))
      (s2_W6 m ρ c) (arg23_W6 m ρ c) (arg25_W6 m ρ c) (arg27_W6 m ρ c) (arg29_W6 m ρ c) (arg31_W6 m ρ c)
      (bias_in_W6 m ρ c) (bias_lin_W6 m ρ c) (bias_rot_W6 m ρ c) (bias_x_W6 m ρ c) (bias_y_W6 m ρ c)),
   (W7_arr m ρ c 12).trans (final3_12 (V6 m ρ) c (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36))
      (s2_W6 m ρ c) (arg23_W6 m ρ c) (arg25_W6 m ρ c) (arg27_W6 m ρ c) (arg29_W6 m ρ c) (arg31_W6 m ρ c)
      (bias_in_W6 m ρ c) (bias_lin_W6 m ρ c) (bias_rot_W6 m ρ c) (bias_x_W6 m ρ c) (bias_y_W6 m ρ c)),
   (W7_arr m ρ c 13).trans (final3_13 (V6 m ρ) c (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36))
      (s2_W6 m ρ c) (arg23_W6 m ρ c) (arg25_W6 m ρ c) (arg27_W6 m ρ c) (arg29_W6 m ρ c) (arg31_W6 m ρ c)
      (bias_in_W6 m ρ c) (bias_lin_W6 m ρ c) (bias_rot_W6 m ρ c) (bias_x_W6 m ρ c) (bias_y_W6 m ρ c)),
   (W7_arr m ρ c 14).trans (final3_14 (V6 m ρ) c (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg15)) (m ((c : Thread nD τ).loc main_arg16)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36))
      (s2_W6 m ρ c) (arg23_W6 m ρ c) (arg25_W6 m ρ c) (arg27_W6 m ρ c) (arg29_W6 m ρ c) (arg31_W6 m ρ c)
      (bias_in_W6 m ρ c) (bias_lin_W6 m ρ c) (bias_rot_W6 m ρ c) (bias_x_W6 m ρ c) (bias_y_W6 m ρ c))⟩

end Cert.KernelIdeal.Regions

end
-- ==== Proof.RefRun0.lean ====
/- The reference program's operations 1 … 60 (the first printed window of @main) as a list,
   cut into short stretches; for each stretch, which buffers it writes, that it leaves every other buffer alone, and that
   the buffers it writes hold their stage values when the buffers it reads do. -/
import proofs.«402966_j45758581572292_1_alg».proof.Proof.RefStages
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, one name each -/

abbrev op_main_v0 : HloOp τ sig (Elt F) :=
  StableHlo.unary main_arg0 main_v0 ((extractStridedSlice S30000x1 ![0, 0] · slices_S30000x12_S30000x1_0_0) : (⟨S30000x12, .f32⟩ : BufTy).Contents (Elt F) → (⟨S30000x1, .f32⟩ : BufTy).Contents (Elt F))
abbrev op_main_v1 : HloOp τ sig (Elt F) :=
  StableHlo.reshape main_v0 main_v1 rfl shapeCasts_S30000x1_S30000
abbrev op_main_v2 : HloOp τ sig (Elt F) :=
  StableHlo.unary main_v1 main_v2 (fptosi 32 : (⟨S30000, .f32⟩ : BufTy).Contents (Elt F) → (⟨S30000, .i32⟩ : BufTy).Contents (Elt F))
abbrev op_main_c : HloOp τ sig (Elt F) :=
  StableHlo.nullary main_c (constantI S_ 32 0#32)
abbrev op_main_v3 : HloOp τ sig (Elt F) :=
  StableHlo.unary main_c main_v3 (broadcastInDim S30000 ![] bcast_S_S30000 : (⟨S_, .i32⟩ : BufTy).Contents (Elt F) → (⟨S30000, .i32⟩ : BufTy).Contents (Elt F))
abbrev op_main_v4 : HloOp τ sig (Elt F) :=
  StableHlo.binary main_v2 main_v3 main_v4 (cmpi .slt : (⟨S30000, .i32⟩ : BufTy).Contents (Elt F) → (⟨S30000, .i32⟩ : BufTy).Contents (Elt F) → (⟨S30000, .i1⟩ : BufTy).Contents (Elt F))
abbrev op_main_c_0 : HloOp τ sig (Elt F) :=
  StableHlo.nullary main_c_0 (constantI S_ 32 64#32)
abbrev op_main_v5 : HloOp τ sig (Elt F) :=
  StableHlo.unary main_c_0 main_v5 (broadcastInDim S30000 ![] bcast_S_S30000 : (⟨S_, .i32⟩ : BufTy).Contents (Elt F) → (⟨S30000, .i32⟩ : BufTy).Contents (Elt F))
abbrev op_main_v6 : HloOp τ sig (Elt F) :=
  StableHlo.binary main_v2 main_v5 main_v6 (addi : (⟨S30000, .i32⟩ : BufTy).Contents (Elt F) → (⟨S30000, .i32⟩ : BufTy).Contents (Elt F) → (⟨S30000, .i32⟩ : BufTy).Contents (Elt F))
abbrev op_main_v7 : HloOp τ sig (Elt F) :=
  StableHlo.ternary main_v4 main_v6 main_v2 main_v7 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F))
abbrev op_main_v8 : HloOp τ sig (Elt F) :=
  StableHlo.unary main_v7 main_v8 (broadcastInDim S30000x1 ![0] bcast_S30000_S30000x1_0 : (⟨S30000, .i32⟩ : BufTy).Contents (Elt F) → (⟨S30000x1, .i32⟩ : BufTy).Contents (Elt F))
abbrev op_main_v9 : HloOp τ sig (Elt F) :=
  StableHlo.binary main_arg3 main_v8 main_v9 ((fun x i => Host.gather gather_S64x13_S30000x1_S30000x13_1_0_n_n_0_1_113 x i) : (⟨S64x13, .f32⟩ : BufTy).Contents (Elt F) → (⟨S30000x1, .i32⟩ : BufTy).Contents (Elt F) → (⟨S30000x13, .f32⟩ : BufTy).Contents (Elt F))
abbrev op_main_v10 : HloOp τ sig (Elt F) :=
  StableHlo.unary main_arg0 main_v10 ((extractStridedSlice S30000x1 ![0, 1] · slices_S30000x12_S30000x1_0_1) : (⟨S30000x12, .f32⟩ : BufTy).Contents (Elt F) → (⟨S30000x1, .f32⟩ : BufTy).Contents (Elt F))
abbrev op_main_v11 : HloOp τ sig (Elt F) :=
  StableHlo.reshape main_v10 main_v11 rfl shapeCasts_S30000x1_S30000
abbrev op_main_v12 : HloOp τ sig (Elt F) :=
  StableHlo.unary main_v11 main_v12 (fptosi 32 : (⟨S30000, .f32⟩ : BufTy).Contents (Elt F) → (⟨S30000, .i32⟩ : BufTy).Contents (Elt F))
abbrev op_main_c_1 : HloOp τ sig (Elt F) :=
  StableHlo.nullary main_c_1 (constantI S_ 32 0#32)
abbrev op_main_v13 : HloOp τ sig (Elt F) :=
  StableHlo.unary main_c_1 main_v13 (broadcastInDim S30000 ![] bcast_S_S30000 : (⟨S_, .i32⟩ : BufTy).Contents (Elt F) → (⟨S30000, .i32⟩ : BufTy).Contents (Elt F))
abbrev op_main_v14 : HloOp τ sig (Elt F) :=
  StableHlo.binary main_v12 main_v13 main_v14 (cmpi .slt : (⟨S30000, .i32⟩ : BufTy).Contents (Elt F) → (⟨S30000, .i32⟩ : BufTy).Contents (Elt F) → (⟨S30000, .i1⟩ : BufTy).Contents (Elt F))
abbrev op_main_c_2 : HloOp τ sig (Elt F) :=
  StableHlo.nullary main_c_2 (constantI S_ 32 1000#32)
abbrev op_main_v15 : HloOp τ sig (Elt F) :=
  StableHlo.unary main_c_2 main_v15 (broadcastInDim S30000 ![] bcast_S_S30000 : (⟨S_, .i32⟩ : BufTy).Contents (Elt F) → (⟨S30000, .i32⟩ : BufTy).Contents (Elt F))
abbrev op_main_v16 : HloOp τ sig (Elt F) :=
  StableHlo.binary main_v12 main_v15 main_v16 (addi : (⟨S30000, .i32⟩ : BufTy).Contents (Elt F) → (⟨S30000, .i32⟩ : BufTy).Contents (Elt F) → (⟨S30000, .i32⟩ : BufTy).Contents (Elt F))
abbrev op_main_v17 : HloOp τ sig (Elt F) :=
  StableHlo.ternary main_v14 main_v16 main_v12 main_v17 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F))
abbrev op_main_v18 : HloOp τ sig (Elt F) :=
  StableHlo.unary main_v17 main_v18 (broadcastInDim S30000x1 ![0] bcast_S30000_S30000x1_0 : (⟨S30000, .i32⟩ : BufTy).Contents (Elt F) → (⟨S30000x1, .i32⟩ : BufTy).Contents (Elt F))
abbrev op_main_v19 : HloOp τ sig (Elt F) :=
  StableHlo.binary main_arg4 main_v18 main_v19 ((fun x i => Host.gather gather_S1000x51_S30000x1_S30000x51_1_0_n_n_0_1_151 x i) : (⟨S1000x51, .f32⟩ : BufTy).Contents (Elt F) → (⟨S30000x1, .i32⟩ : BufTy).Contents (Elt F) → (⟨S30000x51, .f32⟩ : BufTy).Contents (Elt F))
abbrev op_main_v20 : HloOp τ sig (Elt F) :=
  StableHlo.unary main_arg0 main_v20 ((extractStridedSlice S30000x1 ![0, 2] · slices_S30000x12_S30000x1_0_2) : (⟨S30000x12, .f32⟩ : BufTy).Contents (Elt F) → (⟨S30000x1, .f32⟩ : BufTy).Contents (Elt F))
abbrev op_main_v21 : HloOp τ sig (Elt F) :=
  StableHlo.reshape main_v20 main_v21 rfl shapeCasts_S30000x1_S30000
abbrev op_main_v22 : HloOp τ sig (Elt F) :=
  StableHlo.unary main_v21 main_v22 (fptosi 32 : (⟨S30000, .f32⟩ : BufTy).Contents (Elt F) → (⟨S30000, .i32⟩ : BufTy).Contents (Elt F))
abbrev op_main_c_3 : HloOp τ sig (Elt F) :=
  StableHlo.nullary main_c_3 (constantI S_ 32 0#32)
abbrev op_main_v23 : HloOp τ sig (Elt F) :=
  StableHlo.unary main_c_3 main_v23 (broadcastInDim S30000 ![] bcast_S_S30000 : (⟨S_, .i32⟩ : BufTy).Contents (Elt F) → (⟨S30000, .i32⟩ : BufTy).Contents (Elt F))
abbrev op_main_v24 : HloOp τ sig (Elt F) :=
  StableHlo.binary main_v22 main_v23 main_v24 (cmpi .slt : (⟨S30000, .i32⟩ : BufTy).Contents (Elt F) → (⟨S30000, .i32⟩ : BufTy).Contents (Elt F) → (⟨S30000, .i1⟩ : BufTy).Contents (Elt F))
abbrev op_main_c_4 : HloOp τ sig (Elt F) :=
  StableHlo.nullary main_c_4 (constantI S_ 32 4#32)
abbrev op_main_v25 : HloOp τ sig (Elt F) :=
  StableHlo.unary main_c_4 main_v25 (broadcastInDim S30000 ![] bcast_S_S30000 : (⟨S_, .i32⟩ : BufTy).Contents (Elt F) → (⟨S30000, .i32⟩ : BufTy).Contents (Elt F))
abbrev op_main_v26 : HloOp τ sig (Elt F) :=
  StableHlo.binary main_v22 main_v25 main_v26 (addi : (⟨S30000, .i32⟩ : BufTy).Contents (Elt F) → (⟨S30000, .i32⟩ : BufTy).Contents (Elt F) → (⟨S30000, .i32⟩ : BufTy).Contents (Elt F))
abbrev op_main_v27 : HloOp τ sig (Elt F) :=
  StableHlo.ternary main_v24 main_v26 main_v22 main_v27 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F))
abbrev op_main_v28 : HloOp τ sig (Elt F) :=
  StableHlo.unary main_v27 main_v28 (broadcastInDim S30000x1 ![0] bcast_S30000_S30000x1_0 : (⟨S30000, .i32⟩ : BufTy).Contents (Elt F) → (⟨S30000x1, .i32⟩ : BufTy).Contents (Elt F))
abbrev op_main_v29 : HloOp τ sig (Elt F) :=
  StableHlo.binary main_arg5 main_v28 main_v29 ((fun x i => Host.gather gather_S4x4_S30000x1_S30000x4_1_0_n_n_0_1_14 x i) : (⟨S4x4, .f32⟩ : BufTy).Contents (Elt F) → (⟨S30000x1, .i32⟩ : BufTy).Contents (Elt F) → (⟨S30000x4, .f32⟩ : BufTy).Contents (Elt F))
abbrev op_main_v30 : HloOp τ sig (Elt F) :=
  StableHlo.unary main_arg0 main_v30 ((extractStridedSlice S30000x1 ![0, 3] · slices_S30000x12_S30000x1_0_3) : (⟨S30000x12, .f32⟩ : BufTy).Contents (Elt F) → (⟨S30000x1, .f32⟩ : BufTy).Contents (Elt F))
abbrev op_main_v31 : HloOp τ sig (Elt F) :=
  StableHlo.reshape main_v30 main_v31 rfl shapeCasts_S30000x1_S30000
abbrev op_main_v32 : HloOp τ sig (Elt F) :=
  StableHlo.unary main_v31 main_v32 (fptosi 32 : (⟨S30000, .f32⟩ : BufTy).Contents (Elt F) → (⟨S30000, .i32⟩ : BufTy).Contents (Elt F))
abbrev op_main_c_5 : HloOp τ sig (Elt F) :=
  StableHlo.nullary main_c_5 (constantI S_ 32 0#32)
abbrev op_main_v33 : HloOp τ sig (Elt F) :=
  StableHlo.unary main_c_5 main_v33 (broadcastInDim S30000 ![] bcast_S_S30000 : (⟨S_, .i32⟩ : BufTy).Contents (Elt F) → (⟨S30000, .i32⟩ : BufTy).Contents (Elt F))
abbrev op_main_v34 : HloOp τ sig (Elt F) :=
  StableHlo.binary main_v32 main_v33 main_v34 (cmpi .slt : (⟨S30000, .i32⟩ : BufTy).Contents (Elt F) → (⟨S30000, .i32⟩ : BufTy).Contents (Elt F) → (⟨S30000, .i1⟩ : BufTy).Contents (Elt F))
abbrev op_main_c_6 : HloOp τ sig (Elt F) :=
  StableHlo.nullary main_c_6 (constantI S_ 32 36#32)
abbrev op_main_v35 : HloOp τ sig (Elt F) :=
  StableHlo.unary main_c_6 main_v35 (broadcastInDim S30000 ![] bcast_S_S30000 : (⟨S_, .i32⟩ : BufTy).Contents (Elt F) → (⟨S30000, .i32⟩ : BufTy).Contents (Elt F))
abbrev op_main_v36 : HloOp τ sig (Elt F) :=
  StableHlo.binary main_v32 main_v35 main_v36 (addi : (⟨S30000, .i32⟩ : BufTy).Contents (Elt F) → (⟨S30000, .i32⟩ : BufTy).Contents (Elt F) → (⟨S30000, .i32⟩ : BufTy).Contents (Elt F))
abbrev op_main_v37 : HloOp τ sig (Elt F) :=
  StableHlo.ternary main_v34 main_v36 main_v32 main_v37 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F))
abbrev op_main_v38 : HloOp τ sig (Elt F) :=
  StableHlo.unary main_v37 main_v38 (broadcastInDim S30000x1 ![0] bcast_S30000_S30000x1_0 : (⟨S30000, .i32⟩ : BufTy).Contents (Elt F) → (⟨S30000x1, .i32⟩ : BufTy).Contents (Elt F))
abbrev op_main_v39 : HloOp τ sig (Elt F) :=
  StableHlo.binary main_arg6 main_v38 main_v39 ((fun x i => Host.gather gather_S36x10_S30000x1_S30000x10_1_0_n_n_0_1_110 x i) : (⟨S36x10, .f32⟩ : BufTy).Contents (Elt F) → (⟨S30000x1, .i32⟩ : BufTy).Contents (Elt F) → (⟨S30000x10, .f32⟩ : BufTy).Contents (Elt F))
abbrev op_main_v40 : HloOp τ sig (Elt F) :=
  StableHlo.unary main_arg0 main_v40 ((extractStridedSlice S30000x8 ![0, 4] · slices_S30000x12_S30000x8_0_4) : (⟨S30000x12, .f32⟩ : BufTy).Contents (Elt F) → (⟨S30000x8, .f32⟩ : BufTy).Contents (Elt F))
abbrev op_main_v41 : HloOp τ sig (Elt F) :=
  StableHlo.nary ![main_v9, main_v19, main_v29, main_v39, main_v40] main_v41 (fun u => concatenate S30000x86 1 [⟨S30000x13, u 0⟩, ⟨S30000x51, u 1⟩, ⟨S30000x4, u 2⟩, ⟨S30000x10, u 3⟩, ⟨S30000x8, u 4⟩] concatenates_S30000x13_S30000x51_S30000x4_S30000x10_S30000x8_S30000x86_d1)
abbrev op_main_v42 : HloOp τ sig (Elt F) :=
  StableHlo.unary main_arg1 main_v42 ((extractStridedSlice S30000x1 ![0, 0] · slices_S30000x10_S30000x1_0_0) : (⟨S30000x10, .f32⟩ : BufTy).Contents (Elt F) → (⟨S30000x1, .f32⟩ : BufTy).Contents (Elt F))
abbrev op_main_v43 : HloOp τ sig (Elt F) :=
  StableHlo.reshape main_v42 main_v43 rfl shapeCasts_S30000x1_S30000
abbrev op_main_v44 : HloOp τ sig (Elt F) :=
  StableHlo.unary main_v43 main_v44 (fptosi 32 : (⟨S30000, .f32⟩ : BufTy).Contents (Elt F) → (⟨S30000, .i32⟩ : BufTy).Contents (Elt F))
abbrev op_main_c_7 : HloOp τ sig (Elt F) :=
  StableHlo.nullary main_c_7 (constantI S_ 32 0#32)
abbrev op_main_v45 : HloOp τ sig (Elt F) :=
  StableHlo.unary main_c_7 main_v45 (broadcastInDim S30000 ![] bcast_S_S30000 : (⟨S_, .i32⟩ : BufTy).Contents (Elt F) → (⟨S30000, .i32⟩ : BufTy).Contents (Elt F))
abbrev op_main_v46 : HloOp τ sig (Elt F) :=
  StableHlo.binary main_v44 main_v45 main_v46 (cmpi .slt : (⟨S30000, .i32⟩ : BufTy).Contents (Elt F) → (⟨S30000, .i32⟩ : BufTy).Contents (Elt F) → (⟨S30000, .i1⟩ : BufTy).Contents (Elt F))
abbrev op_main_c_8 : HloOp τ sig (Elt F) :=
  StableHlo.nullary main_c_8 (constantI S_ 32 64#32)
abbrev op_main_v47 : HloOp τ sig (Elt F) :=
  StableHlo.unary main_c_8 main_v47 (broadcastInDim S30000 ![] bcast_S_S30000 : (⟨S_, .i32⟩ : BufTy).Contents (Elt F) → (⟨S30000, .i32⟩ : BufTy).Contents (Elt F))
abbrev op_main_v48 : HloOp τ sig (Elt F) :=
  StableHlo.binary main_v44 main_v47 main_v48 (addi : (⟨S30000, .i32⟩ : BufTy).Contents (Elt F) → (⟨S30000, .i32⟩ : BufTy).Contents (Elt F) → (⟨S30000, .i32⟩ : BufTy).Contents (Elt F))
abbrev op_main_v49 : HloOp τ sig (Elt F) :=
  StableHlo.ternary main_v46 main_v48 main_v44 main_v49 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F))

/-! ## The stretches -/

/-- Operations 1 … 8 of the reference program, in order. -/
abbrev st0_0 : List (HloOp τ sig (Elt F)) :=
  [op_main_v0, op_main_v1, op_main_v2, op_main_c, op_main_v3, op_main_v4, op_main_c_0, op_main_v5]
/-- The buffers those operations write. -/
abbrev st0_0_W : List (Ref sig .tc) := [main_v0, main_v1, main_v2, main_c, main_v3, main_v4, main_c_0, main_v5]
theorem st0_0_writes : (st0_0 : List (HloOp τ sig (Elt F))).Forall fun op => op.writes ⊆ (st0_0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st0_0_keep (W : Valuation τ sig (Elt F)) {r : Ref sig .tc} (h : r ∉ st0_0_W) :
    after (st0_0 (F := F)) W (Proc.devRef .tc r) = W (Proc.devRef .tc r) :=
  after_of_writes_sub st0_0 W st0_0_writes h
/-- From contents at which the buffers read hold their stage values, the buffers written here that are read later hold theirs:
    each is its operation applied to the operands' contents, which is the stage value's definition. -/
theorem st0_0_vals (x0 : (⟨S30000x12, .f32⟩ : BufTy).Contents (Elt F)) (W : Valuation τ sig (Elt F))
    (h_main_arg0 : W (Proc.devRef .tc main_arg0) = x0)
    :
    after (st0_0 (F := F)) W (Proc.devRef .tc main_v2) = Stages.val_main_v2 (F := F) x0
    ∧ after (st0_0 (F := F)) W (Proc.devRef .tc main_v4) = Stages.val_main_v4 (F := F) x0
    ∧ after (st0_0 (F := F)) W (Proc.devRef .tc main_v5) = Stages.val_main_v5 (F := F) := by
  refine ⟨?_, ?_, ?_⟩
  · after_results; rw [h_main_arg0]; rfl
  · after_results; rw [h_main_arg0]; rfl
  · after_results; rfl

/-- Operations 9 … 16 of the reference program, in order. -/
abbrev st0_1 : List (HloOp τ sig (Elt F)) :=
  [op_main_v6, op_main_v7, op_main_v8, op_main_v9, op_main_v10, op_main_v11, op_main_v12, op_main_c_1]
/-- The buffers those operations write. -/
abbrev st0_1_W : List (Ref sig .tc) := [main_v6, main_v7, main_v8, main_v9, main_v10, main_v11, main_v12, main_c_1]
theorem st0_1_writes : (st0_1 : List (HloOp τ sig (Elt F))).Forall fun op => op.writes ⊆ (st0_1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st0_1_keep (W : Valuation τ sig (Elt F)) {r : Ref sig .tc} (h : r ∉ st0_1_W) :
    after (st0_1 (F := F)) W (Proc.devRef .tc r) = W (Proc.devRef .tc r) :=
  after_of_writes_sub st0_1 W st0_1_writes h
/-- From contents at which the buffers read hold their stage values, the buffers written here that are read later hold theirs:
    each is its operation applied to the operands' contents, which is the stage value's definition. -/
theorem st0_1_vals (x0 : (⟨S30000x12, .f32⟩ : BufTy).Contents (Elt F)) (x3 : (⟨S64x13, .f32⟩ : BufTy).Contents (Elt F)) (W : Valuation τ sig (Elt F))
    (h_main_v2 : W (Proc.devRef .tc main_v2) = Stages.val_main_v2 (F := F) x0)
    (h_main_v5 : W (Proc.devRef .tc main_v5) = Stages.val_main_v5 (F := F))
    (h_main_v4 : W (Proc.devRef .tc main_v4) = Stages.val_main_v4 (F := F) x0)
    (h_main_arg3 : W (Proc.devRef .tc main_arg3) = x3)
    (h_main_arg0 : W (Proc.devRef .tc main_arg0) = x0)
    :
    after (st0_1 (F := F)) W (Proc.devRef .tc main_v9) = Stages.val_main_v9 (F := F) x0 x3
    ∧ after (st0_1 (F := F)) W (Proc.devRef .tc main_v12) = Stages.val_main_v12 (F := F) x0
    ∧ after (st0_1 (F := F)) W (Proc.devRef .tc main_c_1) = Stages.val_main_c_1 (F := F) := by
  refine ⟨?_, ?_, ?_⟩
  · after_results; rw [h_main_v2, h_main_v5, h_main_v4, h_main_arg3]; rfl
  · after_results; rw [h_main_arg0]; rfl
  · after_results; rfl

/-- Operations 17 … 24 of the reference program, in order. -/
abbrev st0_2 : List (HloOp τ sig (Elt F)) :=
  [op_main_v13, op_main_v14, op_main_c_2, op_main_v15, op_main_v16, op_main_v17, op_main_v18, op_main_v19]
/-- The buffers those operations write. -/
abbrev st0_2_W : List (Ref sig .tc) := [main_v13, main_v14, main_c_2, main_v15, main_v16, main_v17, main_v18, main_v19]
theorem st0_2_writes : (st0_2 : List (HloOp τ sig (Elt F))).Forall fun op => op.writes ⊆ (st0_2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st0_2_keep (W : Valuation τ sig (Elt F)) {r : Ref sig .tc} (h : r ∉ st0_2_W) :
    after (st0_2 (F := F)) W (Proc.devRef .tc r) = W (Proc.devRef .tc r) :=
  after_of_writes_sub st0_2 W st0_2_writes h
/-- From contents at which the buffers read hold their stage values, the buffers written here that are read later hold theirs:
    each is its operation applied to the operands' contents, which is the stage value's definition. -/
theorem st0_2_vals (x0 : (⟨S30000x12, .f32⟩ : BufTy).Contents (Elt F)) (x4 : (⟨S1000x51, .f32⟩ : BufTy).Contents (Elt F)) (W : Valuation τ sig (Elt F))
    (h_main_v12 : W (Proc.devRef .tc main_v12) = Stages.val_main_v12 (F := F) x0)
    (h_main_c_1 : W (Proc.devRef .tc main_c_1) = Stages.val_main_c_1 (F := F))
    (h_main_arg4 : W (Proc.devRef .tc main_arg4) = x4)
    :
    after (st0_2 (F := F)) W (Proc.devRef .tc main_v19) = Stages.val_main_v19 (F := F) x0 x4 := by
  after_results; rw [h_main_v12, h_main_c_1, h_main_arg4]; rfl

/-- Operations 25 … 32 of the reference program, in order. -/
abbrev st0_3 : List (HloOp τ sig (Elt F)) :=
  [op_main_v20, op_main_v21, op_main_v22, op_main_c_3, op_main_v23, op_main_v24, op_main_c_4, op_main_v25]
/-- The buffers those operations write. -/
abbrev st0_3_W : List (Ref sig .tc) := [main_v20, main_v21, main_v22, main_c_3, main_v23, main_v24, main_c_4, main_v25]
theorem st0_3_writes : (st0_3 : List (HloOp τ sig (Elt F))).Forall fun op => op.writes ⊆ (st0_3_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st0_3_keep (W : Valuation τ sig (Elt F)) {r : Ref sig .tc} (h : r ∉ st0_3_W) :
    after (st0_3 (F := F)) W (Proc.devRef .tc r) = W (Proc.devRef .tc r) :=
  after_of_writes_sub st0_3 W st0_3_writes h
/-- From contents at which the buffers read hold their stage values, the buffers written here that are read later hold theirs:
    each is its operation applied to the operands' contents, which is the stage value's definition. -/
theorem st0_3_vals (x0 : (⟨S30000x12, .f32⟩ : BufTy).Contents (Elt F)) (W : Valuation τ sig (Elt F))
    (h_main_arg0 : W (Proc.devRef .tc main_arg0) = x0)
    :
    after (st0_3 (F := F)) W (Proc.devRef .tc main_v22) = Stages.val_main_v22 (F := F) x0
    ∧ after (st0_3 (F := F)) W (Proc.devRef .tc main_v24) = Stages.val_main_v24 (F := F) x0
    ∧ after (st0_3 (F := F)) W (Proc.devRef .tc main_v25) = Stages.val_main_v25 (F := F) := by
  refine ⟨?_, ?_, ?_⟩
  · after_results; rw [h_main_arg0]; rfl
  · after_results; rw [h_main_arg0]; rfl
  · after_results; rfl

/-- Operations 33 … 40 of the reference program, in order. -/
abbrev st0_4 : List (HloOp τ sig (Elt F)) :=
  [op_main_v26, op_main_v27, op_main_v28, op_main_v29, op_main_v30, op_main_v31, op_main_v32, op_main_c_5]
/-- The buffers those operations write. -/
abbrev st0_4_W : List (Ref sig .tc) := [main_v26, main_v27, main_v28, main_v29, main_v30, main_v31, main_v32, main_c_5]
theorem st0_4_writes : (st0_4 : List (HloOp τ sig (Elt F))).Forall fun op => op.writes ⊆ (st0_4_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st0_4_keep (W : Valuation τ sig (Elt F)) {r : Ref sig .tc} (h : r ∉ st0_4_W) :
    after (st0_4 (F := F)) W (Proc.devRef .tc r) = W (Proc.devRef .tc r) :=
  after_of_writes_sub st0_4 W st0_4_writes h
/-- From contents at which the buffers read hold their stage values, the buffers written here that are read later hold theirs:
    each is its operation applied to the operands' contents, which is the stage value's definition. -/
theorem st0_4_vals (x0 : (⟨S30000x12, .f32⟩ : BufTy).Contents (Elt F)) (x5 : (⟨S4x4, .f32⟩ : BufTy).Contents (Elt F)) (W : Valuation τ sig (Elt F))
    (h_main_v22 : W (Proc.devRef .tc main_v22) = Stages.val_main_v22 (F := F) x0)
    (h_main_v25 : W (Proc.devRef .tc main_v25) = Stages.val_main_v25 (F := F))
    (h_main_v24 : W (Proc.devRef .tc main_v24) = Stages.val_main_v24 (F := F) x0)
    (h_main_arg5 : W (Proc.devRef .tc main_arg5) = x5)
    (h_main_arg0 : W (Proc.devRef .tc main_arg0) = x0)
    :
    after (st0_4 (F := F)) W (Proc.devRef .tc main_v29) = Stages.val_main_v29 (F := F) x0 x5
    ∧ after (st0_4 (F := F)) W (Proc.devRef .tc main_v32) = Stages.val_main_v32 (F := F) x0
    ∧ after (st0_4 (F := F)) W (Proc.devRef .tc main_c_5) = Stages.val_main_c_5 (F := F) := by
  refine ⟨?_, ?_, ?_⟩
  · after_results; rw [h_main_v22, h_main_v25, h_main_v24, h_main_arg5]; rfl
  · after_results; rw [h_main_arg0]; rfl
  · after_results; rfl

/-- Operations 41 … 48 of the reference program, in order. -/
abbrev st0_5 : List (HloOp τ sig (Elt F)) :=
  [op_main_v33, op_main_v34, op_main_c_6, op_main_v35, op_main_v36, op_main_v37, op_main_v38, op_main_v39]
/-- The buffers those operations write. -/
abbrev st0_5_W : List (Ref sig .tc) := [main_v33, main_v34, main_c_6, main_v35, main_v36, main_v37, main_v38, main_v39]
theorem st0_5_writes : (st0_5 : List (HloOp τ sig (Elt F))).Forall fun op => op.writes ⊆ (st0_5_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st0_5_keep (W : Valuation τ sig (Elt F)) {r : Ref sig .tc} (h : r ∉ st0_5_W) :
    after (st0_5 (F := F)) W (Proc.devRef .tc r) = W (Proc.devRef .tc r) :=
  after_of_writes_sub st0_5 W st0_5_writes h
/-- From contents at which the buffers read hold their stage values, the buffers written here that are read later hold theirs:
    each is its operation applied to the operands' contents, which is the stage value's definition. -/
theorem st0_5_vals (x0 : (⟨S30000x12, .f32⟩ : BufTy).Contents (Elt F)) (x6 : (⟨S36x10, .f32⟩ : BufTy).Contents (Elt F)) (W : Valuation τ sig (Elt F))
    (h_main_v32 : W (Proc.devRef .tc main_v32) = Stages.val_main_v32 (F := F) x0)
    (h_main_c_5 : W (Proc.devRef .tc main_c_5) = Stages.val_main_c_5 (F := F))
    (h_main_arg6 : W (Proc.devRef .tc main_arg6) = x6)
    :
    after (st0_5 (F := F)) W (Proc.devRef .tc main_v39) = Stages.val_main_v39 (F := F) x0 x6 := by
  after_results; rw [h_main_v32, h_main_c_5, h_main_arg6]; rfl

/-- Operations 49 … 49 of the reference program, in order. -/
abbrev st0_6 : List (HloOp τ sig (Elt F)) :=
  [op_main_v40]
/-- The buffers those operations write. -/
abbrev st0_6_W : List (Ref sig .tc) := [main_v40]
theorem st0_6_writes : (st0_6 : List (HloOp τ sig (Elt F))).Forall fun op => op.writes ⊆ (st0_6_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st0_6_keep (W : Valuation τ sig (Elt F)) {r : Ref sig .tc} (h : r ∉ st0_6_W) :
    after (st0_6 (F := F)) W (Proc.devRef .tc r) = W (Proc.devRef .tc r) :=
  after_of_writes_sub st0_6 W st0_6_writes h
/-- From contents at which the buffers read hold their stage values, the buffers written here that are read later hold theirs:
    each is its operation applied to the operands' contents, which is the stage value's definition. -/
theorem st0_6_vals (x0 : (⟨S30000x12, .f32⟩ : BufTy).Contents (Elt F)) (W : Valuation τ sig (Elt F))
    (h_main_arg0 : W (Proc.devRef .tc main_arg0) = x0)
    :
    after (st0_6 (F := F)) W (Proc.devRef .tc main_v40) = Stages.val_main_v40 (F := F) x0 := by
  after_results; rw [h_main_arg0]; rfl

/-- Operations 50 … 50 of the reference program, in order. -/
abbrev st0_7 : List (HloOp τ sig (Elt F)) :=
  [op_main_v41]
/-- The buffers those operations write. -/
abbrev st0_7_W : List (Ref sig .tc) := [main_v41]
theorem st0_7_writes : (st0_7 : List (HloOp τ sig (Elt F))).Forall fun op => op.writes ⊆ (st0_7_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st0_7_keep (W : Valuation τ sig (Elt F)) {r : Ref sig .tc} (h : r ∉ st0_7_W) :
    after (st0_7 (F := F)) W (Proc.devRef .tc r) = W (Proc.devRef .tc r) :=
  after_of_writes_sub st0_7 W st0_7_writes h
/-- From contents at which the buffers read hold their stage values, the buffers written here that are read later hold theirs:
    each is its operation applied to the operands' contents, which is the stage value's definition. -/
theorem st0_7_vals (x0 : (⟨S30000x12, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (W : Valuation τ sig (Elt F))
    (h_main_v40 : W (Proc.devRef .tc main_v40) = Stages.val_main_v40 (F := F) x0)
    (h_main_v39 : W (Proc.devRef .tc main_v39) = Stages.val_main_v39 (F := F) x0 x6)
    (h_main_v29 : W (Proc.devRef .tc main_v29) = Stages.val_main_v29 (F := F) x0 x5)
    (h_main_v19 : W (Proc.devRef .tc main_v19) = Stages.val_main_v19 (F := F) x0 x4)
    (h_main_v9 : W (Proc.devRef .tc main_v9) = Stages.val_main_v9 (F := F) x0 x3)
    :
    after (st0_7 (F := F)) W (Proc.devRef .tc main_v41) = Stages.val_main_v41 (F := F) x0 x3 x4 x5 x6 := by
  after_results; unfold Stages.val_main_v41; rw [← h_main_v40, ← h_main_v39, ← h_main_v29, ← h_main_v19, ← h_main_v9]; rfl

/-- Operations 51 … 58 of the reference program, in order. -/
abbrev st0_8 : List (HloOp τ sig (Elt F)) :=
  [op_main_v42, op_main_v43, op_main_v44, op_main_c_7, op_main_v45, op_main_v46, op_main_c_8, op_main_v47]
/-- The buffers those operations write. -/
abbrev st0_8_W : List (Ref sig .tc) := [main_v42, main_v43, main_v44, main_c_7, main_v45, main_v46, main_c_8, main_v47]
theorem st0_8_writes : (st0_8 : List (HloOp τ sig (Elt F))).Forall fun op => op.writes ⊆ (st0_8_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st0_8_keep (W : Valuation τ sig (Elt F)) {r : Ref sig .tc} (h : r ∉ st0_8_W) :
    after (st0_8 (F := F)) W (Proc.devRef .tc r) = W (Proc.devRef .tc r) :=
  after_of_writes_sub st0_8 W st0_8_writes h
/-- From contents at which the buffers read hold their stage values, the buffers written here that are read later hold theirs:
    each is its operation applied to the operands' contents, which is the stage value's definition. -/
theorem st0_8_vals (x1 : (⟨S30000x10, .f32⟩ : BufTy).Contents (Elt F)) (W : Valuation τ sig (Elt F))
    (h_main_arg1 : W (Proc.devRef .tc main_arg1) = x1)
    :
    after (st0_8 (F := F)) W (Proc.devRef .tc main_v44) = Stages.val_main_v44 (F := F) x1
    ∧ after (st0_8 (F := F)) W (Proc.devRef .tc main_v46) = Stages.val_main_v46 (F := F) x1
    ∧ after (st0_8 (F := F)) W (Proc.devRef .tc main_v47) = Stages.val_main_v47 (F := F) := by
  refine ⟨?_, ?_, ?_⟩
  · after_results; rw [h_main_arg1]; rfl
  · after_results; rw [h_main_arg1]; rfl
  · after_results; rfl

/-- Operations 59 … 60 of the reference program, in order. -/
abbrev st0_9 : List (HloOp τ sig (Elt F)) :=
  [op_main_v48, op_main_v49]
/-- The buffers those operations write. -/
abbrev st0_9_W : List (Ref sig .tc) := [main_v48, main_v49]
theorem st0_9_writes : (st0_9 : List (HloOp τ sig (Elt F))).Forall fun op => op.writes ⊆ (st0_9_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st0_9_keep (W : Valuation τ sig (Elt F)) {r : Ref sig .tc} (h : r ∉ st0_9_W) :
    after (st0_9 (F := F)) W (Proc.devRef .tc r) = W (Proc.devRef .tc r) :=
  after_of_writes_sub st0_9 W st0_9_writes h
/-- From contents at which the buffers read hold their stage values, the buffers written here that are read later hold theirs:
    each is its operation applied to the operands' contents, which is the stage value's definition. -/
theorem st0_9_vals (x1 : (⟨S30000x10, .f32⟩ : BufTy).Contents (Elt F)) (W : Valuation τ sig (Elt F))
    (h_main_v44 : W (Proc.devRef .tc main_v44) = Stages.val_main_v44 (F := F) x1)
    (h_main_v47 : W (Proc.devRef .tc main_v47) = Stages.val_main_v47 (F := F))
    (h_main_v46 : W (Proc.devRef .tc main_v46) = Stages.val_main_v46 (F := F) x1)
    :
    after (st0_9 (F := F)) W (Proc.devRef .tc main_v49) = Stages.val_main_v49 (F := F) x1 := by
  after_results; rw [h_main_v44, h_main_v47, h_main_v46]; rfl

/-! ## The window as one list -/

/-- The window's operations, in order. -/
abbrev ops0 : List (HloOp τ sig (Elt F)) :=
  [op_main_v0, op_main_v1, op_main_v2, op_main_c, op_main_v3, op_main_v4, op_main_c_0, op_main_v5, op_main_v6, op_main_v7, op_main_v8, op_main_v9, op_main_v10, op_main_v11, op_main_v12, op_main_c_1, op_main_v13, op_main_v14, op_main_c_2, op_main_v15, op_main_v16, op_main_v17, op_main_v18, op_main_v19, op_main_v20, op_main_v21, op_main_v22, op_main_c_3, op_main_v23, op_main_v24, op_main_c_4, op_main_v25, op_main_v26, op_main_v27, op_main_v28, op_main_v29, op_main_v30, op_main_v31, op_main_v32, op_main_c_5, op_main_v33, op_main_v34, op_main_c_6, op_main_v35, op_main_v36, op_main_v37, op_main_v38, op_main_v39, op_main_v40, op_main_v41, op_main_v42, op_main_v43, op_main_v44, op_main_c_7, op_main_v45, op_main_v46, op_main_c_8, op_main_v47, op_main_v48, op_main_v49]
theorem ops0_split : (ops0 : List (HloOp τ sig (Elt F))) = st0_0 ++ st0_1 ++ st0_2 ++ st0_3 ++ st0_4 ++ st0_5 ++ st0_6 ++ st0_7 ++ st0_8 ++ st0_9 := rfl
set_option maxRecDepth 8192 in
/-- The printed window is that line of operations. -/
theorem main_part0_eq (c : Dev nD) : main_part0 (F := F) c = seq ops0 := rfl
/-- Every operation touches TensorCore buffers only. -/
theorem ops0_sub : (ops0 : List (HloOp τ sig (Elt F))).Forall fun op => op.bufs ⊆ tcRefs τ sig :=
  ⟨unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., nary_bufs_sub .., unary_bufs_sub .., reshape_bufs_sub .., unary_bufs_sub .., nullary_bufs_sub .., unary_bufs_sub .., binary_bufs_sub .., nullary_bufs_sub .., unary_bufs_sub .., binary_bufs_sub .., ternary_bufs_sub ..⟩
/-- Every operation determines its results. -/
theorem ops0_fresh : (ops0 : List (HloOp τ sig (Elt F))).Forall fun op => op.fresh = ∅ := by
  simp only [List.Forall]; repeat' constructor
/-- The buffers the window writes. -/
abbrev ops0_W : List (Ref sig .tc) := [main_v0, main_v1, main_v2, main_c, main_v3, main_v4, main_c_0, main_v5, main_v6, main_v7, main_v8, main_v9, main_v10, main_v11, main_v12, main_c_1, main_v13, main_v14, main_c_2, main_v15, main_v16, main_v17, main_v18, main_v19, main_v20, main_v21, main_v22, main_c_3, main_v23, main_v24, main_c_4, main_v25, main_v26, main_v27, main_v28, main_v29, main_v30, main_v31, main_v32, main_c_5, main_v33, main_v34, main_c_6, main_v35, main_v36, main_v37, main_v38, main_v39, main_v40, main_v41, main_v42, main_v43, main_v44, main_c_7, main_v45, main_v46, main_c_8, main_v47, main_v48, main_v49]
theorem ops0_writes : (ops0 : List (HloOp τ sig (Elt F))).Forall fun op => op.writes ⊆ (ops0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer the window does not write holds after it what it held before. -/
theorem ops0_keep (W : Valuation τ sig (Elt F)) {r : Ref sig .tc} (h : r ∉ ops0_W) :
    after (ops0 (F := F)) W (Proc.devRef .tc r) = W (Proc.devRef .tc r) :=
  after_of_writes_sub ops0 W ops0_writes h
/-- The window's fold is the stretches' folds, one after the other. -/
theorem ops0_after (W : Valuation τ sig (Elt F)) : after (ops0 (F := F)) W = after (st0_9 (F := F)) (after (st0_8 (F := F)) (after (st0_7 (F := F)) (after (st0_6 (F := F)) (after (st0_5 (F := F)) (after (st0_4 (F := F)) (after (st0_3 (F := F)) (after (st0_2 (F := F)) (after (st0_1 (F := F)) (after (st0_0 (F := F)) W))))))))) := by
  rw [ops0_split, after_append, after_append, after_append, after_append, after_append, after_append, after_append, after_append, after_append]
/-- From contents at which the buffers the window reads hold their stage values, the buffers it writes that later windows read
    (or that are results) hold theirs: stretch by stretch, a buffer written earlier carried across the stretches that do not write it. -/
theorem ops0_vals (x0 : (⟨S30000x12, .f32⟩ : BufTy).Contents (Elt F)) (x1 : (⟨S30000x10, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (W : Valuation τ sig (Elt F))
    (h_main_arg0 : W (Proc.devRef .tc main_arg0) = x0)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_arg1 : W (Proc.devRef .tc main_arg1) = x1)
    :
    after (ops0 (F := F)) W (Proc.devRef .tc main_v41) = Stages.val_main_v41 (F := F) x0 x3 x4 x5 x6
    ∧ after (ops0 (F := F)) W (Proc.devRef .tc main_v49) = Stages.val_main_v49 (F := F) x1 := by
  have f0 := st0_0_vals (F := F) x0 W h_main_arg0
  have k1_main_arg3 : (after (st0_0 (F := F)) W) (Proc.devRef .tc main_arg3) = x3 :=
    (st0_0_keep (F := F) W (r := main_arg3) (by decide)).trans h_main_arg3
  have k1_main_arg0 : (after (st0_0 (F := F)) W) (Proc.devRef .tc main_arg0) = x0 :=
    (st0_0_keep (F := F) W (r := main_arg0) (by decide)).trans h_main_arg0
  have f1 := st0_1_vals (F := F) x0 x3 (after (st0_0 (F := F)) W) f0.1 f0.2.2 f0.2.1 k1_main_arg3 k1_main_arg0
  have k1_main_arg4 : (after (st0_0 (F := F)) W) (Proc.devRef .tc main_arg4) = x4 :=
    (st0_0_keep (F := F) W (r := main_arg4) (by decide)).trans h_main_arg4
  have k2_main_arg4 : (after (st0_1 (F := F)) (after (st0_0 (F := F)) W)) (Proc.devRef .tc main_arg4) = x4 :=
    (st0_1_keep (F := F) (after (st0_0 (F := F)) W) (r := main_arg4) (by decide)).trans k1_main_arg4
  have f2 := st0_2_vals (F := F) x0 x4 (after (st0_1 (F := F)) (after (st0_0 (F := F)) W)) f1.2.1 f1.2.2 k2_main_arg4
  have k2_main_arg0 : (after (st0_1 (F := F)) (after (st0_0 (F := F)) W)) (Proc.devRef .tc main_arg0) = x0 :=
    (st0_1_keep (F := F) (after (st0_0 (F := F)) W) (r := main_arg0) (by decide)).trans k1_main_arg0
  have k3_main_arg0 : (after (st0_2 (F := F)) (after (st0_1 (F := F)) (after (st0_0 (F := F)) W))) (Proc.devRef .tc main_arg0) = x0 :=
    (st0_2_keep (F := F) (after (st0_1 (F := F)) (after (st0_0 (F := F)) W)) (r := main_arg0) (by decide)).trans k2_main_arg0
  have f3 := st0_3_vals (F := F) x0 (after (st0_2 (F := F)) (after (st0_1 (F := F)) (after (st0_0 (F := F)) W))) k3_main_arg0
  have k1_main_arg5 : (after (st0_0 (F := F)) W) (Proc.devRef .tc main_arg5) = x5 :=
    (st0_0_keep (F := F) W (r := main_arg5) (by decide)).trans h_main_arg5
  have k2_main_arg5 : (after (st0_1 (F := F)) (after (st0_0 (F := F)) W)) (Proc.devRef .tc main_arg5) = x5 :=
    (st0_1_keep (F := F) (after (st0_0 (F := F)) W) (r := main_arg5) (by decide)).trans k1_main_arg5
  have k3_main_arg5 : (after (st0_2 (F := F)) (after (st0_1 (F := F)) (after (st0_0 (F := F)) W))) (Proc.devRef .tc main_arg5) = x5 :=
    (st0_2_keep (F := F) (after (st0_1 (F := F)) (after (st0_0 (F := F)) W)) (r := main_arg5) (by decide)).trans k2_main_arg5
  have k4_main_arg5 : (after (st0_3 (F := F)) (after (st0_2 (F := F)) (after (st0_1 (F := F)) (after (st0_0 (F := F)) W)))) (Proc.devRef .tc main_arg5) = x5 :=
    (st0_3_keep (F := F) (after (st0_2 (F := F)) (after (st0_1 (F := F)) (after (st0_0 (F := F)) W))) (r := main_arg5) (by decide)).trans k3_main_arg5
  have k4_main_arg0 : (after (st0_3 (F := F)) (after (st0_2 (F := F)) (after (st0_1 (F := F)) (after (st0_0 (F := F)) W)))) (Proc.devRef .tc main_arg0) = x0 :=
    (st0_3_keep (F := F) (after (st0_2 (F := F)) (after (st0_1 (F := F)) (after (st0_0 (F := F)) W))) (r := main_arg0) (by decide)).trans k3_main_arg0
  have f4 := st0_4_vals (F := F) x0 x5 (after (st0_3 (F := F)) (after (st0_2 (F := F)) (after (st0_1 (F := F)) (after (st0_0 (F := F)) W)))) f3.1 f3.2.2 f3.2.1 k4_main_arg5 k4_main_arg0
  have k1_main_arg6 : (after (st0_0 (F := F)) W) (Proc.devRef .tc main_arg6) = x6 :=
    (st0_0_keep (F := F) W (r := main_arg6) (by decide)).trans h_main_arg6
  have k2_main_arg6 : (after (st0_1 (F := F)) (after (st0_0 (F := F)) W)) (Proc.devRef .tc main_arg6) = x6 :=
    (st0_1_keep (F := F) (after (st0_0 (F := F)) W) (r := main_arg6) (by decide)).trans k1_main_arg6
  have k3_main_arg6 : (after (st0_2 (F := F)) (after (st0_1 (F := F)) (after (st0_0 (F := F)) W))) (Proc.devRef .tc main_arg6) = x6 :=
    (st0_2_keep (F := F) (after (st0_1 (F := F)) (after (st0_0 (F := F)) W)) (r := main_arg6) (by decide)).trans k2_main_arg6
  have k4_main_arg6 : (after (st0_3 (F := F)) (after (st0_2 (F := F)) (after (st0_1 (F := F)) (after (st0_0 (F := F)) W)))) (Proc.devRef .tc main_arg6) = x6 :=
    (st0_3_keep (F := F) (after (st0_2 (F := F)) (after (st0_1 (F := F)) (after (st0_0 (F := F)) W))) (r := main_arg6) (by decide)).trans k3_main_arg6
  have k5_main_arg6 : (after (st0_4 (F := F)) (after (st0_3 (F := F)) (after (st0_2 (F := F)) (after (st0_1 (F := F)) (after (st0_0 (F := F)) W))))) (Proc.devRef .tc main_arg6) = x6 :=
    (st0_4_keep (F := F) (after (st0_3 (F := F)) (after (st0_2 (F := F)) (after (st0_1 (F := F)) (after (st0_0 (F := F)) W)))) (r := main_arg6) (by decide)).trans k4_main_arg6
  have f5 := st0_5_vals (F := F) x0 x6 (after (st0_4 (F := F)) (after (st0_3 (F := F)) (after (st0_2 (F := F)) (after (st0_1 (F := F)) (after (st0_0 (F := F)) W))))) f4.2.1 f4.2.2 k5_main_arg6
  have k5_main_arg0 : (after (st0_4 (F := F)) (after (st0_3 (F := F)) (after (st0_2 (F := F)) (after (st0_1 (F := F)) (after (st0_0 (F := F)) W))))) (Proc.devRef .tc main_arg0) = x0 :=
    (st0_4_keep (F := F) (after (st0_3 (F := F)) (after (st0_2 (F := F)) (after (st0_1 (F := F)) (after (st0_0 (F := F)) W)))) (r := main_arg0) (by decide)).trans k4_main_arg0
  have k6_main_arg0 : (after (st0_5 (F := F)) (after (st0_4 (F := F)) (after (st0_3 (F := F)) (after (st0_2 (F := F)) (after (st0_1 (F := F)) (after (st0_0 (F := F)) W)))))) (Proc.devRef .tc main_arg0) = x0 :=
    (st0_5_keep (F := F) (after (st0_4 (F := F)) (after (st0_3 (F := F)) (after (st0_2 (F := F)) (after (st0_1 (F := F)) (after (st0_0 (F := F)) W))))) (r := main_arg0) (by decide)).trans k5_main_arg0
  have f6 := st0_6_vals (F := F) x0 (after (st0_5 (F := F)) (after (st0_4 (F := F)) (after (st0_3 (F := F)) (after (st0_2 (F := F)) (after (st0_1 (F := F)) (after (st0_0 (F := F)) W)))))) k6_main_arg0
  have k7_main_v39 : (after (st0_6 (F := F)) (after (st0_5 (F := F)) (after (st0_4 (F := F)) (after (st0_3 (F := F)) (after (st0_2 (F := F)) (after (st0_1 (F := F)) (after (st0_0 (F := F)) W))))))) (Proc.devRef .tc main_v39) = Stages.val_main_v39 (F := F) x0 x6 :=
    (st0_6_keep (F := F) (after (st0_5 (F := F)) (after (st0_4 (F := F)) (after (st0_3 (F := F)) (after (st0_2 (F := F)) (after (st0_1 (F := F)) (after (st0_0 (F := F)) W)))))) (r := main_v39) (by decide)).trans f5
  have k6_main_v29 : (after (st0_5 (F := F)) (after (st0_4 (F := F)) (after (st0_3 (F := F)) (after (st0_2 (F := F)) (after (st0_1 (F := F)) (after (st0_0 (F := F)) W)))))) (Proc.devRef .tc main_v29) = Stages.val_main_v29 (F := F) x0 x5 :=
    (st0_5_keep (F := F) (after (st0_4 (F := F)) (after (st0_3 (F := F)) (after (st0_2 (F := F)) (after (st0_1 (F := F)) (after (st0_0 (F := F)) W))))) (r := main_v29) (by decide)).trans f4.1
  have k7_main_v29 : (after (st0_6 (F := F)) (after (st0_5 (F := F)) (after (st0_4 (F := F)) (after (st0_3 (F := F)) (after (st0_2 (F := F)) (after (st0_1 (F := F)) (after (st0_0 (F := F)) W))))))) (Proc.devRef .tc main_v29) = Stages.val_main_v29 (F := F) x0 x5 :=
    (st0_6_keep (F := F) (after (st0_5 (F := F)) (after (st0_4 (F := F)) (after (st0_3 (F := F)) (after (st0_2 (F := F)) (after (st0_1 (F := F)) (after (st0_0 (F := F)) W)))))) (r := main_v29) (by decide)).trans k6_main_v29
  have k4_main_v19 : (after (st0_3 (F := F)) (after (st0_2 (F := F)) (after (st0_1 (F := F)) (after (st0_0 (F := F)) W)))) (Proc.devRef .tc main_v19) = Stages.val_main_v19 (F := F) x0 x4 :=
    (st0_3_keep (F := F) (after (st0_2 (F := F)) (after (st0_1 (F := F)) (after (st0_0 (F := F)) W))) (r := main_v19) (by decide)).trans f2
  have k5_main_v19 : (after (st0_4 (F := F)) (after (st0_3 (F := F)) (after (st0_2 (F := F)) (after (st0_1 (F := F)) (after (st0_0 (F := F)) W))))) (Proc.devRef .tc main_v19) = Stages.val_main_v19 (F := F) x0 x4 :=
    (st0_4_keep (F := F) (after (st0_3 (F := F)) (after (st0_2 (F := F)) (after (st0_1 (F := F)) (after (st0_0 (F := F)) W)))) (r := main_v19) (by decide)).trans k4_main_v19
  have k6_main_v19 : (after (st0_5 (F := F)) (after (st0_4 (F := F)) (after (st0_3 (F := F)) (after (st0_2 (F := F)) (after (st0_1 (F := F)) (after (st0_0 (F := F)) W)))))) (Proc.devRef .tc main_v19) = Stages.val_main_v19 (F := F) x0 x4 :=
    (st0_5_keep (F := F) (after (st0_4 (F := F)) (after (st0_3 (F := F)) (after (st0_2 (F := F)) (after (st0_1 (F := F)) (after (st0_0 (F := F)) W))))) (r := main_v19) (by decide)).trans k5_main_v19
  have k7_main_v19 : (after (st0_6 (F := F)) (after (st0_5 (F := F)) (after (st0_4 (F := F)) (after (st0_3 (F := F)) (after (st0_2 (F := F)) (after (st0_1 (F := F)) (after (st0_0 (F := F)) W))))))) (Proc.devRef .tc main_v19) = Stages.val_main_v19 (F := F) x0 x4 :=
    (st0_6_keep (F := F) (after (st0_5 (F := F)) (after (st0_4 (F := F)) (after (st0_3 (F := F)) (after (st0_2 (F := F)) (after (st0_1 (F := F)) (after (st0_0 (F := F)) W)))))) (r := main_v19) (by decide)).trans k6_main_v19
  have k3_main_v9 : (after (st0_2 (F := F)) (after (st0_1 (F := F)) (after (st0_0 (F := F)) W))) (Proc.devRef .tc main_v9) = Stages.val_main_v9 (F := F) x0 x3 :=
    (st0_2_keep (F := F) (after (st0_1 (F := F)) (after (st0_0 (F := F)) W)) (r := main_v9) (by decide)).trans f1.1
  have k4_main_v9 : (after (st0_3 (F := F)) (after (st0_2 (F := F)) (after (st0_1 (F := F)) (after (st0_0 (F := F)) W)))) (Proc.devRef .tc main_v9) = Stages.val_main_v9 (F := F) x0 x3 :=
    (st0_3_keep (F := F) (after (st0_2 (F := F)) (after (st0_1 (F := F)) (after (st0_0 (F := F)) W))) (r := main_v9) (by decide)).trans k3_main_v9
  have k5_main_v9 : (after (st0_4 (F := F)) (after (st0_3 (F := F)) (after (st0_2 (F := F)) (after (st0_1 (F := F)) (after (st0_0 (F := F)) W))))) (Proc.devRef .tc main_v9) = Stages.val_main_v9 (F := F) x0 x3 :=
    (st0_4_keep (F := F) (after (st0_3 (F := F)) (after (st0_2 (F := F)) (after (st0_1 (F := F)) (after (st0_0 (F := F)) W)))) (r := main_v9) (by decide)).trans k4_main_v9
  have k6_main_v9 : (after (st0_5 (F := F)) (after (st0_4 (F := F)) (after (st0_3 (F := F)) (after (st0_2 (F := F)) (after (st0_1 (F := F)) (after (st0_0 (F := F)) W)))))) (Proc.devRef .tc main_v9) = Stages.val_main_v9 (F := F) x0 x3 :=
    (st0_5_keep (F := F) (after (st0_4 (F := F)) (after (st0_3 (F := F)) (after (st0_2 (F := F)) (after (st0_1 (F := F)) (after (st0_0 (F := F)) W))))) (r := main_v9) (by decide)).trans k5_main_v9
  have k7_main_v9 : (after (st0_6 (F := F)) (after (st0_5 (F := F)) (after (st0_4 (F := F)) (after (st0_3 (F := F)) (after (st0_2 (F := F)) (after (st0_1 (F := F)) (after (st0_0 (F := F)) W))))))) (Proc.devRef .tc main_v9) = Stages.val_main_v9 (F := F) x0 x3 :=
    (st0_6_keep (F := F) (after (st0_5 (F := F)) (after (st0_4 (F := F)) (after (st0_3 (F := F)) (after (st0_2 (F := F)) (after (st0_1 (F := F)) (after (st0_0 (F := F)) W)))))) (r := main_v9) (by decide)).trans k6_main_v9
  have f7 := st0_7_vals (F := F) x0 x3 x4 x5 x6 (after (st0_6 (F := F)) (after (st0_5 (F := F)) (after (st0_4 (F := F)) (after (st0_3 (F := F)) (after (st0_2 (F := F)) (after (st0_1 (F := F)) (after (st0_0 (F := F)) W))))))) f6 k7_main_v39 k7_main_v29 k7_main_v19 k7_main_v9
  have k1_main_arg1 : (after (st0_0 (F := F)) W) (Proc.devRef .tc main_arg1) = x1 :=
    (st0_0_keep (F := F) W (r := main_arg1) (by decide)).trans h_main_arg1
  have k2_main_arg1 : (after (st0_1 (F := F)) (after (st0_0 (F := F)) W)) (Proc.devRef .tc main_arg1) = x1 :=
    (st0_1_keep (F := F) (after (st0_0 (F := F)) W) (r := main_arg1) (by decide)).trans k1_main_arg1
  have k3_main_arg1 : (after (st0_2 (F := F)) (after (st0_1 (F := F)) (after (st0_0 (F := F)) W))) (Proc.devRef .tc main_arg1) = x1 :=
    (st0_2_keep (F := F) (after (st0_1 (F := F)) (after (st0_0 (F := F)) W)) (r := main_arg1) (by decide)).trans k2_main_arg1
  have k4_main_arg1 : (after (st0_3 (F := F)) (after (st0_2 (F := F)) (after (st0_1 (F := F)) (after (st0_0 (F := F)) W)))) (Proc.devRef .tc main_arg1) = x1 :=
    (st0_3_keep (F := F) (after (st0_2 (F := F)) (after (st0_1 (F := F)) (after (st0_0 (F := F)) W))) (r := main_arg1) (by decide)).trans k3_main_arg1
  have k5_main_arg1 : (after (st0_4 (F := F)) (after (st0_3 (F := F)) (after (st0_2 (F := F)) (after (st0_1 (F := F)) (after (st0_0 (F := F)) W))))) (Proc.devRef .tc main_arg1) = x1 :=
    (st0_4_keep (F := F) (after (st0_3 (F := F)) (after (st0_2 (F := F)) (after (st0_1 (F := F)) (after (st0_0 (F := F)) W)))) (r := main_arg1) (by decide)).trans k4_main_arg1
  have k6_main_arg1 : (after (st0_5 (F := F)) (after (st0_4 (F := F)) (after (st0_3 (F := F)) (after (st0_2 (F := F)) (after (st0_1 (F := F)) (after (st0_0 (F := F)) W)))))) (Proc.devRef .tc main_arg1) = x1 :=
    (st0_5_keep (F := F) (after (st0_4 (F := F)) (after (st0_3 (F := F)) (after (st0_2 (F := F)) (after (st0_1 (F := F)) (after (st0_0 (F := F)) W))))) (r := main_arg1) (by decide)).trans k5_main_arg1
  have k7_main_arg1 : (after (st0_6 (F := F)) (after (st0_5 (F := F)) (after (st0_4 (F := F)) (after (st0_3 (F := F)) (after (st0_2 (F := F)) (after (st0_1 (F := F)) (after (st0_0 (F := F)) W))))))) (Proc.devRef .tc main_arg1) = x1 :=
    (st0_6_keep (F := F) (after (st0_5 (F := F)) (after (st0_4 (F := F)) (after (st0_3 (F := F)) (after (st0_2 (F := F)) (after (st0_1 (F := F)) (after (st0_0 (F := F)) W)))))) (r := main_arg1) (by decide)).trans k6_main_arg1
  have k8_main_arg1 : (after (st0_7 (F := F)) (after (st0_6 (F := F)) (after (st0_5 (F := F)) (after (st0_4 (F := F)) (after (st0_3 (F := F)) (after (st0_2 (F := F)) (after (st0_1 (F := F)) (after (st0_0 (F := F)) W)))))))) (Proc.devRef .tc main_arg1) = x1 :=
    (st0_7_keep (F := F) (after (st0_6 (F := F)) (after (st0_5 (F := F)) (after (st0_4 (F := F)) (after (st0_3 (F := F)) (after (st0_2 (F := F)) (after (st0_1 (F := F)) (after (st0_0 (F := F)) W))))))) (r := main_arg1) (by decide)).trans k7_main_arg1
  have f8 := st0_8_vals (F := F) x1 (after (st0_7 (F := F)) (after (st0_6 (F := F)) (after (st0_5 (F := F)) (after (st0_4 (F := F)) (after (st0_3 (F := F)) (after (st0_2 (F := F)) (after (st0_1 (F := F)) (after (st0_0 (F := F)) W)))))))) k8_main_arg1
  have f9 := st0_9_vals (F := F) x1 (after (st0_8 (F := F)) (after (st0_7 (F := F)) (after (st0_6 (F := F)) (after (st0_5 (F := F)) (after (st0_4 (F := F)) (after (st0_3 (F := F)) (after (st0_2 (F := F)) (after (st0_1 (F := F)) (after (st0_0 (F := F)) W))))))))) f8.1 f8.2.2 f8.2.1
  have k9_main_v41 : (after (st0_8 (F := F)) (after (st0_7 (F := F)) (after (st0_6 (F := F)) (after (st0_5 (F := F)) (after (st0_4 (F := F)) (after (st0_3 (F := F)) (after (st0_2 (F := F)) (after (st0_1 (F := F)) (after (st0_0 (F := F)) W))))))))) (Proc.devRef .tc main_v41) = Stages.val_main_v41 (F := F) x0 x3 x4 x5 x6 :=
    (st0_8_keep (F := F) (after (st0_7 (F := F)) (after (st0_6 (F := F)) (after (st0_5 (F := F)) (after (st0_4 (F := F)) (after (st0_3 (F := F)) (after (st0_2 (F := F)) (after (st0_1 (F := F)) (after (st0_0 (F := F)) W)))))))) (r := main_v41) (by decide)).trans f7
  have k10_main_v41 : (after (st0_9 (F := F)) (after (st0_8 (F := F)) (after (st0_7 (F := F)) (after (st0_6 (F := F)) (after (st0_5 (F := F)) (after (st0_4 (F := F)) (after (st0_3 (F := F)) (after (st0_2 (F := F)) (after (st0_1 (F := F)) (after (st0_0 (F := F)) W)))))))))) (Proc.devRef .tc main_v41) = Stages.val_main_v41 (F := F) x0 x3 x4 x5 x6 :=
    (st0_9_keep (F := F) (after (st0_8 (F := F)) (after (st0_7 (F := F)) (after (st0_6 (F := F)) (after (st0_5 (F := F)) (after (st0_4 (F := F)) (after (st0_3 (F := F)) (after (st0_2 (F := F)) (after (st0_1 (F := F)) (after (st0_0 (F := F)) W))))))))) (r := main_v41) (by decide)).trans k9_main_v41
  rw [ops0_after]
  exact ⟨k10_main_v41, f9⟩

end Cert.ReferenceIdeal.HandRun

end
-- ==== Proof.RefRun1.lean ====
/- The reference program's operations 61 … 120 (the second printed window of @main) as a list,
   cut into short stretches; for each stretch, which buffers it writes, that it leaves every other buffer alone, and that
   the buffers it writes hold their stage values when the buffers it reads do. -/
import proofs.«402966_j45758581572292_1_alg».proof.Proof.RefStages
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, one name each -/

abbrev op_main_v50 : HloOp τ sig (Elt F) :=
  StableHlo.unary main_v49 main_v50 (broadcastInDim S30000x1 ![0] bcast_S30000_S30000x1_0 : (⟨S30000, .i32⟩ : BufTy).Contents (Elt F) → (⟨S30000x1, .i32⟩ : BufTy).Contents (Elt F))
abbrev op_main_v51 : HloOp τ sig (Elt F) :=
  StableHlo.binary main_arg3 main_v50 main_v51 ((fun x i => Host.gather gather_S64x13_S30000x1_S30000x13_1_0_n_n_0_1_113 x i) : (⟨S64x13, .f32⟩ : BufTy).Contents (Elt F) → (⟨S30000x1, .i32⟩ : BufTy).Contents (Elt F) → (⟨S30000x13, .f32⟩ : BufTy).Contents (Elt F))
abbrev op_main_v52 : HloOp τ sig (Elt F) :=
  StableHlo.unary main_arg1 main_v52 ((extractStridedSlice S30000x1 ![0, 1] · slices_S30000x10_S30000x1_0_1) : (⟨S30000x10, .f32⟩ : BufTy).Contents (Elt F) → (⟨S30000x1, .f32⟩ : BufTy).Contents (Elt F))
abbrev op_main_v53 : HloOp τ sig (Elt F) :=
  StableHlo.reshape main_v52 main_v53 rfl shapeCasts_S30000x1_S30000
abbrev op_main_v54 : HloOp τ sig (Elt F) :=
  StableHlo.unary main_v53 main_v54 (fptosi 32 : (⟨S30000, .f32⟩ : BufTy).Contents (Elt F) → (⟨S30000, .i32⟩ : BufTy).Contents (Elt F))
abbrev op_main_c_9 : HloOp τ sig (Elt F) :=
  StableHlo.nullary main_c_9 (constantI S_ 32 0#32)
abbrev op_main_v55 : HloOp τ sig (Elt F) :=
  StableHlo.unary main_c_9 main_v55 (broadcastInDim S30000 ![] bcast_S_S30000 : (⟨S_, .i32⟩ : BufTy).Contents (Elt F) → (⟨S30000, .i32⟩ : BufTy).Contents (Elt F))
abbrev op_main_v56 : HloOp τ sig (Elt F) :=
  StableHlo.binary main_v54 main_v55 main_v56 (cmpi .slt : (⟨S30000, .i32⟩ : BufTy).Contents (Elt F) → (⟨S30000, .i32⟩ : BufTy).Contents (Elt F) → (⟨S30000, .i1⟩ : BufTy).Contents (Elt F))
abbrev op_main_c_10 : HloOp τ sig (Elt F) :=
  StableHlo.nullary main_c_10 (constantI S_ 32 1000#32)
abbrev op_main_v57 : HloOp τ sig (Elt F) :=
  StableHlo.unary main_c_10 main_v57 (broadcastInDim S30000 ![] bcast_S_S30000 : (⟨S_, .i32⟩ : BufTy).Contents (Elt F) → (⟨S30000, .i32⟩ : BufTy).Contents (Elt F))
abbrev op_main_v58 : HloOp τ sig (Elt F) :=
  StableHlo.binary main_v54 main_v57 main_v58 (addi : (⟨S30000, .i32⟩ : BufTy).Contents (Elt F) → (⟨S30000, .i32⟩ : BufTy).Contents (Elt F) → (⟨S30000, .i32⟩ : BufTy).Contents (Elt F))
abbrev op_main_v59 : HloOp τ sig (Elt F) :=
  StableHlo.ternary main_v56 main_v58 main_v54 main_v59 (select : (⟨S30000, .i1⟩ : BufTy).Contents (Elt F) → (⟨S30000, .i32⟩ : BufTy).Contents (Elt F) → (⟨S30000, .i32⟩ : BufTy).Contents (Elt F) → (⟨S30000, .i32⟩ : BufTy).Contents (Elt F))
abbrev op_main_v60 : HloOp τ sig (Elt F) :=
  StableHlo.unary main_v59 main_v60 (broadcastInDim S30000x1 ![0] bcast_S30000_S30000x1_0 : (⟨S30000, .i32⟩ : BufTy).Contents (Elt F) → (⟨S30000x1, .i32⟩ : BufTy).Contents (Elt F))
abbrev op_main_v61 : HloOp τ sig (Elt F) :=
  StableHlo.binary main_arg4 main_v60 main_v61 ((fun x i => Host.gather gather_S1000x51_S30000x1_S30000x51_1_0_n_n_0_1_151 x i) : (⟨S1000x51, .f32⟩ : BufTy).Contents (Elt F) → (⟨S30000x1, .i32⟩ : BufTy).Contents (Elt F) → (⟨S30000x51, .f32⟩ : BufTy).Contents (Elt F))
abbrev op_main_v62 : HloOp τ sig (Elt F) :=
  StableHlo.unary main_arg1 main_v62 ((extractStridedSlice S30000x8 ![0, 2] · slices_S30000x10_S30000x8_0_2) : (⟨S30000x10, .f32⟩ : BufTy).Contents (Elt F) → (⟨S30000x8, .f32⟩ : BufTy).Contents (Elt F))
abbrev op_main_v63 : HloOp τ sig (Elt F) :=
  StableHlo.nary ![main_v51, main_v61, main_v62] main_v63 (fun u => concatenate S30000x72 1 [⟨S30000x13, u 0⟩, ⟨S30000x51, u 1⟩, ⟨S30000x8, u 2⟩] concatenates_S30000x13_S30000x51_S30000x8_S30000x72_d1)
abbrev op_main_v64 : HloOp τ sig (Elt F) :=
  StableHlo.unary main_arg2 main_v64 ((extractStridedSlice S50000x1 ![0, 0] · slices_S50000x11_S50000x1_0_0) : (⟨S50000x11, .f32⟩ : BufTy).Contents (Elt F) → (⟨S50000x1, .f32⟩ : BufTy).Contents (Elt F))
abbrev op_main_v65 : HloOp τ sig (Elt F) :=
  StableHlo.reshape main_v64 main_v65 rfl shapeCasts_S50000x1_S50000
abbrev op_main_v66 : HloOp τ sig (Elt F) :=
  StableHlo.unary main_v65 main_v66 (fptosi 32 : (⟨S50000, .f32⟩ : BufTy).Contents (Elt F) → (⟨S50000, .i32⟩ : BufTy).Contents (Elt F))
abbrev op_main_c_11 : HloOp τ sig (Elt F) :=
  StableHlo.nullary main_c_11 (constantI S_ 32 0#32)
abbrev op_main_v67 : HloOp τ sig (Elt F) :=
  StableHlo.unary main_c_11 main_v67 (broadcastInDim S50000 ![] bcast_S_S50000 : (⟨S_, .i32⟩ : BufTy).Contents (Elt F) → (⟨S50000, .i32⟩ : BufTy).Contents (Elt F))
abbrev op_main_v68 : HloOp τ sig (Elt F) :=
  StableHlo.binary main_v66 main_v67 main_v68 (cmpi .slt : (⟨S50000, .i32⟩ : BufTy).Contents (Elt F) → (⟨S50000, .i32⟩ : BufTy).Contents (Elt F) → (⟨S50000, .i1⟩ : BufTy).Contents (Elt F))
abbrev op_main_c_12 : HloOp τ sig (Elt F) :=
  StableHlo.nullary main_c_12 (constantI S_ 32 64#32)
abbrev op_main_v69 : HloOp τ sig (Elt F) :=
  StableHlo.unary main_c_12 main_v69 (broadcastInDim S50000 ![] bcast_S_S50000 : (⟨S_, .i32⟩ : BufTy).Contents (Elt F) → (⟨S50000, .i32⟩ : BufTy).Contents (Elt F))
abbrev op_main_v70 : HloOp τ sig (Elt F) :=
  StableHlo.binary main_v66 main_v69 main_v70 (addi : (⟨S50000, .i32⟩ : BufTy).Contents (Elt F) → (⟨S50000, .i32⟩ : BufTy).Contents (Elt F) → (⟨S50000, .i32⟩ : BufTy).Contents (Elt F))
abbrev op_main_v71 : HloOp τ sig (Elt F) :=
  StableHlo.ternary main_v68 main_v70 main_v66 main_v71 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
abbrev op_main_v72 : HloOp τ sig (Elt F) :=
  StableHlo.unary main_v71 main_v72 (broadcastInDim S50000x1 ![0] bcast_S50000_S50000x1_0 : (⟨S50000, .i32⟩ : BufTy).Contents (Elt F) → (⟨S50000x1, .i32⟩ : BufTy).Contents (Elt F))
abbrev op_main_v73 : HloOp τ sig (Elt F) :=
  StableHlo.binary main_arg3 main_v72 main_v73 ((fun x i => Host.gather gather_S64x13_S50000x1_S50000x13_1_0_n_n_0_1_113 x i) : (⟨S64x13, .f32⟩ : BufTy).Contents (Elt F) → (⟨S50000x1, .i32⟩ : BufTy).Contents (Elt F) → (⟨S50000x13, .f32⟩ : BufTy).Contents (Elt F))
abbrev op_main_v74 : HloOp τ sig (Elt F) :=
  StableHlo.unary main_arg2 main_v74 ((extractStridedSlice S50000x1 ![0, 1] · slices_S50000x11_S50000x1_0_1) : (⟨S50000x11, .f32⟩ : BufTy).Contents (Elt F) → (⟨S50000x1, .f32⟩ : BufTy).Contents (Elt F))
abbrev op_main_v75 : HloOp τ sig (Elt F) :=
  StableHlo.reshape main_v74 main_v75 rfl shapeCasts_S50000x1_S50000
abbrev op_main_v76 : HloOp τ sig (Elt F) :=
  StableHlo.unary main_v75 main_v76 (fptosi 32 : (⟨S50000, .f32⟩ : BufTy).Contents (Elt F) → (⟨S50000, .i32⟩ : BufTy).Contents (Elt F))
abbrev op_main_c_13 : HloOp τ sig (Elt F) :=
  StableHlo.nullary main_c_13 (constantI S_ 32 0#32)
abbrev op_main_v77 : HloOp τ sig (Elt F) :=
  StableHlo.unary main_c_13 main_v77 (broadcastInDim S50000 ![] bcast_S_S50000 : (⟨S_, .i32⟩ : BufTy).Contents (Elt F) → (⟨S50000, .i32⟩ : BufTy).Contents (Elt F))
abbrev op_main_v78 : HloOp τ sig (Elt F) :=
  StableHlo.binary main_v76 main_v77 main_v78 (cmpi .slt : (⟨S50000, .i32⟩ : BufTy).Contents (Elt F) → (⟨S50000, .i32⟩ : BufTy).Contents (Elt F) → (⟨S50000, .i1⟩ : BufTy).Contents (Elt F))
abbrev op_main_c_14 : HloOp τ sig (Elt F) :=
  StableHlo.nullary main_c_14 (constantI S_ 32 1000#32)
abbrev op_main_v79 : HloOp τ sig (Elt F) :=
  StableHlo.unary main_c_14 main_v79 (broadcastInDim S50000 ![] bcast_S_S50000 : (⟨S_, .i32⟩ : BufTy).Contents (Elt F) → (⟨S50000, .i32⟩ : BufTy).Contents (Elt F))
abbrev op_main_v80 : HloOp τ sig (Elt F) :=
  StableHlo.binary main_v76 main_v79 main_v80 (addi : (⟨S50000, .i32⟩ : BufTy).Contents (Elt F) → (⟨S50000, .i32⟩ : BufTy).Contents (Elt F) → (⟨S50000, .i32⟩ : BufTy).Contents (Elt F))
abbrev op_main_v81 : HloOp τ sig (Elt F) :=
  StableHlo.ternary main_v78 main_v80 main_v76 main_v81 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
abbrev op_main_v82 : HloOp τ sig (Elt F) :=
  StableHlo.unary main_v81 main_v82 (broadcastInDim S50000x1 ![0] bcast_S50000_S50000x1_0 : (⟨S50000, .i32⟩ : BufTy).Contents (Elt F) → (⟨S50000x1, .i32⟩ : BufTy).Contents (Elt F))
abbrev op_main_v83 : HloOp τ sig (Elt F) :=
  StableHlo.binary main_arg4 main_v82 main_v83 ((fun x i => Host.gather gather_S1000x51_S50000x1_S50000x51_1_0_n_n_0_1_151 x i) : (⟨S1000x51, .f32⟩ : BufTy).Contents (Elt F) → (⟨S50000x1, .i32⟩ : BufTy).Contents (Elt F) → (⟨S50000x51, .f32⟩ : BufTy).Contents (Elt F))
abbrev op_main_v84 : HloOp τ sig (Elt F) :=
  StableHlo.unary main_arg2 main_v84 ((extractStridedSlice S50000x1 ![0, 2] · slices_S50000x11_S50000x1_0_2) : (⟨S50000x11, .f32⟩ : BufTy).Contents (Elt F) → (⟨S50000x1, .f32⟩ : BufTy).Contents (Elt F))
abbrev op_main_v85 : HloOp τ sig (Elt F) :=
  StableHlo.reshape main_v84 main_v85 rfl shapeCasts_S50000x1_S50000
abbrev op_main_v86 : HloOp τ sig (Elt F) :=
  StableHlo.unary main_v85 main_v86 (fptosi 32 : (⟨S50000, .f32⟩ : BufTy).Contents (Elt F) → (⟨S50000, .i32⟩ : BufTy).Contents (Elt F))
abbrev op_main_c_15 : HloOp τ sig (Elt F) :=
  StableHlo.nullary main_c_15 (constantI S_ 32 0#32)
abbrev op_main_v87 : HloOp τ sig (Elt F) :=
  StableHlo.unary main_c_15 main_v87 (broadcastInDim S50000 ![] bcast_S_S50000 : (⟨S_, .i32⟩ : BufTy).Contents (Elt F) → (⟨S50000, .i32⟩ : BufTy).Contents (Elt F))
abbrev op_main_v88 : HloOp τ sig (Elt F) :=
  StableHlo.binary main_v86 main_v87 main_v88 (cmpi .slt : (⟨S50000, .i32⟩ : BufTy).Contents (Elt F) → (⟨S50000, .i32⟩ : BufTy).Contents (Elt F) → (⟨S50000, .i1⟩ : BufTy).Contents (Elt F))
abbrev op_main_c_16 : HloOp τ sig (Elt F) :=
  StableHlo.nullary main_c_16 (constantI S_ 32 4#32)
abbrev op_main_v89 : HloOp τ sig (Elt F) :=
  StableHlo.unary main_c_16 main_v89 (broadcastInDim S50000 ![] bcast_S_S50000 : (⟨S_, .i32⟩ : BufTy).Contents (Elt F) → (⟨S50000, .i32⟩ : BufTy).Contents (Elt F))
abbrev op_main_v90 : HloOp τ sig (Elt F) :=
  StableHlo.binary main_v86 main_v89 main_v90 (addi : (⟨S50000, .i32⟩ : BufTy).Contents (Elt F) → (⟨S50000, .i32⟩ : BufTy).Contents (Elt F) → (⟨S50000, .i32⟩ : BufTy).Contents (Elt F))
abbrev op_main_v91 : HloOp τ sig (Elt F) :=
  StableHlo.ternary main_v88 main_v90 main_v86 main_v91 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F))
abbrev op_main_v92 : HloOp τ sig (Elt F) :=
  StableHlo.unary main_v91 main_v92 (broadcastInDim S50000x1 ![0] bcast_S50000_S50000x1_0 : (⟨S50000, .i32⟩ : BufTy).Contents (Elt F) → (⟨S50000x1, .i32⟩ : BufTy).Contents (Elt F))
abbrev op_main_v93 : HloOp τ sig (Elt F) :=
  StableHlo.binary main_arg5 main_v92 main_v93 ((fun x i => Host.gather gather_S4x4_S50000x1_S50000x4_1_0_n_n_0_1_14 x i) : (⟨S4x4, .f32⟩ : BufTy).Contents (Elt F) → (⟨S50000x1, .i32⟩ : BufTy).Contents (Elt F) → (⟨S50000x4, .f32⟩ : BufTy).Contents (Elt F))
abbrev op_main_v94 : HloOp τ sig (Elt F) :=
  StableHlo.unary main_arg2 main_v94 ((extractStridedSlice S50000x8 ![0, 3] · slices_S50000x11_S50000x8_0_3) : (⟨S50000x11, .f32⟩ : BufTy).Contents (Elt F) → (⟨S50000x8, .f32⟩ : BufTy).Contents (Elt F))
abbrev op_main_v95 : HloOp τ sig (Elt F) :=
  StableHlo.nary ![main_v73, main_v83, main_v93, main_v94] main_v95 (fun u => concatenate S50000x76 1 [⟨S50000x13, u 0⟩, ⟨S50000x51, u 1⟩, ⟨S50000x4, u 2⟩, ⟨S50000x8, u 3⟩] concatenates_S50000x13_S50000x51_S50000x4_S50000x8_S50000x76_d1)
abbrev op_main_c_17 : HloOp τ sig (Elt F) :=
  StableHlo.nullary main_c_17 (constantI S_ 32 0#32)
abbrev op_main_v96 : HloOp τ sig (Elt F) :=
  StableHlo.unary main_c_17 main_v96 (broadcastInDim S200000 ![] bcast_S_S200000 : (⟨S_, .i32⟩ : BufTy).Contents (Elt F) → (⟨S200000, .i32⟩ : BufTy).Contents (Elt F))
abbrev op_main_v97 : HloOp τ sig (Elt F) :=
  StableHlo.binary main_arg33 main_v96 main_v97 (cmpi .slt : (⟨S200000, .i32⟩ : BufTy).Contents (Elt F) → (⟨S200000, .i32⟩ : BufTy).Contents (Elt F) → (⟨S200000, .i1⟩ : BufTy).Contents (Elt F))
abbrev op_main_c_18 : HloOp τ sig (Elt F) :=
  StableHlo.nullary main_c_18 (constantI S_ 32 30000#32)
abbrev op_main_v98 : HloOp τ sig (Elt F) :=
  StableHlo.unary main_c_18 main_v98 (broadcastInDim S200000 ![] bcast_S_S200000 : (⟨S_, .i32⟩ : BufTy).Contents (Elt F) → (⟨S200000, .i32⟩ : BufTy).Contents (Elt F))
abbrev op_main_v99 : HloOp τ sig (Elt F) :=
  StableHlo.binary main_arg33 main_v98 main_v99 (addi : (⟨S200000, .i32⟩ : BufTy).Contents (Elt F) → (⟨S200000, .i32⟩ : BufTy).Contents (Elt F) → (⟨S200000, .i32⟩ : BufTy).Contents (Elt F))

/-! ## The stretches -/

/-- Operations 61 … 68 of the reference program, in order. -/
abbrev st1_0 : List (HloOp τ sig (Elt F)) :=
  [op_main_v50, op_main_v51, op_main_v52, op_main_v53, op_main_v54, op_main_c_9, op_main_v55, op_main_v56]
/-- The buffers those operations write. -/
abbrev st1_0_W : List (Ref sig .tc) := [main_v50, main_v51, main_v52, main_v53, main_v54, main_c_9, main_v55, main_v56]
theorem st1_0_writes : (st1_0 : List (HloOp τ sig (Elt F))).Forall fun op => op.writes ⊆ (st1_0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st1_0_keep (W : Valuation τ sig (Elt F)) {r : Ref sig .tc} (h : r ∉ st1_0_W) :
    after (st1_0 (F := F)) W (Proc.devRef .tc r) = W (Proc.devRef .tc r) :=
  after_of_writes_sub st1_0 W st1_0_writes h
/-- From contents at which the buffers read hold their stage values, the buffers written here that are read later hold theirs:
    each is its operation applied to the operands' contents, which is the stage value's definition. -/
theorem st1_0_vals (x1 : (⟨S30000x10, .f32⟩ : BufTy).Contents (Elt F)) (x3 : (⟨S64x13, .f32⟩ : BufTy).Contents (Elt F)) (W : Valuation τ sig (Elt F))
    (h_main_v49 : W (Proc.devRef .tc main_v49) = Stages.val_main_v49 (F := F) x1)
    (h_main_arg3 : W (Proc.devRef .tc main_arg3) = x3)
    (h_main_arg1 : W (Proc.devRef .tc main_arg1) = x1)
    :
    after (st1_0 (F := F)) W (Proc.devRef .tc main_v51) = Stages.val_main_v51 (F := F) x1 x3
    ∧ after (st1_0 (F := F)) W (Proc.devRef .tc main_v54) = Stages.val_main_v54 (F := F) x1
    ∧ after (st1_0 (F := F)) W (Proc.devRef .tc main_v56) = Stages.val_main_v56 (F := F) x1 := by
  refine ⟨?_, ?_, ?_⟩
  · after_results; rw [h_main_v49, h_main_arg3]; rfl
  · after_results; rw [h_main_arg1]; rfl
  · after_results; rw [h_main_arg1]; rfl

/-- Operations 69 … 75 of the reference program, in order. -/
abbrev st1_1 : List (HloOp τ sig (Elt F)) :=
  [op_main_c_10, op_main_v57, op_main_v58, op_main_v59, op_main_v60, op_main_v61, op_main_v62]
/-- The buffers those operations write. -/
abbrev st1_1_W : List (Ref sig .tc) := [main_c_10, main_v57, main_v58, main_v59, main_v60, main_v61, main_v62]
theorem st1_1_writes : (st1_1 : List (HloOp τ sig (Elt F))).Forall fun op => op.writes ⊆ (st1_1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st1_1_keep (W : Valuation τ sig (Elt F)) {r : Ref sig .tc} (h : r ∉ st1_1_W) :
    after (st1_1 (F := F)) W (Proc.devRef .tc r) = W (Proc.devRef .tc r) :=
  after_of_writes_sub st1_1 W st1_1_writes h
/-- From contents at which the buffers read hold their stage values, the buffers written here that are read later hold theirs:
    each is its operation applied to the operands' contents, which is the stage value's definition. -/
theorem st1_1_vals (x1 : (⟨S30000x10, .f32⟩ : BufTy).Contents (Elt F)) (x4 : (⟨S1000x51, .f32⟩ : BufTy).Contents (Elt F)) (W : Valuation τ sig (Elt F))
    (h_main_v54 : W (Proc.devRef .tc main_v54) = Stages.val_main_v54 (F := F) x1)
    (h_main_v56 : W (Proc.devRef .tc main_v56) = Stages.val_main_v56 (F := F) x1)
    (h_main_arg4 : W (Proc.devRef .tc main_arg4) = x4)
    (h_main_arg1 : W (Proc.devRef .tc main_arg1) = x1)
    :
    after (st1_1 (F := F)) W (Proc.devRef .tc main_v61) = Stages.val_main_v61 (F := F) x1 x4
    ∧ after (st1_1 (F := F)) W (Proc.devRef .tc main_v62) = Stages.val_main_v62 (F := F) x1 := by
  refine ⟨?_, ?_⟩
  · after_results; rw [h_main_v54, h_main_v56, h_main_arg4]; rfl
  · after_results; rw [h_main_arg1]; rfl

/-- Operations 76 … 76 of the reference program, in order. -/
abbrev st1_2 : List (HloOp τ sig (Elt F)) :=
  [op_main_v63]
/-- The buffers those operations write. -/
abbrev st1_2_W : List (Ref sig .tc) := [main_v63]
theorem st1_2_writes : (st1_2 : List (HloOp τ sig (Elt F))).Forall fun op => op.writes ⊆ (st1_2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st1_2_keep (W : Valuation τ sig (Elt F)) {r : Ref sig .tc} (h : r ∉ st1_2_W) :
    after (st1_2 (F := F)) W (Proc.devRef .tc r) = W (Proc.devRef .tc r) :=
  after_of_writes_sub st1_2 W st1_2_writes h
/-- From contents at which the buffers read hold their stage values, the buffers written here that are read later hold theirs:
    each is its operation applied to the operands' contents, which is the stage value's definition. -/
theorem st1_2_vals (x1 : (⟨S30000x10, .f32⟩ : BufTy).Contents (Elt F)) (x3 : (⟨S64x13, .f32⟩ : BufTy).Contents (Elt F)) (x4 : (⟨S1000x51, .f32⟩ : BufTy).Contents (Elt F)) (W : Valuation τ sig (Elt F))
    (h_main_v62 : W (Proc.devRef .tc main_v62) = Stages.val_main_v62 (F := F) x1)
    (h_main_v61 : W (Proc.devRef .tc main_v61) = Stages.val_main_v61 (F := F) x1 x4)
    (h_main_v51 : W (Proc.devRef .tc main_v51) = Stages.val_main_v51 (F := F) x1 x3)
    :
    after (st1_2 (F := F)) W (Proc.devRef .tc main_v63) = Stages.val_main_v63 (F := F) x1 x3 x4 := by
  after_results; unfold Stages.val_main_v63; rw [← h_main_v62, ← h_main_v61, ← h_main_v51]; rfl

/-- Operations 77 … 84 of the reference program, in order. -/
abbrev st1_3 : List (HloOp τ sig (Elt F)) :=
  [op_main_v64, op_main_v65, op_main_v66, op_main_c_11, op_main_v67, op_main_v68, op_main_c_12, op_main_v69]
/-- The buffers those operations write. -/
abbrev st1_3_W : List (Ref sig .tc) := [main_v64, main_v65, main_v66, main_c_11, main_v67, main_v68, main_c_12, main_v69]
theorem st1_3_writes : (st1_3 : List (HloOp τ sig (Elt F))).Forall fun op => op.writes ⊆ (st1_3_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st1_3_keep (W : Valuation τ sig (Elt F)) {r : Ref sig .tc} (h : r ∉ st1_3_W) :
    after (st1_3 (F := F)) W (Proc.devRef .tc r) = W (Proc.devRef .tc r) :=
  after_of_writes_sub st1_3 W st1_3_writes h

/-- Operations 85 … 92 of the reference program, in order. -/
abbrev st1_4 : List (HloOp τ sig (Elt F)) :=
  [op_main_v70, op_main_v71, op_main_v72, op_main_v73, op_main_v74, op_main_v75, op_main_v76, op_main_c_13]
/-- The buffers those operations write. -/
abbrev st1_4_W : List (Ref sig .tc) := [main_v70, main_v71, main_v72, main_v73, main_v74, main_v75, main_v76, main_c_13]
theorem st1_4_writes : (st1_4 : List (HloOp τ sig (Elt F))).Forall fun op => op.writes ⊆ (st1_4_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st1_4_keep (W : Valuation τ sig (Elt F)) {r : Ref sig .tc} (h : r ∉ st1_4_W) :
    after (st1_4 (F := F)) W (Proc.devRef .tc r) = W (Proc.devRef .tc r) :=
  after_of_writes_sub st1_4 W st1_4_writes h

/-- Operations 93 … 100 of the reference program, in order. -/
abbrev st1_5 : List (HloOp τ sig (Elt F)) :=
  [op_main_v77, op_main_v78, op_main_c_14, op_main_v79, op_main_v80, op_main_v81, op_main_v82, op_main_v83]
/-- The buffers those operations write. -/
abbrev st1_5_W : List (Ref sig .tc) := [main_v77, main_v78, main_c_14, main_v79, main_v80, main_v81, main_v82, main_v83]
theorem st1_5_writes : (st1_5 : List (HloOp τ sig (Elt F))).Forall fun op => op.writes ⊆ (st1_5_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st1_5_keep (W : Valuation τ sig (Elt F)) {r : Ref sig .tc} (h : r ∉ st1_5_W) :
    after (st1_5 (F := F)) W (Proc.devRef .tc r) = W (Proc.devRef .tc r) :=
  after_of_writes_sub st1_5 W st1_5_writes h

/-- Operations 101 … 108 of the reference program, in order. -/
abbrev st1_6 : List (HloOp τ sig (Elt F)) :=
  [op_main_v84, op_main_v85, op_main_v86, op_main_c_15, op_main_v87, op_main_v88, op_main_c_16, op_main_v89]
/-- The buffers those operations write. -/
abbrev st1_6_W : List (Ref sig .tc) := [main_v84, main_v85, main_v86, main_c_15, main_v87, main_v88, main_c_16, main_v89]
theorem st1_6_writes : (st1_6 : List (HloOp τ sig (Elt F))).Forall fun op => op.writes ⊆ (st1_6_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st1_6_keep (W : Valuation τ sig (Elt F)) {r : Ref sig .tc} (h : r ∉ st1_6_W) :
    after (st1_6 (F := F)) W (Proc.devRef .tc r) = W (Proc.devRef .tc r) :=
  after_of_writes_sub st1_6 W st1_6_writes h

/-- Operations 109 … 113 of the reference program, in order. -/
abbrev st1_7 : List (HloOp τ sig (Elt F)) :=
  [op_main_v90, op_main_v91, op_main_v92, op_main_v93, op_main_v94]
/-- The buffers those operations write. -/
abbrev st1_7_W : List (Ref sig .tc) := [main_v90, main_v91, main_v92, main_v93, main_v94]
theorem st1_7_writes : (st1_7 : List (HloOp τ sig (Elt F))).Forall fun op => op.writes ⊆ (st1_7_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st1_7_keep (W : Valuation τ sig (Elt F)) {r : Ref sig .tc} (h : r ∉ st1_7_W) :
    after (st1_7 (F := F)) W (Proc.devRef .tc r) = W (Proc.devRef .tc r) :=
  after_of_writes_sub st1_7 W st1_7_writes h

/-- Operations 114 … 114 of the reference program, in order. -/
abbrev st1_8 : List (HloOp τ sig (Elt F)) :=
  [op_main_v95]
/-- The buffers those operations write. -/
abbrev st1_8_W : List (Ref sig .tc) := [main_v95]
theorem st1_8_writes : (st1_8 : List (HloOp τ sig (Elt F))).Forall fun op => op.writes ⊆ (st1_8_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st1_8_keep (W : Valuation τ sig (Elt F)) {r : Ref sig .tc} (h : r ∉ st1_8_W) :
    after (st1_8 (F := F)) W (Proc.devRef .tc r) = W (Proc.devRef .tc r) :=
  after_of_writes_sub st1_8 W st1_8_writes h

/-- Operations 115 … 120 of the reference program, in order. -/
abbrev st1_9 : List (HloOp τ sig (Elt F)) :=
  [op_main_c_17, op_main_v96, op_main_v97, op_main_c_18, op_main_v98, op_main_v99]
/-- The buffers those operations write. -/
abbrev st1_9_W : List (Ref sig .tc) := [main_c_17, main_v96, main_v97, main_c_18, main_v98, main_v99]
theorem st1_9_writes : (st1_9 : List (HloOp τ sig (Elt F))).Forall fun op => op.writes ⊆ (st1_9_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st1_9_keep (W : Valuation τ sig (Elt F)) {r : Ref sig .tc} (h : r ∉ st1_9_W) :
    after (st1_9 (F := F)) W (Proc.devRef .tc r) = W (Proc.devRef .tc r) :=
  after_of_writes_sub st1_9 W st1_9_writes h
/-- From contents at which the buffers read hold their stage values, the buffers written here that are read later hold theirs:
    each is its operation applied to the operands' contents, which is the stage value's definition. -/
theorem st1_9_vals (x33 : (⟨S200000, .i32⟩ : BufTy).Contents (Elt F)) (W : Valuation τ sig (Elt F))
    (h_main_arg33 : W (Proc.devRef .tc main_arg33) = x33)
    :
    after (st1_9 (F := F)) W (Proc.devRef .tc main_v97) = Stages.val_main_v97 (F := F) x33
    ∧ after (st1_9 (F := F)) W (Proc.devRef .tc main_v99) = Stages.val_main_v99 (F := F) x33 := by
  refine ⟨?_, ?_⟩
  · after_results; rw [h_main_arg33]; rfl
  · after_results; rw [h_main_arg33]; rfl

/-! ## The window as one list -/

/-- The window's operations, in order. -/
abbrev ops1 : List (HloOp τ sig (Elt F)) :=
  [op_main_v50, op_main_v51, op_main_v52, op_main_v53, op_main_v54, op_main_c_9, op_main_v55, op_main_v56, op_main_c_10, op_main_v57, op_main_v58, op_main_v59, op_main_v60, op_main_v61, op_main_v62, op_main_v63, op_main_v64, op_main_v65, op_main_v66, op_main_c_11, op_main_v67, op_main_v68, op_main_c_12, op_main_v69, op_main_v70, op_main_v71, op_main_v72, op_main_v73, op_main_v74, op_main_v75, op_main_v76, op_main_c_13, op_main_v77, op_main_v78, op_main_c_14, op_main_v79, op_main_v80, op_main_v81, op_main_v82, op_main_v83, op_main_v84, op_main_v85, op_main_v86, op_main_c_15, op_main_v87, op_main_v88, op_main_c_16, op_main_v89, op_main_v90, op_main_v91, op_main_v92, op_main_v93, op_main_v94, op_main_v95, op_main_c_17, op_main_v96, op_main_v97, op_main_c_18, op_main_v98, op_main_v99]
theorem ops1_split : (ops1 : List (HloOp τ sig (Elt F))) = st1_0 ++ st1_1 ++ st1_2 ++ st1_3 ++ st1_4 ++ st1_5 ++ st1_6 ++ st1_7 ++ st1_8 ++ st1_9 := rfl
set_option maxRecDepth 8192 in
/-- The printed window is that line of operations. -/
theorem main_part1_eq (c : Dev nD) : main_part1 (F := F) c = seq ops1 := rfl
/-- Every operation touches TensorCore buffers only. -/
theorem ops1_sub : (ops1 : List (HloOp τ sig (Elt F))).Forall fun op => op.bufs ⊆ tcRefs τ sig :=
  ⟨unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., nary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., nary_bufs_sub .., nullary_bufs_sub .., unary_bufs_sub .., binary_bufs_sub .., nullary_bufs_sub .., unary_bufs_sub .., binary_bufs_sub ..⟩
/-- Every operation determines its results. -/
theorem ops1_fresh : (ops1 : List (HloOp τ sig (Elt F))).Forall fun op => op.fresh = ∅ := by
  simp only [List.Forall]; repeat' constructor
/-- The buffers the window writes. -/
abbrev ops1_W : List (Ref sig .tc) := [main_v50, main_v51, main_v52, main_v53, main_v54, main_c_9, main_v55, main_v56, main_c_10, main_v57, main_v58, main_v59, main_v60, main_v61, main_v62, main_v63, main_v64, main_v65, main_v66, main_c_11, main_v67, main_v68, main_c_12, main_v69, main_v70, main_v71, main_v72, main_v73, main_v74, main_v75, main_v76, main_c_13, main_v77, main_v78, main_c_14, main_v79, main_v80, main_v81, main_v82, main_v83, main_v84, main_v85, main_v86, main_c_15, main_v87, main_v88, main_c_16, main_v89, main_v90, main_v91, main_v92, main_v93, main_v94, main_v95, main_c_17, main_v96, main_v97, main_c_18, main_v98, main_v99]
theorem ops1_writes : (ops1 : List (HloOp τ sig (Elt F))).Forall fun op => op.writes ⊆ (ops1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer the window does not write holds after it what it held before. -/
theorem ops1_keep (W : Valuation τ sig (Elt F)) {r : Ref sig .tc} (h : r ∉ ops1_W) :
    after (ops1 (F := F)) W (Proc.devRef .tc r) = W (Proc.devRef .tc r) :=
  after_of_writes_sub ops1 W ops1_writes h
/-- The window's fold is the stretches' folds, one after the other. -/
theorem ops1_after (W : Valuation τ sig (Elt F)) : after (ops1 (F := F)) W = after (st1_9 (F := F)) (after (st1_8 (F := F)) (after (st1_7 (F := F)) (after (st1_6 (F := F)) (after (st1_5 (F := F)) (after (st1_4 (F := F)) (after (st1_3 (F := F)) (after (st1_2 (F := F)) (after (st1_1 (F := F)) (after (st1_0 (F := F)) W))))))))) := by
  rw [ops1_split, after_append, after_append, after_append, after_append, after_append, after_append, after_append, after_append, after_append]
/-- From contents at which the buffers the window reads hold their stage values, the buffers it writes that later windows read
    (or that are results) hold theirs: stretch by stretch, a buffer written earlier carried across the stretches that do not write it. -/
theorem ops1_vals (x1 : (⟨S30000x10, .f32⟩ : BufTy).Contents (Elt F)) (x3 : (⟨S64x13, .f32⟩ : BufTy).Contents (Elt F)) (x4 : (⟨S1000x51, .f32⟩ : BufTy).Contents (Elt F)) (x33 : (⟨S200000, .i32⟩ : BufTy).Contents (Elt F)) (W : Valuation τ sig (Elt F))
    (h_main_v49 : W (Proc.devRef .tc main_v49) = Stages.val_main_v49 (F := F) x1)
    (h_main_arg3 : W (Proc.devRef .tc main_arg3) = x3)
    (h_main_arg1 : W (Proc.devRef .tc main_arg1) = x1)
    (h_main_arg4 : W (Proc.devRef .tc main_arg4) = x4)
    (h_main_arg33 : W (Proc.devRef .tc main_arg33) = x33)
    :
    after (ops1 (F := F)) W (Proc.devRef .tc main_v63) = Stages.val_main_v63 (F := F) x1 x3 x4
    ∧ after (ops1 (F := F)) W (Proc.devRef .tc main_v97) = Stages.val_main_v97 (F := F) x33
    ∧ after (ops1 (F := F)) W (Proc.devRef .tc main_v99) = Stages.val_main_v99 (F := F) x33 := by
  have f0 := st1_0_vals (F := F) x1 x3 W h_main_v49 h_main_arg3 h_main_arg1
  have k1_main_arg4 : (after (st1_0 (F := F)) W) (Proc.devRef .tc main_arg4) = x4 :=
    (st1_0_keep (F := F) W (r := main_arg4) (by decide)).trans h_main_arg4
  have k1_main_arg1 : (after (st1_0 (F := F)) W) (Proc.devRef .tc main_arg1) = x1 :=
    (st1_0_keep (F := F) W (r := main_arg1) (by decide)).trans h_main_arg1
  have f1 := st1_1_vals (F := F) x1 x4 (after (st1_0 (F := F)) W) f0.2.1 f0.2.2 k1_main_arg4 k1_main_arg1
  have k2_main_v51 : (after (st1_1 (F := F)) (after (st1_0 (F := F)) W)) (Proc.devRef .tc main_v51) = Stages.val_main_v51 (F := F) x1 x3 :=
    (st1_1_keep (F := F) (after (st1_0 (F := F)) W) (r := main_v51) (by decide)).trans f0.1
  have f2 := st1_2_vals (F := F) x1 x3 x4 (after (st1_1 (F := F)) (after (st1_0 (F := F)) W)) f1.2 f1.1 k2_main_v51
  have k1_main_arg33 : (after (st1_0 (F := F)) W) (Proc.devRef .tc main_arg33) = x33 :=
    (st1_0_keep (F := F) W (r := main_arg33) (by decide)).trans h_main_arg33
  have k2_main_arg33 : (after (st1_1 (F := F)) (after (st1_0 (F := F)) W)) (Proc.devRef .tc main_arg33) = x33 :=
    (st1_1_keep (F := F) (after (st1_0 (F := F)) W) (r := main_arg33) (by decide)).trans k1_main_arg33
  have k3_main_arg33 : (after (st1_2 (F := F)) (after (st1_1 (F := F)) (after (st1_0 (F := F)) W))) (Proc.devRef .tc main_arg33) = x33 :=
    (st1_2_keep (F := F) (after (st1_1 (F := F)) (after (st1_0 (F := F)) W)) (r := main_arg33) (by decide)).trans k2_main_arg33
  have k4_main_arg33 : (after (st1_3 (F := F)) (after (st1_2 (F := F)) (after (st1_1 (F := F)) (after (st1_0 (F := F)) W)))) (Proc.devRef .tc main_arg33) = x33 :=
    (st1_3_keep (F := F) (after (st1_2 (F := F)) (after (st1_1 (F := F)) (after (st1_0 (F := F)) W))) (r := main_arg33) (by decide)).trans k3_main_arg33
  have k5_main_arg33 : (after (st1_4 (F := F)) (after (st1_3 (F := F)) (after (st1_2 (F := F)) (after (st1_1 (F := F)) (after (st1_0 (F := F)) W))))) (Proc.devRef .tc main_arg33) = x33 :=
    (st1_4_keep (F := F) (after (st1_3 (F := F)) (after (st1_2 (F := F)) (after (st1_1 (F := F)) (after (st1_0 (F := F)) W)))) (r := main_arg33) (by decide)).trans k4_main_arg33
  have k6_main_arg33 : (after (st1_5 (F := F)) (after (st1_4 (F := F)) (after (st1_3 (F := F)) (after (st1_2 (F := F)) (after (st1_1 (F := F)) (after (st1_0 (F := F)) W)))))) (Proc.devRef .tc main_arg33) = x33 :=
    (st1_5_keep (F := F) (after (st1_4 (F := F)) (after (st1_3 (F := F)) (after (st1_2 (F := F)) (after (st1_1 (F := F)) (after (st1_0 (F := F)) W))))) (r := main_arg33) (by decide)).trans k5_main_arg33
  have k7_main_arg33 : (after (st1_6 (F := F)) (after (st1_5 (F := F)) (after (st1_4 (F := F)) (after (st1_3 (F := F)) (after (st1_2 (F := F)) (after (st1_1 (F := F)) (after (st1_0 (F := F)) W))))))) (Proc.devRef .tc main_arg33) = x33 :=
    (st1_6_keep (F := F) (after (st1_5 (F := F)) (after (st1_4 (F := F)) (after (st1_3 (F := F)) (after (st1_2 (F := F)) (after (st1_1 (F := F)) (after (st1_0 (F := F)) W)))))) (r := main_arg33) (by decide)).trans k6_main_arg33
  have k8_main_arg33 : (after (st1_7 (F := F)) (after (st1_6 (F := F)) (after (st1_5 (F := F)) (after (st1_4 (F := F)) (after (st1_3 (F := F)) (after (st1_2 (F := F)) (after (st1_1 (F := F)) (after (st1_0 (F := F)) W)))))))) (Proc.devRef .tc main_arg33) = x33 :=
    (st1_7_keep (F := F) (after (st1_6 (F := F)) (after (st1_5 (F := F)) (after (st1_4 (F := F)) (after (st1_3 (F := F)) (after (st1_2 (F := F)) (after (st1_1 (F := F)) (after (st1_0 (F := F)) W))))))) (r := main_arg33) (by decide)).trans k7_main_arg33
  have k9_main_arg33 : (after (st1_8 (F := F)) (after (st1_7 (F := F)) (after (st1_6 (F := F)) (after (st1_5 (F := F)) (after (st1_4 (F := F)) (after (st1_3 (F := F)) (after (st1_2 (F := F)) (after (st1_1 (F := F)) (after (st1_0 (F := F)) W))))))))) (Proc.devRef .tc main_arg33) = x33 :=
    (st1_8_keep (F := F) (after (st1_7 (F := F)) (after (st1_6 (F := F)) (after (st1_5 (F := F)) (after (st1_4 (F := F)) (after (st1_3 (F := F)) (after (st1_2 (F := F)) (after (st1_1 (F := F)) (after (st1_0 (F := F)) W)))))))) (r := main_arg33) (by decide)).trans k8_main_arg33
  have f9 := st1_9_vals (F := F) x33 (after (st1_8 (F := F)) (after (st1_7 (F := F)) (after (st1_6 (F := F)) (after (st1_5 (F := F)) (after (st1_4 (F := F)) (after (st1_3 (F := F)) (after (st1_2 (F := F)) (after (st1_1 (F := F)) (after (st1_0 (F := F)) W))))))))) k9_main_arg33
  have k4_main_v63 : (after (st1_3 (F := F)) (after (st1_2 (F := F)) (after (st1_1 (F := F)) (after (st1_0 (F := F)) W)))) (Proc.devRef .tc main_v63) = Stages.val_main_v63 (F := F) x1 x3 x4 :=
    (st1_3_keep (F := F) (after (st1_2 (F := F)) (after (st1_1 (F := F)) (after (st1_0 (F := F)) W))) (r := main_v63) (by decide)).trans f2
  have k5_main_v63 : (after (st1_4 (F := F)) (after (st1_3 (F := F)) (after (st1_2 (F := F)) (after (st1_1 (F := F)) (after (st1_0 (F := F)) W))))) (Proc.devRef .tc main_v63) = Stages.val_main_v63 (F := F) x1 x3 x4 :=
    (st1_4_keep (F := F) (after (st1_3 (F := F)) (after (st1_2 (F := F)) (after (st1_1 (F := F)) (after (st1_0 (F := F)) W)))) (r := main_v63) (by decide)).trans k4_main_v63
  have k6_main_v63 : (after (st1_5 (F := F)) (after (st1_4 (F := F)) (after (st1_3 (F := F)) (after (st1_2 (F := F)) (after (st1_1 (F := F)) (after (st1_0 (F := F)) W)))))) (Proc.devRef .tc main_v63) = Stages.val_main_v63 (F := F) x1 x3 x4 :=
    (st1_5_keep (F := F) (after (st1_4 (F := F)) (after (st1_3 (F := F)) (after (st1_2 (F := F)) (after (st1_1 (F := F)) (after (st1_0 (F := F)) W))))) (r := main_v63) (by decide)).trans k5_main_v63
  have k7_main_v63 : (after (st1_6 (F := F)) (after (st1_5 (F := F)) (after (st1_4 (F := F)) (after (st1_3 (F := F)) (after (st1_2 (F := F)) (after (st1_1 (F := F)) (after (st1_0 (F := F)) W))))))) (Proc.devRef .tc main_v63) = Stages.val_main_v63 (F := F) x1 x3 x4 :=
    (st1_6_keep (F := F) (after (st1_5 (F := F)) (after (st1_4 (F := F)) (after (st1_3 (F := F)) (after (st1_2 (F := F)) (after (st1_1 (F := F)) (after (st1_0 (F := F)) W)))))) (r := main_v63) (by decide)).trans k6_main_v63
  have k8_main_v63 : (after (st1_7 (F := F)) (after (st1_6 (F := F)) (after (st1_5 (F := F)) (after (st1_4 (F := F)) (after (st1_3 (F := F)) (after (st1_2 (F := F)) (after (st1_1 (F := F)) (after (st1_0 (F := F)) W)))))))) (Proc.devRef .tc main_v63) = Stages.val_main_v63 (F := F) x1 x3 x4 :=
    (st1_7_keep (F := F) (after (st1_6 (F := F)) (after (st1_5 (F := F)) (after (st1_4 (F := F)) (after (st1_3 (F := F)) (after (st1_2 (F := F)) (after (st1_1 (F := F)) (after (st1_0 (F := F)) W))))))) (r := main_v63) (by decide)).trans k7_main_v63
  have k9_main_v63 : (after (st1_8 (F := F)) (after (st1_7 (F := F)) (after (st1_6 (F := F)) (after (st1_5 (F := F)) (after (st1_4 (F := F)) (after (st1_3 (F := F)) (after (st1_2 (F := F)) (after (st1_1 (F := F)) (after (st1_0 (F := F)) W))))))))) (Proc.devRef .tc main_v63) = Stages.val_main_v63 (F := F) x1 x3 x4 :=
    (st1_8_keep (F := F) (after (st1_7 (F := F)) (after (st1_6 (F := F)) (after (st1_5 (F := F)) (after (st1_4 (F := F)) (after (st1_3 (F := F)) (after (st1_2 (F := F)) (after (st1_1 (F := F)) (after (st1_0 (F := F)) W)))))))) (r := main_v63) (by decide)).trans k8_main_v63
  have k10_main_v63 : (after (st1_9 (F := F)) (after (st1_8 (F := F)) (after (st1_7 (F := F)) (after (st1_6 (F := F)) (after (st1_5 (F := F)) (after (st1_4 (F := F)) (after (st1_3 (F := F)) (after (st1_2 (F := F)) (after (st1_1 (F := F)) (after (st1_0 (F := F)) W)))))))))) (Proc.devRef .tc main_v63) = Stages.val_main_v63 (F := F) x1 x3 x4 :=
    (st1_9_keep (F := F) (after (st1_8 (F := F)) (after (st1_7 (F := F)) (after (st1_6 (F := F)) (after (st1_5 (F := F)) (after (st1_4 (F := F)) (after (st1_3 (F := F)) (after (st1_2 (F := F)) (after (st1_1 (F := F)) (after (st1_0 (F := F)) W))))))))) (r := main_v63) (by decide)).trans k9_main_v63
  rw [ops1_after]
  exact ⟨k10_main_v63, f9.1, f9.2⟩

end Cert.ReferenceIdeal.HandRun

end
-- ==== Proof.RefRun2.lean ====
/- The reference program's operations 121 … 184 (the third printed window of @main) as a list,
   cut into short stretches; for each stretch, which buffers it writes, that it leaves every other buffer alone, and that
   the buffers it writes hold their stage values when the buffers it reads do. -/
import proofs.«402966_j45758581572292_1_alg».proof.Proof.RefStages
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, one name each -/

abbrev op_main_v100 : HloOp τ sig (Elt F) :=
  StableHlo.ternary main_v97 main_v99 main_arg33 main_v100 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
abbrev op_main_v101 : HloOp τ sig (Elt F) :=
  StableHlo.unary main_v100 main_v101 (broadcastInDim S200000x1 ![0] bcast_S200000_S200000x1_0 : (⟨S200000, .i32⟩ : BufTy).Contents (Elt F) → (⟨S200000x1, .i32⟩ : BufTy).Contents (Elt F))
abbrev op_main_v102 : HloOp τ sig (Elt F) :=
  StableHlo.binary main_v41 main_v101 main_v102 ((fun x i => Host.gather gather_S30000x86_S200000x1_S200000x86_1_0_n_n_0_1_186 x i) : (⟨S30000x86, .f32⟩ : BufTy).Contents (Elt F) → (⟨S200000x1, .i32⟩ : BufTy).Contents (Elt F) → (⟨S200000x86, .f32⟩ : BufTy).Contents (Elt F))
abbrev op_main_cst : HloOp τ sig (Elt F) :=
  StableHlo.nullary main_cst (constant S_ .f32 0x00000000#32)
abbrev op_main_v103 : HloOp τ sig (Elt F) :=
  StableHlo.unary main_cst main_v103 (broadcastInDim S30000x86 ![] bcast_S_S30000x86 : (⟨S_, .f32⟩ : BufTy).Contents (Elt F) → (⟨S30000x86, .f32⟩ : BufTy).Contents (Elt F))
abbrev op_main_v104 : HloOp τ sig (Elt F) :=
  StableHlo.unary main_arg34 main_v104 (broadcastInDim S200000x1 ![0] bcast_S200000_S200000x1_0 : (⟨S200000, .i32⟩ : BufTy).Contents (Elt F) → (⟨S200000x1, .i32⟩ : BufTy).Contents (Elt F))
abbrev op_main_v105 : HloOp τ sig (Elt F) :=
  StableHlo.ternary main_v103 main_v104 main_v102 main_v105 ((fun x i u => Host.scatterAdd scatter_S30000x86_S200000x1_S200000x86_1_0_0_1 x i u) : (⟨S30000x86, .f32⟩ : BufTy).Contents (Elt F) → (⟨S200000x1, .i32⟩ : BufTy).Contents (Elt F) → (⟨S200000x86, .f32⟩ : BufTy).Contents (Elt F) → (⟨S30000x86, .f32⟩ : BufTy).Contents (Elt F))
abbrev op_main_cst_19 : HloOp τ sig (Elt F) :=
  StableHlo.nullary main_cst_19 (constant S_ .f32 0x3F800000#32)
abbrev op_main_v106 : HloOp τ sig (Elt F) :=
  StableHlo.unary main_cst_19 main_v106 (broadcastInDim S200000 ![] bcast_S_S200000 : (⟨S_, .f32⟩ : BufTy).Contents (Elt F) → (⟨S200000, .f32⟩ : BufTy).Contents (Elt F))
abbrev op_main_cst_20 : HloOp τ sig (Elt F) :=
  StableHlo.nullary main_cst_20 (constant S_ .f32 0x00000000#32)
abbrev op_main_v107 : HloOp τ sig (Elt F) :=
  StableHlo.unary main_cst_20 main_v107 (broadcastInDim S30000 ![] bcast_S_S30000 : (⟨S_, .f32⟩ : BufTy).Contents (Elt F) → (⟨S30000, .f32⟩ : BufTy).Contents (Elt F))
abbrev op_main_v108 : HloOp τ sig (Elt F) :=
  StableHlo.unary main_arg34 main_v108 (broadcastInDim S200000x1 ![0] bcast_S200000_S200000x1_0 : (⟨S200000, .i32⟩ : BufTy).Contents (Elt F) → (⟨S200000x1, .i32⟩ : BufTy).Contents (Elt F))
abbrev op_main_v109 : HloOp τ sig (Elt F) :=
  StableHlo.ternary main_v107 main_v108 main_v106 main_v109 ((fun x i u => Host.scatterAdd scatter_S30000_S200000x1_S200000_n_0_0_1 x i u) : (⟨S30000, .f32⟩ : BufTy).Contents (Elt F) → (⟨S200000x1, .i32⟩ : BufTy).Contents (Elt F) → (⟨S200000, .f32⟩ : BufTy).Contents (Elt F) → (⟨S30000, .f32⟩ : BufTy).Contents (Elt F))
abbrev op_main_cst_21 : HloOp τ sig (Elt F) :=
  StableHlo.nullary main_cst_21 (constant S_ .f32 0x3F800000#32)
abbrev op_main_v110 : HloOp τ sig (Elt F) :=
  StableHlo.unary main_cst_21 main_v110 (broadcastInDim S30000 ![] bcast_S_S30000 : (⟨S_, .f32⟩ : BufTy).Contents (Elt F) → (⟨S30000, .f32⟩ : BufTy).Contents (Elt F))
abbrev op_main_v111 : HloOp τ sig (Elt F) :=
  StableHlo.binary main_v109 main_v110 main_v111 (maximumf : (⟨S30000, .f32⟩ : BufTy).Contents (Elt F) → (⟨S30000, .f32⟩ : BufTy).Contents (Elt F) → (⟨S30000, .f32⟩ : BufTy).Contents (Elt F))
abbrev op_main_v112 : HloOp τ sig (Elt F) :=
  StableHlo.unary main_v111 main_v112 (broadcastInDim S30000x1 ![0] bcast_S30000_S30000x1_0 : (⟨S30000, .f32⟩ : BufTy).Contents (Elt F) → (⟨S30000x1, .f32⟩ : BufTy).Contents (Elt F))
abbrev op_main_v113 : HloOp τ sig (Elt F) :=
  StableHlo.unary main_v112 main_v113 (broadcastInDim S30000x86 ![0, 1] bcast_S30000x1_S30000x86_0_1 : (⟨S30000x1, .f32⟩ : BufTy).Contents (Elt F) → (⟨S30000x86, .f32⟩ : BufTy).Contents (Elt F))
abbrev op_main_v114 : HloOp τ sig (Elt F) :=
  StableHlo.binary main_v105 main_v113 main_v114 (Host.divf : (⟨S30000x86, .f32⟩ : BufTy).Contents (Elt F) → (⟨S30000x86, .f32⟩ : BufTy).Contents (Elt F) → (⟨S30000x86, .f32⟩ : BufTy).Contents (Elt F))
abbrev op_main_v115 : HloOp τ sig (Elt F) :=
  StableHlo.binary main_v114 main_arg7 main_v115 ((fun l r => Host.dotGeneral dot_S30000x86_S86x256_S30000x256_1_0_0_1_n_n none l r) : (⟨S30000x86, .f32⟩ : BufTy).Contents (Elt F) → (⟨S86x256, .f32⟩ : BufTy).Contents (Elt F) → (⟨S30000x256, .f32⟩ : BufTy).Contents (Elt F))
abbrev op_main_v116 : HloOp τ sig (Elt F) :=
  StableHlo.binary main_v63 main_arg8 main_v116 ((fun l r => Host.dotGeneral dot_S30000x72_S72x256_S30000x256_1_0_0_1_n_n none l r) : (⟨S30000x72, .f32⟩ : BufTy).Contents (Elt F) → (⟨S72x256, .f32⟩ : BufTy).Contents (Elt F) → (⟨S30000x256, .f32⟩ : BufTy).Contents (Elt F))
abbrev op_main_v117 : HloOp τ sig (Elt F) :=
  StableHlo.binary main_v115 main_v116 main_v117 (addf : (⟨S30000x256, .f32⟩ : BufTy).Contents (Elt F) → (⟨S30000x256, .f32⟩ : BufTy).Contents (Elt F) → (⟨S30000x256, .f32⟩ : BufTy).Contents (Elt F))
abbrev op_main_call0_cst : HloOp τ sig (Elt F) :=
  StableHlo.TRef.nullary main_call0.cst (constant S_ .f32 0x00000000#32)
abbrev op_main_call0_v0 : HloOp τ sig (Elt F) :=
  StableHlo.TRef.unary main_call0.cst main_call0.v0 (broadcastInDim S30000x256 ![] bcast_S_S30000x256)
abbrev op_main_v118 : HloOp τ sig (Elt F) :=
  StableHlo.TRef.binary (.of main_v117) main_call0.v0 main_call0.v1 maximumf
abbrev op_main_c_22 : HloOp τ sig (Elt F) :=
  StableHlo.nullary main_c_22 (constantI S_ 32 0#32)
abbrev op_main_v119 : HloOp τ sig (Elt F) :=
  StableHlo.unary main_c_22 main_v119 (broadcastInDim S200000 ![] bcast_S_S200000 : (⟨S_, .i32⟩ : BufTy).Contents (Elt F) → (⟨S200000, .i32⟩ : BufTy).Contents (Elt F))
abbrev op_main_v120 : HloOp τ sig (Elt F) :=
  StableHlo.binary main_arg35 main_v119 main_v120 (cmpi .slt : (⟨S200000, .i32⟩ : BufTy).Contents (Elt F) → (⟨S200000, .i32⟩ : BufTy).Contents (Elt F) → (⟨S200000, .i1⟩ : BufTy).Contents (Elt F))
abbrev op_main_c_23 : HloOp τ sig (Elt F) :=
  StableHlo.nullary main_c_23 (constantI S_ 32 30000#32)
abbrev op_main_v121 : HloOp τ sig (Elt F) :=
  StableHlo.unary main_c_23 main_v121 (broadcastInDim S200000 ![] bcast_S_S200000 : (⟨S_, .i32⟩ : BufTy).Contents (Elt F) → (⟨S200000, .i32⟩ : BufTy).Contents (Elt F))
abbrev op_main_v122 : HloOp τ sig (Elt F) :=
  StableHlo.binary main_arg35 main_v121 main_v122 (addi : (⟨S200000, .i32⟩ : BufTy).Contents (Elt F) → (⟨S200000, .i32⟩ : BufTy).Contents (Elt F) → (⟨S200000, .i32⟩ : BufTy).Contents (Elt F))
abbrev op_main_v123 : HloOp τ sig (Elt F) :=
  StableHlo.ternary main_v120 main_v122 main_arg35 main_v123 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
abbrev op_main_v124 : HloOp τ sig (Elt F) :=
  StableHlo.unary main_v123 main_v124 (broadcastInDim S200000x1 ![0] bcast_S200000_S200000x1_0 : (⟨S200000, .i32⟩ : BufTy).Contents (Elt F) → (⟨S200000x1, .i32⟩ : BufTy).Contents (Elt F))
abbrev op_main_v125 : HloOp τ sig (Elt F) :=
  StableHlo.binary main_v41 main_v124 main_v125 ((fun x i => Host.gather gather_S30000x86_S200000x1_S200000x86_1_0_n_n_0_1_186 x i) : (⟨S30000x86, .f32⟩ : BufTy).Contents (Elt F) → (⟨S200000x1, .i32⟩ : BufTy).Contents (Elt F) → (⟨S200000x86, .f32⟩ : BufTy).Contents (Elt F))
abbrev op_main_cst_24 : HloOp τ sig (Elt F) :=
  StableHlo.nullary main_cst_24 (constant S_ .f32 0x00000000#32)
abbrev op_main_v126 : HloOp τ sig (Elt F) :=
  StableHlo.unary main_cst_24 main_v126 (broadcastInDim S30000x86 ![] bcast_S_S30000x86 : (⟨S_, .f32⟩ : BufTy).Contents (Elt F) → (⟨S30000x86, .f32⟩ : BufTy).Contents (Elt F))
abbrev op_main_v127 : HloOp τ sig (Elt F) :=
  StableHlo.unary main_arg36 main_v127 (broadcastInDim S200000x1 ![0] bcast_S200000_S200000x1_0 : (⟨S200000, .i32⟩ : BufTy).Contents (Elt F) → (⟨S200000x1, .i32⟩ : BufTy).Contents (Elt F))
abbrev op_main_v128 : HloOp τ sig (Elt F) :=
  StableHlo.ternary main_v126 main_v127 main_v125 main_v128 ((fun x i u => Host.scatterAdd scatter_S30000x86_S200000x1_S200000x86_1_0_0_1 x i u) : (⟨S30000x86, .f32⟩ : BufTy).Contents (Elt F) → (⟨S200000x1, .i32⟩ : BufTy).Contents (Elt F) → (⟨S200000x86, .f32⟩ : BufTy).Contents (Elt F) → (⟨S30000x86, .f32⟩ : BufTy).Contents (Elt F))
abbrev op_main_cst_25 : HloOp τ sig (Elt F) :=
  StableHlo.nullary main_cst_25 (constant S_ .f32 0x3F800000#32)
abbrev op_main_v129 : HloOp τ sig (Elt F) :=
  StableHlo.unary main_cst_25 main_v129 (broadcastInDim S200000 ![] bcast_S_S200000 : (⟨S_, .f32⟩ : BufTy).Contents (Elt F) → (⟨S200000, .f32⟩ : BufTy).Contents (Elt F))
abbrev op_main_cst_26 : HloOp τ sig (Elt F) :=
  StableHlo.nullary main_cst_26 (constant S_ .f32 0x00000000#32)
abbrev op_main_v130 : HloOp τ sig (Elt F) :=
  StableHlo.unary main_cst_26 main_v130 (broadcastInDim S30000 ![] bcast_S_S30000 : (⟨S_, .f32⟩ : BufTy).Contents (Elt F) → (⟨S30000, .f32⟩ : BufTy).Contents (Elt F))
abbrev op_main_v131 : HloOp τ sig (Elt F) :=
  StableHlo.unary main_arg36 main_v131 (broadcastInDim S200000x1 ![0] bcast_S200000_S200000x1_0 : (⟨S200000, .i32⟩ : BufTy).Contents (Elt F) → (⟨S200000x1, .i32⟩ : BufTy).Contents (Elt F))
abbrev op_main_v132 : HloOp τ sig (Elt F) :=
  StableHlo.ternary main_v130 main_v131 main_v129 main_v132 ((fun x i u => Host.scatterAdd scatter_S30000_S200000x1_S200000_n_0_0_1 x i u) : (⟨S30000, .f32⟩ : BufTy).Contents (Elt F) → (⟨S200000x1, .i32⟩ : BufTy).Contents (Elt F) → (⟨S200000, .f32⟩ : BufTy).Contents (Elt F) → (⟨S30000, .f32⟩ : BufTy).Contents (Elt F))
abbrev op_main_cst_27 : HloOp τ sig (Elt F) :=
  StableHlo.nullary main_cst_27 (constant S_ .f32 0x3F800000#32)
abbrev op_main_v133 : HloOp τ sig (Elt F) :=
  StableHlo.unary main_cst_27 main_v133 (broadcastInDim S30000 ![] bcast_S_S30000 : (⟨S_, .f32⟩ : BufTy).Contents (Elt F) → (⟨S30000, .f32⟩ : BufTy).Contents (Elt F))
abbrev op_main_v134 : HloOp τ sig (Elt F) :=
  StableHlo.binary main_v132 main_v133 main_v134 (maximumf : (⟨S30000, .f32⟩ : BufTy).Contents (Elt F) → (⟨S30000, .f32⟩ : BufTy).Contents (Elt F) → (⟨S30000, .f32⟩ : BufTy).Contents (Elt F))
abbrev op_main_v135 : HloOp τ sig (Elt F) :=
  StableHlo.unary main_v134 main_v135 (broadcastInDim S30000x1 ![0] bcast_S30000_S30000x1_0 : (⟨S30000, .f32⟩ : BufTy).Contents (Elt F) → (⟨S30000x1, .f32⟩ : BufTy).Contents (Elt F))
abbrev op_main_v136 : HloOp τ sig (Elt F) :=
  StableHlo.unary main_v135 main_v136 (broadcastInDim S30000x86 ![0, 1] bcast_S30000x1_S30000x86_0_1 : (⟨S30000x1, .f32⟩ : BufTy).Contents (Elt F) → (⟨S30000x86, .f32⟩ : BufTy).Contents (Elt F))
abbrev op_main_v137 : HloOp τ sig (Elt F) :=
  StableHlo.binary main_v128 main_v136 main_v137 (Host.divf : (⟨S30000x86, .f32⟩ : BufTy).Contents (Elt F) → (⟨S30000x86, .f32⟩ : BufTy).Contents (Elt F) → (⟨S30000x86, .f32⟩ : BufTy).Contents (Elt F))
abbrev op_main_v138 : HloOp τ sig (Elt F) :=
  StableHlo.binary main_v137 main_arg9 main_v138 ((fun l r => Host.dotGeneral dot_S30000x86_S86x256_S30000x256_1_0_0_1_n_n none l r) : (⟨S30000x86, .f32⟩ : BufTy).Contents (Elt F) → (⟨S86x256, .f32⟩ : BufTy).Contents (Elt F) → (⟨S30000x256, .f32⟩ : BufTy).Contents (Elt F))
abbrev op_main_v139 : HloOp τ sig (Elt F) :=
  StableHlo.binary main_v41 main_arg10 main_v139 ((fun l r => Host.dotGeneral dot_S30000x86_S86x256_S30000x256_1_0_0_1_n_n none l r) : (⟨S30000x86, .f32⟩ : BufTy).Contents (Elt F) → (⟨S86x256, .f32⟩ : BufTy).Contents (Elt F) → (⟨S30000x256, .f32⟩ : BufTy).Contents (Elt F))
abbrev op_main_v140 : HloOp τ sig (Elt F) :=
  StableHlo.binary main_v138 main_v139 main_v140 (addf : (⟨S30000x256, .f32⟩ : BufTy).Contents (Elt F) → (⟨S30000x256, .f32⟩ : BufTy).Contents (Elt F) → (⟨S30000x256, .f32⟩ : BufTy).Contents (Elt F))
abbrev op_main_call1_cst : HloOp τ sig (Elt F) :=
  StableHlo.TRef.nullary main_call1.cst (constant S_ .f32 0x00000000#32)
abbrev op_main_call1_v0 : HloOp τ sig (Elt F) :=
  StableHlo.TRef.unary main_call1.cst main_call1.v0 (broadcastInDim S30000x256 ![] bcast_S_S30000x256)
abbrev op_main_v141 : HloOp τ sig (Elt F) :=
  StableHlo.TRef.binary (.of main_v140) main_call1.v0 main_call1.v1 maximumf
abbrev op_main_c_28 : HloOp τ sig (Elt F) :=
  StableHlo.nullary main_c_28 (constantI S_ 32 0#32)
abbrev op_main_v142 : HloOp τ sig (Elt F) :=
  StableHlo.unary main_c_28 main_v142 (broadcastInDim S200000 ![] bcast_S_S200000 : (⟨S_, .i32⟩ : BufTy).Contents (Elt F) → (⟨S200000, .i32⟩ : BufTy).Contents (Elt F))
abbrev op_main_v143 : HloOp τ sig (Elt F) :=
  StableHlo.binary main_arg37 main_v142 main_v143 (cmpi .slt : (⟨S200000, .i32⟩ : BufTy).Contents (Elt F) → (⟨S200000, .i32⟩ : BufTy).Contents (Elt F) → (⟨S200000, .i1⟩ : BufTy).Contents (Elt F))
abbrev op_main_c_29 : HloOp τ sig (Elt F) :=
  StableHlo.nullary main_c_29 (constantI S_ 32 30000#32)
abbrev op_main_v144 : HloOp τ sig (Elt F) :=
  StableHlo.unary main_c_29 main_v144 (broadcastInDim S200000 ![] bcast_S_S200000 : (⟨S_, .i32⟩ : BufTy).Contents (Elt F) → (⟨S200000, .i32⟩ : BufTy).Contents (Elt F))
abbrev op_main_v145 : HloOp τ sig (Elt F) :=
  StableHlo.binary main_arg37 main_v144 main_v145 (addi : (⟨S200000, .i32⟩ : BufTy).Contents (Elt F) → (⟨S200000, .i32⟩ : BufTy).Contents (Elt F) → (⟨S200000, .i32⟩ : BufTy).Contents (Elt F))
abbrev op_main_v146 : HloOp τ sig (Elt F) :=
  StableHlo.ternary main_v143 main_v145 main_arg37 main_v146 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
abbrev op_main_v147 : HloOp τ sig (Elt F) :=
  StableHlo.unary main_v146 main_v147 (broadcastInDim S200000x1 ![0] bcast_S200000_S200000x1_0 : (⟨S200000, .i32⟩ : BufTy).Contents (Elt F) → (⟨S200000x1, .i32⟩ : BufTy).Contents (Elt F))

/-! ## The stretches -/

/-- Operations 121 … 128 of the reference program, in order. -/
abbrev st2_0 : List (HloOp τ sig (Elt F)) :=
  [op_main_v100, op_main_v101, op_main_v102, op_main_cst, op_main_v103, op_main_v104, op_main_v105, op_main_cst_19]
/-- The buffers those operations write. -/
abbrev st2_0_W : List (Ref sig .tc) := [main_v100, main_v101, main_v102, main_cst, main_v103, main_v104, main_v105, main_cst_19]
theorem st2_0_writes : (st2_0 : List (HloOp τ sig (Elt F))).Forall fun op => op.writes ⊆ (st2_0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st2_0_keep (W : Valuation τ sig (Elt F)) {r : Ref sig .tc} (h : r ∉ st2_0_W) :
    after (st2_0 (F := F)) W (Proc.devRef .tc r) = W (Proc.devRef .tc r) :=
  after_of_writes_sub st2_0 W st2_0_writes h
/-- From contents at which the buffers read hold their stage values, the buffers written here that are read later hold theirs:
    each is its operation applied to the operands' contents, which is the stage value's definition. -/
theorem st2_0_vals (x0 : (⟨S30000x12, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x33 : (⟨S200000, .i32⟩ : BufTy).Contents (Elt F)) (x34 : (⟨S200000, .i32⟩ : BufTy).Contents (Elt F)) (W : Valuation τ sig (Elt F))
    (h_main_arg33 : W (Proc.devRef .tc main_arg33) = x33)
    (h_main_v99 : W (Proc.devRef .tc main_v99) = Stages.val_main_v99 (F := F) x33)
    (h_main_v97 : W (Proc.devRef .tc main_v97) = Stages.val_main_v97 (F := F) x33)
    (h_main_v41 : W (Proc.devRef .tc main_v41) = Stages.val_main_v41 (F := F) x0 x3 x4 x5 x6)
    (h_main_arg34 : W (Proc.devRef .tc main_arg34) = x34)
    :
    after (st2_0 (F := F)) W (Proc.devRef .tc main_v105) = Stages.val_main_v105 (F := F) x0 x3 x4 x5 x6 x33 x34
    ∧ after (st2_0 (F := F)) W (Proc.devRef .tc main_cst_19) = Stages.val_main_cst_19 (F := F) := by
  refine ⟨?_, ?_⟩
  · after_results; rw [h_main_arg33, h_main_v99, h_main_v97, h_main_v41, h_main_arg34]; rfl
  · after_results; rfl

/-- Operations 129 … 136 of the reference program, in order. -/
abbrev st2_1 : List (HloOp τ sig (Elt F)) :=
  [op_main_v106, op_main_cst_20, op_main_v107, op_main_v108, op_main_v109, op_main_cst_21, op_main_v110, op_main_v111]
/-- The buffers those operations write. -/
abbrev st2_1_W : List (Ref sig .tc) := [main_v106, main_cst_20, main_v107, main_v108, main_v109, main_cst_21, main_v110, main_v111]
theorem st2_1_writes : (st2_1 : List (HloOp τ sig (Elt F))).Forall fun op => op.writes ⊆ (st2_1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st2_1_keep (W : Valuation τ sig (Elt F)) {r : Ref sig .tc} (h : r ∉ st2_1_W) :
    after (st2_1 (F := F)) W (Proc.devRef .tc r) = W (Proc.devRef .tc r) :=
  after_of_writes_sub st2_1 W st2_1_writes h
/-- From contents at which the buffers read hold their stage values, the buffers written here that are read later hold theirs:
    each is its operation applied to the operands' contents, which is the stage value's definition. -/
theorem st2_1_vals (x34 : (⟨S200000, .i32⟩ : BufTy).Contents (Elt F)) (W : Valuation τ sig (Elt F))
    (h_main_cst_19 : W (Proc.devRef .tc main_cst_19) = Stages.val_main_cst_19 (F := F))
    (h_main_arg34 : W (Proc.devRef .tc main_arg34) = x34)
    :
    after (st2_1 (F := F)) W (Proc.devRef .tc main_v111) = Stages.val_main_v111 (F := F) x34 := by
  after_results; rw [h_main_cst_19, h_main_arg34]; rfl

/-- Operations 137 … 144 of the reference program, in order. -/
abbrev st2_2 : List (HloOp τ sig (Elt F)) :=
  [op_main_v112, op_main_v113, op_main_v114, op_main_v115, op_main_v116, op_main_v117, op_main_call0_cst, op_main_call0_v0]
/-- The buffers those operations write. -/
abbrev st2_2_W : List (Ref sig .tc) := [main_v112, main_v113, main_v114, main_v115, main_v116, main_v117, main_call0_cst, main_call0_v0]
theorem st2_2_writes : (st2_2 : List (HloOp τ sig (Elt F))).Forall fun op => op.writes ⊆ (st2_2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st2_2_keep (W : Valuation τ sig (Elt F)) {r : Ref sig .tc} (h : r ∉ st2_2_W) :
    after (st2_2 (F := F)) W (Proc.devRef .tc r) = W (Proc.devRef .tc r) :=
  after_of_writes_sub st2_2 W st2_2_writes h
/-- From contents at which the buffers read hold their stage values, the buffers written here that are read later hold theirs:
    each is its operation applied to the operands' contents, which is the stage value's definition. -/
theorem st2_2_vals (x0 : (⟨S30000x12, .f32⟩ : BufTy).Contents (Elt F)) (x1 : (⟨S30000x10, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x7 : (⟨S86x256, .f32⟩ : BufTy).Contents (Elt F)) (x8 : (⟨S72x256, .f32⟩ : BufTy).Contents (Elt F)) (x33 : (⟨S200000, .i32⟩ : BufTy).Contents (Elt F)) (x34 : (⟨S200000, .i32⟩ : BufTy).Contents (Elt F)) (W : Valuation τ sig (Elt F))
    (h_main_arg8 : W (Proc.devRef .tc main_arg8) = x8)
    (h_main_v63 : W (Proc.devRef .tc main_v63) = Stages.val_main_v63 (F := F) x1 x3 x4)
    (h_main_arg7 : W (Proc.devRef .tc main_arg7) = x7)
    (h_main_v111 : W (Proc.devRef .tc main_v111) = Stages.val_main_v111 (F := F) x34)
    (h_main_v105 : W (Proc.devRef .tc main_v105) = Stages.val_main_v105 (F := F) x0 x3 x4 x5 x6 x33 x34)
    :
    after (st2_2 (F := F)) W (Proc.devRef .tc main_v117) = Stages.val_main_v117 (F := F) x0 x1 x3 x4 x5 x6 x7 x8 x33 x34
    ∧ after (st2_2 (F := F)) W (Proc.devRef .tc main_call0_v0) = Stages.val_main_call0_v0 (F := F) := by
  refine ⟨?_, ?_⟩
  · after_results; (try simp only [TRef.ofBuf, TRef.toBuf, cast_eq]); rw [h_main_arg8, h_main_v63, h_main_arg7, h_main_v111, h_main_v105]; rfl
  · after_results; (try simp only [TRef.ofBuf, TRef.toBuf, cast_eq]); rfl

/-- Operations 145 … 152 of the reference program, in order. -/
abbrev st2_3 : List (HloOp τ sig (Elt F)) :=
  [op_main_v118, op_main_c_22, op_main_v119, op_main_v120, op_main_c_23, op_main_v121, op_main_v122, op_main_v123]
/-- The buffers those operations write. -/
abbrev st2_3_W : List (Ref sig .tc) := [main_v118, main_c_22, main_v119, main_v120, main_c_23, main_v121, main_v122, main_v123]
theorem st2_3_writes : (st2_3 : List (HloOp τ sig (Elt F))).Forall fun op => op.writes ⊆ (st2_3_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st2_3_keep (W : Valuation τ sig (Elt F)) {r : Ref sig .tc} (h : r ∉ st2_3_W) :
    after (st2_3 (F := F)) W (Proc.devRef .tc r) = W (Proc.devRef .tc r) :=
  after_of_writes_sub st2_3 W st2_3_writes h
/-- From contents at which the buffers read hold their stage values, the buffers written here that are read later hold theirs:
    each is its operation applied to the operands' contents, which is the stage value's definition. -/
theorem st2_3_vals (x0 : (⟨S30000x12, .f32⟩ : BufTy).Contents (Elt F)) (x1 : (⟨S30000x10, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x7 : (⟨S86x256, .f32⟩ : BufTy).Contents (Elt F)) (x8 : (⟨S72x256, .f32⟩ : BufTy).Contents (Elt F)) (x33 : (⟨S200000, .i32⟩ : BufTy).Contents (Elt F)) (x34 : (⟨S200000, .i32⟩ : BufTy).Contents (Elt F)) (x35 : (⟨S200000, .i32⟩ : BufTy).Contents (Elt F)) (W : Valuation τ sig (Elt F))
    (h_main_call0_v0 : W (Proc.devRef .tc main_call0_v0) = Stages.val_main_call0_v0 (F := F))
    (h_main_v117 : W (Proc.devRef .tc main_v117) = Stages.val_main_v117 (F := F) x0 x1 x3 x4 x5 x6 x7 x8 x33 x34)
    (h_main_arg35 : W (Proc.devRef .tc main_arg35) = x35)
    :
    after (st2_3 (F := F)) W (Proc.devRef .tc main_v118) = Stages.val_main_v118 (F := F) x0 x1 x3 x4 x5 x6 x7 x8 x33 x34
    ∧ after (st2_3 (F := F)) W (Proc.devRef .tc main_v123) = Stages.val_main_v123 (F := F) x35 := by
  refine ⟨?_, ?_⟩
  · after_results; (try simp only [TRef.ofBuf, TRef.toBuf, cast_eq]); rw [h_main_call0_v0, h_main_v117]; rfl
  · after_results; (try simp only [TRef.ofBuf, TRef.toBuf, cast_eq]); rw [h_main_arg35]; rfl

/-- Operations 153 … 160 of the reference program, in order. -/
abbrev st2_4 : List (HloOp τ sig (Elt F)) :=
  [op_main_v124, op_main_v125, op_main_cst_24, op_main_v126, op_main_v127, op_main_v128, op_main_cst_25, op_main_v129]
/-- The buffers those operations write. -/
abbrev st2_4_W : List (Ref sig .tc) := [main_v124, main_v125, main_cst_24, main_v126, main_v127, main_v128, main_cst_25, main_v129]
theorem st2_4_writes : (st2_4 : List (HloOp τ sig (Elt F))).Forall fun op => op.writes ⊆ (st2_4_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st2_4_keep (W : Valuation τ sig (Elt F)) {r : Ref sig .tc} (h : r ∉ st2_4_W) :
    after (st2_4 (F := F)) W (Proc.devRef .tc r) = W (Proc.devRef .tc r) :=
  after_of_writes_sub st2_4 W st2_4_writes h
/-- From contents at which the buffers read hold their stage values, the buffers written here that are read later hold theirs:
    each is its operation applied to the operands' contents, which is the stage value's definition. -/
theorem st2_4_vals (x0 : (⟨S30000x12, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x35 : (⟨S200000, .i32⟩ : BufTy).Contents (Elt F)) (x36 : (⟨S200000, .i32⟩ : BufTy).Contents (Elt F)) (W : Valuation τ sig (Elt F))
    (h_main_v123 : W (Proc.devRef .tc main_v123) = Stages.val_main_v123 (F := F) x35)
    (h_main_v41 : W (Proc.devRef .tc main_v41) = Stages.val_main_v41 (F := F) x0 x3 x4 x5 x6)
    (h_main_arg36 : W (Proc.devRef .tc main_arg36) = x36)
    :
    after (st2_4 (F := F)) W (Proc.devRef .tc main_v128) = Stages.val_main_v128 (F := F) x0 x3 x4 x5 x6 x35 x36
    ∧ after (st2_4 (F := F)) W (Proc.devRef .tc main_v129) = Stages.val_main_v129 (F := F) := by
  refine ⟨?_, ?_⟩
  · after_results; rw [h_main_v123, h_main_v41, h_main_arg36]; rfl
  · after_results; rfl

/-- Operations 161 … 168 of the reference program, in order. -/
abbrev st2_5 : List (HloOp τ sig (Elt F)) :=
  [op_main_cst_26, op_main_v130, op_main_v131, op_main_v132, op_main_cst_27, op_main_v133, op_main_v134, op_main_v135]
/-- The buffers those operations write. -/
abbrev st2_5_W : List (Ref sig .tc) := [main_cst_26, main_v130, main_v131, main_v132, main_cst_27, main_v133, main_v134, main_v135]
theorem st2_5_writes : (st2_5 : List (HloOp τ sig (Elt F))).Forall fun op => op.writes ⊆ (st2_5_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st2_5_keep (W : Valuation τ sig (Elt F)) {r : Ref sig .tc} (h : r ∉ st2_5_W) :
    after (st2_5 (F := F)) W (Proc.devRef .tc r) = W (Proc.devRef .tc r) :=
  after_of_writes_sub st2_5 W st2_5_writes h
/-- From contents at which the buffers read hold their stage values, the buffers written here that are read later hold theirs:
    each is its operation applied to the operands' contents, which is the stage value's definition. -/
theorem st2_5_vals (x36 : (⟨S200000, .i32⟩ : BufTy).Contents (Elt F)) (W : Valuation τ sig (Elt F))
    (h_main_v129 : W (Proc.devRef .tc main_v129) = Stages.val_main_v129 (F := F))
    (h_main_arg36 : W (Proc.devRef .tc main_arg36) = x36)
    :
    after (st2_5 (F := F)) W (Proc.devRef .tc main_v135) = Stages.val_main_v135 (F := F) x36 := by
  after_results; rw [h_main_v129, h_main_arg36]; rfl

/-- Operations 169 … 176 of the reference program, in order. -/
abbrev st2_6 : List (HloOp τ sig (Elt F)) :=
  [op_main_v136, op_main_v137, op_main_v138, op_main_v139, op_main_v140, op_main_call1_cst, op_main_call1_v0, op_main_v141]
/-- The buffers those operations write. -/
abbrev st2_6_W : List (Ref sig .tc) := [main_v136, main_v137, main_v138, main_v139, main_v140, main_call1_cst, main_call1_v0, main_v141]
theorem st2_6_writes : (st2_6 : List (HloOp τ sig (Elt F))).Forall fun op => op.writes ⊆ (st2_6_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st2_6_keep (W : Valuation τ sig (Elt F)) {r : Ref sig .tc} (h : r ∉ st2_6_W) :
    after (st2_6 (F := F)) W (Proc.devRef .tc r) = W (Proc.devRef .tc r) :=
  after_of_writes_sub st2_6 W st2_6_writes h
/-- From contents at which the buffers read hold their stage values, the buffers written here that are read later hold theirs:
    each is its operation applied to the operands' contents, which is the stage value's definition. -/
theorem st2_6_vals (x0 : (⟨S30000x12, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x9 : (⟨S86x256, .f32⟩ : BufTy).Contents (Elt F)) (x10 : (⟨S86x256, .f32⟩ : BufTy).Contents (Elt F)) (x35 : (⟨S200000, .i32⟩ : BufTy).Contents (Elt F)) (x36 : (⟨S200000, .i32⟩ : BufTy).Contents (Elt F)) (W : Valuation τ sig (Elt F))
    (h_main_arg10 : W (Proc.devRef .tc main_arg10) = x10)
    (h_main_v41 : W (Proc.devRef .tc main_v41) = Stages.val_main_v41 (F := F) x0 x3 x4 x5 x6)
    (h_main_arg9 : W (Proc.devRef .tc main_arg9) = x9)
    (h_main_v135 : W (Proc.devRef .tc main_v135) = Stages.val_main_v135 (F := F) x36)
    (h_main_v128 : W (Proc.devRef .tc main_v128) = Stages.val_main_v128 (F := F) x0 x3 x4 x5 x6 x35 x36)
    :
    after (st2_6 (F := F)) W (Proc.devRef .tc main_v141) = Stages.val_main_v141 (F := F) x0 x3 x4 x5 x6 x9 x10 x35 x36 := by
  after_results; (try simp only [TRef.ofBuf, TRef.toBuf, cast_eq]); rw [h_main_arg10, h_main_v41, h_main_arg9, h_main_v135, h_main_v128]; rfl

/-- Operations 177 … 184 of the reference program, in order. -/
abbrev st2_7 : List (HloOp τ sig (Elt F)) :=
  [op_main_c_28, op_main_v142, op_main_v143, op_main_c_29, op_main_v144, op_main_v145, op_main_v146, op_main_v147]
/-- The buffers those operations write. -/
abbrev st2_7_W : List (Ref sig .tc) := [main_c_28, main_v142, main_v143, main_c_29, main_v144, main_v145, main_v146, main_v147]
theorem st2_7_writes : (st2_7 : List (HloOp τ sig (Elt F))).Forall fun op => op.writes ⊆ (st2_7_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st2_7_keep (W : Valuation τ sig (Elt F)) {r : Ref sig .tc} (h : r ∉ st2_7_W) :
    after (st2_7 (F := F)) W (Proc.devRef .tc r) = W (Proc.devRef .tc r) :=
  after_of_writes_sub st2_7 W st2_7_writes h

/-! ## The window as one list -/

/-- The window's operations, in order. -/
abbrev ops2 : List (HloOp τ sig (Elt F)) :=
  [op_main_v100, op_main_v101, op_main_v102, op_main_cst, op_main_v103, op_main_v104, op_main_v105, op_main_cst_19, op_main_v106, op_main_cst_20, op_main_v107, op_main_v108, op_main_v109, op_main_cst_21, op_main_v110, op_main_v111, op_main_v112, op_main_v113, op_main_v114, op_main_v115, op_main_v116, op_main_v117, op_main_call0_cst, op_main_call0_v0, op_main_v118, op_main_c_22, op_main_v119, op_main_v120, op_main_c_23, op_main_v121, op_main_v122, op_main_v123, op_main_v124, op_main_v125, op_main_cst_24, op_main_v126, op_main_v127, op_main_v128, op_main_cst_25, op_main_v129, op_main_cst_26, op_main_v130, op_main_v131, op_main_v132, op_main_cst_27, op_main_v133, op_main_v134, op_main_v135, op_main_v136, op_main_v137, op_main_v138, op_main_v139, op_main_v140, op_main_call1_cst, op_main_call1_v0, op_main_v141, op_main_c_28, op_main_v142, op_main_v143, op_main_c_29, op_main_v144, op_main_v145, op_main_v146, op_main_v147]
theorem ops2_split : (ops2 : List (HloOp τ sig (Elt F))) = st2_0 ++ st2_1 ++ st2_2 ++ st2_3 ++ st2_4 ++ st2_5 ++ st2_6 ++ st2_7 := rfl
set_option maxRecDepth 8192 in
/-- The printed window is that line of operations: the called functions' bodies stand at their call sites, and sequencing is reassociated. -/
theorem main_part2_eq (c : Dev nD) : main_part2 (F := F) c = seq ops2 := by
  simp only [main_part2, fn_relu.body, fn_relu_0.body, fn_relu_1.body, seq, bind_assoc, pure_bind]
  rfl
/-- Every operation touches TensorCore buffers only. -/
theorem ops2_sub : (ops2 : List (HloOp τ sig (Elt F))).Forall fun op => op.bufs ⊆ tcRefs τ sig :=
  ⟨ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩
/-- Every operation determines its results. -/
theorem ops2_fresh : (ops2 : List (HloOp τ sig (Elt F))).Forall fun op => op.fresh = ∅ := by
  simp only [List.Forall]; repeat' constructor
/-- The buffers the window writes. -/
abbrev ops2_W : List (Ref sig .tc) := [main_v100, main_v101, main_v102, main_cst, main_v103, main_v104, main_v105, main_cst_19, main_v106, main_cst_20, main_v107, main_v108, main_v109, main_cst_21, main_v110, main_v111, main_v112, main_v113, main_v114, main_v115, main_v116, main_v117, main_call0_cst, main_call0_v0, main_v118, main_c_22, main_v119, main_v120, main_c_23, main_v121, main_v122, main_v123, main_v124, main_v125, main_cst_24, main_v126, main_v127, main_v128, main_cst_25, main_v129, main_cst_26, main_v130, main_v131, main_v132, main_cst_27, main_v133, main_v134, main_v135, main_v136, main_v137, main_v138, main_v139, main_v140, main_call1_cst, main_call1_v0, main_v141, main_c_28, main_v142, main_v143, main_c_29, main_v144, main_v145, main_v146, main_v147]
theorem ops2_writes : (ops2 : List (HloOp τ sig (Elt F))).Forall fun op => op.writes ⊆ (ops2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer the window does not write holds after it what it held before. -/
theorem ops2_keep (W : Valuation τ sig (Elt F)) {r : Ref sig .tc} (h : r ∉ ops2_W) :
    after (ops2 (F := F)) W (Proc.devRef .tc r) = W (Proc.devRef .tc r) :=
  after_of_writes_sub ops2 W ops2_writes h
/-- The window's fold is the stretches' folds, one after the other. -/
theorem ops2_after (W : Valuation τ sig (Elt F)) : after (ops2 (F := F)) W = after (st2_7 (F := F)) (after (st2_6 (F := F)) (after (st2_5 (F := F)) (after (st2_4 (F := F)) (after (st2_3 (F := F)) (after (st2_2 (F := F)) (after (st2_1 (F := F)) (after (st2_0 (F := F)) W))))))) := by
  rw [ops2_split, after_append, after_append, after_append, after_append, after_append, after_append, after_append]
/-- From contents at which the buffers the window reads hold their stage values, the buffers it writes that later windows read
    (or that are results) hold theirs: stretch by stretch, a buffer written earlier carried across the stretches that do not write it. -/
theorem ops2_vals (x0 : (⟨S30000x12, .f32⟩ : BufTy).Contents (Elt F)) (x1 : (⟨S30000x10, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x7 : (⟨S86x256, .f32⟩ : BufTy).Contents (Elt F)) (x8 : (⟨S72x256, .f32⟩ : BufTy).Contents (Elt F)) (x9 : (⟨S86x256, .f32⟩ : BufTy).Contents (Elt F)) (x10 : (⟨S86x256, .f32⟩ : BufTy).Contents (Elt F)) (x33 : (⟨S200000, .i32⟩ : BufTy).Contents (Elt F)) (x34 : (⟨S200000, .i32⟩ : BufTy).Contents (Elt F)) (x35 : (⟨S200000, .i32⟩ : BufTy).Contents (Elt F)) (x36 : (⟨S200000, .i32⟩ : BufTy).Contents (Elt F)) (W : Valuation τ sig (Elt F))
    (h_main_arg33 : W (Proc.devRef .tc main_arg33) = x33)
    (h_main_v99 : W (Proc.devRef .tc main_v99) = Stages.val_main_v99 (F := F) x33)
    (h_main_v97 : W (Proc.devRef .tc main_v97) = Stages.val_main_v97 (F := F) x33)
    (h_main_v41 : W (Proc.devRef .tc main_v41) = Stages.val_main_v41 (F := F) x0 x3 x4 x5 x6)
    (h_main_arg34 : W (Proc.devRef .tc main_arg34) = x34)
    (h_main_arg8 : W (Proc.devRef .tc main_arg8) = x8)
    (h_main_v63 : W (Proc.devRef .tc main_v63) = Stages.val_main_v63 (F := F) x1 x3 x4)
    (h_main_arg7 : W (Proc.devRef .tc main_arg7) = x7)
    (h_main_arg35 : W (Proc.devRef .tc main_arg35) = x35)
    (h_main_arg36 : W (Proc.devRef .tc main_arg36) = x36)
    (h_main_arg10 : W (Proc.devRef .tc main_arg10) = x10)
    (h_main_arg9 : W (Proc.devRef .tc main_arg9) = x9)
    :
    after (ops2 (F := F)) W (Proc.devRef .tc main_v118) = Stages.val_main_v118 (F := F) x0 x1 x3 x4 x5 x6 x7 x8 x33 x34
    ∧ after (ops2 (F := F)) W (Proc.devRef .tc main_v141) = Stages.val_main_v141 (F := F) x0 x3 x4 x5 x6 x9 x10 x35 x36 := by
  have f0 := st2_0_vals (F := F) x0 x3 x4 x5 x6 x33 x34 W h_main_arg33 h_main_v99 h_main_v97 h_main_v41 h_main_arg34
  have k1_main_arg34 : (after (st2_0 (F := F)) W) (Proc.devRef .tc main_arg34) = x34 :=
    (st2_0_keep (F := F) W (r := main_arg34) (by decide)).trans h_main_arg34
  have f1 := st2_1_vals (F := F) x34 (after (st2_0 (F := F)) W) f0.2 k1_main_arg34
  have k1_main_arg8 : (after (st2_0 (F := F)) W) (Proc.devRef .tc main_arg8) = x8 :=
    (st2_0_keep (F := F) W (r := main_arg8) (by decide)).trans h_main_arg8
  have k2_main_arg8 : (after (st2_1 (F := F)) (after (st2_0 (F := F)) W)) (Proc.devRef .tc main_arg8) = x8 :=
    (st2_1_keep (F := F) (after (st2_0 (F := F)) W) (r := main_arg8) (by decide)).trans k1_main_arg8
  have k1_main_v63 : (after (st2_0 (F := F)) W) (Proc.devRef .tc main_v63) = Stages.val_main_v63 (F := F) x1 x3 x4 :=
    (st2_0_keep (F := F) W (r := main_v63) (by decide)).trans h_main_v63
  have k2_main_v63 : (after (st2_1 (F := F)) (after (st2_0 (F := F)) W)) (Proc.devRef .tc main_v63) = Stages.val_main_v63 (F := F) x1 x3 x4 :=
    (st2_1_keep (F := F) (after (st2_0 (F := F)) W) (r := main_v63) (by decide)).trans k1_main_v63
  have k1_main_arg7 : (after (st2_0 (F := F)) W) (Proc.devRef .tc main_arg7) = x7 :=
    (st2_0_keep (F := F) W (r := main_arg7) (by decide)).trans h_main_arg7
  have k2_main_arg7 : (after (st2_1 (F := F)) (after (st2_0 (F := F)) W)) (Proc.devRef .tc main_arg7) = x7 :=
    (st2_1_keep (F := F) (after (st2_0 (F := F)) W) (r := main_arg7) (by decide)).trans k1_main_arg7
  have k2_main_v105 : (after (st2_1 (F := F)) (after (st2_0 (F := F)) W)) (Proc.devRef .tc main_v105) = Stages.val_main_v105 (F := F) x0 x3 x4 x5 x6 x33 x34 :=
    (st2_1_keep (F := F) (after (st2_0 (F := F)) W) (r := main_v105) (by decide)).trans f0.1
  have f2 := st2_2_vals (F := F) x0 x1 x3 x4 x5 x6 x7 x8 x33 x34 (after (st2_1 (F := F)) (after (st2_0 (F := F)) W)) k2_main_arg8 k2_main_v63 k2_main_arg7 f1 k2_main_v105
  have k1_main_arg35 : (after (st2_0 (F := F)) W) (Proc.devRef .tc main_arg35) = x35 :=
    (st2_0_keep (F := F) W (r := main_arg35) (by decide)).trans h_main_arg35
  have k2_main_arg35 : (after (st2_1 (F := F)) (after (st2_0 (F := F)) W)) (Proc.devRef .tc main_arg35) = x35 :=
    (st2_1_keep (F := F) (after (st2_0 (F := F)) W) (r := main_arg35) (by decide)).trans k1_main_arg35
  have k3_main_arg35 : (after (st2_2 (F := F)) (after (st2_1 (F := F)) (after (st2_0 (F := F)) W))) (Proc.devRef .tc main_arg35) = x35 :=
    (st2_2_keep (F := F) (after (st2_1 (F := F)) (after (st2_0 (F := F)) W)) (r := main_arg35) (by decide)).trans k2_main_arg35
  have f3 := st2_3_vals (F := F) x0 x1 x3 x4 x5 x6 x7 x8 x33 x34 x35 (after (st2_2 (F := F)) (after (st2_1 (F := F)) (after (st2_0 (F := F)) W))) f2.2 f2.1 k3_main_arg35
  have k1_main_v41 : (after (st2_0 (F := F)) W) (Proc.devRef .tc main_v41) = Stages.val_main_v41 (F := F) x0 x3 x4 x5 x6 :=
    (st2_0_keep (F := F) W (r := main_v41) (by decide)).trans h_main_v41
  have k2_main_v41 : (after (st2_1 (F := F)) (after (st2_0 (F := F)) W)) (Proc.devRef .tc main_v41) = Stages.val_main_v41 (F := F) x0 x3 x4 x5 x6 :=
    (st2_1_keep (F := F) (after (st2_0 (F := F)) W) (r := main_v41) (by decide)).trans k1_main_v41
  have k3_main_v41 : (after (st2_2 (F := F)) (after (st2_1 (F := F)) (after (st2_0 (F := F)) W))) (Proc.devRef .tc main_v41) = Stages.val_main_v41 (F := F) x0 x3 x4 x5 x6 :=
    (st2_2_keep (F := F) (after (st2_1 (F := F)) (after (st2_0 (F := F)) W)) (r := main_v41) (by decide)).trans k2_main_v41
  have k4_main_v41 : (after (st2_3 (F := F)) (after (st2_2 (F := F)) (after (st2_1 (F := F)) (after (st2_0 (F := F)) W)))) (Proc.devRef .tc main_v41) = Stages.val_main_v41 (F := F) x0 x3 x4 x5 x6 :=
    (st2_3_keep (F := F) (after (st2_2 (F := F)) (after (st2_1 (F := F)) (after (st2_0 (F := F)) W))) (r := main_v41) (by decide)).trans k3_main_v41
  have k1_main_arg36 : (after (st2_0 (F := F)) W) (Proc.devRef .tc main_arg36) = x36 :=
    (st2_0_keep (F := F) W (r := main_arg36) (by decide)).trans h_main_arg36
  have k2_main_arg36 : (after (st2_1 (F := F)) (after (st2_0 (F := F)) W)) (Proc.devRef .tc main_arg36) = x36 :=
    (st2_1_keep (F := F) (after (st2_0 (F := F)) W) (r := main_arg36) (by decide)).trans k1_main_arg36
  have k3_main_arg36 : (after (st2_2 (F := F)) (after (st2_1 (F := F)) (after (st2_0 (F := F)) W))) (Proc.devRef .tc main_arg36) = x36 :=
    (st2_2_keep (F := F) (after (st2_1 (F := F)) (after (st2_0 (F := F)) W)) (r := main_arg36) (by decide)).trans k2_main_arg36
  have k4_main_arg36 : (after (st2_3 (F := F)) (after (st2_2 (F := F)) (after (st2_1 (F := F)) (after (st2_0 (F := F)) W)))) (Proc.devRef .tc main_arg36) = x36 :=
    (st2_3_keep (F := F) (after (st2_2 (F := F)) (after (st2_1 (F := F)) (after (st2_0 (F := F)) W))) (r := main_arg36) (by decide)).trans k3_main_arg36
  have f4 := st2_4_vals (F := F) x0 x3 x4 x5 x6 x35 x36 (after (st2_3 (F := F)) (after (st2_2 (F := F)) (after (st2_1 (F := F)) (after (st2_0 (F := F)) W)))) f3.2 k4_main_v41 k4_main_arg36
  have k5_main_arg36 : (after (st2_4 (F := F)) (after (st2_3 (F := F)) (after (st2_2 (F := F)) (after (st2_1 (F := F)) (after (st2_0 (F := F)) W))))) (Proc.devRef .tc main_arg36) = x36 :=
    (st2_4_keep (F := F) (after (st2_3 (F := F)) (after (st2_2 (F := F)) (after (st2_1 (F := F)) (after (st2_0 (F := F)) W)))) (r := main_arg36) (by decide)).trans k4_main_arg36
  have f5 := st2_5_vals (F := F) x36 (after (st2_4 (F := F)) (after (st2_3 (F := F)) (after (st2_2 (F := F)) (after (st2_1 (F := F)) (after (st2_0 (F := F)) W))))) f4.2 k5_main_arg36
  have k1_main_arg10 : (after (st2_0 (F := F)) W) (Proc.devRef .tc main_arg10) = x10 :=
    (st2_0_keep (F := F) W (r := main_arg10) (by decide)).trans h_main_arg10
  have k2_main_arg10 : (after (st2_1 (F := F)) (after (st2_0 (F := F)) W)) (Proc.devRef .tc main_arg10) = x10 :=
    (st2_1_keep (F := F) (after (st2_0 (F := F)) W) (r := main_arg10) (by decide)).trans k1_main_arg10
  have k3_main_arg10 : (after (st2_2 (F := F)) (after (st2_1 (F := F)) (after (st2_0 (F := F)) W))) (Proc.devRef .tc main_arg10) = x10 :=
    (st2_2_keep (F := F) (after (st2_1 (F := F)) (after (st2_0 (F := F)) W)) (r := main_arg10) (by decide)).trans k2_main_arg10
  have k4_main_arg10 : (after (st2_3 (F := F)) (after (st2_2 (F := F)) (after (st2_1 (F := F)) (after (st2_0 (F := F)) W)))) (Proc.devRef .tc main_arg10) = x10 :=
    (st2_3_keep (F := F) (after (st2_2 (F := F)) (after (st2_1 (F := F)) (after (st2_0 (F := F)) W))) (r := main_arg10) (by decide)).trans k3_main_arg10
  have k5_main_arg10 : (after (st2_4 (F := F)) (after (st2_3 (F := F)) (after (st2_2 (F := F)) (after (st2_1 (F := F)) (after (st2_0 (F := F)) W))))) (Proc.devRef .tc main_arg10) = x10 :=
    (st2_4_keep (F := F) (after (st2_3 (F := F)) (after (st2_2 (F := F)) (after (st2_1 (F := F)) (after (st2_0 (F := F)) W)))) (r := main_arg10) (by decide)).trans k4_main_arg10
  have k6_main_arg10 : (after (st2_5 (F := F)) (after (st2_4 (F := F)) (after (st2_3 (F := F)) (after (st2_2 (F := F)) (after (st2_1 (F := F)) (after (st2_0 (F := F)) W)))))) (Proc.devRef .tc main_arg10) = x10 :=
    (st2_5_keep (F := F) (after (st2_4 (F := F)) (after (st2_3 (F := F)) (after (st2_2 (F := F)) (after (st2_1 (F := F)) (after (st2_0 (F := F)) W))))) (r := main_arg10) (by decide)).trans k5_main_arg10
  have k5_main_v41 : (after (st2_4 (F := F)) (after (st2_3 (F := F)) (after (st2_2 (F := F)) (after (st2_1 (F := F)) (after (st2_0 (F := F)) W))))) (Proc.devRef .tc main_v41) = Stages.val_main_v41 (F := F) x0 x3 x4 x5 x6 :=
    (st2_4_keep (F := F) (after (st2_3 (F := F)) (after (st2_2 (F := F)) (after (st2_1 (F := F)) (after (st2_0 (F := F)) W)))) (r := main_v41) (by decide)).trans k4_main_v41
  have k6_main_v41 : (after (st2_5 (F := F)) (after (st2_4 (F := F)) (after (st2_3 (F := F)) (after (st2_2 (F := F)) (after (st2_1 (F := F)) (after (st2_0 (F := F)) W)))))) (Proc.devRef .tc main_v41) = Stages.val_main_v41 (F := F) x0 x3 x4 x5 x6 :=
    (st2_5_keep (F := F) (after (st2_4 (F := F)) (after (st2_3 (F := F)) (after (st2_2 (F := F)) (after (st2_1 (F := F)) (after (st2_0 (F := F)) W))))) (r := main_v41) (by decide)).trans k5_main_v41
  have k1_main_arg9 : (after (st2_0 (F := F)) W) (Proc.devRef .tc main_arg9) = x9 :=
    (st2_0_keep (F := F) W (r := main_arg9) (by decide)).trans h_main_arg9
  have k2_main_arg9 : (after (st2_1 (F := F)) (after (st2_0 (F := F)) W)) (Proc.devRef .tc main_arg9) = x9 :=
    (st2_1_keep (F := F) (after (st2_0 (F := F)) W) (r := main_arg9) (by decide)).trans k1_main_arg9
  have k3_main_arg9 : (after (st2_2 (F := F)) (after (st2_1 (F := F)) (after (st2_0 (F := F)) W))) (Proc.devRef .tc main_arg9) = x9 :=
    (st2_2_keep (F := F) (after (st2_1 (F := F)) (after (st2_0 (F := F)) W)) (r := main_arg9) (by decide)).trans k2_main_arg9
  have k4_main_arg9 : (after (st2_3 (F := F)) (after (st2_2 (F := F)) (after (st2_1 (F := F)) (after (st2_0 (F := F)) W)))) (Proc.devRef .tc main_arg9) = x9 :=
    (st2_3_keep (F := F) (after (st2_2 (F := F)) (after (st2_1 (F := F)) (after (st2_0 (F := F)) W))) (r := main_arg9) (by decide)).trans k3_main_arg9
  have k5_main_arg9 : (after (st2_4 (F := F)) (after (st2_3 (F := F)) (after (st2_2 (F := F)) (after (st2_1 (F := F)) (after (st2_0 (F := F)) W))))) (Proc.devRef .tc main_arg9) = x9 :=
    (st2_4_keep (F := F) (after (st2_3 (F := F)) (after (st2_2 (F := F)) (after (st2_1 (F := F)) (after (st2_0 (F := F)) W)))) (r := main_arg9) (by decide)).trans k4_main_arg9
  have k6_main_arg9 : (after (st2_5 (F := F)) (after (st2_4 (F := F)) (after (st2_3 (F := F)) (after (st2_2 (F := F)) (after (st2_1 (F := F)) (after (st2_0 (F := F)) W)))))) (Proc.devRef .tc main_arg9) = x9 :=
    (st2_5_keep (F := F) (after (st2_4 (F := F)) (after (st2_3 (F := F)) (after (st2_2 (F := F)) (after (st2_1 (F := F)) (after (st2_0 (F := F)) W))))) (r := main_arg9) (by decide)).trans k5_main_arg9
  have k6_main_v128 : (after (st2_5 (F := F)) (after (st2_4 (F := F)) (after (st2_3 (F := F)) (after (st2_2 (F := F)) (after (st2_1 (F := F)) (after (st2_0 (F := F)) W)))))) (Proc.devRef .tc main_v128) = Stages.val_main_v128 (F := F) x0 x3 x4 x5 x6 x35 x36 :=
    (st2_5_keep (F := F) (after (st2_4 (F := F)) (after (st2_3 (F := F)) (after (st2_2 (F := F)) (after (st2_1 (F := F)) (after (st2_0 (F := F)) W))))) (r := main_v128) (by decide)).trans f4.1
  have f6 := st2_6_vals (F := F) x0 x3 x4 x5 x6 x9 x10 x35 x36 (after (st2_5 (F := F)) (after (st2_4 (F := F)) (after (st2_3 (F := F)) (after (st2_2 (F := F)) (after (st2_1 (F := F)) (after (st2_0 (F := F)) W)))))) k6_main_arg10 k6_main_v41 k6_main_arg9 f5 k6_main_v128
  have k5_main_v118 : (after (st2_4 (F := F)) (after (st2_3 (F := F)) (after (st2_2 (F := F)) (after (st2_1 (F := F)) (after (st2_0 (F := F)) W))))) (Proc.devRef .tc main_v118) = Stages.val_main_v118 (F := F) x0 x1 x3 x4 x5 x6 x7 x8 x33 x34 :=
    (st2_4_keep (F := F) (after (st2_3 (F := F)) (after (st2_2 (F := F)) (after (st2_1 (F := F)) (after (st2_0 (F := F)) W)))) (r := main_v118) (by decide)).trans f3.1
  have k6_main_v118 : (after (st2_5 (F := F)) (after (st2_4 (F := F)) (after (st2_3 (F := F)) (after (st2_2 (F := F)) (after (st2_1 (F := F)) (after (st2_0 (F := F)) W)))))) (Proc.devRef .tc main_v118) = Stages.val_main_v118 (F := F) x0 x1 x3 x4 x5 x6 x7 x8 x33 x34 :=
    (st2_5_keep (F := F) (after (st2_4 (F := F)) (after (st2_3 (F := F)) (after (st2_2 (F := F)) (after (st2_1 (F := F)) (after (st2_0 (F := F)) W))))) (r := main_v118) (by decide)).trans k5_main_v118
  have k7_main_v118 : (after (st2_6 (F := F)) (after (st2_5 (F := F)) (after (st2_4 (F := F)) (after (st2_3 (F := F)) (after (st2_2 (F := F)) (after (st2_1 (F := F)) (after (st2_0 (F := F)) W))))))) (Proc.devRef .tc main_v118) = Stages.val_main_v118 (F := F) x0 x1 x3 x4 x5 x6 x7 x8 x33 x34 :=
    (st2_6_keep (F := F) (after (st2_5 (F := F)) (after (st2_4 (F := F)) (after (st2_3 (F := F)) (after (st2_2 (F := F)) (after (st2_1 (F := F)) (after (st2_0 (F := F)) W)))))) (r := main_v118) (by decide)).trans k6_main_v118
  have k8_main_v118 : (after (st2_7 (F := F)) (after (st2_6 (F := F)) (after (st2_5 (F := F)) (after (st2_4 (F := F)) (after (st2_3 (F := F)) (after (st2_2 (F := F)) (after (st2_1 (F := F)) (after (st2_0 (F := F)) W)))))))) (Proc.devRef .tc main_v118) = Stages.val_main_v118 (F := F) x0 x1 x3 x4 x5 x6 x7 x8 x33 x34 :=
    (st2_7_keep (F := F) (after (st2_6 (F := F)) (after (st2_5 (F := F)) (after (st2_4 (F := F)) (after (st2_3 (F := F)) (after (st2_2 (F := F)) (after (st2_1 (F := F)) (after (st2_0 (F := F)) W))))))) (r := main_v118) (by decide)).trans k7_main_v118
  have k8_main_v141 : (after (st2_7 (F := F)) (after (st2_6 (F := F)) (after (st2_5 (F := F)) (after (st2_4 (F := F)) (after (st2_3 (F := F)) (after (st2_2 (F := F)) (after (st2_1 (F := F)) (after (st2_0 (F := F)) W)))))))) (Proc.devRef .tc main_v141) = Stages.val_main_v141 (F := F) x0 x3 x4 x5 x6 x9 x10 x35 x36 :=
    (st2_7_keep (F := F) (after (st2_6 (F := F)) (after (st2_5 (F := F)) (after (st2_4 (F := F)) (after (st2_3 (F := F)) (after (st2_2 (F := F)) (after (st2_1 (F := F)) (after (st2_0 (F := F)) W))))))) (r := main_v141) (by decide)).trans f6
  rw [ops2_after]
  exact ⟨k8_main_v118, k8_main_v141⟩

end Cert.ReferenceIdeal.HandRun

end
-- ==== Proof.RefRun3.lean ====
/- The reference program's operations 185 … 246 (the fourth printed window of @main) as a list,
   cut into short stretches; for each stretch, which buffers it writes, that it leaves every other buffer alone, and that
   the buffers it writes hold their stage values when the buffers it reads do. -/
import proofs.«402966_j45758581572292_1_alg».proof.Proof.RefStages
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, one name each -/

abbrev op_main_v148 : HloOp τ sig (Elt F) :=
  StableHlo.binary main_v41 main_v147 main_v148 ((fun x i => Host.gather gather_S30000x86_S200000x1_S200000x86_1_0_n_n_0_1_186 x i) : (⟨S30000x86, .f32⟩ : BufTy).Contents (Elt F) → (⟨S200000x1, .i32⟩ : BufTy).Contents (Elt F) → (⟨S200000x86, .f32⟩ : BufTy).Contents (Elt F))
abbrev op_main_cst_30 : HloOp τ sig (Elt F) :=
  StableHlo.nullary main_cst_30 (constant S_ .f32 0x00000000#32)
abbrev op_main_v149 : HloOp τ sig (Elt F) :=
  StableHlo.unary main_cst_30 main_v149 (broadcastInDim S50000x86 ![] bcast_S_S50000x86 : (⟨S_, .f32⟩ : BufTy).Contents (Elt F) → (⟨S50000x86, .f32⟩ : BufTy).Contents (Elt F))
abbrev op_main_v150 : HloOp τ sig (Elt F) :=
  StableHlo.unary main_arg38 main_v150 (broadcastInDim S200000x1 ![0] bcast_S200000_S200000x1_0 : (⟨S200000, .i32⟩ : BufTy).Contents (Elt F) → (⟨S200000x1, .i32⟩ : BufTy).Contents (Elt F))
abbrev op_main_v151 : HloOp τ sig (Elt F) :=
  StableHlo.ternary main_v149 main_v150 main_v148 main_v151 ((fun x i u => Host.scatterAdd scatter_S50000x86_S200000x1_S200000x86_1_0_0_1 x i u) : (⟨S50000x86, .f32⟩ : BufTy).Contents (Elt F) → (⟨S200000x1, .i32⟩ : BufTy).Contents (Elt F) → (⟨S200000x86, .f32⟩ : BufTy).Contents (Elt F) → (⟨S50000x86, .f32⟩ : BufTy).Contents (Elt F))
abbrev op_main_cst_31 : HloOp τ sig (Elt F) :=
  StableHlo.nullary main_cst_31 (constant S_ .f32 0x3F800000#32)
abbrev op_main_v152 : HloOp τ sig (Elt F) :=
  StableHlo.unary main_cst_31 main_v152 (broadcastInDim S200000 ![] bcast_S_S200000 : (⟨S_, .f32⟩ : BufTy).Contents (Elt F) → (⟨S200000, .f32⟩ : BufTy).Contents (Elt F))
abbrev op_main_cst_32 : HloOp τ sig (Elt F) :=
  StableHlo.nullary main_cst_32 (constant S_ .f32 0x00000000#32)
abbrev op_main_v153 : HloOp τ sig (Elt F) :=
  StableHlo.unary main_cst_32 main_v153 (broadcastInDim S50000 ![] bcast_S_S50000 : (⟨S_, .f32⟩ : BufTy).Contents (Elt F) → (⟨S50000, .f32⟩ : BufTy).Contents (Elt F))
abbrev op_main_v154 : HloOp τ sig (Elt F) :=
  StableHlo.unary main_arg38 main_v154 (broadcastInDim S200000x1 ![0] bcast_S200000_S200000x1_0 : (⟨S200000, .i32⟩ : BufTy).Contents (Elt F) → (⟨S200000x1, .i32⟩ : BufTy).Contents (Elt F))
abbrev op_main_v155 : HloOp τ sig (Elt F) :=
  StableHlo.ternary main_v153 main_v154 main_v152 main_v155 ((fun x i u => Host.scatterAdd scatter_S50000_S200000x1_S200000_n_0_0_1 x i u) : (⟨S50000, .f32⟩ : BufTy).Contents (Elt F) → (⟨S200000x1, .i32⟩ : BufTy).Contents (Elt F) → (⟨S200000, .f32⟩ : BufTy).Contents (Elt F) → (⟨S50000, .f32⟩ : BufTy).Contents (Elt F))
abbrev op_main_cst_33 : HloOp τ sig (Elt F) :=
  StableHlo.nullary main_cst_33 (constant S_ .f32 0x3F800000#32)
abbrev op_main_v156 : HloOp τ sig (Elt F) :=
  StableHlo.unary main_cst_33 main_v156 (broadcastInDim S50000 ![] bcast_S_S50000 : (⟨S_, .f32⟩ : BufTy).Contents (Elt F) → (⟨S50000, .f32⟩ : BufTy).Contents (Elt F))
abbrev op_main_v157 : HloOp τ sig (Elt F) :=
  StableHlo.binary main_v155 main_v156 main_v157 (maximumf : (⟨S50000, .f32⟩ : BufTy).Contents (Elt F) → (⟨S50000, .f32⟩ : BufTy).Contents (Elt F) → (⟨S50000, .f32⟩ : BufTy).Contents (Elt F))
abbrev op_main_v158 : HloOp τ sig (Elt F) :=
  StableHlo.unary main_v157 main_v158 (broadcastInDim S50000x1 ![0] bcast_S50000_S50000x1_0 : (⟨S50000, .f32⟩ : BufTy).Contents (Elt F) → (⟨S50000x1, .f32⟩ : BufTy).Contents (Elt F))
abbrev op_main_v159 : HloOp τ sig (Elt F) :=
  StableHlo.unary main_v158 main_v159 (broadcastInDim S50000x86 ![0, 1] bcast_S50000x1_S50000x86_0_1 : (⟨S50000x1, .f32⟩ : BufTy).Contents (Elt F) → (⟨S50000x86, .f32⟩ : BufTy).Contents (Elt F))
abbrev op_main_v160 : HloOp τ sig (Elt F) :=
  StableHlo.binary main_v151 main_v159 main_v160 (Host.divf : (⟨S50000x86, .f32⟩ : BufTy).Contents (Elt F) → (⟨S50000x86, .f32⟩ : BufTy).Contents (Elt F) → (⟨S50000x86, .f32⟩ : BufTy).Contents (Elt F))
abbrev op_main_v161 : HloOp τ sig (Elt F) :=
  StableHlo.binary main_v160 main_arg11 main_v161 ((fun l r => Host.dotGeneral dot_S50000x86_S86x256_S50000x256_1_0_0_1_n_n none l r) : (⟨S50000x86, .f32⟩ : BufTy).Contents (Elt F) → (⟨S86x256, .f32⟩ : BufTy).Contents (Elt F) → (⟨S50000x256, .f32⟩ : BufTy).Contents (Elt F))
abbrev op_main_v162 : HloOp τ sig (Elt F) :=
  StableHlo.binary main_v95 main_arg12 main_v162 ((fun l r => Host.dotGeneral dot_S50000x76_S76x256_S50000x256_1_0_0_1_n_n none l r) : (⟨S50000x76, .f32⟩ : BufTy).Contents (Elt F) → (⟨S76x256, .f32⟩ : BufTy).Contents (Elt F) → (⟨S50000x256, .f32⟩ : BufTy).Contents (Elt F))
abbrev op_main_v163 : HloOp τ sig (Elt F) :=
  StableHlo.binary main_v161 main_v162 main_v163 (addf : (⟨S50000x256, .f32⟩ : BufTy).Contents (Elt F) → (⟨S50000x256, .f32⟩ : BufTy).Contents (Elt F) → (⟨S50000x256, .f32⟩ : BufTy).Contents (Elt F))
abbrev op_main_c_34 : HloOp τ sig (Elt F) :=
  StableHlo.nullary main_c_34 (constantI S_ 32 0#32)
abbrev op_main_v164 : HloOp τ sig (Elt F) :=
  StableHlo.unary main_c_34 main_v164 (broadcastInDim S400000 ![] bcast_S_S400000 : (⟨S_, .i32⟩ : BufTy).Contents (Elt F) → (⟨S400000, .i32⟩ : BufTy).Contents (Elt F))
abbrev op_main_v165 : HloOp τ sig (Elt F) :=
  StableHlo.binary main_arg39 main_v164 main_v165 (cmpi .slt : (⟨S400000, .i32⟩ : BufTy).Contents (Elt F) → (⟨S400000, .i32⟩ : BufTy).Contents (Elt F) → (⟨S400000, .i1⟩ : BufTy).Contents (Elt F))
abbrev op_main_c_35 : HloOp τ sig (Elt F) :=
  StableHlo.nullary main_c_35 (constantI S_ 32 50000#32)
abbrev op_main_v166 : HloOp τ sig (Elt F) :=
  StableHlo.unary main_c_35 main_v166 (broadcastInDim S400000 ![] bcast_S_S400000 : (⟨S_, .i32⟩ : BufTy).Contents (Elt F) → (⟨S400000, .i32⟩ : BufTy).Contents (Elt F))
abbrev op_main_v167 : HloOp τ sig (Elt F) :=
  StableHlo.binary main_arg39 main_v166 main_v167 (addi : (⟨S400000, .i32⟩ : BufTy).Contents (Elt F) → (⟨S400000, .i32⟩ : BufTy).Contents (Elt F) → (⟨S400000, .i32⟩ : BufTy).Contents (Elt F))
abbrev op_main_v168 : HloOp τ sig (Elt F) :=
  StableHlo.ternary main_v165 main_v167 main_arg39 main_v168 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
abbrev op_main_v169 : HloOp τ sig (Elt F) :=
  StableHlo.unary main_v168 main_v169 (broadcastInDim S400000x1 ![0] bcast_S400000_S400000x1_0 : (⟨S400000, .i32⟩ : BufTy).Contents (Elt F) → (⟨S400000x1, .i32⟩ : BufTy).Contents (Elt F))
abbrev op_main_v170 : HloOp τ sig (Elt F) :=
  StableHlo.binary main_v95 main_v169 main_v170 ((fun x i => Host.gather gather_S50000x76_S400000x1_S400000x76_1_0_n_n_0_1_176 x i) : (⟨S50000x76, .f32⟩ : BufTy).Contents (Elt F) → (⟨S400000x1, .i32⟩ : BufTy).Contents (Elt F) → (⟨S400000x76, .f32⟩ : BufTy).Contents (Elt F))
abbrev op_main_cst_36 : HloOp τ sig (Elt F) :=
  StableHlo.nullary main_cst_36 (constant S_ .f32 0x00000000#32)
abbrev op_main_v171 : HloOp τ sig (Elt F) :=
  StableHlo.unary main_cst_36 main_v171 (broadcastInDim S50000x76 ![] bcast_S_S50000x76 : (⟨S_, .f32⟩ : BufTy).Contents (Elt F) → (⟨S50000x76, .f32⟩ : BufTy).Contents (Elt F))
abbrev op_main_v172 : HloOp τ sig (Elt F) :=
  StableHlo.unary main_arg40 main_v172 (broadcastInDim S400000x1 ![0] bcast_S400000_S400000x1_0 : (⟨S400000, .i32⟩ : BufTy).Contents (Elt F) → (⟨S400000x1, .i32⟩ : BufTy).Contents (Elt F))
abbrev op_main_v173 : HloOp τ sig (Elt F) :=
  StableHlo.ternary main_v171 main_v172 main_v170 main_v173 ((fun x i u => Host.scatterAdd scatter_S50000x76_S400000x1_S400000x76_1_0_0_1 x i u) : (⟨S50000x76, .f32⟩ : BufTy).Contents (Elt F) → (⟨S400000x1, .i32⟩ : BufTy).Contents (Elt F) → (⟨S400000x76, .f32⟩ : BufTy).Contents (Elt F) → (⟨S50000x76, .f32⟩ : BufTy).Contents (Elt F))
abbrev op_main_cst_37 : HloOp τ sig (Elt F) :=
  StableHlo.nullary main_cst_37 (constant S_ .f32 0x3F800000#32)
abbrev op_main_v174 : HloOp τ sig (Elt F) :=
  StableHlo.unary main_cst_37 main_v174 (broadcastInDim S400000 ![] bcast_S_S400000 : (⟨S_, .f32⟩ : BufTy).Contents (Elt F) → (⟨S400000, .f32⟩ : BufTy).Contents (Elt F))
abbrev op_main_cst_38 : HloOp τ sig (Elt F) :=
  StableHlo.nullary main_cst_38 (constant S_ .f32 0x00000000#32)
abbrev op_main_v175 : HloOp τ sig (Elt F) :=
  StableHlo.unary main_cst_38 main_v175 (broadcastInDim S50000 ![] bcast_S_S50000 : (⟨S_, .f32⟩ : BufTy).Contents (Elt F) → (⟨S50000, .f32⟩ : BufTy).Contents (Elt F))
abbrev op_main_v176 : HloOp τ sig (Elt F) :=
  StableHlo.unary main_arg40 main_v176 (broadcastInDim S400000x1 ![0] bcast_S400000_S400000x1_0 : (⟨S400000, .i32⟩ : BufTy).Contents (Elt F) → (⟨S400000x1, .i32⟩ : BufTy).Contents (Elt F))
abbrev op_main_v177 : HloOp τ sig (Elt F) :=
  StableHlo.ternary main_v175 main_v176 main_v174 main_v177 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F))
abbrev op_main_cst_39 : HloOp τ sig (Elt F) :=
  StableHlo.nullary main_cst_39 (constant S_ .f32 0x3F800000#32)
abbrev op_main_v178 : HloOp τ sig (Elt F) :=
  StableHlo.unary main_cst_39 main_v178 (broadcastInDim S50000 ![] bcast_S_S50000 : (⟨S_, .f32⟩ : BufTy).Contents (Elt F) → (⟨S50000, .f32⟩ : BufTy).Contents (Elt F))
abbrev op_main_v179 : HloOp τ sig (Elt F) :=
  StableHlo.binary main_v177 main_v178 main_v179 (maximumf : (⟨S50000, .f32⟩ : BufTy).Contents (Elt F) → (⟨S50000, .f32⟩ : BufTy).Contents (Elt F) → (⟨S50000, .f32⟩ : BufTy).Contents (Elt F))
abbrev op_main_v180 : HloOp τ sig (Elt F) :=
  StableHlo.unary main_v179 main_v180 (broadcastInDim S50000x1 ![0] bcast_S50000_S50000x1_0 : (⟨S50000, .f32⟩ : BufTy).Contents (Elt F) → (⟨S50000x1, .f32⟩ : BufTy).Contents (Elt F))
abbrev op_main_v181 : HloOp τ sig (Elt F) :=
  StableHlo.unary main_v180 main_v181 (broadcastInDim S50000x76 ![0, 1] bcast_S50000x1_S50000x76_0_1 : (⟨S50000x1, .f32⟩ : BufTy).Contents (Elt F) → (⟨S50000x76, .f32⟩ : BufTy).Contents (Elt F))
abbrev op_main_v182 : HloOp τ sig (Elt F) :=
  StableHlo.binary main_v173 main_v181 main_v182 (Host.divf : (⟨S50000x76, .f32⟩ : BufTy).Contents (Elt F) → (⟨S50000x76, .f32⟩ : BufTy).Contents (Elt F) → (⟨S50000x76, .f32⟩ : BufTy).Contents (Elt F))
abbrev op_main_v183 : HloOp τ sig (Elt F) :=
  StableHlo.binary main_v182 main_arg13 main_v183 ((fun l r => Host.dotGeneral dot_S50000x76_S76x256_S50000x256_1_0_0_1_n_n none l r) : (⟨S50000x76, .f32⟩ : BufTy).Contents (Elt F) → (⟨S76x256, .f32⟩ : BufTy).Contents (Elt F) → (⟨S50000x256, .f32⟩ : BufTy).Contents (Elt F))
abbrev op_main_v184 : HloOp τ sig (Elt F) :=
  StableHlo.binary main_v95 main_arg14 main_v184 ((fun l r => Host.dotGeneral dot_S50000x76_S76x256_S50000x256_1_0_0_1_n_n none l r) : (⟨S50000x76, .f32⟩ : BufTy).Contents (Elt F) → (⟨S76x256, .f32⟩ : BufTy).Contents (Elt F) → (⟨S50000x256, .f32⟩ : BufTy).Contents (Elt F))
abbrev op_main_v185 : HloOp τ sig (Elt F) :=
  StableHlo.binary main_v183 main_v184 main_v185 (addf : (⟨S50000x256, .f32⟩ : BufTy).Contents (Elt F) → (⟨S50000x256, .f32⟩ : BufTy).Contents (Elt F) → (⟨S50000x256, .f32⟩ : BufTy).Contents (Elt F))
abbrev op_main_v186 : HloOp τ sig (Elt F) :=
  StableHlo.binary main_v163 main_v185 main_v186 (addf : (⟨S50000x256, .f32⟩ : BufTy).Contents (Elt F) → (⟨S50000x256, .f32⟩ : BufTy).Contents (Elt F) → (⟨S50000x256, .f32⟩ : BufTy).Contents (Elt F))
abbrev op_main_call2_cst : HloOp τ sig (Elt F) :=
  StableHlo.TRef.nullary main_call2.cst (constant S_ .f32 0x00000000#32)
abbrev op_main_call2_v0 : HloOp τ sig (Elt F) :=
  StableHlo.TRef.unary main_call2.cst main_call2.v0 (broadcastInDim S50000x256 ![] bcast_S_S50000x256)
abbrev op_main_v187 : HloOp τ sig (Elt F) :=
  StableHlo.TRef.binary (.of main_v186) main_call2.v0 main_call2.v1 maximumf
abbrev op_main_c_40 : HloOp τ sig (Elt F) :=
  StableHlo.nullary main_c_40 (constantI S_ 32 0#32)
abbrev op_main_v188 : HloOp τ sig (Elt F) :=
  StableHlo.unary main_c_40 main_v188 (broadcastInDim S200000 ![] bcast_S_S200000 : (⟨S_, .i32⟩ : BufTy).Contents (Elt F) → (⟨S200000, .i32⟩ : BufTy).Contents (Elt F))
abbrev op_main_v189 : HloOp τ sig (Elt F) :=
  StableHlo.binary main_arg33 main_v188 main_v189 (cmpi .slt : (⟨S200000, .i32⟩ : BufTy).Contents (Elt F) → (⟨S200000, .i32⟩ : BufTy).Contents (Elt F) → (⟨S200000, .i1⟩ : BufTy).Contents (Elt F))
abbrev op_main_c_41 : HloOp τ sig (Elt F) :=
  StableHlo.nullary main_c_41 (constantI S_ 32 30000#32)
abbrev op_main_v190 : HloOp τ sig (Elt F) :=
  StableHlo.unary main_c_41 main_v190 (broadcastInDim S200000 ![] bcast_S_S200000 : (⟨S_, .i32⟩ : BufTy).Contents (Elt F) → (⟨S200000, .i32⟩ : BufTy).Contents (Elt F))
abbrev op_main_v191 : HloOp τ sig (Elt F) :=
  StableHlo.binary main_arg33 main_v190 main_v191 (addi : (⟨S200000, .i32⟩ : BufTy).Contents (Elt F) → (⟨S200000, .i32⟩ : BufTy).Contents (Elt F) → (⟨S200000, .i32⟩ : BufTy).Contents (Elt F))
abbrev op_main_v192 : HloOp τ sig (Elt F) :=
  StableHlo.ternary main_v189 main_v191 main_arg33 main_v192 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
abbrev op_main_v193 : HloOp τ sig (Elt F) :=
  StableHlo.unary main_v192 main_v193 (broadcastInDim S200000x1 ![0] bcast_S200000_S200000x1_0 : (⟨S200000, .i32⟩ : BufTy).Contents (Elt F) → (⟨S200000x1, .i32⟩ : BufTy).Contents (Elt F))
abbrev op_main_v194 : HloOp τ sig (Elt F) :=
  StableHlo.binary main_v141 main_v193 main_v194 ((fun x i => Host.gather gather_S30000x256_S200000x1_S200000x256_1_0_n_n_0_1_1256 x i) : (⟨S30000x256, .f32⟩ : BufTy).Contents (Elt F) → (⟨S200000x1, .i32⟩ : BufTy).Contents (Elt F) → (⟨S200000x256, .f32⟩ : BufTy).Contents (Elt F))
abbrev op_main_cst_42 : HloOp τ sig (Elt F) :=
  StableHlo.nullary main_cst_42 (constant S_ .f32 0x00000000#32)

/-! ## The stretches -/

/-- Operations 185 … 192 of the reference program, in order. -/
abbrev st3_0 : List (HloOp τ sig (Elt F)) :=
  [op_main_v148, op_main_cst_30, op_main_v149, op_main_v150, op_main_v151, op_main_cst_31, op_main_v152, op_main_cst_32]
/-- The buffers those operations write. -/
abbrev st3_0_W : List (Ref sig .tc) := [main_v148, main_cst_30, main_v149, main_v150, main_v151, main_cst_31, main_v152, main_cst_32]
theorem st3_0_writes : (st3_0 : List (HloOp τ sig (Elt F))).Forall fun op => op.writes ⊆ (st3_0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st3_0_keep (W : Valuation τ sig (Elt F)) {r : Ref sig .tc} (h : r ∉ st3_0_W) :
    after (st3_0 (F := F)) W (Proc.devRef .tc r) = W (Proc.devRef .tc r) :=
  after_of_writes_sub st3_0 W st3_0_writes h

/-- Operations 193 … 200 of the reference program, in order. -/
abbrev st3_1 : List (HloOp τ sig (Elt F)) :=
  [op_main_v153, op_main_v154, op_main_v155, op_main_cst_33, op_main_v156, op_main_v157, op_main_v158, op_main_v159]
/-- The buffers those operations write. -/
abbrev st3_1_W : List (Ref sig .tc) := [main_v153, main_v154, main_v155, main_cst_33, main_v156, main_v157, main_v158, main_v159]
theorem st3_1_writes : (st3_1 : List (HloOp τ sig (Elt F))).Forall fun op => op.writes ⊆ (st3_1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st3_1_keep (W : Valuation τ sig (Elt F)) {r : Ref sig .tc} (h : r ∉ st3_1_W) :
    after (st3_1 (F := F)) W (Proc.devRef .tc r) = W (Proc.devRef .tc r) :=
  after_of_writes_sub st3_1 W st3_1_writes h

/-- Operations 201 … 208 of the reference program, in order. -/
abbrev st3_2 : List (HloOp τ sig (Elt F)) :=
  [op_main_v160, op_main_v161, op_main_v162, op_main_v163, op_main_c_34, op_main_v164, op_main_v165, op_main_c_35]
/-- The buffers those operations write. -/
abbrev st3_2_W : List (Ref sig .tc) := [main_v160, main_v161, main_v162, main_v163, main_c_34, main_v164, main_v165, main_c_35]
theorem st3_2_writes : (st3_2 : List (HloOp τ sig (Elt F))).Forall fun op => op.writes ⊆ (st3_2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st3_2_keep (W : Valuation τ sig (Elt F)) {r : Ref sig .tc} (h : r ∉ st3_2_W) :
    after (st3_2 (F := F)) W (Proc.devRef .tc r) = W (Proc.devRef .tc r) :=
  after_of_writes_sub st3_2 W st3_2_writes h

/-- Operations 209 … 216 of the reference program, in order. -/
abbrev st3_3 : List (HloOp τ sig (Elt F)) :=
  [op_main_v166, op_main_v167, op_main_v168, op_main_v169, op_main_v170, op_main_cst_36, op_main_v171, op_main_v172]
/-- The buffers those operations write. -/
abbrev st3_3_W : List (Ref sig .tc) := [main_v166, main_v167, main_v168, main_v169, main_v170, main_cst_36, main_v171, main_v172]
theorem st3_3_writes : (st3_3 : List (HloOp τ sig (Elt F))).Forall fun op => op.writes ⊆ (st3_3_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st3_3_keep (W : Valuation τ sig (Elt F)) {r : Ref sig .tc} (h : r ∉ st3_3_W) :
    after (st3_3 (F := F)) W (Proc.devRef .tc r) = W (Proc.devRef .tc r) :=
  after_of_writes_sub st3_3 W st3_3_writes h

/-- Operations 217 … 224 of the reference program, in order. -/
abbrev st3_4 : List (HloOp τ sig (Elt F)) :=
  [op_main_v173, op_main_cst_37, op_main_v174, op_main_cst_38, op_main_v175, op_main_v176, op_main_v177, op_main_cst_39]
/-- The buffers those operations write. -/
abbrev st3_4_W : List (Ref sig .tc) := [main_v173, main_cst_37, main_v174, main_cst_38, main_v175, main_v176, main_v177, main_cst_39]
theorem st3_4_writes : (st3_4 : List (HloOp τ sig (Elt F))).Forall fun op => op.writes ⊆ (st3_4_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st3_4_keep (W : Valuation τ sig (Elt F)) {r : Ref sig .tc} (h : r ∉ st3_4_W) :
    after (st3_4 (F := F)) W (Proc.devRef .tc r) = W (Proc.devRef .tc r) :=
  after_of_writes_sub st3_4 W st3_4_writes h

/-- Operations 225 … 232 of the reference program, in order. -/
abbrev st3_5 : List (HloOp τ sig (Elt F)) :=
  [op_main_v178, op_main_v179, op_main_v180, op_main_v181, op_main_v182, op_main_v183, op_main_v184, op_main_v185]
/-- The buffers those operations write. -/
abbrev st3_5_W : List (Ref sig .tc) := [main_v178, main_v179, main_v180, main_v181, main_v182, main_v183, main_v184, main_v185]
theorem st3_5_writes : (st3_5 : List (HloOp τ sig (Elt F))).Forall fun op => op.writes ⊆ (st3_5_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st3_5_keep (W : Valuation τ sig (Elt F)) {r : Ref sig .tc} (h : r ∉ st3_5_W) :
    after (st3_5 (F := F)) W (Proc.devRef .tc r) = W (Proc.devRef .tc r) :=
  after_of_writes_sub st3_5 W st3_5_writes h

/-- Operations 233 … 240 of the reference program, in order. -/
abbrev st3_6 : List (HloOp τ sig (Elt F)) :=
  [op_main_v186, op_main_call2_cst, op_main_call2_v0, op_main_v187, op_main_c_40, op_main_v188, op_main_v189, op_main_c_41]
/-- The buffers those operations write. -/
abbrev st3_6_W : List (Ref sig .tc) := [main_v186, main_call2_cst, main_call2_v0, main_v187, main_c_40, main_v188, main_v189, main_c_41]
theorem st3_6_writes : (st3_6 : List (HloOp τ sig (Elt F))).Forall fun op => op.writes ⊆ (st3_6_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st3_6_keep (W : Valuation τ sig (Elt F)) {r : Ref sig .tc} (h : r ∉ st3_6_W) :
    after (st3_6 (F := F)) W (Proc.devRef .tc r) = W (Proc.devRef .tc r) :=
  after_of_writes_sub st3_6 W st3_6_writes h
/-- From contents at which the buffers read hold their stage values, the buffers written here that are read later hold theirs:
    each is its operation applied to the operands' contents, which is the stage value's definition. -/
theorem st3_6_vals (x33 : (⟨S200000, .i32⟩ : BufTy).Contents (Elt F)) (W : Valuation τ sig (Elt F))
    (h_main_arg33 : W (Proc.devRef .tc main_arg33) = x33)
    :
    after (st3_6 (F := F)) W (Proc.devRef .tc main_v189) = Stages.val_main_v189 (F := F) x33
    ∧ after (st3_6 (F := F)) W (Proc.devRef .tc main_c_41) = Stages.val_main_c_41 (F := F) := by
  refine ⟨?_, ?_⟩
  · after_results; (try simp only [TRef.ofBuf, TRef.toBuf, cast_eq]); rw [h_main_arg33]; rfl
  · after_results; (try simp only [TRef.ofBuf, TRef.toBuf, cast_eq]); rfl

/-- Operations 241 … 246 of the reference program, in order. -/
abbrev st3_7 : List (HloOp τ sig (Elt F)) :=
  [op_main_v190, op_main_v191, op_main_v192, op_main_v193, op_main_v194, op_main_cst_42]
/-- The buffers those operations write. -/
abbrev st3_7_W : List (Ref sig .tc) := [main_v190, main_v191, main_v192, main_v193, main_v194, main_cst_42]
theorem st3_7_writes : (st3_7 : List (HloOp τ sig (Elt F))).Forall fun op => op.writes ⊆ (st3_7_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st3_7_keep (W : Valuation τ sig (Elt F)) {r : Ref sig .tc} (h : r ∉ st3_7_W) :
    after (st3_7 (F := F)) W (Proc.devRef .tc r) = W (Proc.devRef .tc r) :=
  after_of_writes_sub st3_7 W st3_7_writes h
/-- From contents at which the buffers read hold their stage values, the buffers written here that are read later hold theirs:
    each is its operation applied to the operands' contents, which is the stage value's definition. -/
theorem st3_7_vals (x0 : (⟨S30000x12, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x9 : (⟨S86x256, .f32⟩ : BufTy).Contents (Elt F)) (x10 : (⟨S86x256, .f32⟩ : BufTy).Contents (Elt F)) (x33 : (⟨S200000, .i32⟩ : BufTy).Contents (Elt F)) (x35 : (⟨S200000, .i32⟩ : BufTy).Contents (Elt F)) (x36 : (⟨S200000, .i32⟩ : BufTy).Contents (Elt F)) (W : Valuation τ sig (Elt F))
    (h_main_arg33 : W (Proc.devRef .tc main_arg33) = x33)
    (h_main_c_41 : W (Proc.devRef .tc main_c_41) = Stages.val_main_c_41 (F := F))
    (h_main_v189 : W (Proc.devRef .tc main_v189) = Stages.val_main_v189 (F := F) x33)
    (h_main_v141 : W (Proc.devRef .tc main_v141) = Stages.val_main_v141 (F := F) x0 x3 x4 x5 x6 x9 x10 x35 x36)
    :
    after (st3_7 (F := F)) W (Proc.devRef .tc main_v194) = Stages.val_main_v194 (F := F) x0 x3 x4 x5 x6 x9 x10 x33 x35 x36
    ∧ after (st3_7 (F := F)) W (Proc.devRef .tc main_cst_42) = Stages.val_main_cst_42 (F := F) := by
  refine ⟨?_, ?_⟩
  · after_results; rw [h_main_arg33, h_main_c_41, h_main_v189, h_main_v141]; rfl
  · after_results; rfl

/-! ## The window as one list -/

/-- The window's operations, in order. -/
abbrev ops3 : List (HloOp τ sig (Elt F)) :=
  [op_main_v148, op_main_cst_30, op_main_v149, op_main_v150, op_main_v151, op_main_cst_31, op_main_v152, op_main_cst_32, op_main_v153, op_main_v154, op_main_v155, op_main_cst_33, op_main_v156, op_main_v157, op_main_v158, op_main_v159, op_main_v160, op_main_v161, op_main_v162, op_main_v163, op_main_c_34, op_main_v164, op_main_v165, op_main_c_35, op_main_v166, op_main_v167, op_main_v168, op_main_v169, op_main_v170, op_main_cst_36, op_main_v171, op_main_v172, op_main_v173, op_main_cst_37, op_main_v174, op_main_cst_38, op_main_v175, op_main_v176, op_main_v177, op_main_cst_39, op_main_v178, op_main_v179, op_main_v180, op_main_v181, op_main_v182, op_main_v183, op_main_v184, op_main_v185, op_main_v186, op_main_call2_cst, op_main_call2_v0, op_main_v187, op_main_c_40, op_main_v188, op_main_v189, op_main_c_41, op_main_v190, op_main_v191, op_main_v192, op_main_v193, op_main_v194, op_main_cst_42]
theorem ops3_split : (ops3 : List (HloOp τ sig (Elt F))) = st3_0 ++ st3_1 ++ st3_2 ++ st3_3 ++ st3_4 ++ st3_5 ++ st3_6 ++ st3_7 := rfl
set_option maxRecDepth 8192 in
/-- The printed window is that line of operations: the called functions' bodies stand at their call sites, and sequencing is reassociated. -/
theorem main_part3_eq (c : Dev nD) : main_part3 (F := F) c = seq ops3 := by
  simp only [main_part3, fn_relu.body, fn_relu_0.body, fn_relu_1.body, seq, bind_assoc, pure_bind]
  rfl
/-- Every operation touches TensorCore buffers only. -/
theorem ops3_sub : (ops3 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩
/-- Every operation determines its results. -/
theorem ops3_fresh : (ops3 : List (HloOp τ sig (Elt F))).Forall fun op => op.fresh = ∅ := by
  simp only [List.Forall]; repeat' constructor
/-- The buffers the window writes. -/
abbrev ops3_W : List (Ref sig .tc) := [main_v148, main_cst_30, main_v149, main_v150, main_v151, main_cst_31, main_v152, main_cst_32, main_v153, main_v154, main_v155, main_cst_33, main_v156, main_v157, main_v158, main_v159, main_v160, main_v161, main_v162, main_v163, main_c_34, main_v164, main_v165, main_c_35, main_v166, main_v167, main_v168, main_v169, main_v170, main_cst_36, main_v171, main_v172, main_v173, main_cst_37, main_v174, main_cst_38, main_v175, main_v176, main_v177, main_cst_39, main_v178, main_v179, main_v180, main_v181, main_v182, main_v183, main_v184, main_v185, main_v186, main_call2_cst, main_call2_v0, main_v187, main_c_40, main_v188, main_v189, main_c_41, main_v190, main_v191, main_v192, main_v193, main_v194, main_cst_42]
theorem ops3_writes : (ops3 : List (HloOp τ sig (Elt F))).Forall fun op => op.writes ⊆ (ops3_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer the window does not write holds after it what it held before. -/
theorem ops3_keep (W : Valuation τ sig (Elt F)) {r : Ref sig .tc} (h : r ∉ ops3_W) :
    after (ops3 (F := F)) W (Proc.devRef .tc r) = W (Proc.devRef .tc r) :=
  after_of_writes_sub ops3 W ops3_writes h
/-- The window's fold is the stretches' folds, one after the other. -/
theorem ops3_after (W : Valuation τ sig (Elt F)) : after (ops3 (F := F)) W = after (st3_7 (F := F)) (after (st3_6 (F := F)) (after (st3_5 (F := F)) (after (st3_4 (F := F)) (after (st3_3 (F := F)) (after (st3_2 (F := F)) (after (st3_1 (F := F)) (after (st3_0 (F := F)) W))))))) := by
  rw [ops3_split, after_append, after_append, after_append, after_append, after_append, after_append, after_append]
/-- From contents at which the buffers the window reads hold their stage values, the buffers it writes that later windows read
    (or that are results) hold theirs: stretch by stretch, a buffer written earlier carried across the stretches that do not write it. -/
theorem ops3_vals (x0 : (⟨S30000x12, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x9 : (⟨S86x256, .f32⟩ : BufTy).Contents (Elt F)) (x10 : (⟨S86x256, .f32⟩ : BufTy).Contents (Elt F)) (x33 : (⟨S200000, .i32⟩ : BufTy).Contents (Elt F)) (x35 : (⟨S200000, .i32⟩ : BufTy).Contents (Elt F)) (x36 : (⟨S200000, .i32⟩ : BufTy).Contents (Elt F)) (W : Valuation τ sig (Elt F))
    (h_main_arg33 : W (Proc.devRef .tc main_arg33) = x33)
    (h_main_v141 : W (Proc.devRef .tc main_v141) = Stages.val_main_v141 (F := F) x0 x3 x4 x5 x6 x9 x10 x35 x36)
    :
    after (ops3 (F := F)) W (Proc.devRef .tc main_v194) = Stages.val_main_v194 (F := F) x0 x3 x4 x5 x6 x9 x10 x33 x35 x36
    ∧ after (ops3 (F := F)) W (Proc.devRef .tc main_cst_42) = Stages.val_main_cst_42 (F := F) := by
  have k1_main_arg33 : (after (st3_0 (F := F)) W) (Proc.devRef .tc main_arg33) = x33 :=
    (st3_0_keep (F := F) W (r := main_arg33) (by decide)).trans h_main_arg33
  have k2_main_arg33 : (after (st3_1 (F := F)) (after (st3_0 (F := F)) W)) (Proc.devRef .tc main_arg33) = x33 :=
    (st3_1_keep (F := F) (after (st3_0 (F := F)) W) (r := main_arg33) (by decide)).trans k1_main_arg33
  have k3_main_arg33 : (after (st3_2 (F := F)) (after (st3_1 (F := F)) (after (st3_0 (F := F)) W))) (Proc.devRef .tc main_arg33) = x33 :=
    (st3_2_keep (F := F) (after (st3_1 (F := F)) (after (st3_0 (F := F)) W)) (r := main_arg33) (by decide)).trans k2_main_arg33
  have k4_main_arg33 : (after (st3_3 (F := F)) (after (st3_2 (F := F)) (after (st3_1 (F := F)) (after (st3_0 (F := F)) W)))) (Proc.devRef .tc main_arg33) = x33 :=
    (st3_3_keep (F := F) (after (st3_2 (F := F)) (after (st3_1 (F := F)) (after (st3_0 (F := F)) W))) (r := main_arg33) (by decide)).trans k3_main_arg33
  have k5_main_arg33 : (after (st3_4 (F := F)) (after (st3_3 (F := F)) (after (st3_2 (F := F)) (after (st3_1 (F := F)) (after (st3_0 (F := F)) W))))) (Proc.devRef .tc main_arg33) = x33 :=
    (st3_4_keep (F := F) (after (st3_3 (F := F)) (after (st3_2 (F := F)) (after (st3_1 (F := F)) (after (st3_0 (F := F)) W)))) (r := main_arg33) (by decide)).trans k4_main_arg33
  have k6_main_arg33 : (after (st3_5 (F := F)) (after (st3_4 (F := F)) (after (st3_3 (F := F)) (after (st3_2 (F := F)) (after (st3_1 (F := F)) (after (st3_0 (F := F)) W)))))) (Proc.devRef .tc main_arg33) = x33 :=
    (st3_5_keep (F := F) (after (st3_4 (F := F)) (after (st3_3 (F := F)) (after (st3_2 (F := F)) (after (st3_1 (F := F)) (after (st3_0 (F := F)) W))))) (r := main_arg33) (by decide)).trans k5_main_arg33
  have f6 := st3_6_vals (F := F) x33 (after (st3_5 (F := F)) (after (st3_4 (F := F)) (after (st3_3 (F := F)) (after (st3_2 (F := F)) (after (st3_1 (F := F)) (after (st3_0 (F := F)) W)))))) k6_main_arg33
  have k7_main_arg33 : (after (st3_6 (F := F)) (after (st3_5 (F := F)) (after (st3_4 (F := F)) (after (st3_3 (F := F)) (after (st3_2 (F := F)) (after (st3_1 (F := F)) (after (st3_0 (F := F)) W))))))) (Proc.devRef .tc main_arg33) = x33 :=
    (st3_6_keep (F := F) (after (st3_5 (F := F)) (after (st3_4 (F := F)) (after (st3_3 (F := F)) (after (st3_2 (F := F)) (after (st3_1 (F := F)) (after (st3_0 (F := F)) W)))))) (r := main_arg33) (by decide)).trans k6_main_arg33
  have k1_main_v141 : (after (st3_0 (F := F)) W) (Proc.devRef .tc main_v141) = Stages.val_main_v141 (F := F) x0 x3 x4 x5 x6 x9 x10 x35 x36 :=
    (st3_0_keep (F := F) W (r := main_v141) (by decide)).trans h_main_v141
  have k2_main_v141 : (after (st3_1 (F := F)) (after (st3_0 (F := F)) W)) (Proc.devRef .tc main_v141) = Stages.val_main_v141 (F := F) x0 x3 x4 x5 x6 x9 x10 x35 x36 :=
    (st3_1_keep (F := F) (after (st3_0 (F := F)) W) (r := main_v141) (by decide)).trans k1_main_v141
  have k3_main_v141 : (after (st3_2 (F := F)) (after (st3_1 (F := F)) (after (st3_0 (F := F)) W))) (Proc.devRef .tc main_v141) = Stages.val_main_v141 (F := F) x0 x3 x4 x5 x6 x9 x10 x35 x36 :=
    (st3_2_keep (F := F) (after (st3_1 (F := F)) (after (st3_0 (F := F)) W)) (r := main_v141) (by decide)).trans k2_main_v141
  have k4_main_v141 : (after (st3_3 (F := F)) (after (st3_2 (F := F)) (after (st3_1 (F := F)) (after (st3_0 (F := F)) W)))) (Proc.devRef .tc main_v141) = Stages.val_main_v141 (F := F) x0 x3 x4 x5 x6 x9 x10 x35 x36 :=
    (st3_3_keep (F := F) (after (st3_2 (F := F)) (after (st3_1 (F := F)) (after (st3_0 (F := F)) W))) (r := main_v141) (by decide)).trans k3_main_v141
  have k5_main_v141 : (after (st3_4 (F := F)) (after (st3_3 (F := F)) (after (st3_2 (F := F)) (after (st3_1 (F := F)) (after (st3_0 (F := F)) W))))) (Proc.devRef .tc main_v141) = Stages.val_main_v141 (F := F) x0 x3 x4 x5 x6 x9 x10 x35 x36 :=
    (st3_4_keep (F := F) (after (st3_3 (F := F)) (after (st3_2 (F := F)) (after (st3_1 (F := F)) (after (st3_0 (F := F)) W)))) (r := main_v141) (by decide)).trans k4_main_v141
  have k6_main_v141 : (after (st3_5 (F := F)) (after (st3_4 (F := F)) (after (st3_3 (F := F)) (after (st3_2 (F := F)) (after (st3_1 (F := F)) (after (st3_0 (F := F)) W)))))) (Proc.devRef .tc main_v141) = Stages.val_main_v141 (F := F) x0 x3 x4 x5 x6 x9 x10 x35 x36 :=
    (st3_5_keep (F := F) (after (st3_4 (F := F)) (after (st3_3 (F := F)) (after (st3_2 (F := F)) (after (st3_1 (F := F)) (after (st3_0 (F := F)) W))))) (r := main_v141) (by decide)).trans k5_main_v141
  have k7_main_v141 : (after (st3_6 (F := F)) (after (st3_5 (F := F)) (after (st3_4 (F := F)) (after (st3_3 (F := F)) (after (st3_2 (F := F)) (after (st3_1 (F := F)) (after (st3_0 (F := F)) W))))))) (Proc.devRef .tc main_v141) = Stages.val_main_v141 (F := F) x0 x3 x4 x5 x6 x9 x10 x35 x36 :=
    (st3_6_keep (F := F) (after (st3_5 (F := F)) (after (st3_4 (F := F)) (after (st3_3 (F := F)) (after (st3_2 (F := F)) (after (st3_1 (F := F)) (after (st3_0 (F := F)) W)))))) (r := main_v141) (by decide)).trans k6_main_v141
  have f7 := st3_7_vals (F := F) x0 x3 x4 x5 x6 x9 x10 x33 x35 x36 (after (st3_6 (F := F)) (after (st3_5 (F := F)) (after (st3_4 (F := F)) (after (st3_3 (F := F)) (after (st3_2 (F := F)) (after (st3_1 (F := F)) (after (st3_0 (F := F)) W))))))) k7_main_arg33 f6.2 f6.1 k7_main_v141
  rw [ops3_after]
  exact ⟨f7.1, f7.2⟩

end Cert.ReferenceIdeal.HandRun

end
-- ==== Proof.RefRun4.lean ====
/- The reference program's operations 247 … 310 (the fifth printed window of @main) as a list,
   cut into short stretches; for each stretch, which buffers it writes, that it leaves every other buffer alone, and that
   the buffers it writes hold their stage values when the buffers it reads do. -/
import proofs.«402966_j45758581572292_1_alg».proof.Proof.RefStages
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, one name each -/

abbrev op_main_v195 : HloOp τ sig (Elt F) :=
  StableHlo.unary main_cst_42 main_v195 (broadcastInDim S30000x256 ![] bcast_S_S30000x256 : (⟨S_, .f32⟩ : BufTy).Contents (Elt F) → (⟨S30000x256, .f32⟩ : BufTy).Contents (Elt F))
abbrev op_main_v196 : HloOp τ sig (Elt F) :=
  StableHlo.unary main_arg34 main_v196 (broadcastInDim S200000x1 ![0] bcast_S200000_S200000x1_0 : (⟨S200000, .i32⟩ : BufTy).Contents (Elt F) → (⟨S200000x1, .i32⟩ : BufTy).Contents (Elt F))
abbrev op_main_v197 : HloOp τ sig (Elt F) :=
  StableHlo.ternary main_v195 main_v196 main_v194 main_v197 ((fun x i u => Host.scatterAdd scatter_S30000x256_S200000x1_S200000x256_1_0_0_1 x i u) : (⟨S30000x256, .f32⟩ : BufTy).Contents (Elt F) → (⟨S200000x1, .i32⟩ : BufTy).Contents (Elt F) → (⟨S200000x256, .f32⟩ : BufTy).Contents (Elt F) → (⟨S30000x256, .f32⟩ : BufTy).Contents (Elt F))
abbrev op_main_cst_43 : HloOp τ sig (Elt F) :=
  StableHlo.nullary main_cst_43 (constant S_ .f32 0x3F800000#32)
abbrev op_main_v198 : HloOp τ sig (Elt F) :=
  StableHlo.unary main_cst_43 main_v198 (broadcastInDim S200000 ![] bcast_S_S200000 : (⟨S_, .f32⟩ : BufTy).Contents (Elt F) → (⟨S200000, .f32⟩ : BufTy).Contents (Elt F))
abbrev op_main_cst_44 : HloOp τ sig (Elt F) :=
  StableHlo.nullary main_cst_44 (constant S_ .f32 0x00000000#32)
abbrev op_main_v199 : HloOp τ sig (Elt F) :=
  StableHlo.unary main_cst_44 main_v199 (broadcastInDim S30000 ![] bcast_S_S30000 : (⟨S_, .f32⟩ : BufTy).Contents (Elt F) → (⟨S30000, .f32⟩ : BufTy).Contents (Elt F))
abbrev op_main_v200 : HloOp τ sig (Elt F) :=
  StableHlo.unary main_arg34 main_v200 (broadcastInDim S200000x1 ![0] bcast_S200000_S200000x1_0 : (⟨S200000, .i32⟩ : BufTy).Contents (Elt F) → (⟨S200000x1, .i32⟩ : BufTy).Contents (Elt F))
abbrev op_main_v201 : HloOp τ sig (Elt F) :=
  StableHlo.ternary main_v199 main_v200 main_v198 main_v201 ((fun x i u => Host.scatterAdd scatter_S30000_S200000x1_S200000_n_0_0_1 x i u) : (⟨S30000, .f32⟩ : BufTy).Contents (Elt F) → (⟨S200000x1, .i32⟩ : BufTy).Contents (Elt F) → (⟨S200000, .f32⟩ : BufTy).Contents (Elt F) → (⟨S30000, .f32⟩ : BufTy).Contents (Elt F))
abbrev op_main_cst_45 : HloOp τ sig (Elt F) :=
  StableHlo.nullary main_cst_45 (constant S_ .f32 0x3F800000#32)
abbrev op_main_v202 : HloOp τ sig (Elt F) :=
  StableHlo.unary main_cst_45 main_v202 (broadcastInDim S30000 ![] bcast_S_S30000 : (⟨S_, .f32⟩ : BufTy).Contents (Elt F) → (⟨S30000, .f32⟩ : BufTy).Contents (Elt F))
abbrev op_main_v203 : HloOp τ sig (Elt F) :=
  StableHlo.binary main_v201 main_v202 main_v203 (maximumf : (⟨S30000, .f32⟩ : BufTy).Contents (Elt F) → (⟨S30000, .f32⟩ : BufTy).Contents (Elt F) → (⟨S30000, .f32⟩ : BufTy).Contents (Elt F))
abbrev op_main_v204 : HloOp τ sig (Elt F) :=
  StableHlo.unary main_v203 main_v204 (broadcastInDim S30000x1 ![0] bcast_S30000_S30000x1_0 : (⟨S30000, .f32⟩ : BufTy).Contents (Elt F) → (⟨S30000x1, .f32⟩ : BufTy).Contents (Elt F))
abbrev op_main_v205 : HloOp τ sig (Elt F) :=
  StableHlo.unary main_v204 main_v205 (broadcastInDim S30000x256 ![0, 1] bcast_S30000x1_S30000x256_0_1 : (⟨S30000x1, .f32⟩ : BufTy).Contents (Elt F) → (⟨S30000x256, .f32⟩ : BufTy).Contents (Elt F))
abbrev op_main_v206 : HloOp τ sig (Elt F) :=
  StableHlo.binary main_v197 main_v205 main_v206 (Host.divf : (⟨S30000x256, .f32⟩ : BufTy).Contents (Elt F) → (⟨S30000x256, .f32⟩ : BufTy).Contents (Elt F) → (⟨S30000x256, .f32⟩ : BufTy).Contents (Elt F))
abbrev op_main_v207 : HloOp τ sig (Elt F) :=
  StableHlo.binary main_v206 main_arg15 main_v207 ((fun l r => Host.dotGeneral dot_S30000x256_S256x256_S30000x256_1_0_0_1_n_n none l r) : (⟨S30000x256, .f32⟩ : BufTy).Contents (Elt F) → (⟨S256x256, .f32⟩ : BufTy).Contents (Elt F) → (⟨S30000x256, .f32⟩ : BufTy).Contents (Elt F))
abbrev op_main_v208 : HloOp τ sig (Elt F) :=
  StableHlo.binary main_v118 main_arg16 main_v208 ((fun l r => Host.dotGeneral dot_S30000x256_S256x256_S30000x256_1_0_0_1_n_n none l r) : (⟨S30000x256, .f32⟩ : BufTy).Contents (Elt F) → (⟨S256x256, .f32⟩ : BufTy).Contents (Elt F) → (⟨S30000x256, .f32⟩ : BufTy).Contents (Elt F))
abbrev op_main_v209 : HloOp τ sig (Elt F) :=
  StableHlo.binary main_v207 main_v208 main_v209 (addf : (⟨S30000x256, .f32⟩ : BufTy).Contents (Elt F) → (⟨S30000x256, .f32⟩ : BufTy).Contents (Elt F) → (⟨S30000x256, .f32⟩ : BufTy).Contents (Elt F))
abbrev op_main_call3_cst : HloOp τ sig (Elt F) :=
  StableHlo.TRef.nullary main_call3.cst (constant S_ .f32 0x00000000#32)
abbrev op_main_call3_v0 : HloOp τ sig (Elt F) :=
  StableHlo.TRef.unary main_call3.cst main_call3.v0 (broadcastInDim S30000x256 ![] bcast_S_S30000x256)
abbrev op_main_v210 : HloOp τ sig (Elt F) :=
  StableHlo.TRef.binary (.of main_v209) main_call3.v0 main_call3.v1 maximumf
abbrev op_main_c_46 : HloOp τ sig (Elt F) :=
  StableHlo.nullary main_c_46 (constantI S_ 32 0#32)
abbrev op_main_v211 : HloOp τ sig (Elt F) :=
  StableHlo.unary main_c_46 main_v211 (broadcastInDim S200000 ![] bcast_S_S200000 : (⟨S_, .i32⟩ : BufTy).Contents (Elt F) → (⟨S200000, .i32⟩ : BufTy).Contents (Elt F))
abbrev op_main_v212 : HloOp τ sig (Elt F) :=
  StableHlo.binary main_arg35 main_v211 main_v212 (cmpi .slt : (⟨S200000, .i32⟩ : BufTy).Contents (Elt F) → (⟨S200000, .i32⟩ : BufTy).Contents (Elt F) → (⟨S200000, .i1⟩ : BufTy).Contents (Elt F))
abbrev op_main_c_47 : HloOp τ sig (Elt F) :=
  StableHlo.nullary main_c_47 (constantI S_ 32 30000#32)
abbrev op_main_v213 : HloOp τ sig (Elt F) :=
  StableHlo.unary main_c_47 main_v213 (broadcastInDim S200000 ![] bcast_S_S200000 : (⟨S_, .i32⟩ : BufTy).Contents (Elt F) → (⟨S200000, .i32⟩ : BufTy).Contents (Elt F))
abbrev op_main_v214 : HloOp τ sig (Elt F) :=
  StableHlo.binary main_arg35 main_v213 main_v214 (addi : (⟨S200000, .i32⟩ : BufTy).Contents (Elt F) → (⟨S200000, .i32⟩ : BufTy).Contents (Elt F) → (⟨S200000, .i32⟩ : BufTy).Contents (Elt F))
abbrev op_main_v215 : HloOp τ sig (Elt F) :=
  StableHlo.ternary main_v212 main_v214 main_arg35 main_v215 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
abbrev op_main_v216 : HloOp τ sig (Elt F) :=
  StableHlo.unary main_v215 main_v216 (broadcastInDim S200000x1 ![0] bcast_S200000_S200000x1_0 : (⟨S200000, .i32⟩ : BufTy).Contents (Elt F) → (⟨S200000x1, .i32⟩ : BufTy).Contents (Elt F))
abbrev op_main_v217 : HloOp τ sig (Elt F) :=
  StableHlo.binary main_v141 main_v216 main_v217 ((fun x i => Host.gather gather_S30000x256_S200000x1_S200000x256_1_0_n_n_0_1_1256 x i) : (⟨S30000x256, .f32⟩ : BufTy).Contents (Elt F) → (⟨S200000x1, .i32⟩ : BufTy).Contents (Elt F) → (⟨S200000x256, .f32⟩ : BufTy).Contents (Elt F))
abbrev op_main_cst_48 : HloOp τ sig (Elt F) :=
  StableHlo.nullary main_cst_48 (constant S_ .f32 0x00000000#32)
abbrev op_main_v218 : HloOp τ sig (Elt F) :=
  StableHlo.unary main_cst_48 main_v218 (broadcastInDim S30000x256 ![] bcast_S_S30000x256 : (⟨S_, .f32⟩ : BufTy).Contents (Elt F) → (⟨S30000x256, .f32⟩ : BufTy).Contents (Elt F))
abbrev op_main_v219 : HloOp τ sig (Elt F) :=
  StableHlo.unary main_arg36 main_v219 (broadcastInDim S200000x1 ![0] bcast_S200000_S200000x1_0 : (⟨S200000, .i32⟩ : BufTy).Contents (Elt F) → (⟨S200000x1, .i32⟩ : BufTy).Contents (Elt F))
abbrev op_main_v220 : HloOp τ sig (Elt F) :=
  StableHlo.ternary main_v218 main_v219 main_v217 main_v220 ((fun x i u => Host.scatterAdd scatter_S30000x256_S200000x1_S200000x256_1_0_0_1 x i u) : (⟨S30000x256, .f32⟩ : BufTy).Contents (Elt F) → (⟨S200000x1, .i32⟩ : BufTy).Contents (Elt F) → (⟨S200000x256, .f32⟩ : BufTy).Contents (Elt F) → (⟨S30000x256, .f32⟩ : BufTy).Contents (Elt F))
abbrev op_main_cst_49 : HloOp τ sig (Elt F) :=
  StableHlo.nullary main_cst_49 (constant S_ .f32 0x3F800000#32)
abbrev op_main_v221 : HloOp τ sig (Elt F) :=
  StableHlo.unary main_cst_49 main_v221 (broadcastInDim S200000 ![] bcast_S_S200000 : (⟨S_, .f32⟩ : BufTy).Contents (Elt F) → (⟨S200000, .f32⟩ : BufTy).Contents (Elt F))
abbrev op_main_cst_50 : HloOp τ sig (Elt F) :=
  StableHlo.nullary main_cst_50 (constant S_ .f32 0x00000000#32)
abbrev op_main_v222 : HloOp τ sig (Elt F) :=
  StableHlo.unary main_cst_50 main_v222 (broadcastInDim S30000 ![] bcast_S_S30000 : (⟨S_, .f32⟩ : BufTy).Contents (Elt F) → (⟨S30000, .f32⟩ : BufTy).Contents (Elt F))
abbrev op_main_v223 : HloOp τ sig (Elt F) :=
  StableHlo.unary main_arg36 main_v223 (broadcastInDim S200000x1 ![0] bcast_S200000_S200000x1_0 : (⟨S200000, .i32⟩ : BufTy).Contents (Elt F) → (⟨S200000x1, .i32⟩ : BufTy).Contents (Elt F))
abbrev op_main_v224 : HloOp τ sig (Elt F) :=
  StableHlo.ternary main_v222 main_v223 main_v221 main_v224 ((fun x i u => Host.scatterAdd scatter_S30000_S200000x1_S200000_n_0_0_1 x i u) : (⟨S30000, .f32⟩ : BufTy).Contents (Elt F) → (⟨S200000x1, .i32⟩ : BufTy).Contents (Elt F) → (⟨S200000, .f32⟩ : BufTy).Contents (Elt F) → (⟨S30000, .f32⟩ : BufTy).Contents (Elt F))
abbrev op_main_cst_51 : HloOp τ sig (Elt F) :=
  StableHlo.nullary main_cst_51 (constant S_ .f32 0x3F800000#32)
abbrev op_main_v225 : HloOp τ sig (Elt F) :=
  StableHlo.unary main_cst_51 main_v225 (broadcastInDim S30000 ![] bcast_S_S30000 : (⟨S_, .f32⟩ : BufTy).Contents (Elt F) → (⟨S30000, .f32⟩ : BufTy).Contents (Elt F))
abbrev op_main_v226 : HloOp τ sig (Elt F) :=
  StableHlo.binary main_v224 main_v225 main_v226 (maximumf : (⟨S30000, .f32⟩ : BufTy).Contents (Elt F) → (⟨S30000, .f32⟩ : BufTy).Contents (Elt F) → (⟨S30000, .f32⟩ : BufTy).Contents (Elt F))
abbrev op_main_v227 : HloOp τ sig (Elt F) :=
  StableHlo.unary main_v226 main_v227 (broadcastInDim S30000x1 ![0] bcast_S30000_S30000x1_0 : (⟨S30000, .f32⟩ : BufTy).Contents (Elt F) → (⟨S30000x1, .f32⟩ : BufTy).Contents (Elt F))
abbrev op_main_v228 : HloOp τ sig (Elt F) :=
  StableHlo.unary main_v227 main_v228 (broadcastInDim S30000x256 ![0, 1] bcast_S30000x1_S30000x256_0_1 : (⟨S30000x1, .f32⟩ : BufTy).Contents (Elt F) → (⟨S30000x256, .f32⟩ : BufTy).Contents (Elt F))
abbrev op_main_v229 : HloOp τ sig (Elt F) :=
  StableHlo.binary main_v220 main_v228 main_v229 (Host.divf : (⟨S30000x256, .f32⟩ : BufTy).Contents (Elt F) → (⟨S30000x256, .f32⟩ : BufTy).Contents (Elt F) → (⟨S30000x256, .f32⟩ : BufTy).Contents (Elt F))
abbrev op_main_v230 : HloOp τ sig (Elt F) :=
  StableHlo.binary main_v229 main_arg17 main_v230 ((fun l r => Host.dotGeneral dot_S30000x256_S256x256_S30000x256_1_0_0_1_n_n none l r) : (⟨S30000x256, .f32⟩ : BufTy).Contents (Elt F) → (⟨S256x256, .f32⟩ : BufTy).Contents (Elt F) → (⟨S30000x256, .f32⟩ : BufTy).Contents (Elt F))
abbrev op_main_v231 : HloOp τ sig (Elt F) :=
  StableHlo.binary main_v141 main_arg18 main_v231 ((fun l r => Host.dotGeneral dot_S30000x256_S256x256_S30000x256_1_0_0_1_n_n none l r) : (⟨S30000x256, .f32⟩ : BufTy).Contents (Elt F) → (⟨S256x256, .f32⟩ : BufTy).Contents (Elt F) → (⟨S30000x256, .f32⟩ : BufTy).Contents (Elt F))
abbrev op_main_v232 : HloOp τ sig (Elt F) :=
  StableHlo.binary main_v230 main_v231 main_v232 (addf : (⟨S30000x256, .f32⟩ : BufTy).Contents (Elt F) → (⟨S30000x256, .f32⟩ : BufTy).Contents (Elt F) → (⟨S30000x256, .f32⟩ : BufTy).Contents (Elt F))
abbrev op_main_call4_cst : HloOp τ sig (Elt F) :=
  StableHlo.TRef.nullary main_call4.cst (constant S_ .f32 0x00000000#32)
abbrev op_main_call4_v0 : HloOp τ sig (Elt F) :=
  StableHlo.TRef.unary main_call4.cst main_call4.v0 (broadcastInDim S30000x256 ![] bcast_S_S30000x256)
abbrev op_main_v233 : HloOp τ sig (Elt F) :=
  StableHlo.TRef.binary (.of main_v232) main_call4.v0 main_call4.v1 maximumf
abbrev op_main_c_52 : HloOp τ sig (Elt F) :=
  StableHlo.nullary main_c_52 (constantI S_ 32 0#32)
abbrev op_main_v234 : HloOp τ sig (Elt F) :=
  StableHlo.unary main_c_52 main_v234 (broadcastInDim S200000 ![] bcast_S_S200000 : (⟨S_, .i32⟩ : BufTy).Contents (Elt F) → (⟨S200000, .i32⟩ : BufTy).Contents (Elt F))
abbrev op_main_v235 : HloOp τ sig (Elt F) :=
  StableHlo.binary main_arg37 main_v234 main_v235 (cmpi .slt : (⟨S200000, .i32⟩ : BufTy).Contents (Elt F) → (⟨S200000, .i32⟩ : BufTy).Contents (Elt F) → (⟨S200000, .i1⟩ : BufTy).Contents (Elt F))
abbrev op_main_c_53 : HloOp τ sig (Elt F) :=
  StableHlo.nullary main_c_53 (constantI S_ 32 30000#32)
abbrev op_main_v236 : HloOp τ sig (Elt F) :=
  StableHlo.unary main_c_53 main_v236 (broadcastInDim S200000 ![] bcast_S_S200000 : (⟨S_, .i32⟩ : BufTy).Contents (Elt F) → (⟨S200000, .i32⟩ : BufTy).Contents (Elt F))
abbrev op_main_v237 : HloOp τ sig (Elt F) :=
  StableHlo.binary main_arg37 main_v236 main_v237 (addi : (⟨S200000, .i32⟩ : BufTy).Contents (Elt F) → (⟨S200000, .i32⟩ : BufTy).Contents (Elt F) → (⟨S200000, .i32⟩ : BufTy).Contents (Elt F))
abbrev op_main_v238 : HloOp τ sig (Elt F) :=
  StableHlo.ternary main_v235 main_v237 main_arg37 main_v238 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F))
abbrev op_main_v239 : HloOp τ sig (Elt F) :=
  StableHlo.unary main_v238 main_v239 (broadcastInDim S200000x1 ![0] bcast_S200000_S200000x1_0 : (⟨S200000, .i32⟩ : BufTy).Contents (Elt F) → (⟨S200000x1, .i32⟩ : BufTy).Contents (Elt F))
abbrev op_main_v240 : HloOp τ sig (Elt F) :=
  StableHlo.binary main_v141 main_v239 main_v240 ((fun x i => Host.gather gather_S30000x256_S200000x1_S200000x256_1_0_n_n_0_1_1256 x i) : (⟨S30000x256, .f32⟩ : BufTy).Contents (Elt F) → (⟨S200000x1, .i32⟩ : BufTy).Contents (Elt F) → (⟨S200000x256, .f32⟩ : BufTy).Contents (Elt F))
abbrev op_main_cst_54 : HloOp τ sig (Elt F) :=
  StableHlo.nullary main_cst_54 (constant S_ .f32 0x00000000#32)
abbrev op_main_v241 : HloOp τ sig (Elt F) :=
  StableHlo.unary main_cst_54 main_v241 (broadcastInDim S50000x256 ![] bcast_S_S50000x256 : (⟨S_, .f32⟩ : BufTy).Contents (Elt F) → (⟨S50000x256, .f32⟩ : BufTy).Contents (Elt F))
abbrev op_main_v242 : HloOp τ sig (Elt F) :=
  StableHlo.unary main_arg38 main_v242 (broadcastInDim S200000x1 ![0] bcast_S200000_S200000x1_0 : (⟨S200000, .i32⟩ : BufTy).Contents (Elt F) → (⟨S200000x1, .i32⟩ : BufTy).Contents (Elt F))

/-! ## The stretches -/

/-- Operations 247 … 254 of the reference program, in order. -/
abbrev st4_0 : List (HloOp τ sig (Elt F)) :=
  [op_main_v195, op_main_v196, op_main_v197, op_main_cst_43, op_main_v198, op_main_cst_44, op_main_v199, op_main_v200]
/-- The buffers those operations write. -/
abbrev st4_0_W : List (Ref sig .tc) := [main_v195, main_v196, main_v197, main_cst_43, main_v198, main_cst_44, main_v199, main_v200]
theorem st4_0_writes : (st4_0 : List (HloOp τ sig (Elt F))).Forall fun op => op.writes ⊆ (st4_0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st4_0_keep (W : Valuation τ sig (Elt F)) {r : Ref sig .tc} (h : r ∉ st4_0_W) :
    after (st4_0 (F := F)) W (Proc.devRef .tc r) = W (Proc.devRef .tc r) :=
  after_of_writes_sub st4_0 W st4_0_writes h
/-- From contents at which the buffers read hold their stage values, the buffers written here that are read later hold theirs:
    each is its operation applied to the operands' contents, which is the stage value's definition. -/
theorem st4_0_vals (x0 : (⟨S30000x12, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x9 : (⟨S86x256, .f32⟩ : BufTy).Contents (Elt F)) (x10 : (⟨S86x256, .f32⟩ : BufTy).Contents (Elt F)) (x33 : (⟨S200000, .i32⟩ : BufTy).Contents (Elt F)) (x34 : (⟨S200000, .i32⟩ : BufTy).Contents (Elt F)) (x35 : (⟨S200000, .i32⟩ : BufTy).Contents (Elt F)) (x36 : (⟨S200000, .i32⟩ : BufTy).Contents (Elt F)) (W : Valuation τ sig (Elt F))
    (h_main_v194 : W (Proc.devRef .tc main_v194) = Stages.val_main_v194 (F := F) x0 x3 x4 x5 x6 x9 x10 x33 x35 x36)
    (h_main_arg34 : W (Proc.devRef .tc main_arg34) = x34)
    (h_main_cst_42 : W (Proc.devRef .tc main_cst_42) = Stages.val_main_cst_42 (F := F))
    :
    after (st4_0 (F := F)) W (Proc.devRef .tc main_v197) = Stages.val_main_v197 (F := F) x0 x3 x4 x5 x6 x9 x10 x33 x34 x35 x36
    ∧ after (st4_0 (F := F)) W (Proc.devRef .tc main_v198) = Stages.val_main_v198 (F := F)
    ∧ after (st4_0 (F := F)) W (Proc.devRef .tc main_v199) = Stages.val_main_v199 (F := F)
    ∧ after (st4_0 (F := F)) W (Proc.devRef .tc main_v200) = Stages.val_main_v200 (F := F) x34 := by
  refine ⟨?_, ?_, ?_, ?_⟩
  · after_results; rw [h_main_v194, h_main_arg34, h_main_cst_42]; rfl
  · after_results; rfl
  · after_results; rfl
  · after_results; rw [h_main_arg34]; rfl

/-- Operations 255 … 262 of the reference program, in order. -/
abbrev st4_1 : List (HloOp τ sig (Elt F)) :=
  [op_main_v201, op_main_cst_45, op_main_v202, op_main_v203, op_main_v204, op_main_v205, op_main_v206, op_main_v207]
/-- The buffers those operations write. -/
abbrev st4_1_W : List (Ref sig .tc) := [main_v201, main_cst_45, main_v202, main_v203, main_v204, main_v205, main_v206, main_v207]
theorem st4_1_writes : (st4_1 : List (HloOp τ sig (Elt F))).Forall fun op => op.writes ⊆ (st4_1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st4_1_keep (W : Valuation τ sig (Elt F)) {r : Ref sig .tc} (h : r ∉ st4_1_W) :
    after (st4_1 (F := F)) W (Proc.devRef .tc r) = W (Proc.devRef .tc r) :=
  after_of_writes_sub st4_1 W st4_1_writes h
/-- From contents at which the buffers read hold their stage values, the buffers written here that are read later hold theirs:
    each is its operation applied to the operands' contents, which is the stage value's definition. -/
theorem st4_1_vals (x0 : (⟨S30000x12, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x9 : (⟨S86x256, .f32⟩ : BufTy).Contents (Elt F)) (x10 : (⟨S86x256, .f32⟩ : BufTy).Contents (Elt F)) (x15 : (⟨S256x256, .f32⟩ : BufTy).Contents (Elt F)) (x33 : (⟨S200000, .i32⟩ : BufTy).Contents (Elt F)) (x34 : (⟨S200000, .i32⟩ : BufTy).Contents (Elt F)) (x35 : (⟨S200000, .i32⟩ : BufTy).Contents (Elt F)) (x36 : (⟨S200000, .i32⟩ : BufTy).Contents (Elt F)) (W : Valuation τ sig (Elt F))
    (h_main_arg15 : W (Proc.devRef .tc main_arg15) = x15)
    (h_main_v198 : W (Proc.devRef .tc main_v198) = Stages.val_main_v198 (F := F))
    (h_main_v200 : W (Proc.devRef .tc main_v200) = Stages.val_main_v200 (F := F) x34)
    (h_main_v199 : W (Proc.devRef .tc main_v199) = Stages.val_main_v199 (F := F))
    (h_main_v197 : W (Proc.devRef .tc main_v197) = Stages.val_main_v197 (F := F) x0 x3 x4 x5 x6 x9 x10 x33 x34 x35 x36)
    :
    after (st4_1 (F := F)) W (Proc.devRef .tc main_v207) = Stages.val_main_v207 (F := F) x0 x3 x4 x5 x6 x9 x10 x15 x33 x34 x35 x36 := by
  after_results; rw [h_main_arg15, h_main_v198, h_main_v200, h_main_v199, h_main_v197]; rfl

/-- Operations 263 … 270 of the reference program, in order. -/
abbrev st4_2 : List (HloOp τ sig (Elt F)) :=
  [op_main_v208, op_main_v209, op_main_call3_cst, op_main_call3_v0, op_main_v210, op_main_c_46, op_main_v211, op_main_v212]
/-- The buffers those operations write. -/
abbrev st4_2_W : List (Ref sig .tc) := [main_v208, main_v209, main_call3_cst, main_call3_v0, main_v210, main_c_46, main_v211, main_v212]
theorem st4_2_writes : (st4_2 : List (HloOp τ sig (Elt F))).Forall fun op => op.writes ⊆ (st4_2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st4_2_keep (W : Valuation τ sig (Elt F)) {r : Ref sig .tc} (h : r ∉ st4_2_W) :
    after (st4_2 (F := F)) W (Proc.devRef .tc r) = W (Proc.devRef .tc r) :=
  after_of_writes_sub st4_2 W st4_2_writes h
/-- From contents at which the buffers read hold their stage values, the buffers written here that are read later hold theirs:
    each is its operation applied to the operands' contents, which is the stage value's definition. -/
theorem st4_2_vals (x0 : (⟨S30000x12, .f32⟩ : BufTy).Contents (Elt F)) (x1 : (⟨S30000x10, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x7 : (⟨S86x256, .f32⟩ : BufTy).Contents (Elt F)) (x8 : (⟨S72x256, .f32⟩ : BufTy).Contents (Elt F)) (x9 : (⟨S86x256, .f32⟩ : BufTy).Contents (Elt F)) (x10 : (⟨S86x256, .f32⟩ : BufTy).Contents (Elt F)) (x15 : (⟨S256x256, .f32⟩ : BufTy).Contents (Elt F)) (x16 : (⟨S256x256, .f32⟩ : BufTy).Contents (Elt F)) (x33 : (⟨S200000, .i32⟩ : BufTy).Contents (Elt F)) (x34 : (⟨S200000, .i32⟩ : BufTy).Contents (Elt F)) (x35 : (⟨S200000, .i32⟩ : BufTy).Contents (Elt F)) (x36 : (⟨S200000, .i32⟩ : BufTy).Contents (Elt F)) (W : Valuation τ sig (Elt F))
    (h_main_arg16 : W (Proc.devRef .tc main_arg16) = x16)
    (h_main_v118 : W (Proc.devRef .tc main_v118) = Stages.val_main_v118 (F := F) x0 x1 x3 x4 x5 x6 x7 x8 x33 x34)
    (h_main_v207 : W (Proc.devRef .tc main_v207) = Stages.val_main_v207 (F := F) x0 x3 x4 x5 x6 x9 x10 x15 x33 x34 x35 x36)
    :
    after (st4_2 (F := F)) W (Proc.devRef .tc main_v210) = Stages.val_main_v210 (F := F) x0 x1 x3 x4 x5 x6 x7 x8 x9 x10 x15 x16 x33 x34 x35 x36 := by
  after_results; (try simp only [TRef.ofBuf, TRef.toBuf, cast_eq]); rw [h_main_arg16, h_main_v118, h_main_v207]; rfl

/-- Operations 271 … 278 of the reference program, in order. -/
abbrev st4_3 : List (HloOp τ sig (Elt F)) :=
  [op_main_c_47, op_main_v213, op_main_v214, op_main_v215, op_main_v216, op_main_v217, op_main_cst_48, op_main_v218]
/-- The buffers those operations write. -/
abbrev st4_3_W : List (Ref sig .tc) := [main_c_47, main_v213, main_v214, main_v215, main_v216, main_v217, main_cst_48, main_v218]
theorem st4_3_writes : (st4_3 : List (HloOp τ sig (Elt F))).Forall fun op => op.writes ⊆ (st4_3_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st4_3_keep (W : Valuation τ sig (Elt F)) {r : Ref sig .tc} (h : r ∉ st4_3_W) :
    after (st4_3 (F := F)) W (Proc.devRef .tc r) = W (Proc.devRef .tc r) :=
  after_of_writes_sub st4_3 W st4_3_writes h

/-- Operations 279 … 286 of the reference program, in order. -/
abbrev st4_4 : List (HloOp τ sig (Elt F)) :=
  [op_main_v219, op_main_v220, op_main_cst_49, op_main_v221, op_main_cst_50, op_main_v222, op_main_v223, op_main_v224]
/-- The buffers those operations write. -/
abbrev st4_4_W : List (Ref sig .tc) := [main_v219, main_v220, main_cst_49, main_v221, main_cst_50, main_v222, main_v223, main_v224]
theorem st4_4_writes : (st4_4 : List (HloOp τ sig (Elt F))).Forall fun op => op.writes ⊆ (st4_4_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st4_4_keep (W : Valuation τ sig (Elt F)) {r : Ref sig .tc} (h : r ∉ st4_4_W) :
    after (st4_4 (F := F)) W (Proc.devRef .tc r) = W (Proc.devRef .tc r) :=
  after_of_writes_sub st4_4 W st4_4_writes h

/-- Operations 287 … 294 of the reference program, in order. -/
abbrev st4_5 : List (HloOp τ sig (Elt F)) :=
  [op_main_cst_51, op_main_v225, op_main_v226, op_main_v227, op_main_v228, op_main_v229, op_main_v230, op_main_v231]
/-- The buffers those operations write. -/
abbrev st4_5_W : List (Ref sig .tc) := [main_cst_51, main_v225, main_v226, main_v227, main_v228, main_v229, main_v230, main_v231]
theorem st4_5_writes : (st4_5 : List (HloOp τ sig (Elt F))).Forall fun op => op.writes ⊆ (st4_5_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st4_5_keep (W : Valuation τ sig (Elt F)) {r : Ref sig .tc} (h : r ∉ st4_5_W) :
    after (st4_5 (F := F)) W (Proc.devRef .tc r) = W (Proc.devRef .tc r) :=
  after_of_writes_sub st4_5 W st4_5_writes h

/-- Operations 295 … 302 of the reference program, in order. -/
abbrev st4_6 : List (HloOp τ sig (Elt F)) :=
  [op_main_v232, op_main_call4_cst, op_main_call4_v0, op_main_v233, op_main_c_52, op_main_v234, op_main_v235, op_main_c_53]
/-- The buffers those operations write. -/
abbrev st4_6_W : List (Ref sig .tc) := [main_v232, main_call4_cst, main_call4_v0, main_v233, main_c_52, main_v234, main_v235, main_c_53]
theorem st4_6_writes : (st4_6 : List (HloOp τ sig (Elt F))).Forall fun op => op.writes ⊆ (st4_6_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st4_6_keep (W : Valuation τ sig (Elt F)) {r : Ref sig .tc} (h : r ∉ st4_6_W) :
    after (st4_6 (F := F)) W (Proc.devRef .tc r) = W (Proc.devRef .tc r) :=
  after_of_writes_sub st4_6 W st4_6_writes h

/-- Operations 303 … 310 of the reference program, in order. -/
abbrev st4_7 : List (HloOp τ sig (Elt F)) :=
  [op_main_v236, op_main_v237, op_main_v238, op_main_v239, op_main_v240, op_main_cst_54, op_main_v241, op_main_v242]
/-- The buffers those operations write. -/
abbrev st4_7_W : List (Ref sig .tc) := [main_v236, main_v237, main_v238, main_v239, main_v240, main_cst_54, main_v241, main_v242]
theorem st4_7_writes : (st4_7 : List (HloOp τ sig (Elt F))).Forall fun op => op.writes ⊆ (st4_7_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st4_7_keep (W : Valuation τ sig (Elt F)) {r : Ref sig .tc} (h : r ∉ st4_7_W) :
    after (st4_7 (F := F)) W (Proc.devRef .tc r) = W (Proc.devRef .tc r) :=
  after_of_writes_sub st4_7 W st4_7_writes h

/-! ## The window as one list -/

/-- The window's operations, in order. -/
abbrev ops4 : List (HloOp τ sig (Elt F)) :=
  [op_main_v195, op_main_v196, op_main_v197, op_main_cst_43, op_main_v198, op_main_cst_44, op_main_v199, op_main_v200, op_main_v201, op_main_cst_45, op_main_v202, op_main_v203, op_main_v204, op_main_v205, op_main_v206, op_main_v207, op_main_v208, op_main_v209, op_main_call3_cst, op_main_call3_v0, op_main_v210, op_main_c_46, op_main_v211, op_main_v212, op_main_c_47, op_main_v213, op_main_v214, op_main_v215, op_main_v216, op_main_v217, op_main_cst_48, op_main_v218, op_main_v219, op_main_v220, op_main_cst_49, op_main_v221, op_main_cst_50, op_main_v222, op_main_v223, op_main_v224, op_main_cst_51, op_main_v225, op_main_v226, op_main_v227, op_main_v228, op_main_v229, op_main_v230, op_main_v231, op_main_v232, op_main_call4_cst, op_main_call4_v0, op_main_v233, op_main_c_52, op_main_v234, op_main_v235, op_main_c_53, op_main_v236, op_main_v237, op_main_v238, op_main_v239, op_main_v240, op_main_cst_54, op_main_v241, op_main_v242]
theorem ops4_split : (ops4 : List (HloOp τ sig (Elt F))) = st4_0 ++ st4_1 ++ st4_2 ++ st4_3 ++ st4_4 ++ st4_5 ++ st4_6 ++ st4_7 := rfl
set_option maxRecDepth 8192 in
/-- The printed window is that line of operations: the called functions' bodies stand at their call sites, and sequencing is reassociated. -/
theorem main_part4_eq (c : Dev nD) : main_part4 (F := F) c = seq ops4 := by
  simp only [main_part4, fn_relu.body, fn_relu_0.body, fn_relu_1.body, seq, bind_assoc, pure_bind]
  rfl
/-- Every operation touches TensorCore buffers only. -/
theorem ops4_sub : (ops4 : List (HloOp τ sig (Elt F))).Forall fun op => op.bufs ⊆ tcRefs τ sig :=
  ⟨unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩
/-- Every operation determines its results. -/
theorem ops4_fresh : (ops4 : List (HloOp τ sig (Elt F))).Forall fun op => op.fresh = ∅ := by
  simp only [List.Forall]; repeat' constructor
/-- The buffers the window writes. -/
abbrev ops4_W : List (Ref sig .tc) := [main_v195, main_v196, main_v197, main_cst_43, main_v198, main_cst_44, main_v199, main_v200, main_v201, main_cst_45, main_v202, main_v203, main_v204, main_v205, main_v206, main_v207, main_v208, main_v209, main_call3_cst, main_call3_v0, main_v210, main_c_46, main_v211, main_v212, main_c_47, main_v213, main_v214, main_v215, main_v216, main_v217, main_cst_48, main_v218, main_v219, main_v220, main_cst_49, main_v221, main_cst_50, main_v222, main_v223, main_v224, main_cst_51, main_v225, main_v226, main_v227, main_v228, main_v229, main_v230, main_v231, main_v232, main_call4_cst, main_call4_v0, main_v233, main_c_52, main_v234, main_v235, main_c_53, main_v236, main_v237, main_v238, main_v239, main_v240, main_cst_54, main_v241, main_v242]
theorem ops4_writes : (ops4 : List (HloOp τ sig (Elt F))).Forall fun op => op.writes ⊆ (ops4_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer the window does not write holds after it what it held before. -/
theorem ops4_keep (W : Valuation τ sig (Elt F)) {r : Ref sig .tc} (h : r ∉ ops4_W) :
    after (ops4 (F := F)) W (Proc.devRef .tc r) = W (Proc.devRef .tc r) :=
  after_of_writes_sub ops4 W ops4_writes h
/-- The window's fold is the stretches' folds, one after the other. -/
theorem ops4_after (W : Valuation τ sig (Elt F)) : after (ops4 (F := F)) W = after (st4_7 (F := F)) (after (st4_6 (F := F)) (after (st4_5 (F := F)) (after (st4_4 (F := F)) (after (st4_3 (F := F)) (after (st4_2 (F := F)) (after (st4_1 (F := F)) (after (st4_0 (F := F)) W))))))) := by
  rw [ops4_split, after_append, after_append, after_append, after_append, after_append, after_append, after_append]
/-- From contents at which the buffers the window reads hold their stage values, the buffers it writes that later windows read
    (or that are results) hold theirs: stretch by stretch, a buffer written earlier carried across the stretches that do not write it. -/
theorem ops4_vals (x0 : (⟨S30000x12, .f32⟩ : BufTy).Contents (Elt F)) (x1 : (⟨S30000x10, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x7 : (⟨S86x256, .f32⟩ : BufTy).Contents (Elt F)) (x8 : (⟨S72x256, .f32⟩ : BufTy).Contents (Elt F)) (x9 : (⟨S86x256, .f32⟩ : BufTy).Contents (Elt F)) (x10 : (⟨S86x256, .f32⟩ : BufTy).Contents (Elt F)) (x15 : (⟨S256x256, .f32⟩ : BufTy).Contents (Elt F)) (x16 : (⟨S256x256, .f32⟩ : BufTy).Contents (Elt F)) (x33 : (⟨S200000, .i32⟩ : BufTy).Contents (Elt F)) (x34 : (⟨S200000, .i32⟩ : BufTy).Contents (Elt F)) (x35 : (⟨S200000, .i32⟩ : BufTy).Contents (Elt F)) (x36 : (⟨S200000, .i32⟩ : BufTy).Contents (Elt F)) (W : Valuation τ sig (Elt F))
    (h_main_v194 : W (Proc.devRef .tc main_v194) = Stages.val_main_v194 (F := F) x0 x3 x4 x5 x6 x9 x10 x33 x35 x36)
    (h_main_arg34 : W (Proc.devRef .tc main_arg34) = x34)
    (h_main_cst_42 : W (Proc.devRef .tc main_cst_42) = Stages.val_main_cst_42 (F := F))
    (h_main_arg15 : W (Proc.devRef .tc main_arg15) = x15)
    (h_main_arg16 : W (Proc.devRef .tc main_arg16) = x16)
    (h_main_v118 : W (Proc.devRef .tc main_v118) = Stages.val_main_v118 (F := F) x0 x1 x3 x4 x5 x6 x7 x8 x33 x34)
    :
    after (ops4 (F := F)) W (Proc.devRef .tc main_v210) = Stages.val_main_v210 (F := F) x0 x1 x3 x4 x5 x6 x7 x8 x9 x10 x15 x16 x33 x34 x35 x36 := by
  have f0 := st4_0_vals (F := F) x0 x3 x4 x5 x6 x9 x10 x33 x34 x35 x36 W h_main_v194 h_main_arg34 h_main_cst_42
  have k1_main_arg15 : (after (st4_0 (F := F)) W) (Proc.devRef .tc main_arg15) = x15 :=
    (st4_0_keep (F := F) W (r := main_arg15) (by decide)).trans h_main_arg15
  have f1 := st4_1_vals (F := F) x0 x3 x4 x5 x6 x9 x10 x15 x33 x34 x35 x36 (after (st4_0 (F := F)) W) k1_main_arg15 f0.2.1 f0.2.2.2 f0.2.2.1 f0.1
  have k1_main_arg16 : (after (st4_0 (F := F)) W) (Proc.devRef .tc main_arg16) = x16 :=
    (st4_0_keep (F := F) W (r := main_arg16) (by decide)).trans h_main_arg16
  have k2_main_arg16 : (after (st4_1 (F := F)) (after (st4_0 (F := F)) W)) (Proc.devRef .tc main_arg16) = x16 :=
    (st4_1_keep (F := F) (after (st4_0 (F := F)) W) (r := main_arg16) (by decide)).trans k1_main_arg16
  have k1_main_v118 : (after (st4_0 (F := F)) W) (Proc.devRef .tc main_v118) = Stages.val_main_v118 (F := F) x0 x1 x3 x4 x5 x6 x7 x8 x33 x34 :=
    (st4_0_keep (F := F) W (r := main_v118) (by decide)).trans h_main_v118
  have k2_main_v118 : (after (st4_1 (F := F)) (after (st4_0 (F := F)) W)) (Proc.devRef .tc main_v118) = Stages.val_main_v118 (F := F) x0 x1 x3 x4 x5 x6 x7 x8 x33 x34 :=
    (st4_1_keep (F := F) (after (st4_0 (F := F)) W) (r := main_v118) (by decide)).trans k1_main_v118
  have f2 := st4_2_vals (F := F) x0 x1 x3 x4 x5 x6 x7 x8 x9 x10 x15 x16 x33 x34 x35 x36 (after (st4_1 (F := F)) (after (st4_0 (F := F)) W)) k2_main_arg16 k2_main_v118 f1
  have k4_main_v210 : (after (st4_3 (F := F)) (after (st4_2 (F := F)) (after (st4_1 (F := F)) (after (st4_0 (F := F)) W)))) (Proc.devRef .tc main_v210) = Stages.val_main_v210 (F := F) x0 x1 x3 x4 x5 x6 x7 x8 x9 x10 x15 x16 x33 x34 x35 x36 :=
    (st4_3_keep (F := F) (after (st4_2 (F := F)) (after (st4_1 (F := F)) (after (st4_0 (F := F)) W))) (r := main_v210) (by decide)).trans f2
  have k5_main_v210 : (after (st4_4 (F := F)) (after (st4_3 (F := F)) (after (st4_2 (F := F)) (after (st4_1 (F := F)) (after (st4_0 (F := F)) W))))) (Proc.devRef .tc main_v210) = Stages.val_main_v210 (F := F) x0 x1 x3 x4 x5 x6 x7 x8 x9 x10 x15 x16 x33 x34 x35 x36 :=
    (st4_4_keep (F := F) (after (st4_3 (F := F)) (after (st4_2 (F := F)) (after (st4_1 (F := F)) (after (st4_0 (F := F)) W)))) (r := main_v210) (by decide)).trans k4_main_v210
  have k6_main_v210 : (after (st4_5 (F := F)) (after (st4_4 (F := F)) (after (st4_3 (F := F)) (after (st4_2 (F := F)) (after (st4_1 (F := F)) (after (st4_0 (F := F)) W)))))) (Proc.devRef .tc main_v210) = Stages.val_main_v210 (F := F) x0 x1 x3 x4 x5 x6 x7 x8 x9 x10 x15 x16 x33 x34 x35 x36 :=
    (st4_5_keep (F := F) (after (st4_4 (F := F)) (after (st4_3 (F := F)) (after (st4_2 (F := F)) (after (st4_1 (F := F)) (after (st4_0 (F := F)) W))))) (r := main_v210) (by decide)).trans k5_main_v210
  have k7_main_v210 : (after (st4_6 (F := F)) (after (st4_5 (F := F)) (after (st4_4 (F := F)) (after (st4_3 (F := F)) (after (st4_2 (F := F)) (after (st4_1 (F := F)) (after (st4_0 (F := F)) W))))))) (Proc.devRef .tc main_v210) = Stages.val_main_v210 (F := F) x0 x1 x3 x4 x5 x6 x7 x8 x9 x10 x15 x16 x33 x34 x35 x36 :=
    (st4_6_keep (F := F) (after (st4_5 (F := F)) (after (st4_4 (F := F)) (after (st4_3 (F := F)) (after (st4_2 (F := F)) (after (st4_1 (F := F)) (after (st4_0 (F := F)) W)))))) (r := main_v210) (by decide)).trans k6_main_v210
  have k8_main_v210 : (after (st4_7 (F := F)) (after (st4_6 (F := F)) (after (st4_5 (F := F)) (after (st4_4 (F := F)) (after (st4_3 (F := F)) (after (st4_2 (F := F)) (after (st4_1 (F := F)) (after (st4_0 (F := F)) W)))))))) (Proc.devRef .tc main_v210) = Stages.val_main_v210 (F := F) x0 x1 x3 x4 x5 x6 x7 x8 x9 x10 x15 x16 x33 x34 x35 x36 :=
    (st4_7_keep (F := F) (after (st4_6 (F := F)) (after (st4_5 (F := F)) (after (st4_4 (F := F)) (after (st4_3 (F := F)) (after (st4_2 (F := F)) (after (st4_1 (F := F)) (after (st4_0 (F := F)) W))))))) (r := main_v210) (by decide)).trans k7_main_v210
  rw [ops4_after]
  exact k8_main_v210

end Cert.ReferenceIdeal.HandRun

end
-- ==== Proof.RefRun5.lean ====
/- The reference program's operations 311 … 376 (the sixth printed window of @main) as a list,
   cut into short stretches; for each stretch, which buffers it writes, that it leaves every other buffer alone, and that
   the buffers it writes hold their stage values when the buffers it reads do. -/
import proofs.«402966_j45758581572292_1_alg».proof.Proof.RefStages
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, one name each -/

abbrev op_main_v243 : HloOp τ sig (Elt F) :=
  StableHlo.ternary main_v241 main_v242 main_v240 main_v243 ((fun x i u => Host.scatterAdd scatter_S50000x256_S200000x1_S200000x256_1_0_0_1 x i u) : (⟨S50000x256, .f32⟩ : BufTy).Contents (Elt F) → (⟨S200000x1, .i32⟩ : BufTy).Contents (Elt F) → (⟨S200000x256, .f32⟩ : BufTy).Contents (Elt F) → (⟨S50000x256, .f32⟩ : BufTy).Contents (Elt F))
abbrev op_main_cst_55 : HloOp τ sig (Elt F) :=
  StableHlo.nullary main_cst_55 (constant S_ .f32 0x3F800000#32)
abbrev op_main_v244 : HloOp τ sig (Elt F) :=
  StableHlo.unary main_cst_55 main_v244 (broadcastInDim S200000 ![] bcast_S_S200000 : (⟨S_, .f32⟩ : BufTy).Contents (Elt F) → (⟨S200000, .f32⟩ : BufTy).Contents (Elt F))
abbrev op_main_cst_56 : HloOp τ sig (Elt F) :=
  StableHlo.nullary main_cst_56 (constant S_ .f32 0x00000000#32)
abbrev op_main_v245 : HloOp τ sig (Elt F) :=
  StableHlo.unary main_cst_56 main_v245 (broadcastInDim S50000 ![] bcast_S_S50000 : (⟨S_, .f32⟩ : BufTy).Contents (Elt F) → (⟨S50000, .f32⟩ : BufTy).Contents (Elt F))
abbrev op_main_v246 : HloOp τ sig (Elt F) :=
  StableHlo.unary main_arg38 main_v246 (broadcastInDim S200000x1 ![0] bcast_S200000_S200000x1_0 : (⟨S200000, .i32⟩ : BufTy).Contents (Elt F) → (⟨S200000x1, .i32⟩ : BufTy).Contents (Elt F))
abbrev op_main_v247 : HloOp τ sig (Elt F) :=
  StableHlo.ternary main_v245 main_v246 main_v244 main_v247 ((fun x i u => Host.scatterAdd scatter_S50000_S200000x1_S200000_n_0_0_1 x i u) : (⟨S50000, .f32⟩ : BufTy).Contents (Elt F) → (⟨S200000x1, .i32⟩ : BufTy).Contents (Elt F) → (⟨S200000, .f32⟩ : BufTy).Contents (Elt F) → (⟨S50000, .f32⟩ : BufTy).Contents (Elt F))
abbrev op_main_cst_57 : HloOp τ sig (Elt F) :=
  StableHlo.nullary main_cst_57 (constant S_ .f32 0x3F800000#32)
abbrev op_main_v248 : HloOp τ sig (Elt F) :=
  StableHlo.unary main_cst_57 main_v248 (broadcastInDim S50000 ![] bcast_S_S50000 : (⟨S_, .f32⟩ : BufTy).Contents (Elt F) → (⟨S50000, .f32⟩ : BufTy).Contents (Elt F))
abbrev op_main_v249 : HloOp τ sig (Elt F) :=
  StableHlo.binary main_v247 main_v248 main_v249 (maximumf : (⟨S50000, .f32⟩ : BufTy).Contents (Elt F) → (⟨S50000, .f32⟩ : BufTy).Contents (Elt F) → (⟨S50000, .f32⟩ : BufTy).Contents (Elt F))
abbrev op_main_v250 : HloOp τ sig (Elt F) :=
  StableHlo.unary main_v249 main_v250 (broadcastInDim S50000x1 ![0] bcast_S50000_S50000x1_0 : (⟨S50000, .f32⟩ : BufTy).Contents (Elt F) → (⟨S50000x1, .f32⟩ : BufTy).Contents (Elt F))
abbrev op_main_v251 : HloOp τ sig (Elt F) :=
  StableHlo.unary main_v250 main_v251 (broadcastInDim S50000x256 ![0, 1] bcast_S50000x1_S50000x256_0_1 : (⟨S50000x1, .f32⟩ : BufTy).Contents (Elt F) → (⟨S50000x256, .f32⟩ : BufTy).Contents (Elt F))
abbrev op_main_v252 : HloOp τ sig (Elt F) :=
  StableHlo.binary main_v243 main_v251 main_v252 (Host.divf : (⟨S50000x256, .f32⟩ : BufTy).Contents (Elt F) → (⟨S50000x256, .f32⟩ : BufTy).Contents (Elt F) → (⟨S50000x256, .f32⟩ : BufTy).Contents (Elt F))
abbrev op_main_v253 : HloOp τ sig (Elt F) :=
  StableHlo.binary main_v252 main_arg19 main_v253 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))
abbrev op_main_v254 : HloOp τ sig (Elt F) :=
  StableHlo.binary main_v187 main_arg20 main_v254 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))
abbrev op_main_v255 : HloOp τ sig (Elt F) :=
  StableHlo.binary main_v253 main_v254 main_v255 (addf : (⟨S50000x256, .f32⟩ : BufTy).Contents (Elt F) → (⟨S50000x256, .f32⟩ : BufTy).Contents (Elt F) → (⟨S50000x256, .f32⟩ : BufTy).Contents (Elt F))
abbrev op_main_c_58 : HloOp τ sig (Elt F) :=
  StableHlo.nullary main_c_58 (constantI S_ 32 0#32)
abbrev op_main_v256 : HloOp τ sig (Elt F) :=
  StableHlo.unary main_c_58 main_v256 (broadcastInDim S400000 ![] bcast_S_S400000 : (⟨S_, .i32⟩ : BufTy).Contents (Elt F) → (⟨S400000, .i32⟩ : BufTy).Contents (Elt F))
abbrev op_main_v257 : HloOp τ sig (Elt F) :=
  StableHlo.binary main_arg39 main_v256 main_v257 (cmpi .slt : (⟨S400000, .i32⟩ : BufTy).Contents (Elt F) → (⟨S400000, .i32⟩ : BufTy).Contents (Elt F) → (⟨S400000, .i1⟩ : BufTy).Contents (Elt F))
abbrev op_main_c_59 : HloOp τ sig (Elt F) :=
  StableHlo.nullary main_c_59 (constantI S_ 32 50000#32)
abbrev op_main_v258 : HloOp τ sig (Elt F) :=
  StableHlo.unary main_c_59 main_v258 (broadcastInDim S400000 ![] bcast_S_S400000 : (⟨S_, .i32⟩ : BufTy).Contents (Elt F) → (⟨S400000, .i32⟩ : BufTy).Contents (Elt F))
abbrev op_main_v259 : HloOp τ sig (Elt F) :=
  StableHlo.binary main_arg39 main_v258 main_v259 (addi : (⟨S400000, .i32⟩ : BufTy).Contents (Elt F) → (⟨S400000, .i32⟩ : BufTy).Contents (Elt F) → (⟨S400000, .i32⟩ : BufTy).Contents (Elt F))
abbrev op_main_v260 : HloOp τ sig (Elt F) :=
  StableHlo.ternary main_v257 main_v259 main_arg39 main_v260 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F))
abbrev op_main_v261 : HloOp τ sig (Elt F) :=
  StableHlo.unary main_v260 main_v261 (broadcastInDim S400000x1 ![0] bcast_S400000_S400000x1_0 : (⟨S400000, .i32⟩ : BufTy).Contents (Elt F) → (⟨S400000x1, .i32⟩ : BufTy).Contents (Elt F))
abbrev op_main_v262 : HloOp τ sig (Elt F) :=
  StableHlo.binary main_v187 main_v261 main_v262 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F))
abbrev op_main_cst_60 : HloOp τ sig (Elt F) :=
  StableHlo.nullary main_cst_60 (constant S_ .f32 0x00000000#32)
abbrev op_main_v263 : HloOp τ sig (Elt F) :=
  StableHlo.unary main_cst_60 main_v263 (broadcastInDim S50000x256 ![] bcast_S_S50000x256 : (⟨S_, .f32⟩ : BufTy).Contents (Elt F) → (⟨S50000x256, .f32⟩ : BufTy).Contents (Elt F))
abbrev op_main_v264 : HloOp τ sig (Elt F) :=
  StableHlo.unary main_arg40 main_v264 (broadcastInDim S400000x1 ![0] bcast_S400000_S400000x1_0 : (⟨S400000, .i32⟩ : BufTy).Contents (Elt F) → (⟨S400000x1, .i32⟩ : BufTy).Contents (Elt F))
abbrev op_main_v265 : HloOp τ sig (Elt F) :=
  StableHlo.ternary main_v263 main_v264 main_v262 main_v265 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F))
abbrev op_main_cst_61 : HloOp τ sig (Elt F) :=
  StableHlo.nullary main_cst_61 (constant S_ .f32 0x3F800000#32)
abbrev op_main_v266 : HloOp τ sig (Elt F) :=
  StableHlo.unary main_cst_61 main_v266 (broadcastInDim S400000 ![] bcast_S_S400000 : (⟨S_, .f32⟩ : BufTy).Contents (Elt F) → (⟨S400000, .f32⟩ : BufTy).Contents (Elt F))
abbrev op_main_cst_62 : HloOp τ sig (Elt F) :=
  StableHlo.nullary main_cst_62 (constant S_ .f32 0x00000000#32)
abbrev op_main_v267 : HloOp τ sig (Elt F) :=
  StableHlo.unary main_cst_62 main_v267 (broadcastInDim S50000 ![] bcast_S_S50000 : (⟨S_, .f32⟩ : BufTy).Contents (Elt F) → (⟨S50000, .f32⟩ : BufTy).Contents (Elt F))
abbrev op_main_v268 : HloOp τ sig (Elt F) :=
  StableHlo.unary main_arg40 main_v268 (broadcastInDim S400000x1 ![0] bcast_S400000_S400000x1_0 : (⟨S400000, .i32⟩ : BufTy).Contents (Elt F) → (⟨S400000x1, .i32⟩ : BufTy).Contents (Elt F))
abbrev op_main_v269 : HloOp τ sig (Elt F) :=
  StableHlo.ternary main_v267 main_v268 main_v266 main_v269 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F))
abbrev op_main_cst_63 : HloOp τ sig (Elt F) :=
  StableHlo.nullary main_cst_63 (constant S_ .f32 0x3F800000#32)
abbrev op_main_v270 : HloOp τ sig (Elt F) :=
  StableHlo.unary main_cst_63 main_v270 (broadcastInDim S50000 ![] bcast_S_S50000 : (⟨S_, .f32⟩ : BufTy).Contents (Elt F) → (⟨S50000, .f32⟩ : BufTy).Contents (Elt F))
abbrev op_main_v271 : HloOp τ sig (Elt F) :=
  StableHlo.binary main_v269 main_v270 main_v271 (maximumf : (⟨S50000, .f32⟩ : BufTy).Contents (Elt F) → (⟨S50000, .f32⟩ : BufTy).Contents (Elt F) → (⟨S50000, .f32⟩ : BufTy).Contents (Elt F))
abbrev op_main_v272 : HloOp τ sig (Elt F) :=
  StableHlo.unary main_v271 main_v272 (broadcastInDim S50000x1 ![0] bcast_S50000_S50000x1_0 : (⟨S50000, .f32⟩ : BufTy).Contents (Elt F) → (⟨S50000x1, .f32⟩ : BufTy).Contents (Elt F))
abbrev op_main_v273 : HloOp τ sig (Elt F) :=
  StableHlo.unary main_v272 main_v273 (broadcastInDim S50000x256 ![0, 1] bcast_S50000x1_S50000x256_0_1 : (⟨S50000x1, .f32⟩ : BufTy).Contents (Elt F) → (⟨S50000x256, .f32⟩ : BufTy).Contents (Elt F))
abbrev op_main_v274 : HloOp τ sig (Elt F) :=
  StableHlo.binary main_v265 main_v273 main_v274 (Host.divf : (⟨S50000x256, .f32⟩ : BufTy).Contents (Elt F) → (⟨S50000x256, .f32⟩ : BufTy).Contents (Elt F) → (⟨S50000x256, .f32⟩ : BufTy).Contents (Elt F))
abbrev op_main_v275 : HloOp τ sig (Elt F) :=
  StableHlo.binary main_v274 main_arg21 main_v275 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))
abbrev op_main_v276 : HloOp τ sig (Elt F) :=
  StableHlo.binary main_v187 main_arg22 main_v276 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F))
abbrev op_main_v277 : HloOp τ sig (Elt F) :=
  StableHlo.binary main_v275 main_v276 main_v277 (addf : (⟨S50000x256, .f32⟩ : BufTy).Contents (Elt F) → (⟨S50000x256, .f32⟩ : BufTy).Contents (Elt F) → (⟨S50000x256, .f32⟩ : BufTy).Contents (Elt F))
abbrev op_main_v278 : HloOp τ sig (Elt F) :=
  StableHlo.binary main_v255 main_v277 main_v278 (addf : (⟨S50000x256, .f32⟩ : BufTy).Contents (Elt F) → (⟨S50000x256, .f32⟩ : BufTy).Contents (Elt F) → (⟨S50000x256, .f32⟩ : BufTy).Contents (Elt F))
abbrev op_main_call5_cst : HloOp τ sig (Elt F) :=
  StableHlo.TRef.nullary main_call5.cst (constant S_ .f32 0x00000000#32)
abbrev op_main_call5_v0 : HloOp τ sig (Elt F) :=
  StableHlo.TRef.unary main_call5.cst main_call5.v0 (broadcastInDim S50000x256 ![] bcast_S_S50000x256)
abbrev op_main_v279 : HloOp τ sig (Elt F) :=
  StableHlo.TRef.binary (.of main_v278) main_call5.v0 main_call5.v1 maximumf
abbrev op_main_v280 : HloOp τ sig (Elt F) :=
  StableHlo.binary main_v210 main_arg23 main_v280 ((fun l r => Host.dotGeneral dot_S30000x256_S256x64_S30000x64_1_0_0_1_n_n none l r) : (⟨S30000x256, .f32⟩ : BufTy).Contents (Elt F) → (⟨S256x64, .f32⟩ : BufTy).Contents (Elt F) → (⟨S30000x64, .f32⟩ : BufTy).Contents (Elt F))
abbrev op_main_v281 : HloOp τ sig (Elt F) :=
  StableHlo.unary main_arg24 main_v281 (broadcastInDim S1x64 ![1] bcast_S64_S1x64_1 : (⟨S64, .f32⟩ : BufTy).Contents (Elt F) → (⟨S1x64, .f32⟩ : BufTy).Contents (Elt F))
abbrev op_main_v282 : HloOp τ sig (Elt F) :=
  StableHlo.unary main_v281 main_v282 (broadcastInDim S30000x64 ![0, 1] bcast_S1x64_S30000x64_0_1 : (⟨S1x64, .f32⟩ : BufTy).Contents (Elt F) → (⟨S30000x64, .f32⟩ : BufTy).Contents (Elt F))
abbrev op_main_v283 : HloOp τ sig (Elt F) :=
  StableHlo.binary main_v280 main_v282 main_v283 (addf : (⟨S30000x64, .f32⟩ : BufTy).Contents (Elt F) → (⟨S30000x64, .f32⟩ : BufTy).Contents (Elt F) → (⟨S30000x64, .f32⟩ : BufTy).Contents (Elt F))
abbrev op_main_call6_cst : HloOp τ sig (Elt F) :=
  StableHlo.TRef.nullary main_call6.cst (constant S_ .f32 0x00000000#32)
abbrev op_main_call6_v0 : HloOp τ sig (Elt F) :=
  StableHlo.TRef.unary main_call6.cst main_call6.v0 (broadcastInDim S30000x64 ![] bcast_S_S30000x64)
abbrev op_main_v284 : HloOp τ sig (Elt F) :=
  StableHlo.TRef.binary (.of main_v283) main_call6.v0 main_call6.v1 maximumf
abbrev op_main_v285 : HloOp τ sig (Elt F) :=
  StableHlo.binary main_v284 main_arg25 main_v285 ((fun l r => Host.dotGeneral dot_S30000x64_S64x64_S30000x64_1_0_0_1_n_n none l r) : (⟨S30000x64, .f32⟩ : BufTy).Contents (Elt F) → (⟨S64x64, .f32⟩ : BufTy).Contents (Elt F) → (⟨S30000x64, .f32⟩ : BufTy).Contents (Elt F))
abbrev op_main_v286 : HloOp τ sig (Elt F) :=
  StableHlo.unary main_arg26 main_v286 (broadcastInDim S1x64 ![1] bcast_S64_S1x64_1 : (⟨S64, .f32⟩ : BufTy).Contents (Elt F) → (⟨S1x64, .f32⟩ : BufTy).Contents (Elt F))
abbrev op_main_v287 : HloOp τ sig (Elt F) :=
  StableHlo.unary main_v286 main_v287 (broadcastInDim S30000x64 ![0, 1] bcast_S1x64_S30000x64_0_1 : (⟨S1x64, .f32⟩ : BufTy).Contents (Elt F) → (⟨S30000x64, .f32⟩ : BufTy).Contents (Elt F))
abbrev op_main_v288 : HloOp τ sig (Elt F) :=
  StableHlo.binary main_v285 main_v287 main_v288 (addf : (⟨S30000x64, .f32⟩ : BufTy).Contents (Elt F) → (⟨S30000x64, .f32⟩ : BufTy).Contents (Elt F) → (⟨S30000x64, .f32⟩ : BufTy).Contents (Elt F))
abbrev op_main_call7_cst : HloOp τ sig (Elt F) :=
  StableHlo.TRef.nullary main_call7.cst (constant S_ .f32 0x00000000#32)
abbrev op_main_call7_v0 : HloOp τ sig (Elt F) :=
  StableHlo.TRef.unary main_call7.cst main_call7.v0 (broadcastInDim S30000x64 ![] bcast_S_S30000x64)
abbrev op_main_v289 : HloOp τ sig (Elt F) :=
  StableHlo.TRef.binary (.of main_v288) main_call7.v0 main_call7.v1 maximumf
abbrev op_main_v290 : HloOp τ sig (Elt F) :=
  StableHlo.binary main_v289 main_arg27 main_v290 ((fun l r => Host.dotGeneral dot_S30000x64_S64x36_S30000x36_1_0_0_1_n_n none l r) : (⟨S30000x64, .f32⟩ : BufTy).Contents (Elt F) → (⟨S64x36, .f32⟩ : BufTy).Contents (Elt F) → (⟨S30000x36, .f32⟩ : BufTy).Contents (Elt F))
abbrev op_main_v291 : HloOp τ sig (Elt F) :=
  StableHlo.unary main_arg28 main_v291 (broadcastInDim S1x36 ![1] bcast_S36_S1x36_1 : (⟨S36, .f32⟩ : BufTy).Contents (Elt F) → (⟨S1x36, .f32⟩ : BufTy).Contents (Elt F))
abbrev op_main_v292 : HloOp τ sig (Elt F) :=
  StableHlo.unary main_v291 main_v292 (broadcastInDim S30000x36 ![0, 1] bcast_S1x36_S30000x36_0_1 : (⟨S1x36, .f32⟩ : BufTy).Contents (Elt F) → (⟨S30000x36, .f32⟩ : BufTy).Contents (Elt F))
abbrev op_main_v293 : HloOp τ sig (Elt F) :=
  StableHlo.binary main_v290 main_v292 main_v293 (addf : (⟨S30000x36, .f32⟩ : BufTy).Contents (Elt F) → (⟨S30000x36, .f32⟩ : BufTy).Contents (Elt F) → (⟨S30000x36, .f32⟩ : BufTy).Contents (Elt F))

/-! ## The stretches -/

/-- Operations 311 … 318 of the reference program, in order. -/
abbrev st5_0 : List (HloOp τ sig (Elt F)) :=
  [op_main_v243, op_main_cst_55, op_main_v244, op_main_cst_56, op_main_v245, op_main_v246, op_main_v247, op_main_cst_57]
/-- The buffers those operations write. -/
abbrev st5_0_W : List (Ref sig .tc) := [main_v243, main_cst_55, main_v244, main_cst_56, main_v245, main_v246, main_v247, main_cst_57]
theorem st5_0_writes : (st5_0 : List (HloOp τ sig (Elt F))).Forall fun op => op.writes ⊆ (st5_0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st5_0_keep (W : Valuation τ sig (Elt F)) {r : Ref sig .tc} (h : r ∉ st5_0_W) :
    after (st5_0 (F := F)) W (Proc.devRef .tc r) = W (Proc.devRef .tc r) :=
  after_of_writes_sub st5_0 W st5_0_writes h

/-- Operations 319 … 326 of the reference program, in order. -/
abbrev st5_1 : List (HloOp τ sig (Elt F)) :=
  [op_main_v248, op_main_v249, op_main_v250, op_main_v251, op_main_v252, op_main_v253, op_main_v254, op_main_v255]
/-- The buffers those operations write. -/
abbrev st5_1_W : List (Ref sig .tc) := [main_v248, main_v249, main_v250, main_v251, main_v252, main_v253, main_v254, main_v255]
theorem st5_1_writes : (st5_1 : List (HloOp τ sig (Elt F))).Forall fun op => op.writes ⊆ (st5_1_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st5_1_keep (W : Valuation τ sig (Elt F)) {r : Ref sig .tc} (h : r ∉ st5_1_W) :
    after (st5_1 (F := F)) W (Proc.devRef .tc r) = W (Proc.devRef .tc r) :=
  after_of_writes_sub st5_1 W st5_1_writes h

/-- Operations 327 … 334 of the reference program, in order. -/
abbrev st5_2 : List (HloOp τ sig (Elt F)) :=
  [op_main_c_58, op_main_v256, op_main_v257, op_main_c_59, op_main_v258, op_main_v259, op_main_v260, op_main_v261]
/-- The buffers those operations write. -/
abbrev st5_2_W : List (Ref sig .tc) := [main_c_58, main_v256, main_v257, main_c_59, main_v258, main_v259, main_v260, main_v261]
theorem st5_2_writes : (st5_2 : List (HloOp τ sig (Elt F))).Forall fun op => op.writes ⊆ (st5_2_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st5_2_keep (W : Valuation τ sig (Elt F)) {r : Ref sig .tc} (h : r ∉ st5_2_W) :
    after (st5_2 (F := F)) W (Proc.devRef .tc r) = W (Proc.devRef .tc r) :=
  after_of_writes_sub st5_2 W st5_2_writes h

/-- Operations 335 … 342 of the reference program, in order. -/
abbrev st5_3 : List (HloOp τ sig (Elt F)) :=
  [op_main_v262, op_main_cst_60, op_main_v263, op_main_v264, op_main_v265, op_main_cst_61, op_main_v266, op_main_cst_62]
/-- The buffers those operations write. -/
abbrev st5_3_W : List (Ref sig .tc) := [main_v262, main_cst_60, main_v263, main_v264, main_v265, main_cst_61, main_v266, main_cst_62]
theorem st5_3_writes : (st5_3 : List (HloOp τ sig (Elt F))).Forall fun op => op.writes ⊆ (st5_3_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st5_3_keep (W : Valuation τ sig (Elt F)) {r : Ref sig .tc} (h : r ∉ st5_3_W) :
    after (st5_3 (F := F)) W (Proc.devRef .tc r) = W (Proc.devRef .tc r) :=
  after_of_writes_sub st5_3 W st5_3_writes h

/-- Operations 343 … 350 of the reference program, in order. -/
abbrev st5_4 : List (HloOp τ sig (Elt F)) :=
  [op_main_v267, op_main_v268, op_main_v269, op_main_cst_63, op_main_v270, op_main_v271, op_main_v272, op_main_v273]
/-- The buffers those operations write. -/
abbrev st5_4_W : List (Ref sig .tc) := [main_v267, main_v268, main_v269, main_cst_63, main_v270, main_v271, main_v272, main_v273]
theorem st5_4_writes : (st5_4 : List (HloOp τ sig (Elt F))).Forall fun op => op.writes ⊆ (st5_4_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st5_4_keep (W : Valuation τ sig (Elt F)) {r : Ref sig .tc} (h : r ∉ st5_4_W) :
    after (st5_4 (F := F)) W (Proc.devRef .tc r) = W (Proc.devRef .tc r) :=
  after_of_writes_sub st5_4 W st5_4_writes h

/-- Operations 351 … 358 of the reference program, in order. -/
abbrev st5_5 : List (HloOp τ sig (Elt F)) :=
  [op_main_v274, op_main_v275, op_main_v276, op_main_v277, op_main_v278, op_main_call5_cst, op_main_call5_v0, op_main_v279]
/-- The buffers those operations write. -/
abbrev st5_5_W : List (Ref sig .tc) := [main_v274, main_v275, main_v276, main_v277, main_v278, main_call5_cst, main_call5_v0, main_v279]
theorem st5_5_writes : (st5_5 : List (HloOp τ sig (Elt F))).Forall fun op => op.writes ⊆ (st5_5_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st5_5_keep (W : Valuation τ sig (Elt F)) {r : Ref sig .tc} (h : r ∉ st5_5_W) :
    after (st5_5 (F := F)) W (Proc.devRef .tc r) = W (Proc.devRef .tc r) :=
  after_of_writes_sub st5_5 W st5_5_writes h

/-- Operations 359 … 366 of the reference program, in order. -/
abbrev st5_6 : List (HloOp τ sig (Elt F)) :=
  [op_main_v280, op_main_v281, op_main_v282, op_main_v283, op_main_call6_cst, op_main_call6_v0, op_main_v284, op_main_v285]
/-- The buffers those operations write. -/
abbrev st5_6_W : List (Ref sig .tc) := [main_v280, main_v281, main_v282, main_v283, main_call6_cst, main_call6_v0, main_v284, main_v285]
theorem st5_6_writes : (st5_6 : List (HloOp τ sig (Elt F))).Forall fun op => op.writes ⊆ (st5_6_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st5_6_keep (W : Valuation τ sig (Elt F)) {r : Ref sig .tc} (h : r ∉ st5_6_W) :
    after (st5_6 (F := F)) W (Proc.devRef .tc r) = W (Proc.devRef .tc r) :=
  after_of_writes_sub st5_6 W st5_6_writes h
/-- From contents at which the buffers read hold their stage values, the buffers written here that are read later hold theirs:
    each is its operation applied to the operands' contents, which is the stage value's definition. -/
theorem st5_6_vals (x0 : (⟨S30000x12, .f32⟩ : BufTy).Contents (Elt F)) (x1 : (⟨S30000x10, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x7 : (⟨S86x256, .f32⟩ : BufTy).Contents (Elt F)) (x8 : (⟨S72x256, .f32⟩ : BufTy).Contents (Elt F)) (x9 : (⟨S86x256, .f32⟩ : BufTy).Contents (Elt F)) (x10 : (⟨S86x256, .f32⟩ : BufTy).Contents (Elt F)) (x15 : (⟨S256x256, .f32⟩ : BufTy).Contents (Elt F)) (x16 : (⟨S256x256, .f32⟩ : BufTy).Contents (Elt F)) (x23 : (⟨S256x64, .f32⟩ : BufTy).Contents (Elt F)) (x24 : (⟨S64, .f32⟩ : BufTy).Contents (Elt F)) (x25 : (⟨S64x64, .f32⟩ : BufTy).Contents (Elt F)) (x33 : (⟨S200000, .i32⟩ : BufTy).Contents (Elt F)) (x34 : (⟨S200000, .i32⟩ : BufTy).Contents (Elt F)) (x35 : (⟨S200000, .i32⟩ : BufTy).Contents (Elt F)) (x36 : (⟨S200000, .i32⟩ : BufTy).Contents (Elt F)) (W : Valuation τ sig (Elt F))
    (h_main_arg25 : W (Proc.devRef .tc main_arg25) = x25)
    (h_main_arg24 : W (Proc.devRef .tc main_arg24) = x24)
    (h_main_arg23 : W (Proc.devRef .tc main_arg23) = x23)
    (h_main_v210 : W (Proc.devRef .tc main_v210) = Stages.val_main_v210 (F := F) x0 x1 x3 x4 x5 x6 x7 x8 x9 x10 x15 x16 x33 x34 x35 x36)
    :
    after (st5_6 (F := F)) W (Proc.devRef .tc main_v285) = Stages.val_main_v285 (F := F) x0 x1 x3 x4 x5 x6 x7 x8 x9 x10 x15 x16 x23 x24 x25 x33 x34 x35 x36 := by
  after_results; (try simp only [TRef.ofBuf, TRef.toBuf, cast_eq]); rw [h_main_arg25, h_main_arg24, h_main_arg23, h_main_v210]; rfl

/-- Operations 367 … 374 of the reference program, in order. -/
abbrev st5_7 : List (HloOp τ sig (Elt F)) :=
  [op_main_v286, op_main_v287, op_main_v288, op_main_call7_cst, op_main_call7_v0, op_main_v289, op_main_v290, op_main_v291]
/-- The buffers those operations write. -/
abbrev st5_7_W : List (Ref sig .tc) := [main_v286, main_v287, main_v288, main_call7_cst, main_call7_v0, main_v289, main_v290, main_v291]
theorem st5_7_writes : (st5_7 : List (HloOp τ sig (Elt F))).Forall fun op => op.writes ⊆ (st5_7_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st5_7_keep (W : Valuation τ sig (Elt F)) {r : Ref sig .tc} (h : r ∉ st5_7_W) :
    after (st5_7 (F := F)) W (Proc.devRef .tc r) = W (Proc.devRef .tc r) :=
  after_of_writes_sub st5_7 W st5_7_writes h
/-- From contents at which the buffers read hold their stage values, the buffers written here that are read later hold theirs:
    each is its operation applied to the operands' contents, which is the stage value's definition. -/
theorem st5_7_vals (x0 : (⟨S30000x12, .f32⟩ : BufTy).Contents (Elt F)) (x1 : (⟨S30000x10, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x7 : (⟨S86x256, .f32⟩ : BufTy).Contents (Elt F)) (x8 : (⟨S72x256, .f32⟩ : BufTy).Contents (Elt F)) (x9 : (⟨S86x256, .f32⟩ : BufTy).Contents (Elt F)) (x10 : (⟨S86x256, .f32⟩ : BufTy).Contents (Elt F)) (x15 : (⟨S256x256, .f32⟩ : BufTy).Contents (Elt F)) (x16 : (⟨S256x256, .f32⟩ : BufTy).Contents (Elt F)) (x23 : (⟨S256x64, .f32⟩ : BufTy).Contents (Elt F)) (x24 : (⟨S64, .f32⟩ : BufTy).Contents (Elt F)) (x25 : (⟨S64x64, .f32⟩ : BufTy).Contents (Elt F)) (x26 : (⟨S64, .f32⟩ : BufTy).Contents (Elt F)) (x27 : (⟨S64x36, .f32⟩ : BufTy).Contents (Elt F)) (x28 : (⟨S36, .f32⟩ : BufTy).Contents (Elt F)) (x33 : (⟨S200000, .i32⟩ : BufTy).Contents (Elt F)) (x34 : (⟨S200000, .i32⟩ : BufTy).Contents (Elt F)) (x35 : (⟨S200000, .i32⟩ : BufTy).Contents (Elt F)) (x36 : (⟨S200000, .i32⟩ : BufTy).Contents (Elt F)) (W : Valuation τ sig (Elt F))
    (h_main_arg26 : W (Proc.devRef .tc main_arg26) = x26)
    (h_main_v285 : W (Proc.devRef .tc main_v285) = Stages.val_main_v285 (F := F) x0 x1 x3 x4 x5 x6 x7 x8 x9 x10 x15 x16 x23 x24 x25 x33 x34 x35 x36)
    (h_main_arg27 : W (Proc.devRef .tc main_arg27) = x27)
    (h_main_arg28 : W (Proc.devRef .tc main_arg28) = x28)
    :
    after (st5_7 (F := F)) W (Proc.devRef .tc main_v289) = Stages.val_main_v289 (F := F) x0 x1 x3 x4 x5 x6 x7 x8 x9 x10 x15 x16 x23 x24 x25 x26 x33 x34 x35 x36
    ∧ after (st5_7 (F := F)) W (Proc.devRef .tc main_v290) = Stages.val_main_v290 (F := F) x0 x1 x3 x4 x5 x6 x7 x8 x9 x10 x15 x16 x23 x24 x25 x26 x27 x33 x34 x35 x36
    ∧ after (st5_7 (F := F)) W (Proc.devRef .tc main_v291) = Stages.val_main_v291 (F := F) x28 := by
  refine ⟨?_, ?_, ?_⟩
  · after_results; (try simp only [TRef.ofBuf, TRef.toBuf, cast_eq]); rw [h_main_arg26, h_main_v285]; rfl
  · after_results; (try simp only [TRef.ofBuf, TRef.toBuf, cast_eq]); rw [h_main_arg27, h_main_arg26, h_main_v285]; rfl
  · after_results; (try simp only [TRef.ofBuf, TRef.toBuf, cast_eq]); rw [h_main_arg28]; rfl

/-- Operations 375 … 376 of the reference program, in order. -/
abbrev st5_8 : List (HloOp τ sig (Elt F)) :=
  [op_main_v292, op_main_v293]
/-- The buffers those operations write. -/
abbrev st5_8_W : List (Ref sig .tc) := [main_v292, main_v293]
theorem st5_8_writes : (st5_8 : List (HloOp τ sig (Elt F))).Forall fun op => op.writes ⊆ (st5_8_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st5_8_keep (W : Valuation τ sig (Elt F)) {r : Ref sig .tc} (h : r ∉ st5_8_W) :
    after (st5_8 (F := F)) W (Proc.devRef .tc r) = W (Proc.devRef .tc r) :=
  after_of_writes_sub st5_8 W st5_8_writes h
/-- From contents at which the buffers read hold their stage values, the buffers written here that are read later hold theirs:
    each is its operation applied to the operands' contents, which is the stage value's definition. -/
theorem st5_8_vals (x0 : (⟨S30000x12, .f32⟩ : BufTy).Contents (Elt F)) (x1 : (⟨S30000x10, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x7 : (⟨S86x256, .f32⟩ : BufTy).Contents (Elt F)) (x8 : (⟨S72x256, .f32⟩ : BufTy).Contents (Elt F)) (x9 : (⟨S86x256, .f32⟩ : BufTy).Contents (Elt F)) (x10 : (⟨S86x256, .f32⟩ : BufTy).Contents (Elt F)) (x15 : (⟨S256x256, .f32⟩ : BufTy).Contents (Elt F)) (x16 : (⟨S256x256, .f32⟩ : BufTy).Contents (Elt F)) (x23 : (⟨S256x64, .f32⟩ : BufTy).Contents (Elt F)) (x24 : (⟨S64, .f32⟩ : BufTy).Contents (Elt F)) (x25 : (⟨S64x64, .f32⟩ : BufTy).Contents (Elt F)) (x26 : (⟨S64, .f32⟩ : BufTy).Contents (Elt F)) (x27 : (⟨S64x36, .f32⟩ : BufTy).Contents (Elt F)) (x28 : (⟨S36, .f32⟩ : BufTy).Contents (Elt F)) (x33 : (⟨S200000, .i32⟩ : BufTy).Contents (Elt F)) (x34 : (⟨S200000, .i32⟩ : BufTy).Contents (Elt F)) (x35 : (⟨S200000, .i32⟩ : BufTy).Contents (Elt F)) (x36 : (⟨S200000, .i32⟩ : BufTy).Contents (Elt F)) (W : Valuation τ sig (Elt F))
    (h_main_v291 : W (Proc.devRef .tc main_v291) = Stages.val_main_v291 (F := F) x28)
    (h_main_v290 : W (Proc.devRef .tc main_v290) = Stages.val_main_v290 (F := F) x0 x1 x3 x4 x5 x6 x7 x8 x9 x10 x15 x16 x23 x24 x25 x26 x27 x33 x34 x35 x36)
    :
    after (st5_8 (F := F)) W (Proc.devRef .tc main_v293) = Stages.val_main_v293 (F := F) x0 x1 x3 x4 x5 x6 x7 x8 x9 x10 x15 x16 x23 x24 x25 x26 x27 x28 x33 x34 x35 x36 := by
  after_results; rw [h_main_v291, h_main_v290]; rfl

/-! ## The window as one list -/

/-- The window's operations, in order. -/
abbrev ops5 : List (HloOp τ sig (Elt F)) :=
  [op_main_v243, op_main_cst_55, op_main_v244, op_main_cst_56, op_main_v245, op_main_v246, op_main_v247, op_main_cst_57, op_main_v248, op_main_v249, op_main_v250, op_main_v251, op_main_v252, op_main_v253, op_main_v254, op_main_v255, op_main_c_58, op_main_v256, op_main_v257, op_main_c_59, op_main_v258, op_main_v259, op_main_v260, op_main_v261, op_main_v262, op_main_cst_60, op_main_v263, op_main_v264, op_main_v265, op_main_cst_61, op_main_v266, op_main_cst_62, op_main_v267, op_main_v268, op_main_v269, op_main_cst_63, op_main_v270, op_main_v271, op_main_v272, op_main_v273, op_main_v274, op_main_v275, op_main_v276, op_main_v277, op_main_v278, op_main_call5_cst, op_main_call5_v0, op_main_v279, op_main_v280, op_main_v281, op_main_v282, op_main_v283, op_main_call6_cst, op_main_call6_v0, op_main_v284, op_main_v285, op_main_v286, op_main_v287, op_main_v288, op_main_call7_cst, op_main_call7_v0, op_main_v289, op_main_v290, op_main_v291, op_main_v292, op_main_v293]
theorem ops5_split : (ops5 : List (HloOp τ sig (Elt F))) = st5_0 ++ st5_1 ++ st5_2 ++ st5_3 ++ st5_4 ++ st5_5 ++ st5_6 ++ st5_7 ++ st5_8 := rfl
set_option maxRecDepth 8192 in
/-- The printed window is that line of operations: the called functions' bodies stand at their call sites, and sequencing is reassociated. -/
theorem main_part5_eq (c : Dev nD) : main_part5 (F := F) c = seq ops5 := by
  simp only [main_part5, fn_relu.body, fn_relu_0.body, fn_relu_1.body, seq, bind_assoc, pure_bind]
  rfl
/-- Every operation touches TensorCore buffers only. -/
theorem ops5_sub : (ops5 : List (HloOp τ sig (Elt F))).Forall fun op => op.bufs ⊆ tcRefs τ sig :=
  ⟨ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
/-- Every operation determines its results. -/
theorem ops5_fresh : (ops5 : List (HloOp τ sig (Elt F))).Forall fun op => op.fresh = ∅ := by
  simp only [List.Forall]; repeat' constructor
/-- The buffers the window writes. -/
abbrev ops5_W : List (Ref sig .tc) := [main_v243, main_cst_55, main_v244, main_cst_56, main_v245, main_v246, main_v247, main_cst_57, main_v248, main_v249, main_v250, main_v251, main_v252, main_v253, main_v254, main_v255, main_c_58, main_v256, main_v257, main_c_59, main_v258, main_v259, main_v260, main_v261, main_v262, main_cst_60, main_v263, main_v264, main_v265, main_cst_61, main_v266, main_cst_62, main_v267, main_v268, main_v269, main_cst_63, main_v270, main_v271, main_v272, main_v273, main_v274, main_v275, main_v276, main_v277, main_v278, main_call5_cst, main_call5_v0, main_v279, main_v280, main_v281, main_v282, main_v283, main_call6_cst, main_call6_v0, main_v284, main_v285, main_v286, main_v287, main_v288, main_call7_cst, main_call7_v0, main_v289, main_v290, main_v291, main_v292, main_v293]
theorem ops5_writes : (ops5 : List (HloOp τ sig (Elt F))).Forall fun op => op.writes ⊆ (ops5_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer the window does not write holds after it what it held before. -/
theorem ops5_keep (W : Valuation τ sig (Elt F)) {r : Ref sig .tc} (h : r ∉ ops5_W) :
    after (ops5 (F := F)) W (Proc.devRef .tc r) = W (Proc.devRef .tc r) :=
  after_of_writes_sub ops5 W ops5_writes h
/-- The window's fold is the stretches' folds, one after the other. -/
theorem ops5_after (W : Valuation τ sig (Elt F)) : after (ops5 (F := F)) W = after (st5_8 (F := F)) (after (st5_7 (F := F)) (after (st5_6 (F := F)) (after (st5_5 (F := F)) (after (st5_4 (F := F)) (after (st5_3 (F := F)) (after (st5_2 (F := F)) (after (st5_1 (F := F)) (after (st5_0 (F := F)) W)))))))) := by
  rw [ops5_split, after_append, after_append, after_append, after_append, after_append, after_append, after_append, after_append]
/-- From contents at which the buffers the window reads hold their stage values, the buffers it writes that later windows read
    (or that are results) hold theirs: stretch by stretch, a buffer written earlier carried across the stretches that do not write it. -/
theorem ops5_vals (x0 : (⟨S30000x12, .f32⟩ : BufTy).Contents (Elt F)) (x1 : (⟨S30000x10, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x7 : (⟨S86x256, .f32⟩ : BufTy).Contents (Elt F)) (x8 : (⟨S72x256, .f32⟩ : BufTy).Contents (Elt F)) (x9 : (⟨S86x256, .f32⟩ : BufTy).Contents (Elt F)) (x10 : (⟨S86x256, .f32⟩ : BufTy).Contents (Elt F)) (x15 : (⟨S256x256, .f32⟩ : BufTy).Contents (Elt F)) (x16 : (⟨S256x256, .f32⟩ : BufTy).Contents (Elt F)) (x23 : (⟨S256x64, .f32⟩ : BufTy).Contents (Elt F)) (x24 : (⟨S64, .f32⟩ : BufTy).Contents (Elt F)) (x25 : (⟨S64x64, .f32⟩ : BufTy).Contents (Elt F)) (x26 : (⟨S64, .f32⟩ : BufTy).Contents (Elt F)) (x27 : (⟨S64x36, .f32⟩ : BufTy).Contents (Elt F)) (x28 : (⟨S36, .f32⟩ : BufTy).Contents (Elt F)) (x33 : (⟨S200000, .i32⟩ : BufTy).Contents (Elt F)) (x34 : (⟨S200000, .i32⟩ : BufTy).Contents (Elt F)) (x35 : (⟨S200000, .i32⟩ : BufTy).Contents (Elt F)) (x36 : (⟨S200000, .i32⟩ : BufTy).Contents (Elt F)) (W : Valuation τ sig (Elt F))
    (h_main_arg25 : W (Proc.devRef .tc main_arg25) = x25)
    (h_main_arg24 : W (Proc.devRef .tc main_arg24) = x24)
    (h_main_arg23 : W (Proc.devRef .tc main_arg23) = x23)
    (h_main_v210 : W (Proc.devRef .tc main_v210) = Stages.val_main_v210 (F := F) x0 x1 x3 x4 x5 x6 x7 x8 x9 x10 x15 x16 x33 x34 x35 x36)
    (h_main_arg26 : W (Proc.devRef .tc main_arg26) = x26)
    (h_main_arg27 : W (Proc.devRef .tc main_arg27) = x27)
    (h_main_arg28 : W (Proc.devRef .tc main_arg28) = x28)
    :
    after (ops5 (F := F)) W (Proc.devRef .tc main_v289) = Stages.val_main_v289 (F := F) x0 x1 x3 x4 x5 x6 x7 x8 x9 x10 x15 x16 x23 x24 x25 x26 x33 x34 x35 x36
    ∧ after (ops5 (F := F)) W (Proc.devRef .tc main_v293) = Stages.val_main_v293 (F := F) x0 x1 x3 x4 x5 x6 x7 x8 x9 x10 x15 x16 x23 x24 x25 x26 x27 x28 x33 x34 x35 x36 := by
  have k1_main_arg25 : (after (st5_0 (F := F)) W) (Proc.devRef .tc main_arg25) = x25 :=
    (st5_0_keep (F := F) W (r := main_arg25) (by decide)).trans h_main_arg25
  have k2_main_arg25 : (after (st5_1 (F := F)) (after (st5_0 (F := F)) W)) (Proc.devRef .tc main_arg25) = x25 :=
    (st5_1_keep (F := F) (after (st5_0 (F := F)) W) (r := main_arg25) (by decide)).trans k1_main_arg25
  have k3_main_arg25 : (after (st5_2 (F := F)) (after (st5_1 (F := F)) (after (st5_0 (F := F)) W))) (Proc.devRef .tc main_arg25) = x25 :=
    (st5_2_keep (F := F) (after (st5_1 (F := F)) (after (st5_0 (F := F)) W)) (r := main_arg25) (by decide)).trans k2_main_arg25
  have k4_main_arg25 : (after (st5_3 (F := F)) (after (st5_2 (F := F)) (after (st5_1 (F := F)) (after (st5_0 (F := F)) W)))) (Proc.devRef .tc main_arg25) = x25 :=
    (st5_3_keep (F := F) (after (st5_2 (F := F)) (after (st5_1 (F := F)) (after (st5_0 (F := F)) W))) (r := main_arg25) (by decide)).trans k3_main_arg25
  have k5_main_arg25 : (after (st5_4 (F := F)) (after (st5_3 (F := F)) (after (st5_2 (F := F)) (after (st5_1 (F := F)) (after (st5_0 (F := F)) W))))) (Proc.devRef .tc main_arg25) = x25 :=
    (st5_4_keep (F := F) (after (st5_3 (F := F)) (after (st5_2 (F := F)) (after (st5_1 (F := F)) (after (st5_0 (F := F)) W)))) (r := main_arg25) (by decide)).trans k4_main_arg25
  have k6_main_arg25 : (after (st5_5 (F := F)) (after (st5_4 (F := F)) (after (st5_3 (F := F)) (after (st5_2 (F := F)) (after (st5_1 (F := F)) (after (st5_0 (F := F)) W)))))) (Proc.devRef .tc main_arg25) = x25 :=
    (st5_5_keep (F := F) (after (st5_4 (F := F)) (after (st5_3 (F := F)) (after (st5_2 (F := F)) (after (st5_1 (F := F)) (after (st5_0 (F := F)) W))))) (r := main_arg25) (by decide)).trans k5_main_arg25
  have k1_main_arg24 : (after (st5_0 (F := F)) W) (Proc.devRef .tc main_arg24) = x24 :=
    (st5_0_keep (F := F) W (r := main_arg24) (by decide)).trans h_main_arg24
  have k2_main_arg24 : (after (st5_1 (F := F)) (after (st5_0 (F := F)) W)) (Proc.devRef .tc main_arg24) = x24 :=
    (st5_1_keep (F := F) (after (st5_0 (F := F)) W) (r := main_arg24) (by decide)).trans k1_main_arg24
  have k3_main_arg24 : (after (st5_2 (F := F)) (after (st5_1 (F := F)) (after (st5_0 (F := F)) W))) (Proc.devRef .tc main_arg24) = x24 :=
    (st5_2_keep (F := F) (after (st5_1 (F := F)) (after (st5_0 (F := F)) W)) (r := main_arg24) (by decide)).trans k2_main_arg24
  have k4_main_arg24 : (after (st5_3 (F := F)) (after (st5_2 (F := F)) (after (st5_1 (F := F)) (after (st5_0 (F := F)) W)))) (Proc.devRef .tc main_arg24) = x24 :=
    (st5_3_keep (F := F) (after (st5_2 (F := F)) (after (st5_1 (F := F)) (after (st5_0 (F := F)) W))) (r := main_arg24) (by decide)).trans k3_main_arg24
  have k5_main_arg24 : (after (st5_4 (F := F)) (after (st5_3 (F := F)) (after (st5_2 (F := F)) (after (st5_1 (F := F)) (after (st5_0 (F := F)) W))))) (Proc.devRef .tc main_arg24) = x24 :=
    (st5_4_keep (F := F) (after (st5_3 (F := F)) (after (st5_2 (F := F)) (after (st5_1 (F := F)) (after (st5_0 (F := F)) W)))) (r := main_arg24) (by decide)).trans k4_main_arg24
  have k6_main_arg24 : (after (st5_5 (F := F)) (after (st5_4 (F := F)) (after (st5_3 (F := F)) (after (st5_2 (F := F)) (after (st5_1 (F := F)) (after (st5_0 (F := F)) W)))))) (Proc.devRef .tc main_arg24) = x24 :=
    (st5_5_keep (F := F) (after (st5_4 (F := F)) (after (st5_3 (F := F)) (after (st5_2 (F := F)) (after (st5_1 (F := F)) (after (st5_0 (F := F)) W))))) (r := main_arg24) (by decide)).trans k5_main_arg24
  have k1_main_arg23 : (after (st5_0 (F := F)) W) (Proc.devRef .tc main_arg23) = x23 :=
    (st5_0_keep (F := F) W (r := main_arg23) (by decide)).trans h_main_arg23
  have k2_main_arg23 : (after (st5_1 (F := F)) (after (st5_0 (F := F)) W)) (Proc.devRef .tc main_arg23) = x23 :=
    (st5_1_keep (F := F) (after (st5_0 (F := F)) W) (r := main_arg23) (by decide)).trans k1_main_arg23
  have k3_main_arg23 : (after (st5_2 (F := F)) (after (st5_1 (F := F)) (after (st5_0 (F := F)) W))) (Proc.devRef .tc main_arg23) = x23 :=
    (st5_2_keep (F := F) (after (st5_1 (F := F)) (after (st5_0 (F := F)) W)) (r := main_arg23) (by decide)).trans k2_main_arg23
  have k4_main_arg23 : (after (st5_3 (F := F)) (after (st5_2 (F := F)) (after (st5_1 (F := F)) (after (st5_0 (F := F)) W)))) (Proc.devRef .tc main_arg23) = x23 :=
    (st5_3_keep (F := F) (after (st5_2 (F := F)) (after (st5_1 (F := F)) (after (st5_0 (F := F)) W))) (r := main_arg23) (by decide)).trans k3_main_arg23
  have k5_main_arg23 : (after (st5_4 (F := F)) (after (st5_3 (F := F)) (after (st5_2 (F := F)) (after (st5_1 (F := F)) (after (st5_0 (F := F)) W))))) (Proc.devRef .tc main_arg23) = x23 :=
    (st5_4_keep (F := F) (after (st5_3 (F := F)) (after (st5_2 (F := F)) (after (st5_1 (F := F)) (after (st5_0 (F := F)) W)))) (r := main_arg23) (by decide)).trans k4_main_arg23
  have k6_main_arg23 : (after (st5_5 (F := F)) (after (st5_4 (F := F)) (after (st5_3 (F := F)) (after (st5_2 (F := F)) (after (st5_1 (F := F)) (after (st5_0 (F := F)) W)))))) (Proc.devRef .tc main_arg23) = x23 :=
    (st5_5_keep (F := F) (after (st5_4 (F := F)) (after (st5_3 (F := F)) (after (st5_2 (F := F)) (after (st5_1 (F := F)) (after (st5_0 (F := F)) W))))) (r := main_arg23) (by decide)).trans k5_main_arg23
  have k1_main_v210 : (after (st5_0 (F := F)) W) (Proc.devRef .tc main_v210) = Stages.val_main_v210 (F := F) x0 x1 x3 x4 x5 x6 x7 x8 x9 x10 x15 x16 x33 x34 x35 x36 :=
    (st5_0_keep (F := F) W (r := main_v210) (by decide)).trans h_main_v210
  have k2_main_v210 : (after (st5_1 (F := F)) (after (st5_0 (F := F)) W)) (Proc.devRef .tc main_v210) = Stages.val_main_v210 (F := F) x0 x1 x3 x4 x5 x6 x7 x8 x9 x10 x15 x16 x33 x34 x35 x36 :=
    (st5_1_keep (F := F) (after (st5_0 (F := F)) W) (r := main_v210) (by decide)).trans k1_main_v210
  have k3_main_v210 : (after (st5_2 (F := F)) (after (st5_1 (F := F)) (after (st5_0 (F := F)) W))) (Proc.devRef .tc main_v210) = Stages.val_main_v210 (F := F) x0 x1 x3 x4 x5 x6 x7 x8 x9 x10 x15 x16 x33 x34 x35 x36 :=
    (st5_2_keep (F := F) (after (st5_1 (F := F)) (after (st5_0 (F := F)) W)) (r := main_v210) (by decide)).trans k2_main_v210
  have k4_main_v210 : (after (st5_3 (F := F)) (after (st5_2 (F := F)) (after (st5_1 (F := F)) (after (st5_0 (F := F)) W)))) (Proc.devRef .tc main_v210) = Stages.val_main_v210 (F := F) x0 x1 x3 x4 x5 x6 x7 x8 x9 x10 x15 x16 x33 x34 x35 x36 :=
    (st5_3_keep (F := F) (after (st5_2 (F := F)) (after (st5_1 (F := F)) (after (st5_0 (F := F)) W))) (r := main_v210) (by decide)).trans k3_main_v210
  have k5_main_v210 : (after (st5_4 (F := F)) (after (st5_3 (F := F)) (after (st5_2 (F := F)) (after (st5_1 (F := F)) (after (st5_0 (F := F)) W))))) (Proc.devRef .tc main_v210) = Stages.val_main_v210 (F := F) x0 x1 x3 x4 x5 x6 x7 x8 x9 x10 x15 x16 x33 x34 x35 x36 :=
    (st5_4_keep (F := F) (after (st5_3 (F := F)) (after (st5_2 (F := F)) (after (st5_1 (F := F)) (after (st5_0 (F := F)) W)))) (r := main_v210) (by decide)).trans k4_main_v210
  have k6_main_v210 : (after (st5_5 (F := F)) (after (st5_4 (F := F)) (after (st5_3 (F := F)) (after (st5_2 (F := F)) (after (st5_1 (F := F)) (after (st5_0 (F := F)) W)))))) (Proc.devRef .tc main_v210) = Stages.val_main_v210 (F := F) x0 x1 x3 x4 x5 x6 x7 x8 x9 x10 x15 x16 x33 x34 x35 x36 :=
    (st5_5_keep (F := F) (after (st5_4 (F := F)) (after (st5_3 (F := F)) (after (st5_2 (F := F)) (after (st5_1 (F := F)) (after (st5_0 (F := F)) W))))) (r := main_v210) (by decide)).trans k5_main_v210
  have f6 := st5_6_vals (F := F) x0 x1 x3 x4 x5 x6 x7 x8 x9 x10 x15 x16 x23 x24 x25 x33 x34 x35 x36 (after (st5_5 (F := F)) (after (st5_4 (F := F)) (after (st5_3 (F := F)) (after (st5_2 (F := F)) (after (st5_1 (F := F)) (after (st5_0 (F := F)) W)))))) k6_main_arg25 k6_main_arg24 k6_main_arg23 k6_main_v210
  have k1_main_arg26 : (after (st5_0 (F := F)) W) (Proc.devRef .tc main_arg26) = x26 :=
    (st5_0_keep (F := F) W (r := main_arg26) (by decide)).trans h_main_arg26
  have k2_main_arg26 : (after (st5_1 (F := F)) (after (st5_0 (F := F)) W)) (Proc.devRef .tc main_arg26) = x26 :=
    (st5_1_keep (F := F) (after (st5_0 (F := F)) W) (r := main_arg26) (by decide)).trans k1_main_arg26
  have k3_main_arg26 : (after (st5_2 (F := F)) (after (st5_1 (F := F)) (after (st5_0 (F := F)) W))) (Proc.devRef .tc main_arg26) = x26 :=
    (st5_2_keep (F := F) (after (st5_1 (F := F)) (after (st5_0 (F := F)) W)) (r := main_arg26) (by decide)).trans k2_main_arg26
  have k4_main_arg26 : (after (st5_3 (F := F)) (after (st5_2 (F := F)) (after (st5_1 (F := F)) (after (st5_0 (F := F)) W)))) (Proc.devRef .tc main_arg26) = x26 :=
    (st5_3_keep (F := F) (after (st5_2 (F := F)) (after (st5_1 (F := F)) (after (st5_0 (F := F)) W))) (r := main_arg26) (by decide)).trans k3_main_arg26
  have k5_main_arg26 : (after (st5_4 (F := F)) (after (st5_3 (F := F)) (after (st5_2 (F := F)) (after (st5_1 (F := F)) (after (st5_0 (F := F)) W))))) (Proc.devRef .tc main_arg26) = x26 :=
    (st5_4_keep (F := F) (after (st5_3 (F := F)) (after (st5_2 (F := F)) (after (st5_1 (F := F)) (after (st5_0 (F := F)) W)))) (r := main_arg26) (by decide)).trans k4_main_arg26
  have k6_main_arg26 : (after (st5_5 (F := F)) (after (st5_4 (F := F)) (after (st5_3 (F := F)) (after (st5_2 (F := F)) (after (st5_1 (F := F)) (after (st5_0 (F := F)) W)))))) (Proc.devRef .tc main_arg26) = x26 :=
    (st5_5_keep (F := F) (after (st5_4 (F := F)) (after (st5_3 (F := F)) (after (st5_2 (F := F)) (after (st5_1 (F := F)) (after (st5_0 (F := F)) W))))) (r := main_arg26) (by decide)).trans k5_main_arg26
  have k7_main_arg26 : (after (st5_6 (F := F)) (after (st5_5 (F := F)) (after (st5_4 (F := F)) (after (st5_3 (F := F)) (after (st5_2 (F := F)) (after (st5_1 (F := F)) (after (st5_0 (F := F)) W))))))) (Proc.devRef .tc main_arg26) = x26 :=
    (st5_6_keep (F := F) (after (st5_5 (F := F)) (after (st5_4 (F := F)) (after (st5_3 (F := F)) (after (st5_2 (F := F)) (after (st5_1 (F := F)) (after (st5_0 (F := F)) W)))))) (r := main_arg26) (by decide)).trans k6_main_arg26
  have k1_main_arg27 : (after (st5_0 (F := F)) W) (Proc.devRef .tc main_arg27) = x27 :=
    (st5_0_keep (F := F) W (r := main_arg27) (by decide)).trans h_main_arg27
  have k2_main_arg27 : (after (st5_1 (F := F)) (after (st5_0 (F := F)) W)) (Proc.devRef .tc main_arg27) = x27 :=
    (st5_1_keep (F := F) (after (st5_0 (F := F)) W) (r := main_arg27) (by decide)).trans k1_main_arg27
  have k3_main_arg27 : (after (st5_2 (F := F)) (after (st5_1 (F := F)) (after (st5_0 (F := F)) W))) (Proc.devRef .tc main_arg27) = x27 :=
    (st5_2_keep (F := F) (after (st5_1 (F := F)) (after (st5_0 (F := F)) W)) (r := main_arg27) (by decide)).trans k2_main_arg27
  have k4_main_arg27 : (after (st5_3 (F := F)) (after (st5_2 (F := F)) (after (st5_1 (F := F)) (after (st5_0 (F := F)) W)))) (Proc.devRef .tc main_arg27) = x27 :=
    (st5_3_keep (F := F) (after (st5_2 (F := F)) (after (st5_1 (F := F)) (after (st5_0 (F := F)) W))) (r := main_arg27) (by decide)).trans k3_main_arg27
  have k5_main_arg27 : (after (st5_4 (F := F)) (after (st5_3 (F := F)) (after (st5_2 (F := F)) (after (st5_1 (F := F)) (after (st5_0 (F := F)) W))))) (Proc.devRef .tc main_arg27) = x27 :=
    (st5_4_keep (F := F) (after (st5_3 (F := F)) (after (st5_2 (F := F)) (after (st5_1 (F := F)) (after (st5_0 (F := F)) W)))) (r := main_arg27) (by decide)).trans k4_main_arg27
  have k6_main_arg27 : (after (st5_5 (F := F)) (after (st5_4 (F := F)) (after (st5_3 (F := F)) (after (st5_2 (F := F)) (after (st5_1 (F := F)) (after (st5_0 (F := F)) W)))))) (Proc.devRef .tc main_arg27) = x27 :=
    (st5_5_keep (F := F) (after (st5_4 (F := F)) (after (st5_3 (F := F)) (after (st5_2 (F := F)) (after (st5_1 (F := F)) (after (st5_0 (F := F)) W))))) (r := main_arg27) (by decide)).trans k5_main_arg27
  have k7_main_arg27 : (after (st5_6 (F := F)) (after (st5_5 (F := F)) (after (st5_4 (F := F)) (after (st5_3 (F := F)) (after (st5_2 (F := F)) (after (st5_1 (F := F)) (after (st5_0 (F := F)) W))))))) (Proc.devRef .tc main_arg27) = x27 :=
    (st5_6_keep (F := F) (after (st5_5 (F := F)) (after (st5_4 (F := F)) (after (st5_3 (F := F)) (after (st5_2 (F := F)) (after (st5_1 (F := F)) (after (st5_0 (F := F)) W)))))) (r := main_arg27) (by decide)).trans k6_main_arg27
  have k1_main_arg28 : (after (st5_0 (F := F)) W) (Proc.devRef .tc main_arg28) = x28 :=
    (st5_0_keep (F := F) W (r := main_arg28) (by decide)).trans h_main_arg28
  have k2_main_arg28 : (after (st5_1 (F := F)) (after (st5_0 (F := F)) W)) (Proc.devRef .tc main_arg28) = x28 :=
    (st5_1_keep (F := F) (after (st5_0 (F := F)) W) (r := main_arg28) (by decide)).trans k1_main_arg28
  have k3_main_arg28 : (after (st5_2 (F := F)) (after (st5_1 (F := F)) (after (st5_0 (F := F)) W))) (Proc.devRef .tc main_arg28) = x28 :=
    (st5_2_keep (F := F) (after (st5_1 (F := F)) (after (st5_0 (F := F)) W)) (r := main_arg28) (by decide)).trans k2_main_arg28
  have k4_main_arg28 : (after (st5_3 (F := F)) (after (st5_2 (F := F)) (after (st5_1 (F := F)) (after (st5_0 (F := F)) W)))) (Proc.devRef .tc main_arg28) = x28 :=
    (st5_3_keep (F := F) (after (st5_2 (F := F)) (after (st5_1 (F := F)) (after (st5_0 (F := F)) W))) (r := main_arg28) (by decide)).trans k3_main_arg28
  have k5_main_arg28 : (after (st5_4 (F := F)) (after (st5_3 (F := F)) (after (st5_2 (F := F)) (after (st5_1 (F := F)) (after (st5_0 (F := F)) W))))) (Proc.devRef .tc main_arg28) = x28 :=
    (st5_4_keep (F := F) (after (st5_3 (F := F)) (after (st5_2 (F := F)) (after (st5_1 (F := F)) (after (st5_0 (F := F)) W)))) (r := main_arg28) (by decide)).trans k4_main_arg28
  have k6_main_arg28 : (after (st5_5 (F := F)) (after (st5_4 (F := F)) (after (st5_3 (F := F)) (after (st5_2 (F := F)) (after (st5_1 (F := F)) (after (st5_0 (F := F)) W)))))) (Proc.devRef .tc main_arg28) = x28 :=
    (st5_5_keep (F := F) (after (st5_4 (F := F)) (after (st5_3 (F := F)) (after (st5_2 (F := F)) (after (st5_1 (F := F)) (after (st5_0 (F := F)) W))))) (r := main_arg28) (by decide)).trans k5_main_arg28
  have k7_main_arg28 : (after (st5_6 (F := F)) (after (st5_5 (F := F)) (after (st5_4 (F := F)) (after (st5_3 (F := F)) (after (st5_2 (F := F)) (after (st5_1 (F := F)) (after (st5_0 (F := F)) W))))))) (Proc.devRef .tc main_arg28) = x28 :=
    (st5_6_keep (F := F) (after (st5_5 (F := F)) (after (st5_4 (F := F)) (after (st5_3 (F := F)) (after (st5_2 (F := F)) (after (st5_1 (F := F)) (after (st5_0 (F := F)) W)))))) (r := main_arg28) (by decide)).trans k6_main_arg28
  have f7 := st5_7_vals (F := F) x0 x1 x3 x4 x5 x6 x7 x8 x9 x10 x15 x16 x23 x24 x25 x26 x27 x28 x33 x34 x35 x36 (after (st5_6 (F := F)) (after (st5_5 (F := F)) (after (st5_4 (F := F)) (after (st5_3 (F := F)) (after (st5_2 (F := F)) (after (st5_1 (F := F)) (after (st5_0 (F := F)) W))))))) k7_main_arg26 f6 k7_main_arg27 k7_main_arg28
  have f8 := st5_8_vals (F := F) x0 x1 x3 x4 x5 x6 x7 x8 x9 x10 x15 x16 x23 x24 x25 x26 x27 x28 x33 x34 x35 x36 (after (st5_7 (F := F)) (after (st5_6 (F := F)) (after (st5_5 (F := F)) (after (st5_4 (F := F)) (after (st5_3 (F := F)) (after (st5_2 (F := F)) (after (st5_1 (F := F)) (after (st5_0 (F := F)) W)))))))) f7.2.2 f7.2.1
  have k9_main_v289 : (after (st5_8 (F := F)) (after (st5_7 (F := F)) (after (st5_6 (F := F)) (after (st5_5 (F := F)) (after (st5_4 (F := F)) (after (st5_3 (F := F)) (after (st5_2 (F := F)) (after (st5_1 (F := F)) (after (st5_0 (F := F)) W))))))))) (Proc.devRef .tc main_v289) = Stages.val_main_v289 (F := F) x0 x1 x3 x4 x5 x6 x7 x8 x9 x10 x15 x16 x23 x24 x25 x26 x33 x34 x35 x36 :=
    (st5_8_keep (F := F) (after (st5_7 (F := F)) (after (st5_6 (F := F)) (after (st5_5 (F := F)) (after (st5_4 (F := F)) (after (st5_3 (F := F)) (after (st5_2 (F := F)) (after (st5_1 (F := F)) (after (st5_0 (F := F)) W)))))))) (r := main_v289) (by decide)).trans f7.1
  rw [ops5_after]
  exact ⟨k9_main_v289, f8⟩

end Cert.ReferenceIdeal.HandRun

end
-- ==== Proof.RefRun6.lean ====
/- The reference program's operations 377 … 384 (the seventh printed window of @main) as a list,
   cut into short stretches; for each stretch, which buffers it writes, that it leaves every other buffer alone, and that
   the buffers it writes hold their stage values when the buffers it reads do. -/
import proofs.«402966_j45758581572292_1_alg».proof.Proof.RefStages
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, one name each -/

abbrev op_main_v294 : HloOp τ sig (Elt F) :=
  StableHlo.binary main_v289 main_arg29 main_v294 ((fun l r => Host.dotGeneral dot_S30000x64_S64x1_S30000x1_1_0_0_1_n_n none l r) : (⟨S30000x64, .f32⟩ : BufTy).Contents (Elt F) → (⟨S64x1, .f32⟩ : BufTy).Contents (Elt F) → (⟨S30000x1, .f32⟩ : BufTy).Contents (Elt F))
abbrev op_main_v295 : HloOp τ sig (Elt F) :=
  StableHlo.unary main_arg30 main_v295 (broadcastInDim S1x1 ![1] bcast_S1_S1x1_1 : (⟨S1, .f32⟩ : BufTy).Contents (Elt F) → (⟨S1x1, .f32⟩ : BufTy).Contents (Elt F))
abbrev op_main_v296 : HloOp τ sig (Elt F) :=
  StableHlo.unary main_v295 main_v296 (broadcastInDim S30000x1 ![0, 1] bcast_S1x1_S30000x1_0_1 : (⟨S1x1, .f32⟩ : BufTy).Contents (Elt F) → (⟨S30000x1, .f32⟩ : BufTy).Contents (Elt F))
abbrev op_main_v297 : HloOp τ sig (Elt F) :=
  StableHlo.binary main_v294 main_v296 main_v297 (addf : (⟨S30000x1, .f32⟩ : BufTy).Contents (Elt F) → (⟨S30000x1, .f32⟩ : BufTy).Contents (Elt F) → (⟨S30000x1, .f32⟩ : BufTy).Contents (Elt F))
abbrev op_main_v298 : HloOp τ sig (Elt F) :=
  StableHlo.binary main_v289 main_arg31 main_v298 ((fun l r => Host.dotGeneral dot_S30000x64_S64x1_S30000x1_1_0_0_1_n_n none l r) : (⟨S30000x64, .f32⟩ : BufTy).Contents (Elt F) → (⟨S64x1, .f32⟩ : BufTy).Contents (Elt F) → (⟨S30000x1, .f32⟩ : BufTy).Contents (Elt F))
abbrev op_main_v299 : HloOp τ sig (Elt F) :=
  StableHlo.unary main_arg32 main_v299 (broadcastInDim S1x1 ![1] bcast_S1_S1x1_1 : (⟨S1, .f32⟩ : BufTy).Contents (Elt F) → (⟨S1x1, .f32⟩ : BufTy).Contents (Elt F))
abbrev op_main_v300 : HloOp τ sig (Elt F) :=
  StableHlo.unary main_v299 main_v300 (broadcastInDim S30000x1 ![0, 1] bcast_S1x1_S30000x1_0_1 : (⟨S1x1, .f32⟩ : BufTy).Contents (Elt F) → (⟨S30000x1, .f32⟩ : BufTy).Contents (Elt F))
abbrev op_main_v301 : HloOp τ sig (Elt F) :=
  StableHlo.binary main_v298 main_v300 main_v301 (addf : (⟨S30000x1, .f32⟩ : BufTy).Contents (Elt F) → (⟨S30000x1, .f32⟩ : BufTy).Contents (Elt F) → (⟨S30000x1, .f32⟩ : BufTy).Contents (Elt F))

/-! ## The stretches -/

/-- Operations 377 … 384 of the reference program, in order. -/
abbrev st6_0 : List (HloOp τ sig (Elt F)) :=
  [op_main_v294, op_main_v295, op_main_v296, op_main_v297, op_main_v298, op_main_v299, op_main_v300, op_main_v301]
/-- The buffers those operations write. -/
abbrev st6_0_W : List (Ref sig .tc) := [main_v294, main_v295, main_v296, main_v297, main_v298, main_v299, main_v300, main_v301]
theorem st6_0_writes : (st6_0 : List (HloOp τ sig (Elt F))).Forall fun op => op.writes ⊆ (st6_0_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer none of them writes holds after them what it held before. -/
theorem st6_0_keep (W : Valuation τ sig (Elt F)) {r : Ref sig .tc} (h : r ∉ st6_0_W) :
    after (st6_0 (F := F)) W (Proc.devRef .tc r) = W (Proc.devRef .tc r) :=
  after_of_writes_sub st6_0 W st6_0_writes h
/-- From contents at which the buffers read hold their stage values, the buffers written here that are read later hold theirs:
    each is its operation applied to the operands' contents, which is the stage value's definition. -/
theorem st6_0_vals (x0 : (⟨S30000x12, .f32⟩ : BufTy).Contents (Elt F)) (x1 : (⟨S30000x10, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x7 : (⟨S86x256, .f32⟩ : BufTy).Contents (Elt F)) (x8 : (⟨S72x256, .f32⟩ : BufTy).Contents (Elt F)) (x9 : (⟨S86x256, .f32⟩ : BufTy).Contents (Elt F)) (x10 : (⟨S86x256, .f32⟩ : BufTy).Contents (Elt F)) (x15 : (⟨S256x256, .f32⟩ : BufTy).Contents (Elt F)) (x16 : (⟨S256x256, .f32⟩ : BufTy).Contents (Elt F)) (x23 : (⟨S256x64, .f32⟩ : BufTy).Contents (Elt F)) (x24 : (⟨S64, .f32⟩ : BufTy).Contents (Elt F)) (x25 : (⟨S64x64, .f32⟩ : BufTy).Contents (Elt F)) (x26 : (⟨S64, .f32⟩ : BufTy).Contents (Elt F)) (x29 : (⟨S64x1, .f32⟩ : BufTy).Contents (Elt F)) (x30 : (⟨S1, .f32⟩ : BufTy).Contents (Elt F)) (x31 : (⟨S64x1, .f32⟩ : BufTy).Contents (Elt F)) (x32 : (⟨S1, .f32⟩ : BufTy).Contents (Elt F)) (x33 : (⟨S200000, .i32⟩ : BufTy).Contents (Elt F)) (x34 : (⟨S200000, .i32⟩ : BufTy).Contents (Elt F)) (x35 : (⟨S200000, .i32⟩ : BufTy).Contents (Elt F)) (x36 : (⟨S200000, .i32⟩ : BufTy).Contents (Elt F)) (W : Valuation τ sig (Elt F))
    (h_main_arg30 : W (Proc.devRef .tc main_arg30) = x30)
    (h_main_arg29 : W (Proc.devRef .tc main_arg29) = x29)
    (h_main_v289 : W (Proc.devRef .tc main_v289) = Stages.val_main_v289 (F := F) x0 x1 x3 x4 x5 x6 x7 x8 x9 x10 x15 x16 x23 x24 x25 x26 x33 x34 x35 x36)
    (h_main_arg32 : W (Proc.devRef .tc main_arg32) = x32)
    (h_main_arg31 : W (Proc.devRef .tc main_arg31) = x31)
    :
    after (st6_0 (F := F)) W (Proc.devRef .tc main_v297) = Stages.val_main_v297 (F := F) x0 x1 x3 x4 x5 x6 x7 x8 x9 x10 x15 x16 x23 x24 x25 x26 x29 x30 x33 x34 x35 x36
    ∧ after (st6_0 (F := F)) W (Proc.devRef .tc main_v301) = Stages.val_main_v301 (F := F) x0 x1 x3 x4 x5 x6 x7 x8 x9 x10 x15 x16 x23 x24 x25 x26 x31 x32 x33 x34 x35 x36 := by
  refine ⟨?_, ?_⟩
  · after_results; rw [h_main_arg30, h_main_arg29, h_main_v289]; rfl
  · after_results; rw [h_main_arg32, h_main_arg31, h_main_v289]; rfl

/-! ## The window as one list -/

/-- The window's operations, in order. -/
abbrev ops6 : List (HloOp τ sig (Elt F)) :=
  [op_main_v294, op_main_v295, op_main_v296, op_main_v297, op_main_v298, op_main_v299, op_main_v300, op_main_v301]
theorem ops6_split : (ops6 : List (HloOp τ sig (Elt F))) = st6_0 := rfl
set_option maxRecDepth 8192 in
/-- The printed window is that line of operations. -/
theorem main_part6_eq (c : Dev nD) : main_part6 (F := F) c = seq ops6 := rfl
/-- Every operation touches TensorCore buffers only. -/
theorem ops6_sub : (ops6 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩
/-- Every operation determines its results. -/
theorem ops6_fresh : (ops6 : List (HloOp τ sig (Elt F))).Forall fun op => op.fresh = ∅ := by
  simp only [List.Forall]; repeat' constructor
/-- The buffers the window writes. -/
abbrev ops6_W : List (Ref sig .tc) := [main_v294, main_v295, main_v296, main_v297, main_v298, main_v299, main_v300, main_v301]
theorem ops6_writes : (ops6 : List (HloOp τ sig (Elt F))).Forall fun op => op.writes ⊆ (ops6_W.map (Proc.devRef (τ := τ) .tc)).toFinset := by
  simp only [List.Forall, StableHlo.nullary_writes, StableHlo.unary_writes, StableHlo.binary_writes, StableHlo.ternary_writes, StableHlo.reshape_writes, StableHlo.nary_writes, Finset.singleton_subset_iff, List.mem_toFinset]
  repeat' apply And.intro
  all_goals exact List.mem_map_of_mem (by decide)
/-- A buffer the window does not write holds after it what it held before. -/
theorem ops6_keep (W : Valuation τ sig (Elt F)) {r : Ref sig .tc} (h : r ∉ ops6_W) :
    after (ops6 (F := F)) W (Proc.devRef .tc r) = W (Proc.devRef .tc r) :=
  after_of_writes_sub ops6 W ops6_writes h
/-- The window's fold is the stretches' folds, one after the other. -/
theorem ops6_after (W : Valuation τ sig (Elt F)) : after (ops6 (F := F)) W = after (st6_0 (F := F)) W := by
  rw [ops6_split]
/-- From contents at which the buffers the window reads hold their stage values, the buffers it writes that later windows read
    (or that are results) hold theirs: stretch by stretch, a buffer written earlier carried across the stretches that do not write it. -/
theorem ops6_vals (x0 : (⟨S30000x12, .f32⟩ : BufTy).Contents (Elt F)) (x1 : (⟨S30000x10, .f32⟩ : BufTy).Contents (Elt F)) (x3 : (⟨S64x13, .f32⟩ : BufTy).Contents (Elt F)) (x4 : (⟨S1000x51, .f32⟩ : BufTy).Contents (Elt F)) (x5 : (⟨S4x4, .f32⟩ : BufTy).Contents (Elt F)) (x6 : (⟨S36x10, .f32⟩ : BufTy).Contents (Elt F)) (x7 : (⟨S86x256, .f32⟩ : BufTy).Contents (Elt F)) (x8 : (⟨S72x256, .f32⟩ : BufTy).Contents (Elt F)) (x9 : (⟨S86x256, .f32⟩ : BufTy).Contents (Elt F)) (x10 : (⟨S86x256, .f32⟩ : BufTy).Contents (Elt F)) (x15 : (⟨S256x256, .f32⟩ : BufTy).Contents (Elt F)) (x16 : (⟨S256x256, .f32⟩ : BufTy).Contents (Elt F)) (x23 : (⟨S256x64, .f32⟩ : BufTy).Contents (Elt F)) (x24 : (⟨S64, .f32⟩ : BufTy).Contents (Elt F)) (x25 : (⟨S64x64, .f32⟩ : BufTy).Contents (Elt F)) (x26 : (⟨S64, .f32⟩ : BufTy).Contents (Elt F)) (x29 : (⟨S64x1, .f32⟩ : BufTy).Contents (Elt F)) (x30 : (⟨S1, .f32⟩ : BufTy).Contents (Elt F)) (x31 : (⟨S64x1, .f32⟩ : BufTy).Contents (Elt F)) (x32 : (⟨S1, .f32⟩ : BufTy).Contents (Elt F)) (x33 : (⟨S200000, .i32⟩ : BufTy).Contents (Elt F)) (x34 : (⟨S200000, .i32⟩ : BufTy).Contents (Elt F)) (x35 : (⟨S200000, .i32⟩ : BufTy).Contents (Elt F)) (x36 : (⟨S200000, .i32⟩ : BufTy).Contents (Elt F)) (W : Valuation τ sig (Elt F))
    (h_main_arg30 : W (Proc.devRef .tc main_arg30) = x30)
    (h_main_arg29 : W (Proc.devRef .tc main_arg29) = x29)
    (h_main_v289 : W (Proc.devRef .tc main_v289) = Stages.val_main_v289 (F := F) x0 x1 x3 x4 x5 x6 x7 x8 x9 x10 x15 x16 x23 x24 x25 x26 x33 x34 x35 x36)
    (h_main_arg32 : W (Proc.devRef .tc main_arg32) = x32)
    (h_main_arg31 : W (Proc.devRef .tc main_arg31) = x31)
    :
    after (ops6 (F := F)) W (Proc.devRef .tc main_v297) = Stages.val_main_v297 (F := F) x0 x1 x3 x4 x5 x6 x7 x8 x9 x10 x15 x16 x23 x24 x25 x26 x29 x30 x33 x34 x35 x36
    ∧ after (ops6 (F := F)) W (Proc.devRef .tc main_v301) = Stages.val_main_v301 (F := F) x0 x1 x3 x4 x5 x6 x7 x8 x9 x10 x15 x16 x23 x24 x25 x26 x31 x32 x33 x34 x35 x36 := by
  have f0 := st6_0_vals (F := F) x0 x1 x3 x4 x5 x6 x7 x8 x9 x10 x15 x16 x23 x24 x25 x26 x29 x30 x31 x32 x33 x34 x35 x36 W h_main_arg30 h_main_arg29 h_main_v289 h_main_arg32 h_main_arg31
  rw [ops6_after]
  exact ⟨f0.1, f0.2⟩

end Cert.ReferenceIdeal.HandRun

end
-- ==== Proof.RefRun.lean ====
/- The reference program's run. @main is its seven printed windows run in order, each window a line of host operations, so @main is the
   line of all of them; such a line terminates from any memory with zero counters and leaves every buffer at the fold of the operations'
   results over the launch contents. That fold is the windows' folds composed. Window by window the buffers a later window reads hold
   their stage values (the value an operation writes, as a function of @main's arguments), a buffer written by an earlier window being
   left alone by the windows between; so the four results hold their stage values at the end. No window writes an argument, so every
   argument holds at the end what it held at launch. -/
import proofs.«402966_j45758581572292_1_alg».proof.Proof.RefRun0
import proofs.«402966_j45758581572292_1_alg».proof.Proof.RefRun1
import proofs.«402966_j45758581572292_1_alg».proof.Proof.RefRun2
import proofs.«402966_j45758581572292_1_alg».proof.Proof.RefRun3
import proofs.«402966_j45758581572292_1_alg».proof.Proof.RefRun4
import proofs.«402966_j45758581572292_1_alg».proof.Proof.RefRun5
import proofs.«402966_j45758581572292_1_alg».proof.Proof.RefRun6

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## @main as one line of operations -/

/-- @main's operations, in order: the seven windows' lists in a row. -/
abbrev ops : List (HloOp τ sig (Elt F)) :=
  ops0 ++ (ops1 ++ (ops2 ++ (ops3 ++ (ops4 ++ (ops5 ++ ops6)))))

/-- @main runs its windows in order and each window is a line of operations; lines run in a row are their concatenation run as one. -/
theorem main_eq (c : Dev nD) : main (F := F) c = seq ops := by
  rw [seq_append, seq_append, seq_append, seq_append, seq_append, seq_append,
    ← main_part0_eq c, ← main_part1_eq c, ← main_part2_eq c, ← main_part3_eq c, ← main_part4_eq c, ← main_part5_eq c,
    ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of @main touches TensorCore buffers only: each window's do. -/
theorem ops_sub : (ops : List (HloOp τ sig (Elt F))).Forall fun op => op.bufs ⊆ tcRefs τ sig :=
  List.forall_append.2 ⟨ops0_sub, List.forall_append.2 ⟨ops1_sub, List.forall_append.2 ⟨ops2_sub, List.forall_append.2 ⟨ops3_sub,
    List.forall_append.2 ⟨ops4_sub, List.forall_append.2 ⟨ops5_sub, ops6_sub⟩⟩⟩⟩⟩⟩

/-- Every operation of @main determines its results: each window's do. -/
theorem ops_fresh : (ops : List (HloOp τ sig (Elt F))).Forall fun op => op.fresh = ∅ :=
  List.forall_append.2 ⟨ops0_fresh, List.forall_append.2 ⟨ops1_fresh, List.forall_append.2 ⟨ops2_fresh, List.forall_append.2 ⟨ops3_fresh,
    List.forall_append.2 ⟨ops4_fresh, List.forall_append.2 ⟨ops5_fresh, ops6_fresh⟩⟩⟩⟩⟩⟩

/-! ## The contents after each window -/

/-- The buffers' contents after the first window, the first two, …, all seven, from contents `W`. -/
abbrev V1 (W : Valuation τ sig (Elt F)) : Valuation τ sig (Elt F) := after ops0 W
abbrev V2 (W : Valuation τ sig (Elt F)) : Valuation τ sig (Elt F) := after ops1 (V1 W)
abbrev V3 (W : Valuation τ sig (Elt F)) : Valuation τ sig (Elt F) := after ops2 (V2 W)
abbrev V4 (W : Valuation τ sig (Elt F)) : Valuation τ sig (Elt F) := after ops3 (V3 W)
abbrev V5 (W : Valuation τ sig (Elt F)) : Valuation τ sig (Elt F) := after ops4 (V4 W)
abbrev V6 (W : Valuation τ sig (Elt F)) : Valuation τ sig (Elt F) := after ops5 (V5 W)
abbrev V7 (W : Valuation τ sig (Elt F)) : Valuation τ sig (Elt F) := after ops6 (V6 W)

/-- The fold over all of @main is the windows' folds, one after the other. -/
theorem ops_after (W : Valuation τ sig (Elt F)) : after (ops (F := F)) W = V7 W := by
  rw [after_append, after_append, after_append, after_append, after_append, after_append]

/-- @main's arguments. -/
abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20,
   main_arg21, main_arg22, main_arg23, main_arg24, main_arg25, main_arg26, main_arg27, main_arg28, main_arg29, main_arg30,
   main_arg31, main_arg32, main_arg33, main_arg34, main_arg35, main_arg36, main_arg37, main_arg38, main_arg39, main_arg40]

/-- No window writes an argument: none is among the buffers a window writes. -/
theorem arg_not_mem0 : ∀ b ∈ argRefs, b ∉ ops0_W := by decide
theorem arg_not_mem1 : ∀ b ∈ argRefs, b ∉ ops1_W := by decide
theorem arg_not_mem2 : ∀ b ∈ argRefs, b ∉ ops2_W := by decide
theorem arg_not_mem3 : ∀ b ∈ argRefs, b ∉ ops3_W := by decide
theorem arg_not_mem4 : ∀ b ∈ argRefs, b ∉ ops4_W := by decide
theorem arg_not_mem5 : ∀ b ∈ argRefs, b ∉ ops5_W := by decide
theorem arg_not_mem6 : ∀ b ∈ argRefs, b ∉ ops6_W := by decide

/-- So an argument holds after any number of windows what it held before the first. -/
theorem arg1 (W : Valuation τ sig (Elt F)) {r : Ref sig .tc} (hr : r ∈ argRefs) : V1 W (Proc.devRef .tc r) = W (Proc.devRef .tc r) :=
  ops0_keep W (arg_not_mem0 r hr)
theorem arg2 (W : Valuation τ sig (Elt F)) {r : Ref sig .tc} (hr : r ∈ argRefs) : V2 W (Proc.devRef .tc r) = W (Proc.devRef .tc r) :=
  (ops1_keep (V1 W) (arg_not_mem1 r hr)).trans (arg1 W hr)
theorem arg3 (W : Valuation τ sig (Elt F)) {r : Ref sig .tc} (hr : r ∈ argRefs) : V3 W (Proc.devRef .tc r) = W (Proc.devRef .tc r) :=
  (ops2_keep (V2 W) (arg_not_mem2 r hr)).trans (arg2 W hr)
theorem arg4 (W : Valuation τ sig (Elt F)) {r : Ref sig .tc} (hr : r ∈ argRefs) : V4 W (Proc.devRef .tc r) = W (Proc.devRef .tc r) :=
  (ops3_keep (V3 W) (arg_not_mem3 r hr)).trans (arg3 W hr)
theorem arg5 (W : Valuation τ sig (Elt F)) {r : Ref sig .tc} (hr : r ∈ argRefs) : V5 W (Proc.devRef .tc r) = W (Proc.devRef .tc r) :=
  (ops4_keep (V4 W) (arg_not_mem4 r hr)).trans (arg4 W hr)
theorem arg6 (W : Valuation τ sig (Elt F)) {r : Ref sig .tc} (hr : r ∈ argRefs) : V6 W (Proc.devRef .tc r) = W (Proc.devRef .tc r) :=
  (ops5_keep (V5 W) (arg_not_mem5 r hr)).trans (arg5 W hr)
theorem arg7 (W : Valuation τ sig (Elt F)) {r : Ref sig .tc} (hr : r ∈ argRefs) : V7 W (Proc.devRef .tc r) = W (Proc.devRef .tc r) :=
  (ops6_keep (V6 W) (arg_not_mem6 r hr)).trans (arg6 W hr)

/-! ## The results' values -/

section Vals

variable (x0 : (⟨S30000x12, .f32⟩ : BufTy).Contents (Elt F)) (x1 : (⟨S30000x10, .f32⟩ : BufTy).Contents (Elt F))
  (x3 : (⟨S64x13, .f32⟩ : BufTy).Contents (Elt F)) (x4 : (⟨S1000x51, .f32⟩ : BufTy).Contents (Elt F))
  (x5 : (⟨S4x4, .f32⟩ : BufTy).Contents (Elt F)) (x6 : (⟨S36x10, .f32⟩ : BufTy).Contents (Elt F))
  (x7 : (⟨S86x256, .f32⟩ : BufTy).Contents (Elt F)) (x8 : (⟨S72x256, .f32⟩ : BufTy).Contents (Elt F))
  (x9 x10 : (⟨S86x256, .f32⟩ : BufTy).Contents (Elt F)) (x15 x16 : (⟨S256x256, .f32⟩ : BufTy).Contents (Elt F))
  (x23 : (⟨S256x64, .f32⟩ : BufTy).Contents (Elt F)) (x24 : (⟨S64, .f32⟩ : BufTy).Contents (Elt F))
  (x25 : (⟨S64x64, .f32⟩ : BufTy).Contents (Elt F)) (x26 : (⟨S64, .f32⟩ : BufTy).Contents (Elt F))
  (x27 : (⟨S64x36, .f32⟩ : BufTy).Contents (Elt F)) (x28 : (⟨S36, .f32⟩ : BufTy).Contents (Elt F))
  (x29 : (⟨S64x1, .f32⟩ : BufTy).Contents (Elt F)) (x30 : (⟨S1, .f32⟩ : BufTy).Contents (Elt F))
  (x31 : (⟨S64x1, .f32⟩ : BufTy).Contents (Elt F)) (x32 : (⟨S1, .f32⟩ : BufTy).Contents (Elt F))
  (x33 x34 x35 x36 : (⟨S200000, .i32⟩ : BufTy).Contents (Elt F))
  (W : Valuation τ sig (Elt F))

/-- From contents at which the arguments hold `x0 …`, the four results hold at the end their stage values of those. Each window's value
    lemma is fed the window's reads: an argument, unchanged so far; or a buffer an earlier window wrote, at its stage value by that
    window's lemma and unchanged by the windows between (none of them writes it). -/
theorem ops_vals
    (h0 : W (Proc.devRef .tc main_arg0) = x0) (h1 : W (Proc.devRef .tc main_arg1) = x1) (h3 : W (Proc.devRef .tc main_arg3) = x3)
    (h4 : W (Proc.devRef .tc main_arg4) = x4) (h5 : W (Proc.devRef .tc main_arg5) = x5) (h6 : W (Proc.devRef .tc main_arg6) = x6)
    (h7 : W (Proc.devRef .tc main_arg7) = x7) (h8 : W (Proc.devRef .tc main_arg8) = x8) (h9 : W (Proc.devRef .tc main_arg9) = x9)
    (h10 : W (Proc.devRef .tc main_arg10) = x10) (h15 : W (Proc.devRef .tc main_arg15) = x15) (h16 : W (Proc.devRef .tc main_arg16) = x16)
    (h23 : W (Proc.devRef .tc main_arg23) = x23) (h24 : W (Proc.devRef .tc main_arg24) = x24) (h25 : W (Proc.devRef .tc main_arg25) = x25)
    (h26 : W (Proc.devRef .tc main_arg26) = x26) (h27 : W (Proc.devRef .tc main_arg27) = x27) (h28 : W (Proc.devRef .tc main_arg28) = x28)
    (h29 : W (Proc.devRef .tc main_arg29) = x29) (h30 : W (Proc.devRef .tc main_arg30) = x30) (h31 : W (Proc.devRef .tc main_arg31) = x31)
    (h32 : W (Proc.devRef .tc main_arg32) = x32) (h33 : W (Proc.devRef .tc main_arg33) = x33) (h34 : W (Proc.devRef .tc main_arg34) = x34)
    (h35 : W (Proc.devRef .tc main_arg35) = x35) (h36 : W (Proc.devRef .tc main_arg36) = x36) :
    after (ops (F := F)) W (Proc.devRef .tc main_v289)
        = Stages.val_main_v289 (F := F) x0 x1 x3 x4 x5 x6 x7 x8 x9 x10 x15 x16 x23 x24 x25 x26 x33 x34 x35 x36
    ∧ after (ops (F := F)) W (Proc.devRef .tc main_v293)
        = Stages.val_main_v293 (F := F) x0 x1 x3 x4 x5 x6 x7 x8 x9 x10 x15 x16 x23 x24 x25 x26 x27 x28 x33 x34 x35 x36
    ∧ after (ops (F := F)) W (Proc.devRef .tc main_v297)
        = Stages.val_main_v297 (F := F) x0 x1 x3 x4 x5 x6 x7 x8 x9 x10 x15 x16 x23 x24 x25 x26 x29 x30 x33 x34 x35 x36
    ∧ after (ops (F := F)) W (Proc.devRef .tc main_v301)
        = Stages.val_main_v301 (F := F) x0 x1 x3 x4 x5 x6 x7 x8 x9 x10 x15 x16 x23 x24 x25 x26 x31 x32 x33 x34 x35 x36 := by
  -- the first window reads arguments only; later windows read its results %41 and %49
  have g0 := ops0_vals (F := F) x0 x1 x3 x4 x5 x6 W h0 h3 h4 h5 h6 h1
  -- the second window reads %49 and arguments
  have g1 := ops1_vals (F := F) x1 x3 x4 x33 (V1 W) g0.2
    ((arg1 W (r := main_arg3) (by decide)).trans h3) ((arg1 W (r := main_arg1) (by decide)).trans h1)
    ((arg1 W (r := main_arg4) (by decide)).trans h4) ((arg1 W (r := main_arg33) (by decide)).trans h33)
  -- the third window reads the second's three results, the first's %41 (not written by the second), and arguments
  have v41_2 : V2 W (Proc.devRef .tc main_v41) = Stages.val_main_v41 (F := F) x0 x3 x4 x5 x6 :=
    (ops1_keep (F := F) (V1 W) (r := main_v41) (by decide)).trans g0.1
  have g2 := ops2_vals (F := F) x0 x1 x3 x4 x5 x6 x7 x8 x9 x10 x33 x34 x35 x36 (V2 W)
    ((arg2 W (r := main_arg33) (by decide)).trans h33) g1.2.2 g1.2.1 v41_2
    ((arg2 W (r := main_arg34) (by decide)).trans h34) ((arg2 W (r := main_arg8) (by decide)).trans h8) g1.1
    ((arg2 W (r := main_arg7) (by decide)).trans h7) ((arg2 W (r := main_arg35) (by decide)).trans h35)
    ((arg2 W (r := main_arg36) (by decide)).trans h36) ((arg2 W (r := main_arg10) (by decide)).trans h10)
    ((arg2 W (r := main_arg9) (by decide)).trans h9)
  -- the fourth window reads the third's second result
  have g3 := ops3_vals (F := F) x0 x3 x4 x5 x6 x9 x10 x33 x35 x36 (V3 W)
    ((arg3 W (r := main_arg33) (by decide)).trans h33) g2.2
  -- the fifth window reads the fourth's two results and the third's first (not written by the fourth)
  have v118_4 : V4 W (Proc.devRef .tc main_v118) = Stages.val_main_v118 (F := F) x0 x1 x3 x4 x5 x6 x7 x8 x33 x34 :=
    (ops3_keep (F := F) (V3 W) (r := main_v118) (by decide)).trans g2.1
  have g4 := ops4_vals (F := F) x0 x1 x3 x4 x5 x6 x7 x8 x9 x10 x15 x16 x33 x34 x35 x36 (V4 W)
    g3.1 ((arg4 W (r := main_arg34) (by decide)).trans h34) g3.2
    ((arg4 W (r := main_arg15) (by decide)).trans h15) ((arg4 W (r := main_arg16) (by decide)).trans h16) v118_4
  -- the sixth window reads the fifth's result
  have g5 := ops5_vals (F := F) x0 x1 x3 x4 x5 x6 x7 x8 x9 x10 x15 x16 x23 x24 x25 x26 x27 x28 x33 x34 x35 x36 (V5 W)
    ((arg5 W (r := main_arg25) (by decide)).trans h25) ((arg5 W (r := main_arg24) (by decide)).trans h24)
    ((arg5 W (r := main_arg23) (by decide)).trans h23) g4
    ((arg5 W (r := main_arg26) (by decide)).trans h26) ((arg5 W (r := main_arg27) (by decide)).trans h27)
    ((arg5 W (r := main_arg28) (by decide)).trans h28)
  -- the seventh window reads the sixth's first result, and writes neither of the sixth's two
  have g6 := ops6_vals (F := F) x0 x1 x3 x4 x5 x6 x7 x8 x9 x10 x15 x16 x23 x24 x25 x26 x29 x30 x31 x32 x33 x34 x35 x36 (V6 W)
    ((arg6 W (r := main_arg30) (by decide)).trans h30) ((arg6 W (r := main_arg29) (by decide)).trans h29) g5.1
    ((arg6 W (r := main_arg32) (by decide)).trans h32) ((arg6 W (r := main_arg31) (by decide)).trans h31)
  rw [ops_after]
  exact ⟨(ops6_keep (F := F) (V6 W) (r := main_v289) (by decide)).trans g5.1,
    (ops6_keep (F := F) (V6 W) (r := main_v293) (by decide)).trans g5.2, g6.1, g6.2⟩

end Vals

/-! ## The run -/

/-- On every device, for any float values, from any memory with zero counters: every weakly fair execution of @main terminates with the
    four results at their stage values of the arguments' launch contents, and every argument as launched. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
        r.2.mem ((c.tc : Thread nD τ).loc main_v289) = Stages.val_main_v289 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg33)) (m ((c.tc : Thread nD τ).loc main_arg34)) (m ((c.tc : Thread nD τ).loc main_arg35)) (m ((c.tc : Thread nD τ).loc main_arg36))
      ∧ r.2.mem ((c.tc : Thread nD τ).loc main_v293) = Stages.val_main_v293 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg33)) (m ((c.tc : Thread nD τ).loc main_arg34)) (m ((c.tc : Thread nD τ).loc main_arg35)) (m ((c.tc : Thread nD τ).loc main_arg36))
      ∧ r.2.mem ((c.tc : Thread nD τ).loc main_v297) = Stages.val_main_v297 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg29)) (m ((c.tc : Thread nD τ).loc main_arg30)) (m ((c.tc : Thread nD τ).loc main_arg33)) (m ((c.tc : Thread nD τ).loc main_arg34)) (m ((c.tc : Thread nD τ).loc main_arg35)) (m ((c.tc : Thread nD τ).loc main_arg36))
      ∧ r.2.mem ((c.tc : Thread nD τ).loc main_v301) = Stages.val_main_v301 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36))
      ∧ (∀ b ∈ argRefs, r.2.mem ((c.tc : Thread nD τ).loc b) = m ((c.tc : Thread nD τ).loc b))) :=
  (θ_run defs _ _).mono (fun _ h c => by
      have v := ops_vals (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) (m ((c.tc : Thread nD τ).loc main_arg36))
        (launchContents m c) rfl rfl rfl rfl rfl rfl rfl rfl rfl rfl rfl rfl rfl rfl rfl rfl rfl rfl rfl rfl rfl rfl rfl rfl rfl rfl
      exact ⟨(h c main_v289).trans v.1, (h c main_v293).trans v.2.1, (h c main_v297).trans v.2.2.1, (h c main_v301).trans v.2.2.2,
        fun b hb => (h c b).trans ((congrFun (ops_after (F := F) (launchContents m c)) (Proc.devRef .tc b)).trans (arg7 (launchContents m c) hb))⟩)
    (run_seq scopedRefs_eq scopedSems_eq defs main (fun _ => ops) main_eq (fun _ => ops_sub) m ρ
      (fun _ => List.forall_iff_forall_mem.1 ops_fresh))

end Cert.ReferenceIdeal.HandRun

end
-- ==== Proof.lean ====
/- Kernel against reference for a two-layer heterogeneous mean-aggregation network with a shared perceptron and three
   heads. The kernel drops the branches that reach no result, gathers the embeddings and sums over the edges on the host
   exactly as the reference does, and computes each linear stage `max (mean · Wl + dst · Wr) 0` and the perceptron in
   pipelined regions over 2000-row blocks. At the ideal instance a change of float format is the identity and a block
   product into a zero accumulator is the plain sum, so each region's output array is, index by index, the reference's
   stage of the same inputs; the host stretches are the reference's own operations. The three frames: both kernel
   programs run as seven items (host stretches and regions) from the launch memory, every argument read back unchanged
   through the fold of buffer contents; the reference runs as one line of host operations. Nothing was rewritten by the
   idealization, so `preserves` asks nothing. -/
import proofs.«402966_j45758581572292_1_alg».proof.Defs
import proofs.«402966_j45758581572292_1_alg».proof.Proof.Gen.Kernel
import proofs.«402966_j45758581572292_1_alg».proof.Proof.Gen.KernelIdeal
import proofs.«402966_j45758581572292_1_alg».proof.Proof.Gen.ReferenceIdeal
import proofs.«402966_j45758581572292_1_alg».proof.Proof.Gen.Pre_finite_inputs
import proofs.«402966_j45758581572292_1_alg».proof.Proof.BitsEnds
import proofs.«402966_j45758581572292_1_alg».proof.Proof.IdealEnds
import proofs.«402966_j45758581572292_1_alg».proof.Proof.IdealValue
import proofs.«402966_j45758581572292_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The word-level kernel program terminates, faults nowhere, and leaves every argument as launched. -/
theorem frame_k : Cert.frame_Kernel (hKernel := Cert.Kernel.Gen.facts) (hPre_finite_inputs := Cert.Pre_finite_inputs.Gen.facts) := fun m g _ =>
  (θ_run (Cert.Kernel.defs (F := Bits)) _ _).mono (fun r h c => by
    have hc := h c
    repeat' apply And.intro
    all_goals exact hc _ (by decide) (by decide) (by decide) (by decide) (by decide) (by decide) (by decide) (by decide))
    (Cert.Kernel.Regions.frame_refs (F := Bits) m g)

/-- The same for its idealization. -/
theorem frame_ki : Cert.frame_KernelIdeal (hKernelIdeal := Cert.KernelIdeal.Gen.facts) (hPre_finite_inputs := Cert.Pre_finite_inputs.Gen.facts) := fun m g _ =>
  (θ_run (Cert.KernelIdeal.defs (F := Ideal)) _ _).mono (fun r h c => by
    have hc := h c
    repeat' apply And.intro
    all_goals exact hc _ (by decide) (by decide) (by decide) (by decide) (by decide) (by decide) (by decide) (by decide))
    (Cert.KernelIdeal.Regions.frame_refs (F := Ideal) m g)

/-- The reference is one line of host operations, none of which writes an argument. -/
theorem frame_ri : Cert.frame_ReferenceIdeal (hReferenceIdeal := Cert.ReferenceIdeal.Gen.facts) (hPre_finite_inputs := Cert.Pre_finite_inputs.Gen.facts) := fun m g _ =>
  (θ_run (Cert.ReferenceIdeal.defs (F := Ideal)) _ _).mono (fun r h c => by
    have hargs := (h c).2.2.2.2
    repeat' apply And.intro
    all_goals exact hargs _ (by decide))
    (Cert.ReferenceIdeal.HandRun.run (F := Ideal) m g)

/-- The idealization rewrote no operation. -/
theorem preserves : Cert.preserves_Kernel_KernelIdeal := trivial

set_option maxHeartbeats 4000000 in
/-- Run from memories that agree on the arguments, both idealized programs end with the six returned arrays equal:
    the hidden features (returned three times), the rotation head, the x head and the y head are the reference's stages
    of the arguments on both sides. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m g m' g' _ hagree
  refine ⟨fun c => Cert.ReferenceIdeal.Stages.val_main_v289 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)),
    fun c => Cert.ReferenceIdeal.Stages.val_main_v289 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)),
    fun c => Cert.ReferenceIdeal.Stages.val_main_v289 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)),
    fun c => Cert.ReferenceIdeal.Stages.val_main_v293 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)),
    fun c => Cert.ReferenceIdeal.Stages.val_main_v297 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)),
    fun c => Cert.ReferenceIdeal.Stages.val_main_v301 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)), ?_, ?_⟩
  · -- the kernel's run: the results at the last boundary are the stages; the arguments are read back
    refine (θ_run (Cert.KernelIdeal.defs (F := Ideal)) _ _).mono (fun r h c => ?_) (Cert.KernelIdeal.Regions.run_all (F := Ideal) m g)
    have hc := h c
    obtain ⟨e0, e1, e2, e3⟩ := Cert.KernelIdeal.Regions.results m g c
    refine ⟨(hc _ (Cert.KernelIdeal.Regions.mem_uc Cert.KernelIdeal.main_v112_0 (by decide))).trans e0,
      (hc _ (Cert.KernelIdeal.Regions.mem_uc Cert.KernelIdeal.main_v112_0 (by decide))).trans e0,
      (hc _ (Cert.KernelIdeal.Regions.mem_uc Cert.KernelIdeal.main_v112_0 (by decide))).trans e0,
      (hc _ (Cert.KernelIdeal.Regions.mem_uc Cert.KernelIdeal.main_v112_1 (by decide))).trans e1,
      (hc _ (Cert.KernelIdeal.Regions.mem_uc Cert.KernelIdeal.main_v112_2 (by decide))).trans e2,
      (hc _ (Cert.KernelIdeal.Regions.mem_uc Cert.KernelIdeal.main_v112_3 (by decide))).trans e3, ?_⟩
    repeat' apply And.intro
    all_goals exact Cert.KernelIdeal.Regions.ends_as_launched m g c _ hc (by decide) (by decide) (by decide) (by decide) (by decide) (by decide) (by decide) (by decide)
  · -- the reference's run: its results are the stages of ITS arguments, which agree with the kernel's
    refine (θ_run (Cert.ReferenceIdeal.defs (F := Ideal)) _ _).mono (fun r h c => ?_) (Cert.ReferenceIdeal.HandRun.run (F := Ideal) m' g')
    obtain ⟨h0, h1, h2, h3, hargs⟩ := h c
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40⟩ := hagree c
    refine ⟨h0.trans ?_, h0.trans ?_, h0.trans ?_, h1.trans ?_, h2.trans ?_, h3.trans ?_, ?_⟩
    · rw [a0, a1, a3, a4, a5, a6, a7, a8, a9, a10, a15, a16, a23, a24, a25, a26, a33, a34, a35, a36]
    · rw [a0, a1, a3, a4, a5, a6, a7, a8, a9, a10, a15, a16, a23, a24, a25, a26, a33, a34, a35, a36]
    · rw [a0, a1, a3, a4, a5, a6, a7, a8, a9, a10, a15, a16, a23, a24, a25, a26, a33, a34, a35, a36]
    · rw [a0, a1, a3, a4, a5, a6, a7, a8, a9, a10, a15, a16, a23, a24, a25, a26, a27, a28, a33, a34, a35, a36]
    · rw [a0, a1, a3, a4, a5, a6, a7, a8, a9, a10, a15, a16, a23, a24, a25, a26, a29, a30, a33, a34, a35, a36]
    · rw [a0, a1, a3, a4, a5, a6, a7, a8, a9, a10, a15, a16, a23, a24, a25, a26, a31, a32, a33, a34, a35, a36]
    · repeat' apply And.intro
      all_goals exact hargs _ (by decide)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
